-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 512]⟩ ⟨2, ![1024, 512]⟩ (Layout.meshBlock [2, 2, 4] ![[1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![512, 2048]⟩ ⟨2, ![1024, 2048]⟩ (Layout.meshBlock [2, 2, 4] ![[1], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![256, 2048]⟩ ⟨2, ![512, 2048]⟩ (Layout.meshBlock [2, 2, 4] ![[1], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S512x512 : Shape := ⟨2, ![512, 512]⟩
abbrev S512x2048 : Shape := ⟨2, ![512, 2048]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel
  bcast_S_S512x2048 : S_.BroadcastsInDim S512x2048 (![] : Fin 0 → Fin S512x2048.rank)
  reducesTo_S512x2048_S_d0_1 : S512x2048.ReducesTo [0, 1] S_

variable [Facts]

def fn {F : FTy → Type} [FloatOps F] (main_arg0 : FVec F S512x512 .f32) (main_arg1 : FVec F S512x2048 .f32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  let main_v4 : FVec F S512x2048 .f32 := Host.absf main_arg1
  let main_cst_0 : FVec F S_ .f32 := constant S_ .f32 0x7F800000#32
  let main_v5 : FVec F S512x2048 .f32 := broadcastInDim S512x2048 ![] bcast_S_S512x2048 main_cst_0
  let main_v6 : IVec S512x2048 1 := cmpf .olt main_v4 main_v5
  let main_c_1 : IVec S_ 1 := constantI S_ 1 1#1
  let main_v7 : IVec S_ 1 := (fun x v => Host.reduce IntOp.andi x v reducesTo_S512x2048_S_d0_1 h_S_) main_v6 main_c_1
  let main_v8 : IVec S_ 1 := andi main_v3 main_v7
  main_v8
-- ==== Pre_finite_inputs_ReferenceIdeal.lean ====
abbrev S1024x512 : Shape := ⟨2, ![1024, 512]⟩
abbrev S1024x2048 : Shape := ⟨2, ![1024, 2048]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S1024x2048 : S_.BroadcastsInDim S1024x2048 (![] : Fin 0 → Fin S1024x2048.rank)
  reducesTo_S1024x2048_S_d0_1 : S1024x2048.ReducesTo [0, 1] S_

variable [Facts]

def fn {F : FTy → Type} [FloatOps F] (main_arg0 : FVec F S1024x512 .f32) (main_arg1 : FVec F S1024x2048 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S1024x2048 .f32 := Host.absf main_arg1
  let main_cst_0 : FVec F S_ .f32 := constant S_ .f32 0x7F800000#32
  let main_v5 : FVec F S1024x2048 .f32 := broadcastInDim S1024x2048 ![] bcast_S_S1024x2048 main_cst_0
  let main_v6 : IVec S1024x2048 1 := cmpf .olt main_v4 main_v5
  let main_c_1 : IVec S_ 1 := constantI S_ 1 1#1
  let main_v7 : IVec S_ 1 := (fun x v => Host.reduce IntOp.andi x v reducesTo_S1024x2048_S_d0_1 h_S_) main_v6 main_c_1
  let main_v8 : IVec S_ 1 := andi main_v3 main_v7
  main_v8
-- ==== Kernel.lean ====
abbrev S512x512 : Shape := ⟨2, ![512, 512]⟩
abbrev S512x2048 : Shape := ⟨2, ![512, 2048]⟩
abbrev S256x2048 : Shape := ⟨2, ![256, 2048]⟩
abbrev S8x128x256 : Shape := ⟨3, ![8, 128, 256]⟩
abbrev S2x8x128x256 : Shape := ⟨4, ![2, 8, 128, 256]⟩
abbrev S8 : Shape := ⟨1, ![8]⟩
abbrev S_ : Shape := ⟨0, ![]⟩
abbrev S512x128 : Shape := ⟨2, ![512, 128]⟩
abbrev S512x256 : Shape := ⟨2, ![512, 256]⟩
abbrev S128x256 : Shape := ⟨2, ![128, 256]⟩
abbrev S1x128x256 : Shape := ⟨3, ![1, 128, 256]⟩
abbrev S1 : Shape := ⟨1, ![1]⟩
abbrev S1x1x128x256 : Shape := ⟨4, ![1, 1, 128, 256]⟩
abbrev S256x256 : Shape := ⟨2, ![256, 256]⟩

abbrev nBuf : Space → Nat
  | .hbm => 3
  | .vmem => 5
  | .smem => 0
  | _ => 0

abbrev bufTy : (tb : Table) → Fin (tcTables nBuf tb) → BufTy
  | .hbm, ⟨0, _⟩ => ⟨S512x512, .f32⟩
  | .hbm, ⟨1, _⟩ => ⟨S512x2048, .f32⟩
  | .hbm, ⟨2, _⟩ => ⟨S256x2048, .f32⟩
  | .local _ .vmem, ⟨0, _⟩ => ⟨S512x512, .f32⟩
  | .local _ .vmem, ⟨1, _⟩ => ⟨S512x2048, .f32⟩
  | .local _ .vmem, ⟨2, _⟩ => ⟨S256x2048, .f32⟩
  | .local _ .vmem, ⟨3, _⟩ => ⟨S8x128x256, .bf16⟩
  | .local _ .vmem, ⟨4, _⟩ => ⟨S2x8x128x256, .bf16⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 2 → Bool
  | ⟨0, _⟩ => true
  | ⟨1, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  (ofTc nBuf bufTy 2 35 bufScoped semScoped dmaSemScoped tileCredit tileCredit_eq_zero tileCredit_pos).withBarriers [(0, 1)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 1

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_5 : BitVec 32 := 8#32
  let v12 : BitVec 32 := Scalar.muli v2 c8_i32_5
  let v13 : BitVec 32 := Scalar.addi c0_i32 v12
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_6 : BitVec 32 := 4#32
  let v14 : BitVec 32 := Scalar.muli v9 c4_i32_6
  let v15 : BitVec 32 := Scalar.addi v13 v14
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v16 : BitVec 32 := Scalar.muli v8 c1_i32_7
  let v17 : BitVec 32 := Scalar.addi v15 v16
  v17.toNat
def k0_dev2 (d0 : Dev nD) : Nat :=
  let c0_i32_10 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_9 : BitVec 32 := 8#32
  let v18 : BitVec 32 := Scalar.muli v10 c8_i32_9
  let v19 : BitVec 32 := Scalar.addi c0_i32_10 v18
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_11 : BitVec 32 := 4#32
  let v20 : BitVec 32 := Scalar.muli v5 c4_i32_11
  let v21 : BitVec 32 := Scalar.addi v19 v20
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_12 : BitVec 32 := 1#32
  let v22 : BitVec 32 := Scalar.muli v8 c1_i32_12
  let v23 : BitVec 32 := Scalar.addi v21 v22
  v23.toNat
def k0_off1 (d0 : Dev nD) : Fin 2 → Nat :=
  let c0 : Index := 0#32
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c256_i32 : BitVec 32 := 256#32
  let v24 : BitVec 32 := Scalar.muli v9 c256_i32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c128_i32 : BitVec 32 := 128#32
  let v25 : BitVec 32 := Scalar.muli v2 c128_i32
  let v26 : BitVec 32 := Scalar.addi v24 v25
  let v27 : Index := Scalar.indexCast v26
  ![0, v27.toNat]
def k0_off2 (d0 : Dev nD) : Fin 2 → Nat :=
  let c0_14 : Index := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c256_i32_13 : BitVec 32 := 256#32
  let v31 : BitVec 32 := Scalar.muli v5 c256_i32_13
  let v32 : Index := Scalar.indexCast v31
  ![0, v32.toNat]
def k0_dev3 (d0 : Dev nD) : Nat :=
  let c0_i32_33 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_32 : BitVec 32 := 8#32
  let v55 : BitVec 32 := Scalar.muli v2 c8_i32_32
  let v56 : BitVec 32 := Scalar.addi c0_i32_33 v55
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_34 : BitVec 32 := 4#32
  let v57 : BitVec 32 := Scalar.muli v9 c4_i32_34
  let v58 : BitVec 32 := Scalar.addi v56 v57
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_35 : BitVec 32 := 1#32
  let v59 : BitVec 32 := Scalar.muli v8 c1_i32_35
  let v60 : BitVec 32 := Scalar.addi v58 v59
  v60.toNat
def k0_dev4 (d0 : Dev nD) : Nat :=
  let c0_i32_51 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_50 : BitVec 32 := 8#32
  let v74 : BitVec 32 := Scalar.muli v2 c8_i32_50
  let v75 : BitVec 32 := Scalar.addi c0_i32_51 v74
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_52 : BitVec 32 := 4#32
  let v76 : BitVec 32 := Scalar.muli v9 c4_i32_52
  let v77 : BitVec 32 := Scalar.addi v75 v76
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_53 : BitVec 32 := 1#32
  let v78 : BitVec 32 := Scalar.muli v8 c1_i32_53
  let v79 : BitVec 32 := Scalar.addi v77 v78
  v79.toNat
def k0_dev5 (d0 : Dev nD) : Nat :=
  let c0_i32_71 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_70 : BitVec 32 := 8#32
  let v98 : BitVec 32 := Scalar.muli v2 c8_i32_70
  let v99 : BitVec 32 := Scalar.addi c0_i32_71 v98
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_72 : BitVec 32 := 4#32
  let v100 : BitVec 32 := Scalar.muli v9 c4_i32_72
  let v101 : BitVec 32 := Scalar.addi v99 v100
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_73 : BitVec 32 := 1#32
  let v102 : BitVec 32 := Scalar.muli v8 c1_i32_73
  let v103 : BitVec 32 := Scalar.addi v101 v102
  v103.toNat
def k0_dev6 (d0 : Dev nD) : Nat :=
  let c0_i32_90 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_89 : BitVec 32 := 8#32
  let v122 : BitVec 32 := Scalar.muli v2 c8_i32_89
  let v123 : BitVec 32 := Scalar.addi c0_i32_90 v122
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_91 : BitVec 32 := 4#32
  let v124 : BitVec 32 := Scalar.muli v9 c4_i32_91
  let v125 : BitVec 32 := Scalar.addi v123 v124
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_92 : BitVec 32 := 1#32
  let v126 : BitVec 32 := Scalar.muli v8 c1_i32_92
  let v127 : BitVec 32 := Scalar.addi v125 v126
  v127.toNat
def k0_dev7 (d0 : Dev nD) : Nat :=
  let c0_i32_110 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_109 : BitVec 32 := 8#32
  let v146 : BitVec 32 := Scalar.muli v2 c8_i32_109
  let v147 : BitVec 32 := Scalar.addi c0_i32_110 v146
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_111 : BitVec 32 := 4#32
  let v148 : BitVec 32 := Scalar.muli v9 c4_i32_111
  let v149 : BitVec 32 := Scalar.addi v147 v148
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_112 : BitVec 32 := 1#32
  let v150 : BitVec 32 := Scalar.muli v8 c1_i32_112
  let v151 : BitVec 32 := Scalar.addi v149 v150
  v151.toNat
def k0_dev8 (d0 : Dev nD) : Nat :=
  let c0_i32_129 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_128 : BitVec 32 := 8#32
  let v170 : BitVec 32 := Scalar.muli v2 c8_i32_128
  let v171 : BitVec 32 := Scalar.addi c0_i32_129 v170
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_130 : BitVec 32 := 4#32
  let v172 : BitVec 32 := Scalar.muli v9 c4_i32_130
  let v173 : BitVec 32 := Scalar.addi v171 v172
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_131 : BitVec 32 := 1#32
  let v174 : BitVec 32 := Scalar.muli v8 c1_i32_131
  let v175 : BitVec 32 := Scalar.addi v173 v174
  v175.toNat
def k0_dev9 (d0 : Dev nD) : Nat :=
  let c0_i32_148 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_147 : BitVec 32 := 8#32
  let v194 : BitVec 32 := Scalar.muli v2 c8_i32_147
  let v195 : BitVec 32 := Scalar.addi c0_i32_148 v194
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_149 : BitVec 32 := 4#32
  let v196 : BitVec 32 := Scalar.muli v9 c4_i32_149
  let v197 : BitVec 32 := Scalar.addi v195 v196
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_150 : BitVec 32 := 1#32
  let v198 : BitVec 32 := Scalar.muli v8 c1_i32_150
  let v199 : BitVec 32 := Scalar.addi v197 v198
  v199.toNat
def k0_dev10 (d0 : Dev nD) : Nat :=
  let c0_i32_167 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_166 : BitVec 32 := 8#32
  let v218 : BitVec 32 := Scalar.muli v2 c8_i32_166
  let v219 : BitVec 32 := Scalar.addi c0_i32_167 v218
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_168 : BitVec 32 := 4#32
  let v220 : BitVec 32 := Scalar.muli v9 c4_i32_168
  let v221 : BitVec 32 := Scalar.addi v219 v220
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_169 : BitVec 32 := 1#32
  let v222 : BitVec 32 := Scalar.muli v8 c1_i32_169
  let v223 : BitVec 32 := Scalar.addi v221 v222
  v223.toNat
def k0_dev11 (d0 : Dev nD) : Nat :=
  let c0_i32_200 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_199 : BitVec 32 := 8#32
  let v247 : BitVec 32 := Scalar.muli v10 c8_i32_199
  let v248 : BitVec 32 := Scalar.addi c0_i32_200 v247
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_201 : BitVec 32 := 4#32
  let v249 : BitVec 32 := Scalar.muli v5 c4_i32_201
  let v250 : BitVec 32 := Scalar.addi v248 v249
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_202 : BitVec 32 := 1#32
  let v251 : BitVec 32 := Scalar.muli v8 c1_i32_202
  let v252 : BitVec 32 := Scalar.addi v250 v251
  v252.toNat
def k0_off3 (d0 : Dev nD) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c128_i32_179 : BitVec 32 := 128#32
  let v234 : BitVec 32 := Scalar.muli v2 c128_i32_179
  let v261 : Index := Scalar.indexCast v234
  let c0_207 : Index := 0#32
  ![v261.toNat, 0]
def k0_dev12 (d0 : Dev nD) : Nat :=
  let c0_i32_233 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_232 : BitVec 32 := 8#32
  let v282 : BitVec 32 := Scalar.muli v10 c8_i32_232
  let v283 : BitVec 32 := Scalar.addi c0_i32_233 v282
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_234 : BitVec 32 := 4#32
  let v284 : BitVec 32 := Scalar.muli v5 c4_i32_234
  let v285 : BitVec 32 := Scalar.addi v283 v284
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_235 : BitVec 32 := 1#32
  let v286 : BitVec 32 := Scalar.muli v8 c1_i32_235
  let v287 : BitVec 32 := Scalar.addi v285 v286
  v287.toNat
def k0_off4 (d0 : Dev nD) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c128_i32_179 : BitVec 32 := 128#32
  let v234 : BitVec 32 := Scalar.muli v2 c128_i32_179
  let v296 : Index := Scalar.indexCast v234
  let c256_240 : Index := 256#32
  ![v296.toNat, 256]
def k0_dev13 (d0 : Dev nD) : Nat :=
  let c0_i32_266 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_265 : BitVec 32 := 8#32
  let v317 : BitVec 32 := Scalar.muli v10 c8_i32_265
  let v318 : BitVec 32 := Scalar.addi c0_i32_266 v317
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_267 : BitVec 32 := 4#32
  let v319 : BitVec 32 := Scalar.muli v5 c4_i32_267
  let v320 : BitVec 32 := Scalar.addi v318 v319
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_268 : BitVec 32 := 1#32
  let v321 : BitVec 32 := Scalar.muli v8 c1_i32_268
  let v322 : BitVec 32 := Scalar.addi v320 v321
  v322.toNat
def k0_off5 (d0 : Dev nD) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c128_i32_179 : BitVec 32 := 128#32
  let v234 : BitVec 32 := Scalar.muli v2 c128_i32_179
  let v331 : Index := Scalar.indexCast v234
  let c512_273 : Index := 512#32
  ![v331.toNat, 512]
def k0_dev14 (d0 : Dev nD) : Nat :=
  let c0_i32_299 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_298 : BitVec 32 := 8#32
  let v352 : BitVec 32 := Scalar.muli v10 c8_i32_298
  let v353 : BitVec 32 := Scalar.addi c0_i32_299 v352
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_300 : BitVec 32 := 4#32
  let v354 : BitVec 32 := Scalar.muli v5 c4_i32_300
  let v355 : BitVec 32 := Scalar.addi v353 v354
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_301 : BitVec 32 := 1#32
  let v356 : BitVec 32 := Scalar.muli v8 c1_i32_301
  let v357 : BitVec 32 := Scalar.addi v355 v356
  v357.toNat
def k0_off6 (d0 : Dev nD) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c128_i32_179 : BitVec 32 := 128#32
  let v234 : BitVec 32 := Scalar.muli v2 c128_i32_179
  let v366 : Index := Scalar.indexCast v234
  let c768_306 : Index := 768#32
  ![v366.toNat, 768]
def k0_dev15 (d0 : Dev nD) : Nat :=
  let c0_i32_332 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_331 : BitVec 32 := 8#32
  let v387 : BitVec 32 := Scalar.muli v10 c8_i32_331
  let v388 : BitVec 32 := Scalar.addi c0_i32_332 v387
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_333 : BitVec 32 := 4#32
  let v389 : BitVec 32 := Scalar.muli v5 c4_i32_333
  let v390 : BitVec 32 := Scalar.addi v388 v389
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_334 : BitVec 32 := 1#32
  let v391 : BitVec 32 := Scalar.muli v8 c1_i32_334
  let v392 : BitVec 32 := Scalar.addi v390 v391
  v392.toNat
def k0_off7 (d0 : Dev nD) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c128_i32_179 : BitVec 32 := 128#32
  let v234 : BitVec 32 := Scalar.muli v2 c128_i32_179
  let v401 : Index := Scalar.indexCast v234
  let c1024_339 : Index := 1024#32
  ![v401.toNat, 1024]
def k0_dev16 (d0 : Dev nD) : Nat :=
  let c0_i32_365 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_364 : BitVec 32 := 8#32
  let v422 : BitVec 32 := Scalar.muli v10 c8_i32_364
  let v423 : BitVec 32 := Scalar.addi c0_i32_365 v422
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_366 : BitVec 32 := 4#32
  let v424 : BitVec 32 := Scalar.muli v5 c4_i32_366
  let v425 : BitVec 32 := Scalar.addi v423 v424
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v426 : BitVec 32 := Scalar.muli v8 c1_i32_367
  let v427 : BitVec 32 := Scalar.addi v425 v426
  v427.toNat
def k0_off8 (d0 : Dev nD) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c128_i32_179 : BitVec 32 := 128#32
  let v234 : BitVec 32 := Scalar.muli v2 c128_i32_179
  let v436 : Index := Scalar.indexCast v234
  let c1280_372 : Index := 1280#32
  ![v436.toNat, 1280]
def k0_dev17 (d0 : Dev nD) : Nat :=
  let c0_i32_398 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_397 : BitVec 32 := 8#32
  let v457 : BitVec 32 := Scalar.muli v10 c8_i32_397
  let v458 : BitVec 32 := Scalar.addi c0_i32_398 v457
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_399 : BitVec 32 := 4#32
  let v459 : BitVec 32 := Scalar.muli v5 c4_i32_399
  let v460 : BitVec 32 := Scalar.addi v458 v459
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_400 : BitVec 32 := 1#32
  let v461 : BitVec 32 := Scalar.muli v8 c1_i32_400
  let v462 : BitVec 32 := Scalar.addi v460 v461
  v462.toNat
def k0_off9 (d0 : Dev nD) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c128_i32_179 : BitVec 32 := 128#32
  let v234 : BitVec 32 := Scalar.muli v2 c128_i32_179
  let v471 : Index := Scalar.indexCast v234
  let c1536_405 : Index := 1536#32
  ![v471.toNat, 1536]
def k0_dev18 (d0 : Dev nD) : Nat :=
  let c0_i32_431 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_430 : BitVec 32 := 8#32
  let v492 : BitVec 32 := Scalar.muli v10 c8_i32_430
  let v493 : BitVec 32 := Scalar.addi c0_i32_431 v492
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_432 : BitVec 32 := 4#32
  let v494 : BitVec 32 := Scalar.muli v5 c4_i32_432
  let v495 : BitVec 32 := Scalar.addi v493 v494
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_433 : BitVec 32 := 1#32
  let v496 : BitVec 32 := Scalar.muli v8 c1_i32_433
  let v497 : BitVec 32 := Scalar.addi v495 v496
  v497.toNat
def k0_off10 (d0 : Dev nD) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c128_i32_179 : BitVec 32 := 128#32
  let v234 : BitVec 32 := Scalar.muli v2 c128_i32_179
  let v506 : Index := Scalar.indexCast v234
  let c1792_438 : Index := 1792#32
  ![v506.toNat, 1792]
def k0_off11 (d0 : Dev nD) : Fin 2 → Nat :=
  let c1_i32_444 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v515 : BitVec 32 := Scalar.subi c1_i32_444 v2
  let c128_i32_445 : BitVec 32 := 128#32
  let v516 : BitVec 32 := Scalar.muli v515 c128_i32_445
  let v529 : Index := Scalar.indexCast v516
  let c0_460 : Index := 0#32
  ![v529.toNat, 0]
def k0_off12 (d0 : Dev nD) : Fin 2 → Nat :=
  let c1_i32_444 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v515 : BitVec 32 := Scalar.subi c1_i32_444 v2
  let c128_i32_445 : BitVec 32 := 128#32
  let v516 : BitVec 32 := Scalar.muli v515 c128_i32_445
  let v550 : Index := Scalar.indexCast v516
  let c256_480 : Index := 256#32
  ![v550.toNat, 256]
def k0_off13 (d0 : Dev nD) : Fin 2 → Nat :=
  let c1_i32_444 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v515 : BitVec 32 := Scalar.subi c1_i32_444 v2
  let c128_i32_445 : BitVec 32 := 128#32
  let v516 : BitVec 32 := Scalar.muli v515 c128_i32_445
  let v571 : Index := Scalar.indexCast v516
  let c512_500 : Index := 512#32
  ![v571.toNat, 512]
def k0_off14 (d0 : Dev nD) : Fin 2 → Nat :=
  let c1_i32_444 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v515 : BitVec 32 := Scalar.subi c1_i32_444 v2
  let c128_i32_445 : BitVec 32 := 128#32
  let v516 : BitVec 32 := Scalar.muli v515 c128_i32_445
  let v592 : Index := Scalar.indexCast v516
  let c768_520 : Index := 768#32
  ![v592.toNat, 768]
def k0_off15 (d0 : Dev nD) : Fin 2 → Nat :=
  let c1_i32_444 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v515 : BitVec 32 := Scalar.subi c1_i32_444 v2
  let c128_i32_445 : BitVec 32 := 128#32
  let v516 : BitVec 32 := Scalar.muli v515 c128_i32_445
  let v613 : Index := Scalar.indexCast v516
  let c1024_540 : Index := 1024#32
  ![v613.toNat, 1024]
def k0_off16 (d0 : Dev nD) : Fin 2 → Nat :=
  let c1_i32_444 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v515 : BitVec 32 := Scalar.subi c1_i32_444 v2
  let c128_i32_445 : BitVec 32 := 128#32
  let v516 : BitVec 32 := Scalar.muli v515 c128_i32_445
  let v634 : Index := Scalar.indexCast v516
  let c1280_560 : Index := 1280#32
  ![v634.toNat, 1280]
def k0_off17 (d0 : Dev nD) : Fin 2 → Nat :=
  let c1_i32_444 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v515 : BitVec 32 := Scalar.subi c1_i32_444 v2
  let c128_i32_445 : BitVec 32 := 128#32
  let v516 : BitVec 32 := Scalar.muli v515 c128_i32_445
  let v655 : Index := Scalar.indexCast v516
  let c1536_580 : Index := 1536#32
  ![v655.toNat, 1536]
def k0_off18 (d0 : Dev nD) : Fin 2 → Nat :=
  let c1_i32_444 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v515 : BitVec 32 := Scalar.subi c1_i32_444 v2
  let c128_i32_445 : BitVec 32 := 128#32
  let v516 : BitVec 32 := Scalar.muli v515 c128_i32_445
  let v676 : Index := Scalar.indexCast v516
  let c1792_600 : Index := 1792#32
  ![v676.toNat, 1792]
abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

class Facts₀ : Prop where
  hamt_1 : (1#32 : BitVec 32).msb = false
  h_S512x128 : 0 < S512x128.numel
  shapeCasts_S512x128_S512x128 : S512x128.ShapeCasts S512x128
  bitsLt_bf16_f32 : FTy.bits .bf16 < FTy.bits .f32
  h_S512x256 : 0 < S512x256.numel
  shapeCasts_S512x256_S512x256 : S512x256.ShapeCasts S512x256
  inb_S512x2048_S512x256_0_0 : ∀ a, (![0, 0] : Fin 2 → Nat) a + S512x256.size a ≤ S512x2048.size a
  inb_S8x128x256_S1x128x256_0_0_0 : ∀ a, (![0, 0, 0] : Fin 3 → Nat) a + S1x128x256.size a ≤ S8x128x256.size a
  h_S1x128x256 : 0 < S1x128x256.numel
  shapeCasts_S1x128x256_S128x256 : S1x128x256.ShapeCasts S128x256
  shapeCasts_S128x256_S1x128x256 : S128x256.ShapeCasts S1x128x256
  packedbf16_S8x128x256_S1x128x256_0_0_0 : (Rect.unit (s := S8x128x256) ![0, 0, 0] S1x128x256.size inb_S8x128x256_S1x128x256_0_0_0).PackedRows (EltTy.packing .bf16)
  inb_S512x2048_S512x256_0_256 : ∀ a, (![0, 256] : Fin 2 → Nat) a + S512x256.size a ≤ S512x2048.size a
  inb_S8x128x256_S1x128x256_1_0_0 : ∀ a, (![1, 0, 0] : Fin 3 → Nat) a + S1x128x256.size a ≤ S8x128x256.size a
  packedbf16_S8x128x256_S1x128x256_1_0_0 : (Rect.unit (s := S8x128x256) ![1, 0, 0] S1x128x256.size inb_S8x128x256_S1x128x256_1_0_0).PackedRows (EltTy.packing .bf16)
  inb_S8_S1_0 : ∀ a, (![0] : Fin 1 → Nat) a + S1.size a ≤ S8.size a
  squeezes_S1_S_ : S1.Squeezes S_
  inb_S2x8x128x256_S1x1x128x256_0_0_0_0 : ∀ a, (![0, 0, 0, 0] : Fin 4 → Nat) a + S1x1x128x256.size a ≤ S2x8x128x256.size a
  squeezes_S1x1x128x256_S128x256 : S1x1x128x256.Squeezes S128x256
  squeezes_S1x128x256_S128x256 : S1x128x256.Squeezes S128x256
  wordsbf16_S8x128x256_S1x128x256_0_0_0 : (Rect.unit (s := S8x128x256) ![0, 0, 0] S1x128x256.size inb_S8x128x256_S1x128x256_0_0_0).WholeWords (EltTy.packing .bf16)
  wordsbf16_S2x8x128x256_S1x1x128x256_0_0_0_0 : (Rect.unit (s := S2x8x128x256) ![0, 0, 0, 0] S1x1x128x256.size inb_S2x8x128x256_S1x1x128x256_0_0_0_0).WholeWords (EltTy.packing .bf16)
  inb_S256x2048_S256x256_0_0 : ∀ a, (![0, 0] : Fin 2 → Nat) a + S256x256.size a ≤ S256x2048.size a
  h_S256x256 : 0 < S256x256.numel
  inb_S8_S1_1 : ∀ a, (![1] : Fin 1 → Nat) a + S1.size a ≤ S8.size a
  inb_S2x8x128x256_S1x1x128x256_0_1_0_0 : ∀ a, (![0, 1, 0, 0] : Fin 4 → Nat) a + S1x1x128x256.size a ≤ S2x8x128x256.size a
  wordsbf16_S8x128x256_S1x128x256_1_0_0 : (Rect.unit (s := S8x128x256) ![1, 0, 0] S1x128x256.size inb_S8x128x256_S1x128x256_1_0_0).WholeWords (EltTy.packing .bf16)
  wordsbf16_S2x8x128x256_S1x1x128x256_0_1_0_0 : (Rect.unit (s := S2x8x128x256) ![0, 1, 0, 0] S1x1x128x256.size inb_S2x8x128x256_S1x1x128x256_0_1_0_0).WholeWords (EltTy.packing .bf16)
  inb_S256x2048_S256x256_0_256 : ∀ a, (![0, 256] : Fin 2 → Nat) a + S256x256.size a ≤ S256x2048.size a
  inb_S512x2048_S512x256_0_512 : ∀ a, (![0, 512] : Fin 2 → Nat) a + S512x256.size a ≤ S512x2048.size a
  inb_S8x128x256_S1x128x256_2_0_0 : ∀ a, (![2, 0, 0] : Fin 3 → Nat) a + S1x128x256.size a ≤ S8x128x256.size a
  packedbf16_S8x128x256_S1x128x256_2_0_0 : (Rect.unit (s := S8x128x256) ![2, 0, 0] S1x128x256.size inb_S8x128x256_S1x128x256_2_0_0).PackedRows (EltTy.packing .bf16)
  inb_S8_S1_2 : ∀ a, (![2] : Fin 1 → Nat) a + S1.size a ≤ S8.size a
  inb_S2x8x128x256_S1x1x128x256_0_2_0_0 : ∀ a, (![0, 2, 0, 0] : Fin 4 → Nat) a + S1x1x128x256.size a ≤ S2x8x128x256.size a
  wordsbf16_S8x128x256_S1x128x256_2_0_0 : (Rect.unit (s := S8x128x256) ![2, 0, 0] S1x128x256.size inb_S8x128x256_S1x128x256_2_0_0).WholeWords (EltTy.packing .bf16)
  wordsbf16_S2x8x128x256_S1x1x128x256_0_2_0_0 : (Rect.unit (s := S2x8x128x256) ![0, 2, 0, 0] S1x1x128x256.size inb_S2x8x128x256_S1x1x128x256_0_2_0_0).WholeWords (EltTy.packing .bf16)
  inb_S256x2048_S256x256_0_512 : ∀ a, (![0, 512] : Fin 2 → Nat) a + S256x256.size a ≤ S256x2048.size a
  inb_S512x2048_S512x256_0_768 : ∀ a, (![0, 768] : Fin 2 → Nat) a + S512x256.size a ≤ S512x2048.size a
  inb_S8x128x256_S1x128x256_3_0_0 : ∀ a, (![3, 0, 0] : Fin 3 → Nat) a + S1x128x256.size a ≤ S8x128x256.size a
  packedbf16_S8x128x256_S1x128x256_3_0_0 : (Rect.unit (s := S8x128x256) ![3, 0, 0] S1x128x256.size inb_S8x128x256_S1x128x256_3_0_0).PackedRows (EltTy.packing .bf16)
  inb_S8_S1_3 : ∀ a, (![3] : Fin 1 → Nat) a + S1.size a ≤ S8.size a
  inb_S2x8x128x256_S1x1x128x256_0_3_0_0 : ∀ a, (![0, 3, 0, 0] : Fin 4 → Nat) a + S1x1x128x256.size a ≤ S2x8x128x256.size a
  wordsbf16_S8x128x256_S1x128x256_3_0_0 : (Rect.unit (s := S8x128x256) ![3, 0, 0] S1x128x256.size inb_S8x128x256_S1x128x256_3_0_0).WholeWords (EltTy.packing .bf16)
  wordsbf16_S2x8x128x256_S1x1x128x256_0_3_0_0 : (Rect.unit (s := S2x8x128x256) ![0, 3, 0, 0] S1x1x128x256.size inb_S2x8x128x256_S1x1x128x256_0_3_0_0).WholeWords (EltTy.packing .bf16)
  inb_S256x2048_S256x256_0_768 : ∀ a, (![0, 768] : Fin 2 → Nat) a + S256x256.size a ≤ S256x2048.size a
  inb_S512x2048_S512x256_0_1024 : ∀ a, (![0, 1024] : Fin 2 → Nat) a + S512x256.size a ≤ S512x2048.size a
  inb_S8x128x256_S1x128x256_4_0_0 : ∀ a, (![4, 0, 0] : Fin 3 → Nat) a + S1x128x256.size a ≤ S8x128x256.size a
  packedbf16_S8x128x256_S1x128x256_4_0_0 : (Rect.unit (s := S8x128x256) ![4, 0, 0] S1x128x256.size inb_S8x128x256_S1x128x256_4_0_0).PackedRows (EltTy.packing .bf16)
  inb_S8_S1_4 : ∀ a, (![4] : Fin 1 → Nat) a + S1.size a ≤ S8.size a
  inb_S2x8x128x256_S1x1x128x256_0_4_0_0 : ∀ a, (![0, 4, 0, 0] : Fin 4 → Nat) a + S1x1x128x256.size a ≤ S2x8x128x256.size a
  wordsbf16_S8x128x256_S1x128x256_4_0_0 : (Rect.unit (s := S8x128x256) ![4, 0, 0] S1x128x256.size inb_S8x128x256_S1x128x256_4_0_0).WholeWords (EltTy.packing .bf16)
  wordsbf16_S2x8x128x256_S1x1x128x256_0_4_0_0 : (Rect.unit (s := S2x8x128x256) ![0, 4, 0, 0] S1x1x128x256.size inb_S2x8x128x256_S1x1x128x256_0_4_0_0).WholeWords (EltTy.packing .bf16)
  inb_S256x2048_S256x256_0_1024 : ∀ a, (![0, 1024] : Fin 2 → Nat) a + S256x256.size a ≤ S256x2048.size a
  inb_S512x2048_S512x256_0_1280 : ∀ a, (![0, 1280] : Fin 2 → Nat) a + S512x256.size a ≤ S512x2048.size a
  inb_S8x128x256_S1x128x256_5_0_0 : ∀ a, (![5, 0, 0] : Fin 3 → Nat) a + S1x128x256.size a ≤ S8x128x256.size a
  packedbf16_S8x128x256_S1x128x256_5_0_0 : (Rect.unit (s := S8x128x256) ![5, 0, 0] S1x128x256.size inb_S8x128x256_S1x128x256_5_0_0).PackedRows (EltTy.packing .bf16)
  inb_S8_S1_5 : ∀ a, (![5] : Fin 1 → Nat) a + S1.size a ≤ S8.size a
  inb_S2x8x128x256_S1x1x128x256_0_5_0_0 : ∀ a, (![0, 5, 0, 0] : Fin 4 → Nat) a + S1x1x128x256.size a ≤ S2x8x128x256.size a
  wordsbf16_S8x128x256_S1x128x256_5_0_0 : (Rect.unit (s := S8x128x256) ![5, 0, 0] S1x128x256.size inb_S8x128x256_S1x128x256_5_0_0).WholeWords (EltTy.packing .bf16)
  wordsbf16_S2x8x128x256_S1x1x128x256_0_5_0_0 : (Rect.unit (s := S2x8x128x256) ![0, 5, 0, 0] S1x1x128x256.size inb_S2x8x128x256_S1x1x128x256_0_5_0_0).WholeWords (EltTy.packing .bf16)
  inb_S256x2048_S256x256_0_1280 : ∀ a, (![0, 1280] : Fin 2 → Nat) a + S256x256.size a ≤ S256x2048.size a
  inb_S512x2048_S512x256_0_1536 : ∀ a, (![0, 1536] : Fin 2 → Nat) a + S512x256.size a ≤ S512x2048.size a
  inb_S8x128x256_S1x128x256_6_0_0 : ∀ a, (![6, 0, 0] : Fin 3 → Nat) a + S1x128x256.size a ≤ S8x128x256.size a
  packedbf16_S8x128x256_S1x128x256_6_0_0 : (Rect.unit (s := S8x128x256) ![6, 0, 0] S1x128x256.size inb_S8x128x256_S1x128x256_6_0_0).PackedRows (EltTy.packing .bf16)
  inb_S8_S1_6 : ∀ a, (![6] : Fin 1 → Nat) a + S1.size a ≤ S8.size a
  inb_S2x8x128x256_S1x1x128x256_0_6_0_0 : ∀ a, (![0, 6, 0, 0] : Fin 4 → Nat) a + S1x1x128x256.size a ≤ S2x8x128x256.size a
  wordsbf16_S8x128x256_S1x128x256_6_0_0 : (Rect.unit (s := S8x128x256) ![6, 0, 0] S1x128x256.size inb_S8x128x256_S1x128x256_6_0_0).WholeWords (EltTy.packing .bf16)
  wordsbf16_S2x8x128x256_S1x1x128x256_0_6_0_0 : (Rect.unit (s := S2x8x128x256) ![0, 6, 0, 0] S1x1x128x256.size inb_S2x8x128x256_S1x1x128x256_0_6_0_0).WholeWords (EltTy.packing .bf16)
  inb_S256x2048_S256x256_0_1536 : ∀ a, (![0, 1536] : Fin 2 → Nat) a + S256x256.size a ≤ S256x2048.size a
  inb_S512x2048_S512x256_0_1792 : ∀ a, (![0, 1792] : Fin 2 → Nat) a + S512x256.size a ≤ S512x2048.size a
  inb_S8x128x256_S1x128x256_7_0_0 : ∀ a, (![7, 0, 0] : Fin 3 → Nat) a + S1x128x256.size a ≤ S8x128x256.size a
  packedbf16_S8x128x256_S1x128x256_7_0_0 : (Rect.unit (s := S8x128x256) ![7, 0, 0] S1x128x256.size inb_S8x128x256_S1x128x256_7_0_0).PackedRows (EltTy.packing .bf16)
  inb_S8_S1_7 : ∀ a, (![7] : Fin 1 → Nat) a + S1.size a ≤ S8.size a
  inb_S2x8x128x256_S1x1x128x256_0_7_0_0 : ∀ a, (![0, 7, 0, 0] : Fin 4 → Nat) a + S1x1x128x256.size a ≤ S2x8x128x256.size a
  wordsbf16_S8x128x256_S1x128x256_7_0_0 : (Rect.unit (s := S8x128x256) ![7, 0, 0] S1x128x256.size inb_S8x128x256_S1x128x256_7_0_0).WholeWords (EltTy.packing .bf16)
  wordsbf16_S2x8x128x256_S1x1x128x256_0_7_0_0 : (Rect.unit (s := S2x8x128x256) ![0, 7, 0, 0] S1x1x128x256.size inb_S2x8x128x256_S1x1x128x256_0_7_0_0).WholeWords (EltTy.packing .bf16)
  inb_S256x2048_S256x256_0_1792 : ∀ a, (![0, 1792] : Fin 2 → Nat) a + S256x256.size a ≤ S256x2048.size a
  inb_S2x8x128x256_S1x1x128x256_1_0_0_0 : ∀ a, (![1, 0, 0, 0] : Fin 4 → Nat) a + S1x1x128x256.size a ≤ S2x8x128x256.size a
  wordsbf16_S2x8x128x256_S1x1x128x256_1_0_0_0 : (Rect.unit (s := S2x8x128x256) ![1, 0, 0, 0] S1x1x128x256.size inb_S2x8x128x256_S1x1x128x256_1_0_0_0).WholeWords (EltTy.packing .bf16)
  h_S128x256 : 0 < S128x256.numel
  shapeCasts_S128x256_S128x256 : S128x256.ShapeCasts S128x256
  h_S1x1x128x256 : 0 < S1x1x128x256.numel
  shapeCasts_S1x1x128x256_S128x256 : S1x1x128x256.ShapeCasts S128x256
  inb_S2x8x128x256_S1x1x128x256_1_1_0_0 : ∀ a, (![1, 1, 0, 0] : Fin 4 → Nat) a + S1x1x128x256.size a ≤ S2x8x128x256.size a
  wordsbf16_S2x8x128x256_S1x1x128x256_1_1_0_0 : (Rect.unit (s := S2x8x128x256) ![1, 1, 0, 0] S1x1x128x256.size inb_S2x8x128x256_S1x1x128x256_1_1_0_0).WholeWords (EltTy.packing .bf16)
  inb_S2x8x128x256_S1x1x128x256_1_2_0_0 : ∀ a, (![1, 2, 0, 0] : Fin 4 → Nat) a + S1x1x128x256.size a ≤ S2x8x128x256.size a
  wordsbf16_S2x8x128x256_S1x1x128x256_1_2_0_0 : (Rect.unit (s := S2x8x128x256) ![1, 2, 0, 0] S1x1x128x256.size inb_S2x8x128x256_S1x1x128x256_1_2_0_0).WholeWords (EltTy.packing .bf16)
  inb_S2x8x128x256_S1x1x128x256_1_3_0_0 : ∀ a, (![1, 3, 0, 0] : Fin 4 → Nat) a + S1x1x128x256.size a ≤ S2x8x128x256.size a
  wordsbf16_S2x8x128x256_S1x1x128x256_1_3_0_0 : (Rect.unit (s := S2x8x128x256) ![1, 3, 0, 0] S1x1x128x256.size inb_S2x8x128x256_S1x1x128x256_1_3_0_0).WholeWords (EltTy.packing .bf16)
  inb_S2x8x128x256_S1x1x128x256_1_4_0_0 : ∀ a, (![1, 4, 0, 0] : Fin 4 → Nat) a + S1x1x128x256.size a ≤ S2x8x128x256.size a
  wordsbf16_S2x8x128x256_S1x1x128x256_1_4_0_0 : (Rect.unit (s := S2x8x128x256) ![1, 4, 0, 0] S1x1x128x256.size inb_S2x8x128x256_S1x1x128x256_1_4_0_0).WholeWords (EltTy.packing .bf16)
  inb_S2x8x128x256_S1x1x128x256_1_5_0_0 : ∀ a, (![1, 5, 0, 0] : Fin 4 → Nat) a + S1x1x128x256.size a ≤ S2x8x128x256.size a
  wordsbf16_S2x8x128x256_S1x1x128x256_1_5_0_0 : (Rect.unit (s := S2x8x128x256) ![1, 5, 0, 0] S1x1x128x256.size inb_S2x8x128x256_S1x1x128x256_1_5_0_0).WholeWords (EltTy.packing .bf16)
  inb_S2x8x128x256_S1x1x128x256_1_6_0_0 : ∀ a, (![1, 6, 0, 0] : Fin 4 → Nat) a + S1x1x128x256.size a ≤ S2x8x128x256.size a
  wordsbf16_S2x8x128x256_S1x1x128x256_1_6_0_0 : (Rect.unit (s := S2x8x128x256) ![1, 6, 0, 0] S1x1x128x256.size inb_S2x8x128x256_S1x1x128x256_1_6_0_0).WholeWords (EltTy.packing .bf16)
  inb_S2x8x128x256_S1x1x128x256_1_7_0_0 : ∀ a, (![1, 7, 0, 0] : Fin 4 → Nat) a + S1x1x128x256.size a ≤ S2x8x128x256.size a
  wordsbf16_S2x8x128x256_S1x1x128x256_1_7_0_0 : (Rect.unit (s := S2x8x128x256) ![1, 7, 0, 0] S1x1x128x256.size inb_S2x8x128x256_S1x1x128x256_1_7_0_0).WholeWords (EltTy.packing .bf16)
  dot_S512x128_S512x256_S128x256_0_0_1_1_n_n_wf : DotDims.WF S512x128 S512x256 S128x256 [0] [0] [1] [1] [] []
  dot_S512x256_S512x256_S256x256_0_0_1_1_n_n_wf : DotDims.WF S512x256 S512x256 S256x256 [0] [0] [1] [1] [] []
  hcc0_scratch6 : 0 + S_.numel ≤ 2
  hcc0_scratch2 : 3 + S8.numel ≤ 35
  hcc0_scratch3 : 11 + S8.numel ≤ 35
  hcc0_scratch4 : 19 + S8.numel ≤ 35
  hcc0_scratch5 : 27 + S8.numel ≤ 35
  k0_dev1_lt : ∀ d0 : Dev nD, (k0_dev1 d0) < nD
  k0_dev2_lt : ∀ d0 : Dev nD, (k0_dev2 d0) < nD
  k0_off1_inb : ∀ d0 : Dev nD, ∀ a, (k0_off1 d0) a + S512x128.size a ≤ S512x512.size a
  k0_off2_inb : ∀ d0 : Dev nD, ∀ a, (k0_off2 d0) a + S512x256.size a ≤ S512x512.size a
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_off3_inb : ∀ d0 : Dev nD, ∀ a, (k0_off3 d0) a + S128x256.size a ≤ S256x2048.size a
  k0_dev12_lt : ∀ d0 : Dev nD, (k0_dev12 d0) < nD
  k0_off4_inb : ∀ d0 : Dev nD, ∀ a, (k0_off4 d0) a + S128x256.size a ≤ S256x2048.size a
  k0_dev13_lt : ∀ d0 : Dev nD, (k0_dev13 d0) < nD
  k0_off5_inb : ∀ d0 : Dev nD, ∀ a, (k0_off5 d0) a + S128x256.size a ≤ S256x2048.size a
  k0_dev14_lt : ∀ d0 : Dev nD, (k0_dev14 d0) < nD
  k0_off6_inb : ∀ d0 : Dev nD, ∀ a, (k0_off6 d0) a + S128x256.size a ≤ S256x2048.size a
  k0_dev15_lt : ∀ d0 : Dev nD, (k0_dev15 d0) < nD
  k0_off7_inb : ∀ d0 : Dev nD, ∀ a, (k0_off7 d0) a + S128x256.size a ≤ S256x2048.size a
  k0_dev16_lt : ∀ d0 : Dev nD, (k0_dev16 d0) < nD
  k0_off8_inb : ∀ d0 : Dev nD, ∀ a, (k0_off8 d0) a + S128x256.size a ≤ S256x2048.size a
  k0_dev17_lt : ∀ d0 : Dev nD, (k0_dev17 d0) < nD
  k0_off9_inb : ∀ d0 : Dev nD, ∀ a, (k0_off9 d0) a + S128x256.size a ≤ S256x2048.size a
  k0_dev18_lt : ∀ d0 : Dev nD, (k0_dev18 d0) < nD
  k0_off10_inb : ∀ d0 : Dev nD, ∀ a, (k0_off10 d0) a + S128x256.size a ≤ S256x2048.size a
  k0_off11_inb : ∀ d0 : Dev nD, ∀ a, (k0_off11 d0) a + S128x256.size a ≤ S256x2048.size a
  k0_off12_inb : ∀ d0 : Dev nD, ∀ a, (k0_off12 d0) a + S128x256.size a ≤ S256x2048.size a
  k0_off13_inb : ∀ d0 : Dev nD, ∀ a, (k0_off13 d0) a + S128x256.size a ≤ S256x2048.size a
  k0_off14_inb : ∀ d0 : Dev nD, ∀ a, (k0_off14 d0) a + S128x256.size a ≤ S256x2048.size a
  k0_off15_inb : ∀ d0 : Dev nD, ∀ a, (k0_off15 d0) a + S128x256.size a ≤ S256x2048.size a
  k0_off16_inb : ∀ d0 : Dev nD, ∀ a, (k0_off16 d0) a + S128x256.size a ≤ S256x2048.size a
  k0_off17_inb : ∀ d0 : Dev nD, ∀ a, (k0_off17 d0) a + S128x256.size a ≤ S256x2048.size a
  k0_off18_inb : ∀ d0 : Dev nD, ∀ a, (k0_off18 d0) a + S128x256.size a ≤ S256x2048.size a
  hstage0_0 : ∀ j, (stage0_0 j).IsWhole
  hstage0_1 : ∀ j, (stage0_1 j).IsWhole
  hstage0_2 : ∀ j, (stage0_2 j).IsWhole

variable [Facts₀]

abbrev cc0_scratch6 : Sems sig S_ := SemArray.consecutive 0 S_ hcc0_scratch6
abbrev cc0_scratch2 : DmaSems sig S8 := SemArray.consecutive 3 S8 hcc0_scratch2
abbrev cc0_scratch3 : DmaSems sig S8 := SemArray.consecutive 11 S8 hcc0_scratch3
abbrev cc0_scratch4 : DmaSems sig S8 := SemArray.consecutive 19 S8 hcc0_scratch4
abbrev cc0_scratch5 : DmaSems sig S8 := SemArray.consecutive 27 S8 hcc0_scratch5
def dot_S512x128_S512x256_S128x256_0_0_1_1_n_n : DotDims S512x128 S512x256 S128x256 where
  lhsContracting := [0]
  rhsContracting := [0]
  lhsNonContracting := [1]
  rhsNonContracting := [1]
  lhsBatch := []
  rhsBatch := []
  wf := dot_S512x128_S512x256_S128x256_0_0_1_1_n_n_wf
def dot_S512x256_S512x256_S256x256_0_0_1_1_n_n : DotDims S512x256 S512x256 S256x256 where
  lhsContracting := [0]
  rhsContracting := [0]
  lhsNonContracting := [1]
  rhsNonContracting := [1]
  lhsBatch := []
  rhsBatch := []
  wf := dot_S512x256_S512x256_S256x256_0_0_1_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_v1) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1024x512 : Shape := ⟨2, ![1024, 512]⟩
abbrev S1024x2048 : Shape := ⟨2, ![1024, 2048]⟩
abbrev S512x1024 : Shape := ⟨2, ![512, 1024]⟩
abbrev S512x2048 : Shape := ⟨2, ![512, 2048]⟩

abbrev nBuf : Space → Nat
  | .hbm => 4
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x2048, .f32⟩
  | .hbm, ⟨2, _⟩ => ⟨S512x1024, .f32⟩
  | .hbm, ⟨3, _⟩ => ⟨S512x2048, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  transposes_S1024x512_S512x1024_1_0 : S1024x512.Transposes [1, 0] S512x1024
  dot_S512x1024_S1024x2048_S512x2048_1_0_0_1_n_n_wf : DotDims.WF S512x1024 S1024x2048 S512x2048 [1] [0] [0] [1] [] []

variable [Facts₀]

def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf

class Facts : Prop extends Facts₀ where

variable [Facts]
-- ==== Proof.Mesh.lean ====
/- The mesh of sixteen devices as coordinates (x, y, z) with logical id 8 x + 4 y + z, and the two
   neighbours a device talks to: the one across the y axis and the one across the x axis. Both maps are
   involutions, and each keeps the other's coordinate. -/
import proofs.«901048_g7700000000001049_dist_rsdw_v7x_xyz2x2x4_y_m512_d512_f2048_bf16_1_alg».proof.Proof.Gen.KernelIdeal
import Idealize.ShloMosaic.Lib.Tactic

noncomputable section

namespace Cert.KernelIdeal.Hand

open Cert.KernelIdeal Cert.KernelIdeal.Gen
open Idealize.ShloMosaic Idealize.ShloMosaic.TcCoe

/-- The x coordinate of a device (0 or 1). -/
def xc (c : Dev nD) : ℕ := c.val / 8
/-- The y coordinate of a device (0 or 1): the axis the row blocks of the arguments are cut along. -/
def yc (c : Dev nD) : ℕ := (c.val / 4) % 2

/-- The neighbour across the y axis: same x and z, the other y. -/
def ynb (c : Dev nD) : Dev nD := ⟨8 * (c.val / 8) + c.val % 4 + 4 - 4 * ((c.val / 4) % 2), by have h : c.val < 16 := c.isLt; show _ < 16; omega⟩
/-- The neighbour across the x axis: same y and z, the other x. -/
def xnb (c : Dev nD) : Dev nD := ⟨4 * ((c.val / 4) % 2) + c.val % 4 + 8 - 8 * (c.val / 8), by have h : c.val < 16 := c.isLt; show _ < 16; omega⟩

theorem ynb_ynb (c : Dev nD) : ynb (ynb c) = c := by revert c; decide
theorem xnb_xnb (c : Dev nD) : xnb (xnb c) = c := by revert c; decide
theorem xnb_ynb (c : Dev nD) : xnb (ynb c) = ynb (xnb c) := by revert c; decide
theorem ynb_ne (c : Dev nD) : ynb c ≠ c := by revert c; decide
theorem xnb_ne (c : Dev nD) : xnb c ≠ c := by revert c; decide
theorem xnb_ne_ynb (c : Dev nD) : xnb c ≠ ynb c := by revert c; decide

theorem yc_lt (c : Dev nD) : yc c < 2 := Nat.mod_lt _ (by decide)
theorem xc_lt (c : Dev nD) : xc c < 2 := by have h : c.val < 16 := c.isLt; unfold xc; omega
theorem yc_ynb (c : Dev nD) : yc (ynb c) = 1 - yc c := by revert c; decide
theorem xc_ynb (c : Dev nD) : xc (ynb c) = xc c := by revert c; decide
theorem yc_xnb (c : Dev nD) : yc (xnb c) = yc c := by revert c; decide
theorem xc_xnb (c : Dev nD) : xc (xnb c) = 1 - xc c := by revert c; decide

/-- The two neighbour maps as permutations of the devices. -/
def yswap : Dev nD ≃ Dev nD := ⟨ynb, ynb, ynb_ynb, ynb_ynb⟩
def xswap : Dev nD ≃ Dev nD := ⟨xnb, xnb, xnb_xnb, xnb_xnb⟩

/-- Every device id the body computes is one of the two neighbours: the first signal and the eight copies of
    the first sweep go across y, the second signal and the eight copies of the second sweep across x. -/
theorem dev1_eq (c : Dev nD) : (⟨k0_dev1 c, k0_dev1_lt c⟩ : Dev nD) = ynb c := Fin.ext (k0_dev1_eq c)
theorem dev2_eq (c : Dev nD) : (⟨k0_dev2 c, k0_dev2_lt c⟩ : Dev nD) = xnb c := Fin.ext (k0_dev2_eq c)
theorem dev3_eq (c : Dev nD) : (⟨k0_dev3 c, k0_dev3_lt c⟩ : Dev nD) = ynb c := Fin.ext (k0_dev3_eq c)
theorem dev4_eq (c : Dev nD) : (⟨k0_dev4 c, k0_dev4_lt c⟩ : Dev nD) = ynb c := Fin.ext (k0_dev4_eq c)
theorem dev5_eq (c : Dev nD) : (⟨k0_dev5 c, k0_dev5_lt c⟩ : Dev nD) = ynb c := Fin.ext (k0_dev5_eq c)
theorem dev6_eq (c : Dev nD) : (⟨k0_dev6 c, k0_dev6_lt c⟩ : Dev nD) = ynb c := Fin.ext (k0_dev6_eq c)
theorem dev7_eq (c : Dev nD) : (⟨k0_dev7 c, k0_dev7_lt c⟩ : Dev nD) = ynb c := Fin.ext (k0_dev7_eq c)
theorem dev8_eq (c : Dev nD) : (⟨k0_dev8 c, k0_dev8_lt c⟩ : Dev nD) = ynb c := Fin.ext (k0_dev8_eq c)
theorem dev9_eq (c : Dev nD) : (⟨k0_dev9 c, k0_dev9_lt c⟩ : Dev nD) = ynb c := Fin.ext (k0_dev9_eq c)
theorem dev10_eq (c : Dev nD) : (⟨k0_dev10 c, k0_dev10_lt c⟩ : Dev nD) = ynb c := Fin.ext (k0_dev10_eq c)
theorem dev11_eq (c : Dev nD) : (⟨k0_dev11 c, k0_dev11_lt c⟩ : Dev nD) = xnb c := Fin.ext (k0_dev11_eq c)
theorem dev12_eq (c : Dev nD) : (⟨k0_dev12 c, k0_dev12_lt c⟩ : Dev nD) = xnb c := Fin.ext (k0_dev12_eq c)
theorem dev13_eq (c : Dev nD) : (⟨k0_dev13 c, k0_dev13_lt c⟩ : Dev nD) = xnb c := Fin.ext (k0_dev13_eq c)
theorem dev14_eq (c : Dev nD) : (⟨k0_dev14 c, k0_dev14_lt c⟩ : Dev nD) = xnb c := Fin.ext (k0_dev14_eq c)
theorem dev15_eq (c : Dev nD) : (⟨k0_dev15 c, k0_dev15_lt c⟩ : Dev nD) = xnb c := Fin.ext (k0_dev15_eq c)
theorem dev16_eq (c : Dev nD) : (⟨k0_dev16 c, k0_dev16_lt c⟩ : Dev nD) = xnb c := Fin.ext (k0_dev16_eq c)
theorem dev17_eq (c : Dev nD) : (⟨k0_dev17 c, k0_dev17_lt c⟩ : Dev nD) = xnb c := Fin.ext (k0_dev17_eq c)
theorem dev18_eq (c : Dev nD) : (⟨k0_dev18 c, k0_dev18_lt c⟩ : Dev nD) = xnb c := Fin.ext (k0_dev18_eq c)

attribute [sl_canon] dev1_eq dev2_eq dev3_eq dev4_eq dev5_eq dev6_eq dev7_eq dev8_eq dev9_eq dev10_eq dev11_eq dev12_eq dev13_eq dev14_eq dev15_eq dev16_eq dev17_eq dev18_eq

/-- The interconnect routes a device to either neighbour. -/
theorem routes_ynb (c : Dev nD) : τ.routes (c : Thread nD τ) (ynb c : Thread nD τ) = true := by revert c; decide
theorem routes_xnb (c : Dev nD) : τ.routes (c : Thread nD τ) (xnb c : Thread nD τ) = true := by revert c; decide

end Cert.KernelIdeal.Hand

end
-- ==== Proof.Contents.lean ====
/- The buffers of one device and what they hold, as pure functions of the devices' input blocks.
   A device multiplies a quarter-wide column strip of its transposed x block with each of eight column chunks of
   its dy block and sends the eight products across y; it keeps the half-wide strip's products as its own partial
   result; it adds what arrives across y to one half of its rows, forwards it across x, and adds what arrives
   across x to the other half. -/
import proofs.«901048_g7700000000001049_dist_rsdw_v7x_xyz2x2x4_y_m512_d512_f2048_bf16_1_alg».proof.Proof.Mesh
import proofs.«901048_g7700000000001049_dist_rsdw_v7x_xyz2x2x4_y_m512_d512_f2048_bf16_1_alg».proof.Proof.Gen.KernelIdeal.Skeleton
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx

variable {F : FTy → Type} [FloatOps F]

/-! ## The memrefs -/

abbrev xM : Memref sig .tc .vmem S512x512 .f32 := Memref.whole cc0_stg0_0
abbrev dyM : Memref sig .tc .vmem S512x2048 .f32 := Memref.whole cc0_stg1_0
abbrev oM : Memref sig .tc .vmem S256x2048 .f32 := Memref.whole cc0_stg2_0
abbrev sM : Memref sig .tc .vmem S8x128x256 .bf16 := Memref.whole cc0_scratch0
abbrev rM : Memref sig .tc .vmem S2x8x128x256 .bf16 := Memref.whole cc0_scratch1

theorem inb_s (k : Fin 8) : ∀ a, (![k.val, 0, 0] : Fin 3 → Nat) a + S1x128x256.size a ≤ S8x128x256.size a := by revert k; decide
theorem inb_r (j : Fin 2) (k : Fin 8) : ∀ a, (![j.val, k.val, 0, 0] : Fin 4 → Nat) a + S1x1x128x256.size a ≤ S2x8x128x256.size a := by
  revert j k; decide
theorem inb_dy (k : Fin 8) : ∀ a, (![0, 256 * k.val] : Fin 2 → Nat) a + S512x256.size a ≤ S512x2048.size a := by revert k; decide
theorem inb_o (k : Fin 8) : ∀ a, (![0, 256 * k.val] : Fin 2 → Nat) a + S256x256.size a ≤ S256x2048.size a := by revert k; decide

/-- Chunk `k` of the send buffer, and slot `(j, k)` of the receive buffer, as rectangles of their buffers. -/
abbrev sRect (k : Fin 8) : Rect S8x128x256 := Rect.unit (s := S8x128x256) ![k.val, 0, 0] S1x128x256.size (inb_s k)
abbrev rRect (j : Fin 2) (k : Fin 8) : Rect S2x8x128x256 := Rect.unit (s := S2x8x128x256) ![j.val, k.val, 0, 0] S1x1x128x256.size (inb_r j k)
/-- The same as memrefs of one 128 × 256 block: the views a copy goes through. -/
abbrev sSlot (k : Fin 8) : Memref sig .tc .vmem S128x256 .bf16 :=
  ((sM : Memref sig .tc .vmem S8x128x256 .bf16).slice (sRect k) (fun _ => rfl)).squeeze S128x256 squeezes_S1x128x256_S128x256
abbrev rSlot (j : Fin 2) (k : Fin 8) : Memref sig .tc .vmem S128x256 .bf16 :=
  ((rM : Memref sig .tc .vmem S2x8x128x256 .bf16).slice (rRect j k) (fun _ => rfl)).squeeze S128x256 squeezes_S1x1x128x256_S128x256

/-! ## What the buffers hold -/

variable (X : Dev nD → Vec F S512x512 .f32) (DY : Dev nD → Vec F S512x2048 .f32)

/-- The quarter-wide strip of x a device multiplies for its y neighbour, and the half-wide strip it keeps, rounded. -/
def xsq (c : Dev nD) : FVec F S512x128 .bf16 :=
  k0_pay1 ((xM : Memref sig .tc .vmem S512x512 .f32).view.readAt (Elt F) (Rect.unit (s := S512x512) (k0_off1 c) S512x128.size (k0_off1_inb c)).toLoadRect (X c))
def xkeep (c : Dev nD) : FVec F S512x256 .bf16 :=
  k0_pay2 ((xM : Memref sig .tc .vmem S512x512 .f32).view.readAt (Elt F) (Rect.unit (s := S512x512) (k0_off2 c) S512x256.size (k0_off2_inb c)).toLoadRect (X c))
/-- Column chunk `k` of a device's dy block. -/
def dyk (c : Dev nD) (k : Fin 8) : Vec F S512x256 .f32 :=
  (dyM : Memref sig .tc .vmem S512x2048 .f32).view.readAt (Elt F) (Rect.unit (s := S512x2048) ![0, 256 * k.val] S512x256.size (inb_dy k)).toLoadRect (DY c)

/-- What a device puts in chunk `k` of its send buffer: the rounded product of the quarter strip with chunk `k`. -/
def sendChunk (c : Dev nD) (k : Fin 8) : FVec F S1x128x256 .bf16 := k0_pay3 (xsq X c) (dyk DY c k)
/-- Its own partial result for column chunk `k`: the product of the half strip with chunk `k`. -/
def keepChunk (c : Dev nD) (k : Fin 8) : FVec F S256x256 .f32 := k0_pay7 (xkeep X c) (dyk DY c k)

/-- The send buffer once all eight chunks are stored. -/
def sendBuf (c : Dev nD) : (cc0_scratch0 : Ref sig .tc).ty.Contents (Elt F) :=
  fun i => sendChunk X DY c (i 0) (ix3 (0 : Fin 1) (i 1) (i 2))
/-- The receive buffer once everything has landed: half 0 holds the y neighbour's send buffer, half 1 what the x
    neighbour received across y. -/
def recvBuf (c : Dev nD) : (cc0_scratch1 : Ref sig .tc).ty.Contents (Elt F) :=
  fun i => if (i 0).val = 0 then sendBuf X DY (ynb c) (ix3 (i 1) (i 2) (i 3)) else sendBuf X DY (ynb (xnb c)) (ix3 (i 1) (i 2) (i 3))

/-- The output block a device ends with: its own partial product plus, on the half of the rows its x coordinate
    names, what came across y, and on the other half what came across x (each widened from its rounding). -/
def outVal (c : Dev nD) : (cc0_stg2_0 : Ref sig .tc).ty.Contents (Elt F) := fun i =>
  let k : Fin 8 := ⟨(i 1).val / 256, by have := (i 1).isLt; show _ < 8; change (i 1).val < 2048 at this; omega⟩
  let col : Fin 256 := ⟨(i 1).val % 256, Nat.mod_lt _ (by decide)⟩
  let row : Fin 128 := ⟨(i 0).val % 128, Nat.mod_lt _ (by decide)⟩
  let half : Fin 2 := if (i 0).val / 128 = xc c then 0 else 1
  FloatOps.addf (keepChunk X DY c k (ix2 (i 0) col)) (FloatOps.extf .f32 bitsLt_bf16_f32 (recvBuf X DY c (ix4 half k row col)))

end Cert.KernelIdeal.Hand

end
-- ==== Proof.Sched.lean ====
/- The protocol of one device's body as a schedule of semaphore cells.
   A device has thirty-four cells: the barrier semaphore and a ready semaphore (one unit each, signalled at entry by
   the neighbour across y, resp. across x: the signal says "my receive slots are yours to write"), and for each of
   eight chunks a send and a receive cell for the copy across y and another pair for the copy across x. Every cell has
   ONE round with ONE duty. A copy's receive cell hands its owner the landing slot holding what was sent; its send cell
   hands the sender what it lent of its source slot back: the whole slot across y, half a share across x (the device
   goes on reading that slot while the copy is in flight). -/
import proofs.«901048_g7700000000001049_dist_rsdw_v7x_xyz2x2x4_y_m512_d512_f2048_bf16_1_alg».proof.Proof.Contents
import proofs.«901048_g7700000000001049_dist_rsdw_v7x_xyz2x2x4_y_m512_d512_f2048_bf16_1_alg».proof.Proof.Gen.KernelIdeal.Launch
import Idealize.ShloMosaic.Lib.Pipeline.Launch
import Idealize.ShloMosaic.Lib.Pipeline.Kit
import Idealize.ShloMosaic.Lib.Tactic

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the protocol's (duties `Unit` in both) -/

abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- What the pipeline stages into a device's two input buffers: its whole x block and its whole dy block. -/
def Xs (c : Dev nD) : (cc0_stg0_0 : Ref sig .tc).ty.Contents (Elt F) :=
  (win0_0.blk (0 : Fin 1)).view.read (Elt F) ((s₀ m ρ).mem ((c : Thread nD τ).loc main_arg0))
def DYs (c : Dev nD) : (cc0_stg1_0 : Ref sig .tc).ty.Contents (Elt F) :=
  (win0_1.blk (0 : Fin 1)).view.read (Elt F) ((s₀ m ρ).mem ((c : Thread nD τ).loc main_arg1))

/-! ## The semaphores and the cells -/

/-- The runtime's barrier semaphore (unscoped) and the kernel's ready semaphore (scoped scratch). -/
abbrev barS : Sem sig := (SemArray.scalar (sig.barrier 0 rfl) : Sems sig S_).sem
abbrev rdyS : Sem sig := (cc0_scratch6 : Sems sig S_).sem

theorem inb8 (k : Fin 8) : ∀ a, (![k.val] : Fin 1 → Nat) a + S1.size a ≤ S8.size a := by revert k; decide
/-- Entry `k` of an array of eight DMA semaphores, as the body slices and squeezes it. -/
abbrev semAt (A : DmaSems sig S8) (k : Fin 8) : DmaSems sig S_ :=
  (A.slice (Rect.unit (s := S8) ![k.val] S1.size (inb8 k))).squeeze S_ squeezes_S1_S_
/-- Chunk `k`'s four DMA semaphores: send and receive of the copy across y, send and receive of the copy across x. -/
abbrev ysS (k : Fin 8) : DmaSem sig := (semAt cc0_scratch2 k).sem
abbrev yrS (k : Fin 8) : DmaSem sig := (semAt cc0_scratch3 k).sem
abbrev xsS (k : Fin 8) : DmaSem sig := (semAt cc0_scratch4 k).sem
abbrev xrS (k : Fin 8) : DmaSem sig := (semAt cc0_scratch5 k).sem

theorem ysS_val (k : Fin 8) : (ysS k).val = 3 + k.val := by revert k; decide
theorem yrS_val (k : Fin 8) : (yrS k).val = 11 + k.val := by revert k; decide
theorem xsS_val (k : Fin 8) : (xsS k).val = 19 + k.val := by revert k; decide
theorem xrS_val (k : Fin 8) : (xrS k).val = 27 + k.val := by revert k; decide

abbrev barCell (c : Dev nD) : GSem nD τ sig := ((c : Thread nD τ), .reg barS)
abbrev rdyCell (c : Dev nD) : GSem nD τ sig := ((c : Thread nD τ), .reg rdyS)
abbrev ysCell (c : Dev nD) (k : Fin 8) : GSem nD τ sig := ((c : Thread nD τ), .dma (ysS k))
abbrev yrCell (c : Dev nD) (k : Fin 8) : GSem nD τ sig := ((c : Thread nD τ), .dma (yrS k))
abbrev xsCell (c : Dev nD) (k : Fin 8) : GSem nD τ sig := ((c : Thread nD τ), .dma (xsS k))
abbrev xrCell (c : Dev nD) (k : Fin 8) : GSem nD τ sig := ((c : Thread nD τ), .dma (xrS k))

/-- Which of a device's cells a semaphore is. -/
inductive Kind where
  | bar | rdy | ys (k : Fin 8) | yr (k : Fin 8) | xs (k : Fin 8) | xr (k : Fin 8) | other
deriving DecidableEq

def kindOf : SemLoc sig → Kind
  | .reg s => if s.val = 1 then .bar else .rdy
  | .dma q =>
    let k : Fin 8 := ⟨(q.val + 5) % 8, Nat.mod_lt _ (by decide)⟩
    if q.val < 3 then .other else if q.val < 11 then .ys k else if q.val < 19 then .yr k else if q.val < 27 then .xs k else .xr k

theorem kind_bar : kindOf (.reg barS : SemLoc sig) = .bar := by decide
theorem kind_rdy : kindOf (.reg rdyS : SemLoc sig) = .rdy := by decide
theorem kind_ys (k : Fin 8) : kindOf (.dma (ysS k) : SemLoc sig) = .ys k := by revert k; decide
theorem kind_yr (k : Fin 8) : kindOf (.dma (yrS k) : SemLoc sig) = .yr k := by revert k; decide
theorem kind_xs (k : Fin 8) : kindOf (.dma (xsS k) : SemLoc sig) = .xs k := by revert k; decide
theorem kind_xr (k : Fin 8) : kindOf (.dma (xrS k) : SemLoc sig) = .xr k := by revert k; decide

/-- The credit of one 128 × 256 block landing in a receive slot. -/
abbrev N : ℕ := (rSlot 0 0 : Memref sig .tc .vmem S128x256 .bf16).view.dmaCredit
theorem N_pos : 0 < N := View.dmaCredit_pos _ (by decide)

/-! ## Holding a slot -/

/-- Chunk `k` of a device's send buffer, and slot `(j, k)` of its receive buffer, at contents `f` of the whole buffer
    (only the slot's elements are held). -/
def sPts (c : Dev nD) (k : Fin 8) (f : Buf (Elt F) ((c : Thread nD τ).loc cc0_scratch0)) : sProp 𝕄 :=
  (sSlot k : Memref sig .tc .vmem S128x256 .bf16).view.loc (c : Thread nD τ) ↦[(sSlot k : Memref sig .tc .vmem S128x256 .bf16).view.set]{fullShare} f
def rPts (c : Dev nD) (j : Fin 2) (k : Fin 8) (f : Buf (Elt F) ((c : Thread nD τ).loc cc0_scratch1)) : sProp 𝕄 :=
  (rSlot j k : Memref sig .tc .vmem S128x256 .bf16).view.loc (c : Thread nD τ) ↦[(rSlot j k : Memref sig .tc .vmem S128x256 .bf16).view.set]{fullShare} f

/-- The left half share of a receive slot: what a copy that reads the slot is lent while the device keeps reading it. -/
def rPtsL (c : Dev nD) (j : Fin 2) (k : Fin 8) (f : Buf (Elt F) ((c : Thread nD τ).loc cc0_scratch1)) : sProp 𝕄 :=
  (rSlot j k : Memref sig .tc .vmem S128x256 .bf16).view.loc (c : Thread nD τ) ↦[(rSlot j k : Memref sig .tc .vmem S128x256 .bf16).view.set]{fullShare.left} f
/-- The right half share: what the device keeps. -/
def rPtsR (c : Dev nD) (j : Fin 2) (k : Fin 8) (f : Buf (Elt F) ((c : Thread nD τ).loc cc0_scratch1)) : sProp 𝕄 :=
  (rSlot j k : Memref sig .tc .vmem S128x256 .bf16).view.loc (c : Thread nD τ) ↦[(rSlot j k : Memref sig .tc .vmem S128x256 .bf16).view.set]{fullShare.right} f

omit [FloatOps F] in
/-- A held slot is its two half shares. -/
theorem rPts_halves (c : Dev nD) (j : Fin 2) (k : Fin 8) (f : Buf (Elt F) ((c : Thread nD τ).loc cc0_scratch1)) :
    (rPts (F := F) c j k f) ⊣⊢ iprop(rPtsL (F := F) c j k f ∗ rPtsR (F := F) c j k f) := by
  unfold rPts rPtsL rPtsR; exact pointsTo_share (PosShare.mem_left_op_right fullShare)

omit [FloatOps F] in
instance rPtsL_storable (c : Dev nD) (j : Fin 2) (k : Fin 8) (f) : BI.Storable (upEmb : UEmb _ 𝕄) (rPtsL (F := F) c j k f) := by unfold rPtsL; infer_instance

omit [FloatOps F] in
instance sPts_storable (c : Dev nD) (k : Fin 8) (f) : BI.Storable (upEmb : UEmb _ 𝕄) (sPts (F := F) c k f) := by unfold sPts; infer_instance
omit [FloatOps F] in
instance rPts_storable (c : Dev nD) (j : Fin 2) (k : Fin 8) (f) : BI.Storable (upEmb : UEmb _ 𝕄) (rPts (F := F) c j k f) := by unfold rPts; infer_instance

/-- The eight slots of one half of a device's receive buffer, each at some contents. -/
def rHalf (c : Dev nD) (j : Fin 2) : sProp 𝕄 := bigSep Finset.univ fun k : Fin 8 => iprop(∃ f, rPts (F := F) c j k f)

/-! ## The schedule -/

/-- The final contents of a device's send and receive buffers, from the staged inputs of all devices. -/
abbrev SB (c : Dev nD) : (cc0_scratch0 : Ref sig .tc).ty.Contents (Elt F) := sendBuf (Xs m ρ) (DYs m ρ) c
abbrev RB (c : Dev nD) : (cc0_scratch1 : Ref sig .tc).ty.Contents (Elt F) := recvBuf (Xs m ρ) (DYs m ρ) c

/-- What the y neighbour's entry signal hands a device: half 0 of that neighbour's receive buffer, and that the
    neighbour has reached round 0 of its eight receive cells across y. The x neighbour's likewise with half 1. -/
def barPay (c : Dev nD) : sProp 𝕄 :=
  iprop(rHalf (F := F) (ynb c) 0 ∗ bigSep Finset.univ fun k : Fin 8 => reached ER (yrCell (ynb c) k) 0)
def rdyPay (c : Dev nD) : sProp 𝕄 :=
  iprop(rHalf (F := F) (xnb c) 1 ∗ bigSep Finset.univ fun k : Fin 8 => reached ER (xrCell (xnb c) k) 0)

def protoRd : Rounds.Schedule (GSem nD τ sig) Unit 𝕄 where
  duties g r := if r = 0 ∧ g.1.2 = .tc ∧ kindOf g.2 ≠ .other then {()} else ∅
  unitless _ := False
  amount g _ _ := match kindOf g.2 with | .bar => 1 | .rdy => 1 | _ => N
  payload g _ _ := match kindOf g.2 with
    | .bar => barPay g.1.1
    | .rdy => rdyPay g.1.1
    | .ys k => sPts g.1.1 k (SB m ρ g.1.1)
    | .yr k => rPts g.1.1 0 k (RB m ρ g.1.1)
    | .xs k => rPtsL g.1.1 0 k (RB m ρ g.1.1)
    | .xr k => rPts g.1.1 1 k (RB m ρ g.1.1)
    | .other => iprop(emp)
  amount_pos g _ _ _ := by
    cases kindOf g.2 <;> first | exact Nat.one_pos | exact N_pos

instance protoRd_payload_storable (g : GSem nD τ sig) (r : ℕ) (d : Unit) :
    BI.Storable (upEmb : UEmb _ 𝕄) ((protoRd (F := F) m ρ).payload g r d) := by
  show BI.Storable upEmb (match kindOf g.2 with
    | .bar => barPay g.1.1 | .rdy => rdyPay g.1.1 | .ys k => sPts g.1.1 k (SB m ρ g.1.1) | .yr k => rPts g.1.1 0 k (RB m ρ g.1.1)
    | .xs k => rPtsL g.1.1 0 k (RB m ρ g.1.1) | .xr k => rPts g.1.1 1 k (RB m ρ g.1.1) | .other => iprop(emp))
  unfold barPay rdyPay rHalf
  cases kindOf g.2 <;> infer_instance

section Sched
variable (c : Dev nD) (k : Fin 8)

theorem duties_of (g : GSem nD τ sig) (h1 : g.1.2 = .tc) (h2 : kindOf g.2 ≠ .other) : (protoRd (F := F) m ρ).duties g 0 = {()} := by
  dsimp only [protoRd]; exact if_pos ⟨rfl, h1, h2⟩
theorem duties_bar : (protoRd (F := F) m ρ).duties (barCell c) 0 = {()} := duties_of m ρ _ rfl (by rw [kind_bar]; decide)
theorem duties_rdy : (protoRd (F := F) m ρ).duties (rdyCell c) 0 = {()} := duties_of m ρ _ rfl (by rw [kind_rdy]; decide)
theorem duties_ys : (protoRd (F := F) m ρ).duties (ysCell c k) 0 = {()} := duties_of m ρ _ rfl (by rw [kind_ys]; exact fun h => by cases h)
theorem duties_yr : (protoRd (F := F) m ρ).duties (yrCell c k) 0 = {()} := duties_of m ρ _ rfl (by rw [kind_yr]; exact fun h => by cases h)
theorem duties_xs : (protoRd (F := F) m ρ).duties (xsCell c k) 0 = {()} := duties_of m ρ _ rfl (by rw [kind_xs]; exact fun h => by cases h)
theorem duties_xr : (protoRd (F := F) m ρ).duties (xrCell c k) 0 = {()} := duties_of m ρ _ rfl (by rw [kind_xr]; exact fun h => by cases h)
theorem duties_later (g : GSem nD τ sig) : ∀ r, 1 ≤ r → (protoRd (F := F) m ρ).duties g r = ∅ :=
  fun r hr => by dsimp only [protoRd]; exact if_neg fun h => by omega

theorem amount_bar (u : Unit) : (protoRd (F := F) m ρ).amount (barCell c) 0 u = 1 := by dsimp only [protoRd]; rw [kind_bar]
theorem amount_rdy (u : Unit) : (protoRd (F := F) m ρ).amount (rdyCell c) 0 u = 1 := by dsimp only [protoRd]; rw [kind_rdy]
theorem amount_ys (u : Unit) : (protoRd (F := F) m ρ).amount (ysCell c k) 0 u = N := by dsimp only [protoRd]; rw [kind_ys]
theorem amount_yr (u : Unit) : (protoRd (F := F) m ρ).amount (yrCell c k) 0 u = N := by dsimp only [protoRd]; rw [kind_yr]
theorem amount_xs (u : Unit) : (protoRd (F := F) m ρ).amount (xsCell c k) 0 u = N := by dsimp only [protoRd]; rw [kind_xs]
theorem amount_xr (u : Unit) : (protoRd (F := F) m ρ).amount (xrCell c k) 0 u = N := by dsimp only [protoRd]; rw [kind_xr]

theorem expect_bar : (protoRd (F := F) m ρ).expect (barCell c) 0 = 1 := by
  unfold Schedule.expect Schedule.amountOf; rw [duties_bar, Finset.sum_singleton, amount_bar]
theorem expect_rdy : (protoRd (F := F) m ρ).expect (rdyCell c) 0 = 1 := by
  unfold Schedule.expect Schedule.amountOf; rw [duties_rdy, Finset.sum_singleton, amount_rdy]
theorem expect_ys : (protoRd (F := F) m ρ).expect (ysCell c k) 0 = N := by
  unfold Schedule.expect Schedule.amountOf; rw [duties_ys, Finset.sum_singleton, amount_ys]
theorem expect_yr : (protoRd (F := F) m ρ).expect (yrCell c k) 0 = N := by
  unfold Schedule.expect Schedule.amountOf; rw [duties_yr, Finset.sum_singleton, amount_yr]
theorem expect_xs : (protoRd (F := F) m ρ).expect (xsCell c k) 0 = N := by
  unfold Schedule.expect Schedule.amountOf; rw [duties_xs, Finset.sum_singleton, amount_xs]
theorem expect_xr : (protoRd (F := F) m ρ).expect (xrCell c k) 0 = N := by
  unfold Schedule.expect Schedule.amountOf; rw [duties_xr, Finset.sum_singleton, amount_xr]

theorem payload_bar (u : Unit) : (protoRd (F := F) m ρ).payload (barCell c) 0 u = barPay c := by dsimp only [protoRd]; rw [kind_bar]
theorem payload_rdy (u : Unit) : (protoRd (F := F) m ρ).payload (rdyCell c) 0 u = rdyPay c := by dsimp only [protoRd]; rw [kind_rdy]
theorem payload_ys (u : Unit) : (protoRd (F := F) m ρ).payload (ysCell c k) 0 u = sPts c k (SB m ρ c) := by dsimp only [protoRd]; rw [kind_ys]
theorem payload_yr (u : Unit) : (protoRd (F := F) m ρ).payload (yrCell c k) 0 u = rPts c 0 k (RB m ρ c) := by dsimp only [protoRd]; rw [kind_yr]
theorem payload_xs (u : Unit) : (protoRd (F := F) m ρ).payload (xsCell c k) 0 u = rPtsL c 0 k (RB m ρ c) := by dsimp only [protoRd]; rw [kind_xs]
theorem payload_xr (u : Unit) : (protoRd (F := F) m ρ).payload (xrCell c k) 0 u = rPts c 1 k (RB m ρ c) := by dsimp only [protoRd]; rw [kind_xr]

/-- The rest of a cell's one-duty round, nothing taken yet: that duty's payload. -/
theorem rest_bar : bigSep ((protoRd (F := F) m ρ).duties (barCell c) 0 \ ∅) (fun u => (protoRd (F := F) m ρ).payload (barCell c) 0 u) = barPay c := by
  rw [Finset.sdiff_empty, duties_bar, bigSep_singleton, payload_bar]
theorem rest_rdy : bigSep ((protoRd (F := F) m ρ).duties (rdyCell c) 0 \ ∅) (fun u => (protoRd (F := F) m ρ).payload (rdyCell c) 0 u) = rdyPay c := by
  rw [Finset.sdiff_empty, duties_rdy, bigSep_singleton, payload_rdy]
theorem rest_ys : bigSep ((protoRd (F := F) m ρ).duties (ysCell c k) 0 \ ∅) (fun u => (protoRd (F := F) m ρ).payload (ysCell c k) 0 u) = sPts c k (SB m ρ c) := by
  rw [Finset.sdiff_empty, duties_ys, bigSep_singleton, payload_ys]
theorem rest_yr : bigSep ((protoRd (F := F) m ρ).duties (yrCell c k) 0 \ ∅) (fun u => (protoRd (F := F) m ρ).payload (yrCell c k) 0 u) = rPts c 0 k (RB m ρ c) := by
  rw [Finset.sdiff_empty, duties_yr, bigSep_singleton, payload_yr]
theorem rest_xs : bigSep ((protoRd (F := F) m ρ).duties (xsCell c k) 0 \ ∅) (fun u => (protoRd (F := F) m ρ).payload (xsCell c k) 0 u) = rPtsL c 0 k (RB m ρ c) := by
  rw [Finset.sdiff_empty, duties_xs, bigSep_singleton, payload_xs]
theorem rest_xr : bigSep ((protoRd (F := F) m ρ).duties (xrCell c k) 0 \ ∅) (fun u => (protoRd (F := F) m ρ).payload (xrCell c k) 0 u) = rPts c 1 k (RB m ρ c) := by
  rw [Finset.sdiff_empty, duties_xr, bigSep_singleton, payload_xr]

end Sched

/-! ## What each device owes at launch; the levels -/

/-- What a device owes across x: the credit of each of its eight copies to the x neighbour's receive cells, summed so
    that the copies, issued for chunks 0, 1, …, 7 in this order, each peel the LAST summand. -/
def OXe (c : Dev nD) : CellTallies nD τ sig Unit :=
  0 + tallyAt (xrCell (xnb c) (7 : Fin 8)) () N
    + tallyAt (xrCell (xnb c) (6 : Fin 8)) () N
    + tallyAt (xrCell (xnb c) (5 : Fin 8)) () N
    + tallyAt (xrCell (xnb c) (4 : Fin 8)) () N
    + tallyAt (xrCell (xnb c) (3 : Fin 8)) () N
    + tallyAt (xrCell (xnb c) (2 : Fin 8)) () N
    + tallyAt (xrCell (xnb c) (1 : Fin 8)) () N
    + tallyAt (xrCell (xnb c) (0 : Fin 8)) () N
/-- … and on top of that across y: the eight copies to the y neighbour's receive cells (issued before those across x). -/
def OYe (c : Dev nD) : CellTallies nD τ sig Unit :=
  OXe c + tallyAt (yrCell (ynb c) (7 : Fin 8)) () N
    + tallyAt (yrCell (ynb c) (6 : Fin 8)) () N
    + tallyAt (yrCell (ynb c) (5 : Fin 8)) () N
    + tallyAt (yrCell (ynb c) (4 : Fin 8)) () N
    + tallyAt (yrCell (ynb c) (3 : Fin 8)) () N
    + tallyAt (yrCell (ynb c) (2 : Fin 8)) () N
    + tallyAt (yrCell (ynb c) (1 : Fin 8)) () N
    + tallyAt (yrCell (ynb c) (0 : Fin 8)) () N
/-- After the first signal a device owes its x neighbour's ready cell a unit and all sixteen copies; at launch also its
    y neighbour's barrier cell a unit. -/
def O₁ (c : Dev nD) : CellTallies nD τ sig Unit := OYe c + tallyAt (rdyCell (xnb c)) () 1
def O₀ (c : Dev nD) : CellTallies nD τ sig Unit := O₁ c + tallyAt (barCell (ynb c)) () 1

def L (g : GSem nD τ sig) : Finset Unit := if g.1.2 = .tc then {()} else ∅
/-- Barrier cells at 1, ready cells at 2, receive cells across y at 3, across x at 4, everything else (staging, send) at 0. -/
def lv (g : GSem nD τ sig) (_ : Unit) : ℕ :=
  match kindOf g.2 with | .bar => 1 | .rdy => 2 | .yr _ => 3 | .xr _ => 4 | _ => 0
theorem L_of_ne (g : GSem nD τ sig) (h : g.1.2 ≠ .tc) : L g = ∅ := if_neg h
theorem L_tc (c : Dev nD) (sm : SemLoc sig) : L ((c : Thread nD τ), sm) = {()} := if_pos rfl

end Cert.KernelIdeal.Hand

end
-- ==== Proof.Data.lean ====
/- The ghost state a device's body starts from and what it leaves: the proof data of the one-point pipeline. -/
import proofs.«901048_g7700000000001049_dist_rsdw_v7x_xyz2x2x4_y_m512_d512_f2048_bf16_1_alg».proof.Proof.Sched

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells by number -/

/-- A device's thirty-four cells by number: 0 the barrier, 1 the ready semaphore, `2 + j` DMA semaphore `3 + j`
    (send across y, receive across y, send across x, receive across x, eight each). -/
def csem (i : Fin 34) : SemLoc sig :=
  if i.val = 0 then .reg barS else if i.val = 1 then .reg rdyS else .dma ⟨i.val + 1, by have := i.isLt; show _ < 35; omega⟩
abbrev kcell (ck : Dev nD × Fin 34) : GSem nD τ sig := ((ck.1 : Thread nD τ), csem ck.2)

def iBar : Fin 34 := 0
def iRdy : Fin 34 := 1
def iYs (k : Fin 8) : Fin 34 := ⟨2 + k.val, by omega⟩
def iYr (k : Fin 8) : Fin 34 := ⟨10 + k.val, by omega⟩
def iXs (k : Fin 8) : Fin 34 := ⟨18 + k.val, by omega⟩
def iXr (k : Fin 8) : Fin 34 := ⟨26 + k.val, by omega⟩

theorem csem_bar : csem iBar = .reg barS := by decide
theorem csem_rdy : csem iRdy = .reg rdyS := by decide
theorem csem_ys (k : Fin 8) : csem (iYs k) = .dma (ysS k) := by revert k; decide
theorem csem_yr (k : Fin 8) : csem (iYr k) = .dma (yrS k) := by revert k; decide
theorem csem_xs (k : Fin 8) : csem (iXs k) = .dma (xsS k) := by revert k; decide
theorem csem_xr (k : Fin 8) : csem (iXr k) = .dma (xrS k) := by revert k; decide
theorem csem_injective : Function.Injective csem := by decide
theorem kind_csem (i : Fin 34) : kindOf (csem i) ≠ .other := by revert i; decide

/-! ## The ghost state -/

/-- What every device knows, under the names `K` the launch allocated the cells' invariants at: every cell's invariant
    and that round 0 of every cell is reached. -/
def records (K : Dev nD × Fin 34 → ℕ) : sProp 𝕄 :=
  iprop((bigSep Finset.univ fun ck : Dev nD × Fin 34 => cellInv ER (protoRd m ρ) (K ck) (kcell ck))
    ∗ bigSep Finset.univ fun ck : Dev nD × Fin 34 => reached ER (kcell ck) 0)

instance records_persistent (K : Dev nD × Fin 34 → ℕ) : BI.Persistent (records m ρ K) := by unfold records; infer_instance

/-- The tokens of the duties a device pays: its y neighbour's barrier duty, its x neighbour's ready duty, and for each
    chunk its own two send duties and the two neighbours' receive duties. -/
def payToks (c : Dev nD) : sProp 𝕄 :=
  iprop(dutyTok ER (barCell (ynb c)) 0 () ∗ dutyTok ER (rdyCell (xnb c)) 0 ()
    ∗ (bigSep Finset.univ fun k : Fin 8 => dutyTok ER (ysCell c k) 0 ())
    ∗ (bigSep Finset.univ fun k : Fin 8 => dutyTok ER (yrCell (ynb c) k) 0 ())
    ∗ (bigSep Finset.univ fun k : Fin 8 => dutyTok ER (xsCell c k) 0 ())
    ∗ (bigSep Finset.univ fun k : Fin 8 => dutyTok ER (xrCell (xnb c) k) 0 ()))

/-- What stays with a device alone: its position at the start of each of its cells, and the tokens it pays with. -/
def linear (c : Dev nD) : sProp 𝕄 :=
  iprop((bigSep Finset.univ fun i : Fin 34 => atPos ER (kcell (c, i)) 0 ∅ 0) ∗ payToks (F := F) c)

def ghost (K : Dev nD × Fin 34 → ℕ) (c : Dev nD) : sProp 𝕄 := iprop(records m ρ K ∗ linear (F := F) c)

/-- The credit the launch deals a device for the units OTHER devices pay onto its cells: a unit each on the barrier and
    the ready cell, a block's credit on each of its sixteen receive cells. -/
def creds (c : Dev nD) : sProp 𝕄 :=
  iprop(cred (tallyAt (barCell c) () 1) ∗ cred (tallyAt (rdyCell c) () 1)
    ∗ (bigSep Finset.univ fun k : Fin 8 => cred (tallyAt (yrCell c k) () N))
    ∗ (bigSep Finset.univ fun k : Fin 8 => cred (tallyAt (xrCell c k) () N)))

/-- What a device's body starts from besides its buffers: the ghost state at some names, the credit, the level facts. -/
def start (c : Dev nD) : sProp 𝕄 := iprop((∃ K, ghost m ρ K c) ∗ creds (F := F) c ∗ levAts L lv)

/-- Before the point: that, and the two scratch buffers whole at some contents. -/
def Φ₀ (c : Dev nD) : sProp 𝕄 :=
  iprop(start m ρ c ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))
/-- After the point: the two scratch buffers whole again, and the thirty-three scoped cells closed at zero (the barrier
    cell is the runtime's: nothing to hand back). -/
def Φ₁ (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ bigSep (Finset.univ.erase iBar) fun i : Fin 34 => semVal (kcell (c, i)) 0)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The result block a device's body leaves in its output staging buffer. -/
def outAt (c : Dev nD) : (cc0_stg2_0 : Ref sig .tc).ty.Contents (Elt F) := outVal (Xs m ρ) (DYs m ρ) c

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => Xs m ρ c
    | ⟨1, _⟩ => DYs m ρ c
    | ⟨2, _⟩ => outAt m ρ c
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

abbrev 𝒱₀ : Variants := Variants.none

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body obligation hands the body at the one point, and what it wants back. -/
def bodyPre' (c : Dev nD) : sProp 𝕄 :=
  iprop(Φ₀ m ρ c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

def bodyPost (c : Dev nD) : sProp 𝕄 :=
  iprop(Φ₁ (F := F) c ∗ (dats m ρ 0 c).owesAt () t₀.succ ∗ stg c cc0_stg0_0 (Xs m ρ c) ∗ stg c cc0_stg1_0 (DYs m ρ c) ∗ stg c cc0_stg2_0 (outAt m ρ c))

end Cert.KernelIdeal.Hand

end
-- ==== Proof.BodyPre.lean ====
/- The body's starting context, laid out flat: every cell invariant, reached round, position, token and credit the
   body uses as a conjunct of its own, and the three staging buffers, the eight chunks of the send buffer and the two
   halves of the receive buffer as points-to assertions through their views. -/
import proofs.«901048_g7700000000001049_dist_rsdw_v7x_xyz2x2x4_y_m512_d512_f2048_bf16_1_alg».proof.Proof.Data

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What device `c`'s body starts from, under the names `K`: first what is persistent (the invariants of its own
    thirty-four cells and of the eighteen neighbour cells it pays, the rounds it knows reached, the levels), then what
    is not (its positions, the tokens it pays with, its credit, what it owes, its buffers). -/
def bodyFlat (K : Dev nD × Fin 34 → ℕ) (c : Dev nD) (W : Waits sig Unit) (g : Buf (Elt F) ((c : Thread nD τ).loc cc0_stg2_0))
    (fs : Buf (Elt F) ((c : Thread nD τ).loc cc0_scratch0)) : sProp 𝕄 :=
  iprop(cellInv ER (protoRd m ρ) (K (c, iBar)) (barCell c)
      ∗ cellInv ER (protoRd m ρ) (K (c, iRdy)) (rdyCell c)
      ∗ cellInv ER (protoRd m ρ) (K (c, iYs (0 : Fin 8))) (ysCell c (0 : Fin 8))
      ∗ cellInv ER (protoRd m ρ) (K (c, iYs (1 : Fin 8))) (ysCell c (1 : Fin 8))
      ∗ cellInv ER (protoRd m ρ) (K (c, iYs (2 : Fin 8))) (ysCell c (2 : Fin 8))
      ∗ cellInv ER (protoRd m ρ) (K (c, iYs (3 : Fin 8))) (ysCell c (3 : Fin 8))
      ∗ cellInv ER (protoRd m ρ) (K (c, iYs (4 : Fin 8))) (ysCell c (4 : Fin 8))
      ∗ cellInv ER (protoRd m ρ) (K (c, iYs (5 : Fin 8))) (ysCell c (5 : Fin 8))
      ∗ cellInv ER (protoRd m ρ) (K (c, iYs (6 : Fin 8))) (ysCell c (6 : Fin 8))
      ∗ cellInv ER (protoRd m ρ) (K (c, iYs (7 : Fin 8))) (ysCell c (7 : Fin 8))
      ∗ cellInv ER (protoRd m ρ) (K (c, iYr (0 : Fin 8))) (yrCell c (0 : Fin 8))
      ∗ cellInv ER (protoRd m ρ) (K (c, iYr (1 : Fin 8))) (yrCell c (1 : Fin 8))
      ∗ cellInv ER (protoRd m ρ) (K (c, iYr (2 : Fin 8))) (yrCell c (2 : Fin 8))
      ∗ cellInv ER (protoRd m ρ) (K (c, iYr (3 : Fin 8))) (yrCell c (3 : Fin 8))
      ∗ cellInv ER (protoRd m ρ) (K (c, iYr (4 : Fin 8))) (yrCell c (4 : Fin 8))
      ∗ cellInv ER (protoRd m ρ) (K (c, iYr (5 : Fin 8))) (yrCell c (5 : Fin 8))
      ∗ cellInv ER (protoRd m ρ) (K (c, iYr (6 : Fin 8))) (yrCell c (6 : Fin 8))
      ∗ cellInv ER (protoRd m ρ) (K (c, iYr (7 : Fin 8))) (yrCell c (7 : Fin 8))
      ∗ cellInv ER (protoRd m ρ) (K (c, iXs (0 : Fin 8))) (xsCell c (0 : Fin 8))
      ∗ cellInv ER (protoRd m ρ) (K (c, iXs (1 : Fin 8))) (xsCell c (1 : Fin 8))
      ∗ cellInv ER (protoRd m ρ) (K (c, iXs (2 : Fin 8))) (xsCell c (2 : Fin 8))
      ∗ cellInv ER (protoRd m ρ) (K (c, iXs (3 : Fin 8))) (xsCell c (3 : Fin 8))
      ∗ cellInv ER (protoRd m ρ) (K (c, iXs (4 : Fin 8))) (xsCell c (4 : Fin 8))
      ∗ cellInv ER (protoRd m ρ) (K (c, iXs (5 : Fin 8))) (xsCell c (5 : Fin 8))
      ∗ cellInv ER (protoRd m ρ) (K (c, iXs (6 : Fin 8))) (xsCell c (6 : Fin 8))
      ∗ cellInv ER (protoRd m ρ) (K (c, iXs (7 : Fin 8))) (xsCell c (7 : Fin 8))
      ∗ cellInv ER (protoRd m ρ) (K (c, iXr (0 : Fin 8))) (xrCell c (0 : Fin 8))
      ∗ cellInv ER (protoRd m ρ) (K (c, iXr (1 : Fin 8))) (xrCell c (1 : Fin 8))
      ∗ cellInv ER (protoRd m ρ) (K (c, iXr (2 : Fin 8))) (xrCell c (2 : Fin 8))
      ∗ cellInv ER (protoRd m ρ) (K (c, iXr (3 : Fin 8))) (xrCell c (3 : Fin 8))
      ∗ cellInv ER (protoRd m ρ) (K (c, iXr (4 : Fin 8))) (xrCell c (4 : Fin 8))
      ∗ cellInv ER (protoRd m ρ) (K (c, iXr (5 : Fin 8))) (xrCell c (5 : Fin 8))
      ∗ cellInv ER (protoRd m ρ) (K (c, iXr (6 : Fin 8))) (xrCell c (6 : Fin 8))
      ∗ cellInv ER (protoRd m ρ) (K (c, iXr (7 : Fin 8))) (xrCell c (7 : Fin 8))
      ∗ cellInv ER (protoRd m ρ) (K (ynb c, iBar)) (barCell (ynb c))
      ∗ cellInv ER (protoRd m ρ) (K (xnb c, iRdy)) (rdyCell (xnb c))
      ∗ cellInv ER (protoRd m ρ) (K (ynb c, iYr (0 : Fin 8))) (yrCell (ynb c) (0 : Fin 8))
      ∗ cellInv ER (protoRd m ρ) (K (ynb c, iYr (1 : Fin 8))) (yrCell (ynb c) (1 : Fin 8))
      ∗ cellInv ER (protoRd m ρ) (K (ynb c, iYr (2 : Fin 8))) (yrCell (ynb c) (2 : Fin 8))
      ∗ cellInv ER (protoRd m ρ) (K (ynb c, iYr (3 : Fin 8))) (yrCell (ynb c) (3 : Fin 8))
      ∗ cellInv ER (protoRd m ρ) (K (ynb c, iYr (4 : Fin 8))) (yrCell (ynb c) (4 : Fin 8))
      ∗ cellInv ER (protoRd m ρ) (K (ynb c, iYr (5 : Fin 8))) (yrCell (ynb c) (5 : Fin 8))
      ∗ cellInv ER (protoRd m ρ) (K (ynb c, iYr (6 : Fin 8))) (yrCell (ynb c) (6 : Fin 8))
      ∗ cellInv ER (protoRd m ρ) (K (ynb c, iYr (7 : Fin 8))) (yrCell (ynb c) (7 : Fin 8))
      ∗ cellInv ER (protoRd m ρ) (K (xnb c, iXr (0 : Fin 8))) (xrCell (xnb c) (0 : Fin 8))
      ∗ cellInv ER (protoRd m ρ) (K (xnb c, iXr (1 : Fin 8))) (xrCell (xnb c) (1 : Fin 8))
      ∗ cellInv ER (protoRd m ρ) (K (xnb c, iXr (2 : Fin 8))) (xrCell (xnb c) (2 : Fin 8))
      ∗ cellInv ER (protoRd m ρ) (K (xnb c, iXr (3 : Fin 8))) (xrCell (xnb c) (3 : Fin 8))
      ∗ cellInv ER (protoRd m ρ) (K (xnb c, iXr (4 : Fin 8))) (xrCell (xnb c) (4 : Fin 8))
      ∗ cellInv ER (protoRd m ρ) (K (xnb c, iXr (5 : Fin 8))) (xrCell (xnb c) (5 : Fin 8))
      ∗ cellInv ER (protoRd m ρ) (K (xnb c, iXr (6 : Fin 8))) (xrCell (xnb c) (6 : Fin 8))
      ∗ cellInv ER (protoRd m ρ) (K (xnb c, iXr (7 : Fin 8))) (xrCell (xnb c) (7 : Fin 8))
      ∗ reached ER (barCell (ynb c)) 0
      ∗ reached ER (rdyCell (xnb c)) 0
      ∗ reached ER (ysCell c (0 : Fin 8)) 0
      ∗ reached ER (ysCell c (1 : Fin 8)) 0
      ∗ reached ER (ysCell c (2 : Fin 8)) 0
      ∗ reached ER (ysCell c (3 : Fin 8)) 0
      ∗ reached ER (ysCell c (4 : Fin 8)) 0
      ∗ reached ER (ysCell c (5 : Fin 8)) 0
      ∗ reached ER (ysCell c (6 : Fin 8)) 0
      ∗ reached ER (ysCell c (7 : Fin 8)) 0
      ∗ reached ER (xsCell c (0 : Fin 8)) 0
      ∗ reached ER (xsCell c (1 : Fin 8)) 0
      ∗ reached ER (xsCell c (2 : Fin 8)) 0
      ∗ reached ER (xsCell c (3 : Fin 8)) 0
      ∗ reached ER (xsCell c (4 : Fin 8)) 0
      ∗ reached ER (xsCell c (5 : Fin 8)) 0
      ∗ reached ER (xsCell c (6 : Fin 8)) 0
      ∗ reached ER (xsCell c (7 : Fin 8)) 0
      ∗ (bigSep Finset.univ fun k : Fin 8 => reached ER (yrCell c k) 0)
      ∗ (bigSep Finset.univ fun k : Fin 8 => reached ER (xrCell c k) 0)
      ∗ levAts L lv
      ∗ atPos ER (barCell c) 0 ∅ 0
      ∗ atPos ER (rdyCell c) 0 ∅ 0
      ∗ atPos ER (ysCell c (0 : Fin 8)) 0 ∅ 0
      ∗ atPos ER (ysCell c (1 : Fin 8)) 0 ∅ 0
      ∗ atPos ER (ysCell c (2 : Fin 8)) 0 ∅ 0
      ∗ atPos ER (ysCell c (3 : Fin 8)) 0 ∅ 0
      ∗ atPos ER (ysCell c (4 : Fin 8)) 0 ∅ 0
      ∗ atPos ER (ysCell c (5 : Fin 8)) 0 ∅ 0
      ∗ atPos ER (ysCell c (6 : Fin 8)) 0 ∅ 0
      ∗ atPos ER (ysCell c (7 : Fin 8)) 0 ∅ 0
      ∗ atPos ER (yrCell c (0 : Fin 8)) 0 ∅ 0
      ∗ atPos ER (yrCell c (1 : Fin 8)) 0 ∅ 0
      ∗ atPos ER (yrCell c (2 : Fin 8)) 0 ∅ 0
      ∗ atPos ER (yrCell c (3 : Fin 8)) 0 ∅ 0
      ∗ atPos ER (yrCell c (4 : Fin 8)) 0 ∅ 0
      ∗ atPos ER (yrCell c (5 : Fin 8)) 0 ∅ 0
      ∗ atPos ER (yrCell c (6 : Fin 8)) 0 ∅ 0
      ∗ atPos ER (yrCell c (7 : Fin 8)) 0 ∅ 0
      ∗ atPos ER (xsCell c (0 : Fin 8)) 0 ∅ 0
      ∗ atPos ER (xsCell c (1 : Fin 8)) 0 ∅ 0
      ∗ atPos ER (xsCell c (2 : Fin 8)) 0 ∅ 0
      ∗ atPos ER (xsCell c (3 : Fin 8)) 0 ∅ 0
      ∗ atPos ER (xsCell c (4 : Fin 8)) 0 ∅ 0
      ∗ atPos ER (xsCell c (5 : Fin 8)) 0 ∅ 0
      ∗ atPos ER (xsCell c (6 : Fin 8)) 0 ∅ 0
      ∗ atPos ER (xsCell c (7 : Fin 8)) 0 ∅ 0
      ∗ atPos ER (xrCell c (0 : Fin 8)) 0 ∅ 0
      ∗ atPos ER (xrCell c (1 : Fin 8)) 0 ∅ 0
      ∗ atPos ER (xrCell c (2 : Fin 8)) 0 ∅ 0
      ∗ atPos ER (xrCell c (3 : Fin 8)) 0 ∅ 0
      ∗ atPos ER (xrCell c (4 : Fin 8)) 0 ∅ 0
      ∗ atPos ER (xrCell c (5 : Fin 8)) 0 ∅ 0
      ∗ atPos ER (xrCell c (6 : Fin 8)) 0 ∅ 0
      ∗ atPos ER (xrCell c (7 : Fin 8)) 0 ∅ 0
      ∗ dutyTok ER (barCell (ynb c)) 0 ()
      ∗ dutyTok ER (rdyCell (xnb c)) 0 ()
      ∗ dutyTok ER (ysCell c (0 : Fin 8)) 0 ()
      ∗ dutyTok ER (ysCell c (1 : Fin 8)) 0 ()
      ∗ dutyTok ER (ysCell c (2 : Fin 8)) 0 ()
      ∗ dutyTok ER (ysCell c (3 : Fin 8)) 0 ()
      ∗ dutyTok ER (ysCell c (4 : Fin 8)) 0 ()
      ∗ dutyTok ER (ysCell c (5 : Fin 8)) 0 ()
      ∗ dutyTok ER (ysCell c (6 : Fin 8)) 0 ()
      ∗ dutyTok ER (ysCell c (7 : Fin 8)) 0 ()
      ∗ dutyTok ER (yrCell (ynb c) (0 : Fin 8)) 0 ()
      ∗ dutyTok ER (yrCell (ynb c) (1 : Fin 8)) 0 ()
      ∗ dutyTok ER (yrCell (ynb c) (2 : Fin 8)) 0 ()
      ∗ dutyTok ER (yrCell (ynb c) (3 : Fin 8)) 0 ()
      ∗ dutyTok ER (yrCell (ynb c) (4 : Fin 8)) 0 ()
      ∗ dutyTok ER (yrCell (ynb c) (5 : Fin 8)) 0 ()
      ∗ dutyTok ER (yrCell (ynb c) (6 : Fin 8)) 0 ()
      ∗ dutyTok ER (yrCell (ynb c) (7 : Fin 8)) 0 ()
      ∗ dutyTok ER (xsCell c (0 : Fin 8)) 0 ()
      ∗ dutyTok ER (xsCell c (1 : Fin 8)) 0 ()
      ∗ dutyTok ER (xsCell c (2 : Fin 8)) 0 ()
      ∗ dutyTok ER (xsCell c (3 : Fin 8)) 0 ()
      ∗ dutyTok ER (xsCell c (4 : Fin 8)) 0 ()
      ∗ dutyTok ER (xsCell c (5 : Fin 8)) 0 ()
      ∗ dutyTok ER (xsCell c (6 : Fin 8)) 0 ()
      ∗ dutyTok ER (xsCell c (7 : Fin 8)) 0 ()
      ∗ dutyTok ER (xrCell (xnb c) (0 : Fin 8)) 0 ()
      ∗ dutyTok ER (xrCell (xnb c) (1 : Fin 8)) 0 ()
      ∗ dutyTok ER (xrCell (xnb c) (2 : Fin 8)) 0 ()
      ∗ dutyTok ER (xrCell (xnb c) (3 : Fin 8)) 0 ()
      ∗ dutyTok ER (xrCell (xnb c) (4 : Fin 8)) 0 ()
      ∗ dutyTok ER (xrCell (xnb c) (5 : Fin 8)) 0 ()
      ∗ dutyTok ER (xrCell (xnb c) (6 : Fin 8)) 0 ()
      ∗ dutyTok ER (xrCell (xnb c) (7 : Fin 8)) 0 ()
      ∗ cred (tallyAt (barCell c) () 1)
      ∗ cred (tallyAt (rdyCell c) () 1)
      ∗ cred (tallyAt (yrCell c (0 : Fin 8)) () N)
      ∗ cred (tallyAt (yrCell c (1 : Fin 8)) () N)
      ∗ cred (tallyAt (yrCell c (2 : Fin 8)) () N)
      ∗ cred (tallyAt (yrCell c (3 : Fin 8)) () N)
      ∗ cred (tallyAt (yrCell c (4 : Fin 8)) () N)
      ∗ cred (tallyAt (yrCell c (5 : Fin 8)) () N)
      ∗ cred (tallyAt (yrCell c (6 : Fin 8)) () N)
      ∗ cred (tallyAt (yrCell c (7 : Fin 8)) () N)
      ∗ cred (tallyAt (xrCell c (0 : Fin 8)) () N)
      ∗ cred (tallyAt (xrCell c (1 : Fin 8)) () N)
      ∗ cred (tallyAt (xrCell c (2 : Fin 8)) () N)
      ∗ cred (tallyAt (xrCell c (3 : Fin 8)) () N)
      ∗ cred (tallyAt (xrCell c (4 : Fin 8)) () N)
      ∗ cred (tallyAt (xrCell c (5 : Fin 8)) () N)
      ∗ cred (tallyAt (xrCell c (6 : Fin 8)) () N)
      ∗ cred (tallyAt (xrCell c (7 : Fin 8)) () N)
      ∗ owes (c : Thread nD τ) (O₀ c) W
      ∗ ((xM : Memref sig .tc .vmem S512x512 .f32).view.loc (c : Thread nD τ) ↦[(xM : Memref sig .tc .vmem S512x512 .f32).view.set]{fullShare} Xs m ρ c)
      ∗ ((dyM : Memref sig .tc .vmem S512x2048 .f32).view.loc (c : Thread nD τ) ↦[(dyM : Memref sig .tc .vmem S512x2048 .f32).view.set]{fullShare} DYs m ρ c)
      ∗ ((oM : Memref sig .tc .vmem S256x2048 .f32).view.loc (c : Thread nD τ) ↦[(oM : Memref sig .tc .vmem S256x2048 .f32).view.set]{fullShare} g)
      ∗ sPts c (0 : Fin 8) fs
      ∗ sPts c (1 : Fin 8) fs
      ∗ sPts c (2 : Fin 8) fs
      ∗ sPts c (3 : Fin 8) fs
      ∗ sPts c (4 : Fin 8) fs
      ∗ sPts c (5 : Fin 8) fs
      ∗ sPts c (6 : Fin 8) fs
      ∗ sPts c (7 : Fin 8) fs
      ∗ rHalf (F := F) c 0
      ∗ rHalf (F := F) c 1)

end Cert.KernelIdeal.Hand

end
-- ==== Proof.StepsCopy.lean ====
/- The steps of a device's body that move one 128 × 256 block.
   Eight copies go across y: chunk k of the send buffer lands in slot (0, k) of the y neighbour's receive buffer.
   Eight go across x: the device's own slot (0, k) lands in slot (1, k) of the x neighbour's receive buffer.
   Each copy is stated with the contents it lands: on the slot it writes, what arrives is what the receiver's
   finished receive buffer holds there. Loads and stores address a whole scratch buffer at one slot's rectangle
   while only that slot's elements are held; a squeeze keeps a view's elements, so the slot's elements are the
   rectangle's. Last, a scratch buffer held whole is its slots held one by one. -/
import proofs.«901048_g7700000000001049_dist_rsdw_v7x_xyz2x2x4_y_m512_d512_f2048_bf16_1_alg».proof.Proof.Data
import Idealize.ShloMosaic.Lib.ValueLayout
import Idealize.ShloMosaic.Lib.Pipeline.Value
import Idealize.ShloMosaic.Rules.PointsTo

noncomputable section

namespace Cert.KernelIdeal.Hand

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The slots as sets of buffer elements -/

omit [FloatOps F] in
/-- A squeeze keeps the elements: a slot's view covers its rectangle's elements. -/
theorem slot_set_s (k : Fin 8) :
    (sSlot k : Memref sig .tc .vmem S128x256 .bf16).view.set
      = ((sM : Memref sig .tc .vmem S8x128x256 .bf16).access (sRect k) : View sig .tc _ _ _).set :=
  View.set_reshape _ _
omit [FloatOps F] in
theorem slot_set_r (j : Fin 2) (k : Fin 8) :
    (rSlot j k : Memref sig .tc .vmem S128x256 .bf16).view.set
      = ((rM : Memref sig .tc .vmem S2x8x128x256 .bf16).access (rRect j k) : View sig .tc _ _ _).set :=
  View.set_reshape _ _

omit [FloatOps F] in
/-- Element (x, y) of chunk k's block is element (k, x, y) of the send buffer. -/
theorem sSlot_emb (k : Fin 8) (x : Fin 128) (y : Fin 256) :
    (sSlot k : Memref sig .tc .vmem S128x256 .bf16).view.emb (ix2 x y) = ix3 k x y := by
  show (sRect k).emb (Shape.reshapeEquiv _ (ix2 x y)) = _
  rw [reshapeEquiv_ix2_1ab]
  funext a
  apply Fin.ext
  rw [Rect.emb_apply]
  fin_cases a <;> simp

omit [FloatOps F] in
/-- Element (x, y) of slot (j, k)'s block is element (j, k, x, y) of the receive buffer. -/
theorem rSlot_emb (j : Fin 2) (k : Fin 8) (x : Fin 128) (y : Fin 256) :
    (rSlot j k : Memref sig .tc .vmem S128x256 .bf16).view.emb (ix2 x y) = ix4 j k x y := by
  show (rRect j k).emb (Shape.reshapeEquiv _ (ix2 x y)) = _
  rw [reshapeEquiv_ix2_11ab]
  funext a
  apply Fin.ext
  rw [Rect.emb_apply]
  fin_cases a <;> simp

/-! ## Loads and stores through the whole scratch memrefs while one slot is held -/

/-- A load of chunk k through the whole send buffer, holding only that chunk. -/
theorem wp_load_s (c : Dev nD) (k : Fin 8)
    {hl : (sM : Memref sig .tc .vmem S8x128x256 .bf16).view.LoadsAt (sRect k).toLoadRect}
    {α : Type} {Q : α → sProp 𝕄}
    {kont : ((sRect k).toLoadRect.shape.Idx → Elt F .bf16) → Prog (TpuEff nD τ sig (Elt F) Λ₀ .tc) α}
    (f : Buf (Elt F) ((c : Thread nD τ).loc cc0_scratch0)) :
    sPts c k f
      ⊢ iprop((sPts c k f -∗ wp frame (wpE (defs₀ (F := F)) 𝒱₀ (c : Thread nD τ) none) Set.univ
            (kont ((sM : Memref sig .tc .vmem S8x128x256 .bf16).view.readAt (Elt F) (sRect k).toLoadRect f)) Q)
        -∗ wp frame (wpE (defs₀ (F := F)) 𝒱₀ (c : Thread nD τ) none) Set.univ (.op (.load sM (sRect k).toLoadRect hl) kont) Q) := by
  unfold sPts
  exact wp_load 𝒱₀ (c : Thread nD τ) none Set.univ (m := (sM : Memref sig .tc .vmem S8x128x256 .bf16)) (r := (sRect k).toLoadRect)
    (by rw [slot_set_s, View.set_slice]; exact Finset.Subset.refl _)

/-- A load of slot (j, k) through the whole receive buffer, holding only that slot. -/
theorem wp_load_r (c : Dev nD) (j : Fin 2) (k : Fin 8)
    {hl : (rM : Memref sig .tc .vmem S2x8x128x256 .bf16).view.LoadsAt (rRect j k).toLoadRect}
    {α : Type} {Q : α → sProp 𝕄}
    {kont : ((rRect j k).toLoadRect.shape.Idx → Elt F .bf16) → Prog (TpuEff nD τ sig (Elt F) Λ₀ .tc) α}
    (f : Buf (Elt F) ((c : Thread nD τ).loc cc0_scratch1)) :
    rPts c j k f
      ⊢ iprop((rPts c j k f -∗ wp frame (wpE (defs₀ (F := F)) 𝒱₀ (c : Thread nD τ) none) Set.univ
            (kont ((rM : Memref sig .tc .vmem S2x8x128x256 .bf16).view.readAt (Elt F) (rRect j k).toLoadRect f)) Q)
        -∗ wp frame (wpE (defs₀ (F := F)) 𝒱₀ (c : Thread nD τ) none) Set.univ (.op (.load rM (rRect j k).toLoadRect hl) kont) Q) := by
  unfold rPts
  exact wp_load 𝒱₀ (c : Thread nD τ) none Set.univ (m := (rM : Memref sig .tc .vmem S2x8x128x256 .bf16)) (r := (rRect j k).toLoadRect)
    (by rw [slot_set_r, View.set_slice]; exact Finset.Subset.refl _)

/-- A store of a whole chunk through the whole send buffer, holding only that chunk. -/
theorem wp_store_s (c : Dev nD) (k : Fin 8) (w : (sRect k).shape.Idx → Elt F .bf16)
    {hx : ((sM : Memref sig .tc .vmem S8x128x256 .bf16).access (sRect k) : View sig .tc _ _ _).Stores Finset.univ}
    {hm : (Finset.univ : Finset (sRect k).shape.Idx) = Finset.univ ∨ ∀ a, (sRect k).stride a = 1}
    {α : Type} {Q : α → sProp 𝕄} {kont : PUnit → Prog (TpuEff nD τ sig (Elt F) Λ₀ .tc) α}
    (f : Buf (Elt F) ((c : Thread nD τ).loc cc0_scratch0)) :
    sPts c k f
      ⊢ iprop((sPts c k (((sM : Memref sig .tc .vmem S8x128x256 .bf16).access (sRect k) : View sig .tc _ _ _).write (Elt F) f w Finset.univ)
            -∗ wp frame (wpE (defs₀ (F := F)) 𝒱₀ (c : Thread nD τ) none) Set.univ (kont ⟨⟩) Q)
        -∗ wp frame (wpE (defs₀ (F := F)) 𝒱₀ (c : Thread nD τ) none) Set.univ (.op (.store sM (sRect k) w Finset.univ hx hm) kont) Q) := by
  unfold sPts
  exact wp_store 𝒱₀ (c : Thread nD τ) none Set.univ (m := (sM : Memref sig .tc .vmem S8x128x256 .bf16)) (r := sRect k) (w := w) (Mk := Finset.univ)
    (by rw [View.setOn_univ, slot_set_s])

/-! ## What a store and a landing leave in a slot -/

omit [FloatOps F] in
theorem sSlot_emb' (k : Fin 8) (x : S128x256.Idx) :
    (sSlot k : Memref sig .tc .vmem S128x256 .bf16).view.emb x = ix3 k (x 0) (x 1) :=
  (congrArg (sSlot k : Memref sig .tc .vmem S128x256 .bf16).view.emb (eq_ix2 x)).trans (sSlot_emb k (x 0) (x 1))
omit [FloatOps F] in
theorem rSlot_emb' (j : Fin 2) (k : Fin 8) (x : S128x256.Idx) :
    (rSlot j k : Memref sig .tc .vmem S128x256 .bf16).view.emb x = ix4 j k (x 0) (x 1) :=
  (congrArg (rSlot j k : Memref sig .tc .vmem S128x256 .bf16).view.emb (eq_ix2 x)).trans (rSlot_emb j k (x 0) (x 1))

/-- Once chunk k's product is stored, the chunk holds what the finished send buffer holds there. -/
theorem store_is_chunk (c : Dev nD) (k : Fin 8) (f : Buf (Elt F) ((c : Thread nD τ).loc cc0_scratch0)) :
    sPts c k (((sM : Memref sig .tc .vmem S8x128x256 .bf16).access (sRect k) : View sig .tc _ _ _).write (Elt F) f
        (sendChunk (Xs m ρ) (DYs m ρ) c k) Finset.univ)
      ⊢ sPts c k (SB m ρ c) := by
  unfold sPts
  refine Entails.of_eq (BI.Region.is_congr fun i hi => ?_)
  rw [slot_set_s] at hi
  obtain ⟨z, rfl⟩ := View.exists_emb_of_mem_set _ hi
  rw [View.write_emb_of_mem _ _ (Finset.mem_univ z)]
  show sendChunk (Xs m ρ) (DYs m ρ) c k z = sendBuf (Xs m ρ) (DYs m ρ) c ((sRect k).emb z)
  unfold sendBuf
  have h0 : (sRect k).emb z 0 = k := Fin.ext (by
    rw [Rect.emb_apply]; have := (z 0).isLt
    show k.val + 1 * (z 0).val = k.val
    change (z 0).val < 1 at this; omega)
  have h1 : (sRect k).emb z 1 = z 1 := Fin.ext (by rw [Rect.emb_apply]; show 0 + 1 * (z 1).val = (z 1).val; omega)
  have h2 : (sRect k).emb z 2 = z 2 := Fin.ext (by rw [Rect.emb_apply]; show 0 + 1 * (z 2).val = (z 2).val; omega)
  rw [h0, h1, h2]
  have hz : z = ix3 (n1 := 128) (n2 := 256) (0 : Fin 1) (z 1) (z 2) := by
    funext a
    fin_cases a
    · exact Fin.ext (by have := (z 0).isLt; change (z 0).val < 1 at this; show (z 0).val = 0; omega)
    · rfl
    · rfl
  exact congrArg (sendChunk (Xs m ρ) (DYs m ρ) c k) hz

/-- What lands in slot (0, k) of the y neighbour is what its finished receive buffer holds there. -/
theorem landing_y (c : Dev nD) (k : Fin 8) (fn : Buf (Elt F) ((ynb c : Thread nD τ).loc cc0_scratch1)) :
    ∀ i ∈ (rSlot 0 k : Memref sig .tc .vmem S128x256 .bf16).view.set,
      (rSlot 0 k : Memref sig .tc .vmem S128x256 .bf16).view.write (Elt F) fn
          ((sSlot k : Memref sig .tc .vmem S128x256 .bf16).view.read (Elt F) (SB m ρ c)) Finset.univ i
        = RB m ρ (ynb c) i := by
  intro i hi
  obtain ⟨x, rfl⟩ := View.exists_emb_of_mem_set _ hi
  rw [View.write_emb_of_mem _ _ (Finset.mem_univ x), View.read_apply, rSlot_emb', sSlot_emb']
  show sendBuf (Xs m ρ) (DYs m ρ) c (ix3 k (x 0) (x 1)) = recvBuf (Xs m ρ) (DYs m ρ) (ynb c) (ix4 (0 : Fin 2) k (x 0) (x 1))
  have h0 : recvBuf (Xs m ρ) (DYs m ρ) (ynb c) (ix4 (0 : Fin 2) k (x 0) (x 1))
      = sendBuf (Xs m ρ) (DYs m ρ) (ynb (ynb c)) (ix3 k (x 0) (x 1)) := if_pos rfl
  exact (h0.trans (congrFun (congrArg (sendBuf (Xs m ρ) (DYs m ρ)) (ynb_ynb c)) _)).symm

/-- What lands in slot (1, k) of the x neighbour is what its finished receive buffer holds there. -/
theorem landing_x (c : Dev nD) (k : Fin 8) (fn : Buf (Elt F) ((xnb c : Thread nD τ).loc cc0_scratch1)) :
    ∀ i ∈ (rSlot 1 k : Memref sig .tc .vmem S128x256 .bf16).view.set,
      (rSlot 1 k : Memref sig .tc .vmem S128x256 .bf16).view.write (Elt F) fn
          ((rSlot 0 k : Memref sig .tc .vmem S128x256 .bf16).view.read (Elt F) (RB m ρ c)) Finset.univ i
        = RB m ρ (xnb c) i := by
  intro i hi
  obtain ⟨x, rfl⟩ := View.exists_emb_of_mem_set _ hi
  rw [View.write_emb_of_mem _ _ (Finset.mem_univ x), View.read_apply, rSlot_emb', rSlot_emb']
  show recvBuf (Xs m ρ) (DYs m ρ) c (ix4 (0 : Fin 2) k (x 0) (x 1)) = recvBuf (Xs m ρ) (DYs m ρ) (xnb c) (ix4 (1 : Fin 2) k (x 0) (x 1))
  have h0 : recvBuf (Xs m ρ) (DYs m ρ) c (ix4 (0 : Fin 2) k (x 0) (x 1))
      = sendBuf (Xs m ρ) (DYs m ρ) (ynb c) (ix3 k (x 0) (x 1)) := if_pos rfl
  have h1 : recvBuf (Xs m ρ) (DYs m ρ) (xnb c) (ix4 (1 : Fin 2) k (x 0) (x 1))
      = sendBuf (Xs m ρ) (DYs m ρ) (ynb (xnb (xnb c))) (ix3 k (x 0) (x 1)) := if_neg Nat.one_ne_zero
  exact h0.trans ((congrFun (congrArg (fun d => sendBuf (Xs m ρ) (DYs m ρ) (ynb d)) (xnb_xnb c)) _).symm.trans h1.symm)

/-! ## The remote copies -/

/-- The copy of chunk k across y: the send-buffer chunk, held at its final contents, goes to slot (0, k) of the y
    neighbour, which the sender holds; the sender's send cell will hand the chunk back, the neighbour's receive cell
    hands the neighbour the slot at its final contents. -/
theorem wp_ysend (K : Dev nD × Fin 34 → ℕ) (c n : Dev nD) (hn : n = ynb c) (k : Fin 8)
    {hsc : (rSlot 0 k : Memref sig (Dev.tc n : Thread nD τ).2.kind .vmem S128x256 .bf16).view.ref.isScScratch = false}
    {hsrc : (sSlot k : Memref sig .tc .vmem S128x256 .bf16).view.WordExact}
    {hdst : (rSlot 0 k : Memref sig .tc .vmem S128x256 .bf16).view.WordExact}
    {hsem : DmaTarget.Typed .vmem (.dma (yrS k)) (.remote (Dev.tc n : Thread nD τ) (rSlot 0 k : Memref sig .tc .vmem S128x256 .bf16) (.dma (ysS k)) hsc)}
    {α : Type} {Q : α → sProp 𝕄} {kont : PUnit → Prog (TpuEff nD τ sig (Elt F) Λ₀ .tc) α}
    (fn : Buf (Elt F) ((ynb c : Thread nD τ).loc cc0_scratch1)) (O : CellTallies nD τ sig Unit) (W : Waits sig Unit) :
    iprop(cellInv ER (protoRd m ρ) (K (c, iYs k)) (ysCell c k) ∗ cellInv ER (protoRd m ρ) (K (ynb c, iYr k)) (yrCell (ynb c) k)
        ∗ sPts c k (SB m ρ c) ∗ rPts (ynb c) 0 k fn
        ∗ owes (c : Thread nD τ) (O + tallyAt (yrCell (ynb c) k) () N) W
        ∗ dutyTok ER (ysCell c k) 0 () ∗ reached ER (ysCell c k) 0
        ∗ dutyTok ER (yrCell (ynb c) k) 0 () ∗ reached ER (yrCell (ynb c) k) 0)
      ⊢ iprop(((cred (tallyAt (ysCell c k) () N) ∗ owes (c : Thread nD τ) O W)
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (sSlot k) (.remote (Dev.tc n : Thread nD τ) (rSlot 0 k) (.dma (ysS k)) hsc) (.dma (yrS k)) hsrc hdst hsem) kont) Q) := by
  subst hn
  unfold sPts rPts
  exact Rounds.wp_send_pointsTo 𝒱₀ ER (protoRd m ρ) (c : Thread nD τ) none
    (c' := (ynb c : Thread nD τ)) (src := (sSlot k : Memref sig .tc .vmem S128x256 .bf16)) (dst := (rSlot 0 k : Memref sig .tc .vmem S128x256 .bf16))
    (q := fullShare) (fs := SB m ρ c) (fd := fn)
    (κ₁ := K (c, iYs k)) (κ₂ := K (ynb c, iYr k)) (r₁ := 0) (r₂ := 0) (d₁ := ()) (d₂ := ())
    (by rw [duties_ys]; exact Finset.mem_singleton_self _) (by rw [duties_yr]; exact Finset.mem_singleton_self _)
    () () N rfl (amount_ys m ρ c k ()) (amount_yr m ρ (ynb c) k ()) O rfl (W := W)
    (by rw [payload_ys]; exact Entails.of_eq rfl)
    (by rw [payload_yr]; exact Entails.of_eq (BI.Region.is_congr (landing_y m ρ c k fn)))
    (routes_ynb c)

/-- The copy of chunk k across x: slot (0, k) of the own receive buffer, of which the left half share is lent to the
    copy at its final contents (the device keeps the right half and goes on reading the slot), goes to slot (1, k) of
    the x neighbour. -/
theorem wp_xsend (K : Dev nD × Fin 34 → ℕ) (c n : Dev nD) (hn : n = xnb c) (k : Fin 8)
    {hsc : (rSlot 1 k : Memref sig (Dev.tc n : Thread nD τ).2.kind .vmem S128x256 .bf16).view.ref.isScScratch = false}
    {hsrc : (rSlot 0 k : Memref sig .tc .vmem S128x256 .bf16).view.WordExact}
    {hdst : (rSlot 1 k : Memref sig .tc .vmem S128x256 .bf16).view.WordExact}
    {hsem : DmaTarget.Typed .vmem (.dma (xrS k)) (.remote (Dev.tc n : Thread nD τ) (rSlot 1 k : Memref sig .tc .vmem S128x256 .bf16) (.dma (xsS k)) hsc)}
    {α : Type} {Q : α → sProp 𝕄} {kont : PUnit → Prog (TpuEff nD τ sig (Elt F) Λ₀ .tc) α}
    (fn : Buf (Elt F) ((xnb c : Thread nD τ).loc cc0_scratch1)) (O : CellTallies nD τ sig Unit) (W : Waits sig Unit) :
    iprop(cellInv ER (protoRd m ρ) (K (c, iXs k)) (xsCell c k) ∗ cellInv ER (protoRd m ρ) (K (xnb c, iXr k)) (xrCell (xnb c) k)
        ∗ rPtsL c 0 k (RB m ρ c) ∗ rPts (xnb c) 1 k fn
        ∗ owes (c : Thread nD τ) (O + tallyAt (xrCell (xnb c) k) () N) W
        ∗ dutyTok ER (xsCell c k) 0 () ∗ reached ER (xsCell c k) 0
        ∗ dutyTok ER (xrCell (xnb c) k) 0 () ∗ reached ER (xrCell (xnb c) k) 0)
      ⊢ iprop(((cred (tallyAt (xsCell c k) () N) ∗ owes (c : Thread nD τ) O W)
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (rSlot 0 k) (.remote (Dev.tc n : Thread nD τ) (rSlot 1 k) (.dma (xsS k)) hsc) (.dma (xrS k)) hsrc hdst hsem) kont) Q) := by
  subst hn
  unfold rPts rPtsL
  exact Rounds.wp_send_pointsTo 𝒱₀ ER (protoRd m ρ) (c : Thread nD τ) none
    (c' := (xnb c : Thread nD τ)) (src := (rSlot 0 k : Memref sig .tc .vmem S128x256 .bf16)) (dst := (rSlot 1 k : Memref sig .tc .vmem S128x256 .bf16))
    (q := fullShare.left) (fs := RB m ρ c) (fd := fn)
    (κ₁ := K (c, iXs k)) (κ₂ := K (xnb c, iXr k)) (r₁ := 0) (r₂ := 0) (d₁ := ()) (d₂ := ())
    (by rw [duties_xs]; exact Finset.mem_singleton_self _) (by rw [duties_xr]; exact Finset.mem_singleton_self _)
    () () N rfl (amount_xs m ρ c k ()) (amount_xr m ρ (xnb c) k ()) O rfl (W := W)
    (by rw [payload_xs]; exact Entails.of_eq rfl)
    (by rw [payload_xr]; exact Entails.of_eq (BI.Region.is_congr (landing_x m ρ c k fn)))
    (routes_xnb c)

/-- The program's first copy across y, spelt as the program spells it, is an instance of the rule above. -/
example (K : Dev nD × Fin 34 → ℕ) (c : Dev nD) {α : Type} {Q : α → sProp 𝕄} {kont : PUnit → Prog (TpuEff nD τ sig (Elt F) Λ₀ .tc) α}
    (fn : Buf (Elt F) ((ynb c : Thread nD τ).loc cc0_scratch1)) (O : CellTallies nD τ sig Unit) (W : Waits sig Unit) :
    iprop(cellInv ER (protoRd m ρ) (K (c, iYs 0)) (ysCell c 0) ∗ cellInv ER (protoRd m ρ) (K (ynb c, iYr 0)) (yrCell (ynb c) 0)
        ∗ sPts c 0 (SB m ρ c) ∗ rPts (ynb c) 0 0 fn
        ∗ owes (c : Thread nD τ) (O + tallyAt (yrCell (ynb c) 0) () N) W
        ∗ dutyTok ER (ysCell c 0) 0 () ∗ reached ER (ysCell c 0) 0
        ∗ dutyTok ER (yrCell (ynb c) 0) 0 () ∗ reached ER (yrCell (ynb c) 0) 0)
      ⊢ iprop(((cred (tallyAt (ysCell c 0) () N) ∗ owes (c : Thread nD τ) O W)
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma
                (((Memref.whole cc0_scratch0 : Memref sig .tc .vmem S8x128x256 .bf16).slice (Rect.unit (s := S8x128x256) ![0, 0, 0] S1x128x256.size inb_S8x128x256_S1x128x256_0_0_0) (fun _ => rfl)).squeeze S128x256 squeezes_S1x128x256_S128x256)
                (.remote (Dev.tc (⟨k0_dev3 c, k0_dev3_lt c⟩ : Dev nD))
                  (((Memref.whole cc0_scratch1 : Memref sig .tc .vmem S2x8x128x256 .bf16).slice (Rect.unit (s := S2x8x128x256) ![0, 0, 0, 0] S1x1x128x256.size inb_S2x8x128x256_S1x1x128x256_0_0_0_0) (fun _ => rfl)).squeeze S128x256 squeezes_S1x1x128x256_S128x256)
                  (.dma (((cc0_scratch2 : DmaSems sig S8).slice (Rect.unit (s := S8) ![0] S1.size inb_S8_S1_0)).squeeze S_ squeezes_S1_S_).sem))
                (.dma (((cc0_scratch3 : DmaSems sig S8).slice (Rect.unit (s := S8) ![0] S1.size inb_S8_S1_0)).squeeze S_ squeezes_S1_S_).sem)
                (((Memref.isWhole_whole cc0_scratch0).wordExact_slice rfl _ wordsbf16_S8x128x256_S1x128x256_0_0_0).reshape _ _)
                (((Memref.isWhole_whole cc0_scratch1).wordExact_slice rfl _ wordsbf16_S2x8x128x256_S1x1x128x256_0_0_0_0).reshape _ _)
                ⟨⟨rfl, Or.inl rfl⟩, trivial⟩) kont) Q) :=
  wp_ysend m ρ K c ⟨k0_dev3 c, k0_dev3_lt c⟩ (dev3_eq c) 0 fn O W

/-- A load of slot (j, k) through the whole receive buffer, holding only the right half share of that slot (the left
    half is lent to a copy out of the slot). -/
theorem wp_load_rR (c : Dev nD) (j : Fin 2) (k : Fin 8)
    {hl : (rM : Memref sig .tc .vmem S2x8x128x256 .bf16).view.LoadsAt (rRect j k).toLoadRect}
    {α : Type} {Q : α → sProp 𝕄}
    {kont : ((rRect j k).toLoadRect.shape.Idx → Elt F .bf16) → Prog (TpuEff nD τ sig (Elt F) Λ₀ .tc) α}
    (f : Buf (Elt F) ((c : Thread nD τ).loc cc0_scratch1)) :
    rPtsR c j k f
      ⊢ iprop((rPtsR c j k f -∗ wp frame (wpE (defs₀ (F := F)) 𝒱₀ (c : Thread nD τ) none) Set.univ
            (kont ((rM : Memref sig .tc .vmem S2x8x128x256 .bf16).view.readAt (Elt F) (rRect j k).toLoadRect f)) Q)
        -∗ wp frame (wpE (defs₀ (F := F)) 𝒱₀ (c : Thread nD τ) none) Set.univ (.op (.load rM (rRect j k).toLoadRect hl) kont) Q) := by
  unfold rPtsR
  exact wp_load 𝒱₀ (c : Thread nD τ) none Set.univ (m := (rM : Memref sig .tc .vmem S2x8x128x256 .bf16)) (r := (rRect j k).toLoadRect)
    (by rw [slot_set_r, View.set_slice]; exact Finset.Subset.refl _)

/-! ## The scratch buffers as their slots -/

omit [FloatOps F] in
theorem sSlot_set_eq (k : Fin 8) : (sSlot k : Memref sig .tc .vmem S128x256 .bf16).view.set = (sRect k).set := by
  rw [slot_set_s]; exact View.set_slice_whole _ _
omit [FloatOps F] in
theorem rSlot_set_eq (j : Fin 2) (k : Fin 8) : (rSlot j k : Memref sig .tc .vmem S128x256 .bf16).view.set = (rRect j k).set := by
  rw [slot_set_r]; exact View.set_slice_whole _ _

omit [FloatOps F] in
/-- An element of the send buffer lies in chunk k exactly when its first coordinate is k. -/
theorem mem_sRect (k : Fin 8) (i : S8x128x256.Idx) : i ∈ (sRect k).set ↔ i 0 = k := by
  rw [Rect.mem_set_unit]
  constructor
  · intro h
    have h0 := h 0
    exact Fin.ext (by change k.val ≤ (i 0).val ∧ (i 0).val < k.val + 1 at h0; omega)
  · intro h a
    subst h
    fin_cases a
    · show (i 0).val ≤ (i 0).val ∧ (i 0).val < (i 0).val + 1; omega
    · have := (i 1).isLt; change (i 1).val < 128 at this; show 0 ≤ (i 1).val ∧ (i 1).val < 0 + 128; omega
    · have := (i 2).isLt; change (i 2).val < 256 at this; show 0 ≤ (i 2).val ∧ (i 2).val < 0 + 256; omega

omit [FloatOps F] in
/-- An element of the receive buffer lies in slot (j, k) exactly when its first two coordinates are j and k. -/
theorem mem_rRect (j : Fin 2) (k : Fin 8) (i : S2x8x128x256.Idx) : i ∈ (rRect j k).set ↔ i 0 = j ∧ i 1 = k := by
  rw [Rect.mem_set_unit]
  constructor
  · intro h
    have h0 := h 0
    have h1 := h 1
    exact ⟨Fin.ext (by change j.val ≤ (i 0).val ∧ (i 0).val < j.val + 1 at h0; omega),
      Fin.ext (by change k.val ≤ (i 1).val ∧ (i 1).val < k.val + 1 at h1; omega)⟩
  · rintro ⟨hj, hk⟩ a
    subst hj; subst hk
    fin_cases a
    · show (i 0).val ≤ (i 0).val ∧ (i 0).val < (i 0).val + 1; omega
    · show (i 1).val ≤ (i 1).val ∧ (i 1).val < (i 1).val + 1; omega
    · have := (i 2).isLt; change (i 2).val < 128 at this; show 0 ≤ (i 2).val ∧ (i 2).val < 0 + 128; omega
    · have := (i 3).isLt; change (i 3).val < 256 at this; show 0 ≤ (i 3).val ∧ (i 3).val < 0 + 256; omega

omit [FloatOps F] in
theorem mem_sSlot (k : Fin 8) (i : S8x128x256.Idx) :
    i ∈ (sSlot k : Memref sig .tc .vmem S128x256 .bf16).view.set ↔ i 0 = k := by
  rw [sSlot_set_eq]; exact mem_sRect k i
omit [FloatOps F] in
theorem mem_rSlot (j : Fin 2) (k : Fin 8) (i : S2x8x128x256.Idx) :
    i ∈ (rSlot j k : Memref sig .tc .vmem S128x256 .bf16).view.set ↔ i 0 = j ∧ i 1 = k := by
  rw [rSlot_set_eq]; exact mem_rRect j k i

omit [FloatOps F] in
/-- The send buffer, whole, is its eight chunks. -/
theorem scratch0_split_eq (c : Dev nD) (f : Buf (Elt F) ((c : Thread nD τ).loc cc0_scratch0)) :
    ((((c : Thread nD τ).loc cc0_scratch0) ↦{fullShare} f) : sProp 𝕄) = bigSep Finset.univ fun k : Fin 8 => sPts c k f := by
  have hcov : (Finset.univ : Finset S8x128x256.Idx)
      = (Finset.univ : Finset (Fin 8)).biUnion fun k => (sSlot k : Memref sig .tc .vmem S128x256 .bf16).view.set :=
    Finset.ext fun i => ⟨fun _ => Finset.mem_biUnion.mpr ⟨i 0, Finset.mem_univ _, (mem_sSlot (i 0) i).mpr rfl⟩, fun _ => Finset.mem_univ _⟩
  have hdis : ∀ k ∈ (Finset.univ : Finset (Fin 8)), ∀ k' ∈ (Finset.univ : Finset (Fin 8)), k ≠ k' →
      Disjoint (sSlot k : Memref sig .tc .vmem S128x256 .bf16).view.set (sSlot k' : Memref sig .tc .vmem S128x256 .bf16).view.set :=
    fun k _ k' _ hne => Finset.disjoint_left.mpr fun i h1 h2 => hne (((mem_sSlot k i).mp h1).symm.trans ((mem_sSlot k' i).mp h2))
  have h := pointsTo_biUnion (ℓ := (c : Thread nD τ).loc cc0_scratch0) (q := fullShare) (f := f) (Ix := Unit) (Name := ℕ) (U := UU) (Lvl := ℕ)
    (Finset.univ : Finset (Fin 8)) (fun k => (sSlot k : Memref sig .tc .vmem S128x256 .bf16).view.set) hdis
  unfold sPts
  exact (congrArg (fun S => pointsTo ((c : Thread nD τ).loc cc0_scratch0) S fullShare f) hcov).trans h

omit [FloatOps F] in
theorem scratch0_split (c : Dev nD) (f : Buf (Elt F) ((c : Thread nD τ).loc cc0_scratch0)) :
    ((((c : Thread nD τ).loc cc0_scratch0) ↦{fullShare} f) : sProp 𝕄) ⊣⊢ bigSep Finset.univ fun k : Fin 8 => sPts c k f :=
  BiEntails.of_eq (scratch0_split_eq c f)

/-- The elements of half j of the receive buffer: its eight slots. -/
def rHalfSet (j : Fin 2) : Finset S2x8x128x256.Idx :=
  (Finset.univ : Finset (Fin 8)).biUnion fun k => (rSlot j k : Memref sig .tc .vmem S128x256 .bf16).view.set

omit [FloatOps F] in
theorem mem_rHalfSet (j : Fin 2) (i : S2x8x128x256.Idx) : i ∈ rHalfSet j ↔ i 0 = j := by
  unfold rHalfSet
  rw [Finset.mem_biUnion]
  exact ⟨fun ⟨k, _, hk⟩ => ((mem_rSlot j k i).mp hk).1, fun h => ⟨i 1, Finset.mem_univ _, (mem_rSlot j (i 1) i).mpr ⟨h, rfl⟩⟩⟩

omit [FloatOps F] in
/-- One half of the receive buffer is its eight slots. -/
theorem rHalf_split_eq (c : Dev nD) (j : Fin 2) (f : Buf (Elt F) ((c : Thread nD τ).loc cc0_scratch1)) :
    ((((c : Thread nD τ).loc cc0_scratch1) ↦[rHalfSet j]{fullShare} f) : sProp 𝕄) = bigSep Finset.univ fun k : Fin 8 => rPts c j k f := by
  have hdis : ∀ k ∈ (Finset.univ : Finset (Fin 8)), ∀ k' ∈ (Finset.univ : Finset (Fin 8)), k ≠ k' →
      Disjoint (rSlot j k : Memref sig .tc .vmem S128x256 .bf16).view.set (rSlot j k' : Memref sig .tc .vmem S128x256 .bf16).view.set :=
    fun k _ k' _ hne => Finset.disjoint_left.mpr fun i h1 h2 => hne (((mem_rSlot j k i).mp h1).2.symm.trans ((mem_rSlot j k' i).mp h2).2)
  have h := pointsTo_biUnion (ℓ := (c : Thread nD τ).loc cc0_scratch1) (q := fullShare) (f := f) (Ix := Unit) (Name := ℕ) (U := UU) (Lvl := ℕ)
    (Finset.univ : Finset (Fin 8)) (fun k => (rSlot j k : Memref sig .tc .vmem S128x256 .bf16).view.set) hdis
  unfold rPts
  exact h

omit [FloatOps F] in
/-- The receive buffer, whole, is the eight slots of half 0 and the eight of half 1. -/
theorem scratch1_split_eq (c : Dev nD) (f : Buf (Elt F) ((c : Thread nD τ).loc cc0_scratch1)) :
    ((((c : Thread nD τ).loc cc0_scratch1) ↦{fullShare} f) : sProp 𝕄)
      = iprop((bigSep Finset.univ fun k : Fin 8 => rPts c 0 k f) ∗ (bigSep Finset.univ fun k : Fin 8 => rPts c 1 k f)) := by
  have hcov : (Finset.univ : Finset S2x8x128x256.Idx) = rHalfSet 0 ∪ rHalfSet 1 :=
    Finset.ext fun i => ⟨fun _ => by
      have h2 := (i 0).isLt
      change (i 0).val < 2 at h2
      by_cases h : (i 0).val = 0
      · exact Finset.mem_union_left _ ((mem_rHalfSet 0 i).mpr (Fin.ext h))
      · exact Finset.mem_union_right _ ((mem_rHalfSet 1 i).mpr (Fin.ext (by show (i 0).val = 1; omega))), fun _ => Finset.mem_univ _⟩
  have hd : Disjoint (rHalfSet 0) (rHalfSet 1) :=
    Finset.disjoint_left.mpr fun i h1 h2 => absurd (((mem_rHalfSet 0 i).mp h1).symm.trans ((mem_rHalfSet 1 i).mp h2)) (show ¬ ((0 : Fin 2) = 1) from by decide)
  have hu := pointsTo_union (ℓ := (c : Thread nD τ).loc cc0_scratch1) (q := fullShare) (f := f) (Ix := Unit) (Name := ℕ) (U := UU) (Lvl := ℕ) hd
  rw [← rHalf_split_eq c 0 f, ← rHalf_split_eq c 1 f]
  exact (congrArg (fun S => pointsTo ((c : Thread nD τ).loc cc0_scratch1) S fullShare f) hcov).trans (BI.equiv_iff.mp ⟨hu.1, hu.2⟩)

omit [FloatOps F] in
theorem scratch1_split (c : Dev nD) (f : Buf (Elt F) ((c : Thread nD τ).loc cc0_scratch1)) :
    ((((c : Thread nD τ).loc cc0_scratch1) ↦{fullShare} f) : sProp 𝕄)
      ⊣⊢ iprop((bigSep Finset.univ fun k : Fin 8 => rPts c 0 k f) ∗ (bigSep Finset.univ fun k : Fin 8 => rPts c 1 k f)) :=
  BiEntails.of_eq (scratch1_split_eq c f)

/-- info: 'Cert.KernelIdeal.Hand.wp_ysend' depends on axioms: [propext, Classical.choice, Quot.sound] -/
#guard_msgs in #print axioms wp_ysend

/-- info: 'Cert.KernelIdeal.Hand.wp_xsend' depends on axioms: [propext, Classical.choice, Quot.sound] -/
#guard_msgs in #print axioms wp_xsend

/-- info: 'Cert.KernelIdeal.Hand.store_is_chunk' depends on axioms: [propext, Classical.choice, Quot.sound] -/
#guard_msgs in #print axioms store_is_chunk

/-- info: 'Cert.KernelIdeal.Hand.wp_load_rR' depends on axioms: [propext, Classical.choice, Quot.sound] -/
#guard_msgs in #print axioms wp_load_rR

/-- info: 'Cert.KernelIdeal.Hand.scratch0_split' depends on axioms: [propext, Classical.choice, Quot.sound] -/
#guard_msgs in #print axioms scratch0_split

/-- info: 'Cert.KernelIdeal.Hand.scratch1_split' depends on axioms: [propext, Classical.choice, Quot.sound] -/
#guard_msgs in #print axioms scratch1_split

end Cert.KernelIdeal.Hand

end
-- ==== Proof.StepsSync.lean ====
/- The body's steps on semaphores, each as one rule over a symbolic device and, for the copies' semaphores, a symbolic
   chunk: the ordering facts a wait presents (every cell a device still owes sits above the cell it waits on), the two
   entry signals (each hands the neighbour one half of the signaller's receive buffer and the fact that the signaller
   stands at the start of that half's eight receive cells), the two waits for those signals, the waits for a chunk to
   have arrived across y and across x, the waits for a chunk to have left, and the closing of a cell whose one round is
   consumed. -/
import proofs.«901048_g7700000000001049_dist_rsdw_v7x_xyz2x2x4_y_m512_d512_f2048_bf16_1_alg».proof.Proof.Data

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The order of the cells

Barrier cells lie at level 1, ready cells at 2, receive cells across y at 3, across x at 4. A device waits on its barrier
cell owing only receive cells, on its ready cell and on its receive cells across y owing only receive cells across x, and
on everything else owing nothing. -/

theorem lv_bar (c : Dev nD) (u : Unit) : lv (barCell c) u = 1 := by dsimp only [lv]; rw [kind_bar]
theorem lv_rdy (c : Dev nD) (u : Unit) : lv (rdyCell c) u = 2 := by dsimp only [lv]; rw [kind_rdy]
theorem lv_yr (c : Dev nD) (k : Fin 8) (u : Unit) : lv (yrCell c k) u = 3 := by dsimp only [lv]; rw [kind_yr]
theorem lv_xr (c : Dev nD) (k : Fin 8) (u : Unit) : lv (xrCell c k) u = 4 := by dsimp only [lv]; rw [kind_xr]
theorem lv_ys (c : Dev nD) (k : Fin 8) (u : Unit) : lv (ysCell c k) u = 0 := by dsimp only [lv]; rw [kind_ys]
theorem lv_xs (c : Dev nD) (k : Fin 8) (u : Unit) : lv (xsCell c k) u = 0 := by dsimp only [lv]; rw [kind_xs]

/-- Every cell at which the tallies are positive is a device's and lies strictly above the cut. -/
def AboveCut (cut : ℕ) (O : CellTallies nD τ sig Unit) : Prop :=
  ∀ (g : GSem nD τ sig) (u : Unit), 0 < O g u → g.1.2 = .tc ∧ cut < lv g u

theorem above_zero (cut : ℕ) : AboveCut cut 0 := fun g u h => by
  rw [Pi.zero_apply, Finsupp.zero_apply] at h; exact absurd h (Nat.lt_irrefl 0)
theorem above_add {cut : ℕ} {A B : CellTallies nD τ sig Unit} (hA : AboveCut cut A) (hB : AboveCut cut B) : AboveCut cut (A + B) :=
  fun g u h => (Pipeline.add_pos_cases h).elim (hA g u) (hB g u)
theorem above_xr (cut : ℕ) (h : cut < 4) (d : Dev nD) (k : Fin 8) (n : ℕ) : AboveCut cut (tallyAt (xrCell d k) () n) := fun g u hg => by
  obtain ⟨rfl, -⟩ := Pipeline.tallyAt_pos hg
  exact ⟨rfl, by rw [lv_xr]; exact h⟩
theorem above_yr (cut : ℕ) (h : cut < 3) (d : Dev nD) (k : Fin 8) (n : ℕ) : AboveCut cut (tallyAt (yrCell d k) () n) := fun g u hg => by
  obtain ⟨rfl, -⟩ := Pipeline.tallyAt_pos hg
  exact ⟨rfl, by rw [lv_yr]; exact h⟩
theorem above_rdy (cut : ℕ) (h : cut < 2) (d : Dev nD) (n : ℕ) : AboveCut cut (tallyAt (rdyCell d) () n) := fun g u hg => by
  obtain ⟨rfl, -⟩ := Pipeline.tallyAt_pos hg
  exact ⟨rfl, by rw [lv_rdy]; exact h⟩

/-- A cut: the cell waited on lies at or below it, everything owed strictly above. -/
theorem mayWait_cut (c : Dev nD) (sm : SemLoc sig) (cut : ℕ) (hsm : lv ((c : Thread nD τ), sm) () ≤ cut)
    (O : CellTallies nD τ sig Unit) (hO : AboveCut cut O) :
    (levAts L lv : sProp 𝕄) ⊢ MayWait (c : Thread nD τ) sm () O :=
  MayOwe.of_cut (L := L) (lev := lv) cut
    (fun p hp => by rw [Finset.mem_singleton.mp hp, L_tc]; exact Finset.mem_singleton_self _)
    (fun g u hg => by rw [L, if_pos (hO g u hg).1]; exact Finset.mem_singleton_self _)
    (fun p hp => by rw [Finset.mem_singleton.mp hp]; exact hsm)
    (fun g u hg => (hO g u hg).2)

/-! ### What is owed at each wait, summand by summand -/

/-- At the wait on its barrier cell (level 1) a device owes all sixteen copies: receive cells, at levels 4 and 3. -/
theorem mw_bar (c : Dev nD) : (levAts L lv : sProp 𝕄) ⊢ MayWait (c : Thread nD τ) (.reg barS) ()
    (0
      + tallyAt (xrCell (xnb c) (7 : Fin 8)) () N
      + tallyAt (xrCell (xnb c) (6 : Fin 8)) () N
      + tallyAt (xrCell (xnb c) (5 : Fin 8)) () N
      + tallyAt (xrCell (xnb c) (4 : Fin 8)) () N
      + tallyAt (xrCell (xnb c) (3 : Fin 8)) () N
      + tallyAt (xrCell (xnb c) (2 : Fin 8)) () N
      + tallyAt (xrCell (xnb c) (1 : Fin 8)) () N
      + tallyAt (xrCell (xnb c) (0 : Fin 8)) () N
      + tallyAt (yrCell (ynb c) (7 : Fin 8)) () N
      + tallyAt (yrCell (ynb c) (6 : Fin 8)) () N
      + tallyAt (yrCell (ynb c) (5 : Fin 8)) () N
      + tallyAt (yrCell (ynb c) (4 : Fin 8)) () N
      + tallyAt (yrCell (ynb c) (3 : Fin 8)) () N
      + tallyAt (yrCell (ynb c) (2 : Fin 8)) () N
      + tallyAt (yrCell (ynb c) (1 : Fin 8)) () N
      + tallyAt (yrCell (ynb c) (0 : Fin 8)) () N) :=
  mayWait_cut c (.reg barS) 1 (by rw [lv_bar]) _
    (above_add (above_add (above_add (above_add (above_add (above_add (above_add (above_add (above_add (above_add (above_add (above_add (above_add (above_add (above_add (above_add (above_zero 1)
      (above_xr 1 (by decide) (xnb c) (7 : Fin 8) N))
      (above_xr 1 (by decide) (xnb c) (6 : Fin 8) N))
      (above_xr 1 (by decide) (xnb c) (5 : Fin 8) N))
      (above_xr 1 (by decide) (xnb c) (4 : Fin 8) N))
      (above_xr 1 (by decide) (xnb c) (3 : Fin 8) N))
      (above_xr 1 (by decide) (xnb c) (2 : Fin 8) N))
      (above_xr 1 (by decide) (xnb c) (1 : Fin 8) N))
      (above_xr 1 (by decide) (xnb c) (0 : Fin 8) N))
      (above_yr 1 (by decide) (ynb c) (7 : Fin 8) N))
      (above_yr 1 (by decide) (ynb c) (6 : Fin 8) N))
      (above_yr 1 (by decide) (ynb c) (5 : Fin 8) N))
      (above_yr 1 (by decide) (ynb c) (4 : Fin 8) N))
      (above_yr 1 (by decide) (ynb c) (3 : Fin 8) N))
      (above_yr 1 (by decide) (ynb c) (2 : Fin 8) N))
      (above_yr 1 (by decide) (ynb c) (1 : Fin 8) N))
      (above_yr 1 (by decide) (ynb c) (0 : Fin 8) N))
/-- At the wait on its ready cell (level 2) it owes the eight copies across x: receive cells at level 4. -/
theorem mw_rdy (c : Dev nD) : (levAts L lv : sProp 𝕄) ⊢ MayWait (c : Thread nD τ) (.reg rdyS) ()
    (0
      + tallyAt (xrCell (xnb c) (7 : Fin 8)) () N
      + tallyAt (xrCell (xnb c) (6 : Fin 8)) () N
      + tallyAt (xrCell (xnb c) (5 : Fin 8)) () N
      + tallyAt (xrCell (xnb c) (4 : Fin 8)) () N
      + tallyAt (xrCell (xnb c) (3 : Fin 8)) () N
      + tallyAt (xrCell (xnb c) (2 : Fin 8)) () N
      + tallyAt (xrCell (xnb c) (1 : Fin 8)) () N
      + tallyAt (xrCell (xnb c) (0 : Fin 8)) () N) :=
  mayWait_cut c (.reg rdyS) 2 (by rw [lv_rdy]) _
    (above_add (above_add (above_add (above_add (above_add (above_add (above_add (above_add (above_zero 2)
      (above_xr 2 (by decide) (xnb c) (7 : Fin 8) N))
      (above_xr 2 (by decide) (xnb c) (6 : Fin 8) N))
      (above_xr 2 (by decide) (xnb c) (5 : Fin 8) N))
      (above_xr 2 (by decide) (xnb c) (4 : Fin 8) N))
      (above_xr 2 (by decide) (xnb c) (3 : Fin 8) N))
      (above_xr 2 (by decide) (xnb c) (2 : Fin 8) N))
      (above_xr 2 (by decide) (xnb c) (1 : Fin 8) N))
      (above_xr 2 (by decide) (xnb c) (0 : Fin 8) N))
/-- At the wait for chunk 0 across y (level 3) it owes the copies of chunks 0, …, 7 across x: receive cells at level 4. -/
theorem mw_yr0 (c : Dev nD) : (levAts L lv : sProp 𝕄) ⊢ MayWait (c : Thread nD τ) (.dma (yrS (0 : Fin 8))) ()
    (0
      + tallyAt (xrCell (xnb c) (7 : Fin 8)) () N
      + tallyAt (xrCell (xnb c) (6 : Fin 8)) () N
      + tallyAt (xrCell (xnb c) (5 : Fin 8)) () N
      + tallyAt (xrCell (xnb c) (4 : Fin 8)) () N
      + tallyAt (xrCell (xnb c) (3 : Fin 8)) () N
      + tallyAt (xrCell (xnb c) (2 : Fin 8)) () N
      + tallyAt (xrCell (xnb c) (1 : Fin 8)) () N
      + tallyAt (xrCell (xnb c) (0 : Fin 8)) () N) :=
  mayWait_cut c (.dma (yrS (0 : Fin 8))) 3 (by rw [lv_yr]) _
    (above_add (above_add (above_add (above_add (above_add (above_add (above_add (above_add (above_zero 3)
      (above_xr 3 (by decide) (xnb c) (7 : Fin 8) N))
      (above_xr 3 (by decide) (xnb c) (6 : Fin 8) N))
      (above_xr 3 (by decide) (xnb c) (5 : Fin 8) N))
      (above_xr 3 (by decide) (xnb c) (4 : Fin 8) N))
      (above_xr 3 (by decide) (xnb c) (3 : Fin 8) N))
      (above_xr 3 (by decide) (xnb c) (2 : Fin 8) N))
      (above_xr 3 (by decide) (xnb c) (1 : Fin 8) N))
      (above_xr 3 (by decide) (xnb c) (0 : Fin 8) N))
/-- At the wait for chunk 1 across y (level 3) it owes the copies of chunks 1, …, 7 across x: receive cells at level 4. -/
theorem mw_yr1 (c : Dev nD) : (levAts L lv : sProp 𝕄) ⊢ MayWait (c : Thread nD τ) (.dma (yrS (1 : Fin 8))) ()
    (0
      + tallyAt (xrCell (xnb c) (7 : Fin 8)) () N
      + tallyAt (xrCell (xnb c) (6 : Fin 8)) () N
      + tallyAt (xrCell (xnb c) (5 : Fin 8)) () N
      + tallyAt (xrCell (xnb c) (4 : Fin 8)) () N
      + tallyAt (xrCell (xnb c) (3 : Fin 8)) () N
      + tallyAt (xrCell (xnb c) (2 : Fin 8)) () N
      + tallyAt (xrCell (xnb c) (1 : Fin 8)) () N) :=
  mayWait_cut c (.dma (yrS (1 : Fin 8))) 3 (by rw [lv_yr]) _
    (above_add (above_add (above_add (above_add (above_add (above_add (above_add (above_zero 3)
      (above_xr 3 (by decide) (xnb c) (7 : Fin 8) N))
      (above_xr 3 (by decide) (xnb c) (6 : Fin 8) N))
      (above_xr 3 (by decide) (xnb c) (5 : Fin 8) N))
      (above_xr 3 (by decide) (xnb c) (4 : Fin 8) N))
      (above_xr 3 (by decide) (xnb c) (3 : Fin 8) N))
      (above_xr 3 (by decide) (xnb c) (2 : Fin 8) N))
      (above_xr 3 (by decide) (xnb c) (1 : Fin 8) N))
/-- At the wait for chunk 2 across y (level 3) it owes the copies of chunks 2, …, 7 across x: receive cells at level 4. -/
theorem mw_yr2 (c : Dev nD) : (levAts L lv : sProp 𝕄) ⊢ MayWait (c : Thread nD τ) (.dma (yrS (2 : Fin 8))) ()
    (0
      + tallyAt (xrCell (xnb c) (7 : Fin 8)) () N
      + tallyAt (xrCell (xnb c) (6 : Fin 8)) () N
      + tallyAt (xrCell (xnb c) (5 : Fin 8)) () N
      + tallyAt (xrCell (xnb c) (4 : Fin 8)) () N
      + tallyAt (xrCell (xnb c) (3 : Fin 8)) () N
      + tallyAt (xrCell (xnb c) (2 : Fin 8)) () N) :=
  mayWait_cut c (.dma (yrS (2 : Fin 8))) 3 (by rw [lv_yr]) _
    (above_add (above_add (above_add (above_add (above_add (above_add (above_zero 3)
      (above_xr 3 (by decide) (xnb c) (7 : Fin 8) N))
      (above_xr 3 (by decide) (xnb c) (6 : Fin 8) N))
      (above_xr 3 (by decide) (xnb c) (5 : Fin 8) N))
      (above_xr 3 (by decide) (xnb c) (4 : Fin 8) N))
      (above_xr 3 (by decide) (xnb c) (3 : Fin 8) N))
      (above_xr 3 (by decide) (xnb c) (2 : Fin 8) N))
/-- At the wait for chunk 3 across y (level 3) it owes the copies of chunks 3, …, 7 across x: receive cells at level 4. -/
theorem mw_yr3 (c : Dev nD) : (levAts L lv : sProp 𝕄) ⊢ MayWait (c : Thread nD τ) (.dma (yrS (3 : Fin 8))) ()
    (0
      + tallyAt (xrCell (xnb c) (7 : Fin 8)) () N
      + tallyAt (xrCell (xnb c) (6 : Fin 8)) () N
      + tallyAt (xrCell (xnb c) (5 : Fin 8)) () N
      + tallyAt (xrCell (xnb c) (4 : Fin 8)) () N
      + tallyAt (xrCell (xnb c) (3 : Fin 8)) () N) :=
  mayWait_cut c (.dma (yrS (3 : Fin 8))) 3 (by rw [lv_yr]) _
    (above_add (above_add (above_add (above_add (above_add (above_zero 3)
      (above_xr 3 (by decide) (xnb c) (7 : Fin 8) N))
      (above_xr 3 (by decide) (xnb c) (6 : Fin 8) N))
      (above_xr 3 (by decide) (xnb c) (5 : Fin 8) N))
      (above_xr 3 (by decide) (xnb c) (4 : Fin 8) N))
      (above_xr 3 (by decide) (xnb c) (3 : Fin 8) N))
/-- At the wait for chunk 4 across y (level 3) it owes the copies of chunks 4, …, 7 across x: receive cells at level 4. -/
theorem mw_yr4 (c : Dev nD) : (levAts L lv : sProp 𝕄) ⊢ MayWait (c : Thread nD τ) (.dma (yrS (4 : Fin 8))) ()
    (0
      + tallyAt (xrCell (xnb c) (7 : Fin 8)) () N
      + tallyAt (xrCell (xnb c) (6 : Fin 8)) () N
      + tallyAt (xrCell (xnb c) (5 : Fin 8)) () N
      + tallyAt (xrCell (xnb c) (4 : Fin 8)) () N) :=
  mayWait_cut c (.dma (yrS (4 : Fin 8))) 3 (by rw [lv_yr]) _
    (above_add (above_add (above_add (above_add (above_zero 3)
      (above_xr 3 (by decide) (xnb c) (7 : Fin 8) N))
      (above_xr 3 (by decide) (xnb c) (6 : Fin 8) N))
      (above_xr 3 (by decide) (xnb c) (5 : Fin 8) N))
      (above_xr 3 (by decide) (xnb c) (4 : Fin 8) N))
/-- At the wait for chunk 5 across y (level 3) it owes the copies of chunks 5, …, 7 across x: receive cells at level 4. -/
theorem mw_yr5 (c : Dev nD) : (levAts L lv : sProp 𝕄) ⊢ MayWait (c : Thread nD τ) (.dma (yrS (5 : Fin 8))) ()
    (0
      + tallyAt (xrCell (xnb c) (7 : Fin 8)) () N
      + tallyAt (xrCell (xnb c) (6 : Fin 8)) () N
      + tallyAt (xrCell (xnb c) (5 : Fin 8)) () N) :=
  mayWait_cut c (.dma (yrS (5 : Fin 8))) 3 (by rw [lv_yr]) _
    (above_add (above_add (above_add (above_zero 3)
      (above_xr 3 (by decide) (xnb c) (7 : Fin 8) N))
      (above_xr 3 (by decide) (xnb c) (6 : Fin 8) N))
      (above_xr 3 (by decide) (xnb c) (5 : Fin 8) N))
/-- At the wait for chunk 6 across y (level 3) it owes the copies of chunks 6, …, 7 across x: receive cells at level 4. -/
theorem mw_yr6 (c : Dev nD) : (levAts L lv : sProp 𝕄) ⊢ MayWait (c : Thread nD τ) (.dma (yrS (6 : Fin 8))) ()
    (0
      + tallyAt (xrCell (xnb c) (7 : Fin 8)) () N
      + tallyAt (xrCell (xnb c) (6 : Fin 8)) () N) :=
  mayWait_cut c (.dma (yrS (6 : Fin 8))) 3 (by rw [lv_yr]) _
    (above_add (above_add (above_zero 3)
      (above_xr 3 (by decide) (xnb c) (7 : Fin 8) N))
      (above_xr 3 (by decide) (xnb c) (6 : Fin 8) N))
/-- At the wait for chunk 7 across y (level 3) it owes the copies of chunks 7, …, 7 across x: receive cells at level 4. -/
theorem mw_yr7 (c : Dev nD) : (levAts L lv : sProp 𝕄) ⊢ MayWait (c : Thread nD τ) (.dma (yrS (7 : Fin 8))) ()
    (0
      + tallyAt (xrCell (xnb c) (7 : Fin 8)) () N) :=
  mayWait_cut c (.dma (yrS (7 : Fin 8))) 3 (by rw [lv_yr]) _
    (above_add (above_zero 3)
      (above_xr 3 (by decide) (xnb c) (7 : Fin 8) N))

/-! ## One block's credit

A copy's credit depends on the shape and element type of the view it lands in, not on which buffer or which slot: every
slot of the send buffer and of the receive buffer is credited the same amount. -/

theorem credit_r (j : Fin 2) (k : Fin 8) : (rSlot j k : Memref sig .tc .vmem S128x256 .bf16).view.dmaCredit = N := rfl
theorem credit_s (k : Fin 8) : (sSlot k : Memref sig .tc .vmem S128x256 .bf16).view.dmaCredit = N := rfl

/-! ## The entry signals -/

/-- The signal to the barrier cell of the neighbour across y, addressed to n = ynb c: it pays the one duty of that cell, handing over half 0 of the signaller's own receive buffer and that the signaller stands at round 0 of its eight receive cells across y (the neighbour's neighbour across y is the signaller itself), and takes a unit off what the signaller owes. -/
theorem wp_sig_bar (K : Dev nD × Fin 34 → ℕ) (c n : Dev nD) (hn : n = ynb c)
    {α : Type} {Q : α → sProp 𝕄} {k : PUnit → Prog (TpuEff nD τ sig (Elt F) Λ₀ .tc) α}
    (O : CellTallies nD τ sig Unit) (W : Waits sig Unit) :
    iprop(cellInv ER (protoRd m ρ) (K (ynb c, iBar)) (barCell (ynb c))
        ∗ owes (c : Thread nD τ) (O + tallyAt (barCell (ynb c)) () 1) W
        ∗ dutyTok ER (barCell (ynb c)) 0 () ∗ reached ER (barCell (ynb c)) 0
        ∗ rHalf (F := F) c 0 ∗ bigSep Finset.univ (fun j : Fin 8 => reached ER (yrCell c j) 0))
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (n : Thread nD τ) barS 1) k) Q) := by
  subst hn
  have hpay : iprop(rHalf (F := F) c 0 ∗ bigSep Finset.univ (fun j : Fin 8 => reached ER (yrCell c j) 0))
      ⊢ (protoRd m ρ).payload (barCell (ynb c)) 0 () := by
    rw [payload_bar]; unfold barPay; rw [ynb_ynb]
  iintro ⟨HI, HO, Htok, Hr, Hh, Hrs⟩ Hk
  iapply (Rounds.wp_signal 𝒱₀ ER (protoRd m ρ) (c : Thread nD τ) none (dst := (ynb c : Thread nD τ)) (sem := barS)
      (κ := K (ynb c, iBar)) (r := 0) (d := ()) (by rw [duties_bar]; exact Finset.mem_singleton_self _)
      (amount_bar m ρ (ynb c) ()) () O rfl (hr := routes_ynb c)) $$ [HI HO Htok Hr Hh Hrs]
  · isplitl [HI]; · iexact HI
    isplitl [HO]; · iexact HO
    isplitl [Htok]; · iexact Htok
    isplitl [Hh Hrs]
    · iapply hpay
      isplitl [Hh]; · iexact Hh
      iexact Hrs
    · iexact Hr
  iexact Hk

/-- The signal to the ready cell of the neighbour across x, addressed to n = xnb c: likewise with half 1 of the signaller's receive buffer and its eight receive cells across x. -/
theorem wp_sig_rdy (K : Dev nD × Fin 34 → ℕ) (c n : Dev nD) (hn : n = xnb c)
    {α : Type} {Q : α → sProp 𝕄} {k : PUnit → Prog (TpuEff nD τ sig (Elt F) Λ₀ .tc) α}
    (O : CellTallies nD τ sig Unit) (W : Waits sig Unit) :
    iprop(cellInv ER (protoRd m ρ) (K (xnb c, iRdy)) (rdyCell (xnb c))
        ∗ owes (c : Thread nD τ) (O + tallyAt (rdyCell (xnb c)) () 1) W
        ∗ dutyTok ER (rdyCell (xnb c)) 0 () ∗ reached ER (rdyCell (xnb c)) 0
        ∗ rHalf (F := F) c 1 ∗ bigSep Finset.univ (fun j : Fin 8 => reached ER (xrCell c j) 0))
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (n : Thread nD τ) rdyS 1) k) Q) := by
  subst hn
  have hpay : iprop(rHalf (F := F) c 1 ∗ bigSep Finset.univ (fun j : Fin 8 => reached ER (xrCell c j) 0))
      ⊢ (protoRd m ρ).payload (rdyCell (xnb c)) 0 () := by
    rw [payload_rdy]; unfold rdyPay; rw [xnb_xnb]
  iintro ⟨HI, HO, Htok, Hr, Hh, Hrs⟩ Hk
  iapply (Rounds.wp_signal 𝒱₀ ER (protoRd m ρ) (c : Thread nD τ) none (dst := (xnb c : Thread nD τ)) (sem := rdyS)
      (κ := K (xnb c, iRdy)) (r := 0) (d := ()) (by rw [duties_rdy]; exact Finset.mem_singleton_self _)
      (amount_rdy m ρ (xnb c) ()) () O rfl (hr := routes_xnb c)) $$ [HI HO Htok Hr Hh Hrs]
  · isplitl [HI]; · iexact HI
    isplitl [HO]; · iexact HO
    isplitl [Htok]; · iexact Htok
    isplitl [Hh Hrs]
    · iapply hpay
      isplitl [Hh]; · iexact Hh
      iexact Hrs
    · iexact Hr
  iexact Hk

/-! ## The waits for the entry signals -/

/-- The wait for one unit on the device's own barrier cell, while owing O: the whole of the cell's one round. It returns half 0 of the receive buffer of the neighbour across y, and that this neighbour stands at round 0 of its eight receive cells across y. -/
theorem wp_wait_bar (K : Dev nD × Fin 34 → ℕ) (c : Dev nD)
    {α : Type} {Q : α → sProp 𝕄} {k : PUnit → Prog (TpuEff nD τ sig (Elt F) Λ₀ .tc) α}
    (O : CellTallies nD τ sig Unit) (W : Waits sig Unit) :
    iprop(cellInv ER (protoRd m ρ) (K (c, iBar)) (barCell c) ∗ cred (tallyAt (barCell c) () 1) ∗ owes (c : Thread nD τ) O W
        ∗ MayWait (c : Thread nD τ) (.reg barS) () O ∗ atPos ER (barCell c) 0 ∅ 0)
      ⊢ iprop(((owes (c : Thread nD τ) O (insert (SemLoc.reg barS, ()) W) ∗ atPos ER (barCell c) 1 ∅ 0
              ∗ rHalf (F := F) (ynb c) 0 ∗ bigSep Finset.univ (fun j : Fin 8 => reached ER (yrCell (ynb c) j) 0))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 1) k) Q) := by
  iintro ⟨HI, Hc, HO, Hmw, Hat⟩ Hk
  iapply (Rounds.wp_wait_rest_token 𝒱₀ ER (protoRd m ρ) (c : Thread nD τ) none (sm := .reg barS) (k' := 1) (κ := K (c, iBar))
      (wpE_semWait_eq 𝒱₀ (c : Thread nD τ) none Set.univ) (Set.mem_univ _) () (O := O) (W := W) (R := 0) (m := 0) (T := ∅)
      (by rw [expect_bar])) $$ [HI Hc HO Hmw Hat]
  · isplitl [HI]; · iexact HI
    isplitl [Hc]; · iexact Hc
    isplitl [HO]; · iexact HO
    isplitl [Hmw]; · iexact Hmw
    iexact Hat
  iintro ⟨HO, Hat, -, Hpay⟩
  ihave Hp := (Entails.of_eq (rest_bar m ρ c)) $$ Hpay
  unfold barPay
  icases Hp with ⟨Hh, Hrs⟩
  iapply Hk
  isplitl [HO]; · iexact HO
  isplitl [Hat]; · iexact Hat
  isplitl [Hh]; · iexact Hh
  iexact Hrs

/-- The wait for one unit on the device's own ready cell: likewise with the neighbour across x and half 1. -/
theorem wp_wait_rdy (K : Dev nD × Fin 34 → ℕ) (c : Dev nD)
    {α : Type} {Q : α → sProp 𝕄} {k : PUnit → Prog (TpuEff nD τ sig (Elt F) Λ₀ .tc) α}
    (O : CellTallies nD τ sig Unit) (W : Waits sig Unit) :
    iprop(cellInv ER (protoRd m ρ) (K (c, iRdy)) (rdyCell c) ∗ cred (tallyAt (rdyCell c) () 1) ∗ owes (c : Thread nD τ) O W
        ∗ MayWait (c : Thread nD τ) (.reg rdyS) () O ∗ atPos ER (rdyCell c) 0 ∅ 0)
      ⊢ iprop(((owes (c : Thread nD τ) O (insert (SemLoc.reg rdyS, ()) W) ∗ atPos ER (rdyCell c) 1 ∅ 0
              ∗ rHalf (F := F) (xnb c) 1 ∗ bigSep Finset.univ (fun j : Fin 8 => reached ER (xrCell (xnb c) j) 0))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait rdyS 1) k) Q) := by
  iintro ⟨HI, Hc, HO, Hmw, Hat⟩ Hk
  iapply (Rounds.wp_wait_rest_token 𝒱₀ ER (protoRd m ρ) (c : Thread nD τ) none (sm := .reg rdyS) (k' := 1) (κ := K (c, iRdy))
      (wpE_semWait_eq 𝒱₀ (c : Thread nD τ) none Set.univ) (Set.mem_univ _) () (O := O) (W := W) (R := 0) (m := 0) (T := ∅)
      (by rw [expect_rdy])) $$ [HI Hc HO Hmw Hat]
  · isplitl [HI]; · iexact HI
    isplitl [Hc]; · iexact Hc
    isplitl [HO]; · iexact HO
    isplitl [Hmw]; · iexact Hmw
    iexact Hat
  iintro ⟨HO, Hat, -, Hpay⟩
  ihave Hp := (Entails.of_eq (rest_rdy m ρ c)) $$ Hpay
  unfold rdyPay
  icases Hp with ⟨Hh, Hrs⟩
  iapply Hk
  isplitl [HO]; · iexact HO
  isplitl [Hat]; · iexact Hat
  isplitl [Hh]; · iexact Hh
  iexact Hrs

/-! ## The waits on the copies' semaphores

Each waits for one block's credit, the whole of the cell's one round, and returns the slot the round's one duty hands
over. A wait names a source and a destination view; only the destination's credit matters, and it is one block's whatever
the slot. The waits for a departure name the copy's views the other way round. -/

/-- Chunk k has arrived across y: slot (0, k) of the receive buffer at its final contents. -/
theorem wp_wait_yr (K : Dev nD × Fin 34 → ℕ) (c : Dev nD) (k : Fin 8)
    {hsrc : (sSlot k : Memref sig .tc .vmem S128x256 .bf16).view.WordExact}
    {hdst : (rSlot 0 k : Memref sig .tc .vmem S128x256 .bf16).view.WordExact}
    {α : Type} {Q : α → sProp 𝕄} {kk : PUnit → Prog (TpuEff nD τ sig (Elt F) Λ₀ .tc) α}
    (O : CellTallies nD τ sig Unit) (W : Waits sig Unit) :
    iprop(cellInv ER (protoRd m ρ) (K (c, iYr k)) (yrCell c k) ∗ cred (tallyAt (yrCell c k) () N) ∗ owes (c : Thread nD τ) O W
        ∗ MayWait (c : Thread nD τ) (.dma (yrS k)) () O ∗ atPos ER (yrCell c k) 0 ∅ 0)
      ⊢ iprop(((owes (c : Thread nD τ) O (insert (SemLoc.dma (yrS k), ()) W) ∗ atPos ER (yrCell c k) 1 ∅ 0 ∗ rPts c 0 k (RB m ρ c))
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.waitDma2 (yrS k) (sSlot k) (rSlot 0 k) hsrc hdst) kk) Q) := by
  iintro ⟨HI, Hc, HO, Hmw, Hat⟩ Hk
  iapply (Rounds.wp_wait_rest_token 𝒱₀ ER (protoRd m ρ) (c : Thread nD τ) none (sm := .dma (yrS k)) (k' := N) (κ := K (c, iYr k))
      (fun Kt => (wpE_waitDma2_eq 𝒱₀ (c : Thread nD τ) none Set.univ (sem := yrS k) (src := sSlot k) (dst := rSlot 0 k)
          (hsrc := hsrc) (hdst := hdst) Kt).trans (by rw [credit_r 0 k]))
      (Set.mem_univ _) () (O := O) (W := W) (R := 0) (m := 0) (T := ∅)
      (by rw [expect_yr, Nat.zero_add])) $$ [HI Hc HO Hmw Hat]
  · isplitl [HI]; · iexact HI
    isplitl [Hc]; · iexact Hc
    isplitl [HO]; · iexact HO
    isplitl [Hmw]; · iexact Hmw
    iexact Hat
  iintro ⟨HO, Hat, -, Hpay⟩
  ihave Hp := (Entails.of_eq (rest_yr m ρ c k)) $$ Hpay
  iapply Hk
  isplitl [HO]; · iexact HO
  isplitl [Hat]; · iexact Hat
  iexact Hp

/-- Chunk k has arrived across x: slot (1, k) of the receive buffer at its final contents. -/
theorem wp_wait_xr (K : Dev nD × Fin 34 → ℕ) (c : Dev nD) (k : Fin 8)
    {hsrc : (rSlot 0 k : Memref sig .tc .vmem S128x256 .bf16).view.WordExact}
    {hdst : (rSlot 1 k : Memref sig .tc .vmem S128x256 .bf16).view.WordExact}
    {α : Type} {Q : α → sProp 𝕄} {kk : PUnit → Prog (TpuEff nD τ sig (Elt F) Λ₀ .tc) α}
    (O : CellTallies nD τ sig Unit) (W : Waits sig Unit) :
    iprop(cellInv ER (protoRd m ρ) (K (c, iXr k)) (xrCell c k) ∗ cred (tallyAt (xrCell c k) () N) ∗ owes (c : Thread nD τ) O W
        ∗ MayWait (c : Thread nD τ) (.dma (xrS k)) () O ∗ atPos ER (xrCell c k) 0 ∅ 0)
      ⊢ iprop(((owes (c : Thread nD τ) O (insert (SemLoc.dma (xrS k), ()) W) ∗ atPos ER (xrCell c k) 1 ∅ 0 ∗ rPts c 1 k (RB m ρ c))
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.waitDma2 (xrS k) (rSlot 0 k) (rSlot 1 k) hsrc hdst) kk) Q) := by
  iintro ⟨HI, Hc, HO, Hmw, Hat⟩ Hk
  iapply (Rounds.wp_wait_rest_token 𝒱₀ ER (protoRd m ρ) (c : Thread nD τ) none (sm := .dma (xrS k)) (k' := N) (κ := K (c, iXr k))
      (fun Kt => (wpE_waitDma2_eq 𝒱₀ (c : Thread nD τ) none Set.univ (sem := xrS k) (src := rSlot 0 k) (dst := rSlot 1 k)
          (hsrc := hsrc) (hdst := hdst) Kt).trans (by rw [credit_r 1 k]))
      (Set.mem_univ _) () (O := O) (W := W) (R := 0) (m := 0) (T := ∅)
      (by rw [expect_xr, Nat.zero_add])) $$ [HI Hc HO Hmw Hat]
  · isplitl [HI]; · iexact HI
    isplitl [Hc]; · iexact Hc
    isplitl [HO]; · iexact HO
    isplitl [Hmw]; · iexact Hmw
    iexact Hat
  iintro ⟨HO, Hat, -, Hpay⟩
  ihave Hp := (Entails.of_eq (rest_xr m ρ c k)) $$ Hpay
  iapply Hk
  isplitl [HO]; · iexact HO
  isplitl [Hat]; · iexact Hat
  iexact Hp

/-- Chunk k has left across y: chunk k of the send buffer is the device's again. -/
theorem wp_wait_ys (K : Dev nD × Fin 34 → ℕ) (c : Dev nD) (k : Fin 8)
    {hsrc : (rSlot 0 k : Memref sig .tc .vmem S128x256 .bf16).view.WordExact}
    {hdst : (sSlot k : Memref sig .tc .vmem S128x256 .bf16).view.WordExact}
    {α : Type} {Q : α → sProp 𝕄} {kk : PUnit → Prog (TpuEff nD τ sig (Elt F) Λ₀ .tc) α}
    (O : CellTallies nD τ sig Unit) (W : Waits sig Unit) :
    iprop(cellInv ER (protoRd m ρ) (K (c, iYs k)) (ysCell c k) ∗ cred (tallyAt (ysCell c k) () N) ∗ owes (c : Thread nD τ) O W
        ∗ MayWait (c : Thread nD τ) (.dma (ysS k)) () O ∗ atPos ER (ysCell c k) 0 ∅ 0)
      ⊢ iprop(((owes (c : Thread nD τ) O (insert (SemLoc.dma (ysS k), ()) W) ∗ atPos ER (ysCell c k) 1 ∅ 0 ∗ sPts c k (SB m ρ c))
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.waitDma2 (ysS k) (rSlot 0 k) (sSlot k) hsrc hdst) kk) Q) := by
  iintro ⟨HI, Hc, HO, Hmw, Hat⟩ Hk
  iapply (Rounds.wp_wait_rest_token 𝒱₀ ER (protoRd m ρ) (c : Thread nD τ) none (sm := .dma (ysS k)) (k' := N) (κ := K (c, iYs k))
      (fun Kt => (wpE_waitDma2_eq 𝒱₀ (c : Thread nD τ) none Set.univ (sem := ysS k) (src := rSlot 0 k) (dst := sSlot k)
          (hsrc := hsrc) (hdst := hdst) Kt).trans (by rw [credit_s k]))
      (Set.mem_univ _) () (O := O) (W := W) (R := 0) (m := 0) (T := ∅)
      (by rw [expect_ys, Nat.zero_add])) $$ [HI Hc HO Hmw Hat]
  · isplitl [HI]; · iexact HI
    isplitl [Hc]; · iexact Hc
    isplitl [HO]; · iexact HO
    isplitl [Hmw]; · iexact Hmw
    iexact Hat
  iintro ⟨HO, Hat, -, Hpay⟩
  ihave Hp := (Entails.of_eq (rest_ys m ρ c k)) $$ Hpay
  iapply Hk
  isplitl [HO]; · iexact HO
  isplitl [Hat]; · iexact Hat
  iexact Hp

/-- Chunk k has left across x: the half share of slot (0, k) of the receive buffer that the device lent the copy (it
    went on reading the slot with the other half) is the device's again. -/
theorem wp_wait_xs (K : Dev nD × Fin 34 → ℕ) (c : Dev nD) (k : Fin 8)
    {hsrc : (rSlot 1 k : Memref sig .tc .vmem S128x256 .bf16).view.WordExact}
    {hdst : (rSlot 0 k : Memref sig .tc .vmem S128x256 .bf16).view.WordExact}
    {α : Type} {Q : α → sProp 𝕄} {kk : PUnit → Prog (TpuEff nD τ sig (Elt F) Λ₀ .tc) α}
    (O : CellTallies nD τ sig Unit) (W : Waits sig Unit) :
    iprop(cellInv ER (protoRd m ρ) (K (c, iXs k)) (xsCell c k) ∗ cred (tallyAt (xsCell c k) () N) ∗ owes (c : Thread nD τ) O W
        ∗ MayWait (c : Thread nD τ) (.dma (xsS k)) () O ∗ atPos ER (xsCell c k) 0 ∅ 0)
      ⊢ iprop(((owes (c : Thread nD τ) O (insert (SemLoc.dma (xsS k), ()) W) ∗ atPos ER (xsCell c k) 1 ∅ 0 ∗ rPtsL c 0 k (RB m ρ c))
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.waitDma2 (xsS k) (rSlot 1 k) (rSlot 0 k) hsrc hdst) kk) Q) := by
  iintro ⟨HI, Hc, HO, Hmw, Hat⟩ Hk
  iapply (Rounds.wp_wait_rest_token 𝒱₀ ER (protoRd m ρ) (c : Thread nD τ) none (sm := .dma (xsS k)) (k' := N) (κ := K (c, iXs k))
      (fun Kt => (wpE_waitDma2_eq 𝒱₀ (c : Thread nD τ) none Set.univ (sem := xsS k) (src := rSlot 1 k) (dst := rSlot 0 k)
          (hsrc := hsrc) (hdst := hdst) Kt).trans (by rw [credit_r 0 k]))
      (Set.mem_univ _) () (O := O) (W := W) (R := 0) (m := 0) (T := ∅)
      (by rw [expect_xs, Nat.zero_add])) $$ [HI Hc HO Hmw Hat]
  · isplitl [HI]; · iexact HI
    isplitl [Hc]; · iexact Hc
    isplitl [HO]; · iexact HO
    isplitl [Hmw]; · iexact Hmw
    iexact Hat
  iintro ⟨HO, Hat, -, Hpay⟩
  ihave Hp := (Entails.of_eq (rest_xs m ρ c k)) $$ Hpay
  iapply Hk
  isplitl [HO]; · iexact HO
  isplitl [Hat]; · iexact Hat
  iexact Hp

/-! ## Closing a cell -/

/-- A cell whose owner stands at round 1 with nothing taken has no duty left (every cell has one round): the owner closes
    it and keeps its counter, at zero. -/
theorem close_cell (g : GSem nD τ sig) (κ : ℕ) :
    iprop(cellInv ER (protoRd m ρ) κ g ∗ atPos ER g 1 ∅ 0) ⊢ (iprop(|={Set.univ}=> semVal g 0) : sProp 𝕄) :=
  Rounds.cell_close ER (protoRd m ρ) (Set.mem_univ κ) (fun h => h) (R := 1) (duties_later m ρ g)

/-- info: 'Cert.KernelIdeal.Hand.mw_bar' depends on axioms: [propext, Classical.choice, Quot.sound] -/
#guard_msgs in #print axioms mw_bar
/-- info: 'Cert.KernelIdeal.Hand.mw_rdy' depends on axioms: [propext, Classical.choice, Quot.sound] -/
#guard_msgs in #print axioms mw_rdy
/-- info: 'Cert.KernelIdeal.Hand.mw_yr0' depends on axioms: [propext, Classical.choice, Quot.sound] -/
#guard_msgs in #print axioms mw_yr0
/-- info: 'Cert.KernelIdeal.Hand.mw_yr7' depends on axioms: [propext, Classical.choice, Quot.sound] -/
#guard_msgs in #print axioms mw_yr7
/-- info: 'Cert.KernelIdeal.Hand.wp_sig_bar' depends on axioms: [propext, Classical.choice, Quot.sound] -/
#guard_msgs in #print axioms wp_sig_bar
/-- info: 'Cert.KernelIdeal.Hand.wp_sig_rdy' depends on axioms: [propext, Classical.choice, Quot.sound] -/
#guard_msgs in #print axioms wp_sig_rdy
/-- info: 'Cert.KernelIdeal.Hand.wp_wait_bar' depends on axioms: [propext, Classical.choice, Quot.sound] -/
#guard_msgs in #print axioms wp_wait_bar
/-- info: 'Cert.KernelIdeal.Hand.wp_wait_rdy' depends on axioms: [propext, Classical.choice, Quot.sound] -/
#guard_msgs in #print axioms wp_wait_rdy
/-- info: 'Cert.KernelIdeal.Hand.wp_wait_yr' depends on axioms: [propext, Classical.choice, Quot.sound] -/
#guard_msgs in #print axioms wp_wait_yr
/-- info: 'Cert.KernelIdeal.Hand.wp_wait_xr' depends on axioms: [propext, Classical.choice, Quot.sound] -/
#guard_msgs in #print axioms wp_wait_xr
/-- info: 'Cert.KernelIdeal.Hand.wp_wait_ys' depends on axioms: [propext, Classical.choice, Quot.sound] -/
#guard_msgs in #print axioms wp_wait_ys
/-- info: 'Cert.KernelIdeal.Hand.wp_wait_xs' depends on axioms: [propext, Classical.choice, Quot.sound] -/
#guard_msgs in #print axioms wp_wait_xs
/-- info: 'Cert.KernelIdeal.Hand.close_cell' depends on axioms: [propext, Classical.choice, Quot.sound] -/
#guard_msgs in #print axioms close_cell

end Cert.KernelIdeal.Hand

end
-- ==== Proof.BodyJoin.lean ====
/- The end of a device's body: its scratch buffers put back together.
   The body holds the send buffer as its eight chunks, each at the finished send buffer's contents, and the receive
   buffer as the sixteen slots of its two halves, each at the finished receive buffer's contents; of each slot of half 0
   it holds the two half shares apart, one lent to the copy across x and handed back by that copy's send cell, the
   other kept for reading. Two half shares of a slot are the slot; eight chunks are the send buffer; twice eight slots
   are the receive buffer. What the body hands back is each buffer whole at some contents. -/
import proofs.«901048_g7700000000001049_dist_rsdw_v7x_xyz2x2x4_y_m512_d512_f2048_bf16_1_alg».proof.Proof.StepsCopy

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
/-- A slot is its two half shares. -/
theorem rPts_halves_eq (c : Dev nD) (j : Fin 2) (k : Fin 8) (f : Buf (Elt F) ((c : Thread nD τ).loc cc0_scratch1)) :
    rPts (F := F) c j k f = iprop(rPtsL (F := F) c j k f ∗ rPtsR (F := F) c j k f) :=
  BI.equiv_iff.mp ⟨(rPts_halves c j k f).1, (rPts_halves c j k f).2⟩

/-- The eight chunks, each at the finished send buffer's contents, are the send buffer whole. -/
theorem join_send (c : Dev nD) :
    iprop(sPts c 0 (SB m ρ c) ∗ sPts c 1 (SB m ρ c) ∗ sPts c 2 (SB m ρ c) ∗ sPts c 3 (SB m ρ c) ∗ sPts c 4 (SB m ρ c) ∗ sPts c 5 (SB m ρ c) ∗ sPts c 6 (SB m ρ c) ∗ sPts c 7 (SB m ρ c))
      ⊢ iprop(∃ f : Buf (Elt F) ((c : Thread nD τ).loc cc0_scratch0), ((c : Thread nD τ).loc cc0_scratch0) ↦{fullShare} f) := by
  have h : (bigSep Finset.univ fun k : Fin 8 => sPts (F := F) c k (SB m ρ c))
      = iprop(sPts c 0 (SB m ρ c) ∗ sPts c 1 (SB m ρ c) ∗ sPts c 2 (SB m ρ c) ∗ sPts c 3 (SB m ρ c) ∗ sPts c 4 (SB m ρ c) ∗ sPts c 5 (SB m ρ c) ∗ sPts c 6 (SB m ρ c) ∗ sPts c 7 (SB m ρ c)) :=
    bigSep_univ_eq_bigSepL [0, 1, 2, 3, 4, 5, 6, 7] (by decide) (by decide) _
  refine (Entails.of_eq (h.symm.trans (scratch0_split_eq c (SB m ρ c)).symm)).trans ?_
  iintro H
  iexists (SB m ρ c)
  iexact H

/-- The two half shares of each slot of half 0 and the eight slots of half 1, each at the finished receive buffer's
    contents, are the receive buffer whole. -/
theorem join_recv (c : Dev nD) :
    iprop((rPtsL c 0 0 (RB m ρ c) ∗ rPtsL c 0 1 (RB m ρ c) ∗ rPtsL c 0 2 (RB m ρ c) ∗ rPtsL c 0 3 (RB m ρ c) ∗ rPtsL c 0 4 (RB m ρ c) ∗ rPtsL c 0 5 (RB m ρ c) ∗ rPtsL c 0 6 (RB m ρ c) ∗ rPtsL c 0 7 (RB m ρ c))
        ∗ (rPtsR c 0 0 (RB m ρ c) ∗ rPtsR c 0 1 (RB m ρ c) ∗ rPtsR c 0 2 (RB m ρ c) ∗ rPtsR c 0 3 (RB m ρ c) ∗ rPtsR c 0 4 (RB m ρ c) ∗ rPtsR c 0 5 (RB m ρ c) ∗ rPtsR c 0 6 (RB m ρ c) ∗ rPtsR c 0 7 (RB m ρ c))
        ∗ (rPts c 1 0 (RB m ρ c) ∗ rPts c 1 1 (RB m ρ c) ∗ rPts c 1 2 (RB m ρ c) ∗ rPts c 1 3 (RB m ρ c) ∗ rPts c 1 4 (RB m ρ c) ∗ rPts c 1 5 (RB m ρ c) ∗ rPts c 1 6 (RB m ρ c) ∗ rPts c 1 7 (RB m ρ c)))
      ⊢ iprop(∃ f : Buf (Elt F) ((c : Thread nD τ).loc cc0_scratch1), ((c : Thread nD τ).loc cc0_scratch1) ↦{fullShare} f) := by
  have hL : (bigSep Finset.univ fun k : Fin 8 => rPtsL (F := F) c 0 k (RB m ρ c))
      = iprop(rPtsL c 0 0 (RB m ρ c) ∗ rPtsL c 0 1 (RB m ρ c) ∗ rPtsL c 0 2 (RB m ρ c) ∗ rPtsL c 0 3 (RB m ρ c) ∗ rPtsL c 0 4 (RB m ρ c) ∗ rPtsL c 0 5 (RB m ρ c) ∗ rPtsL c 0 6 (RB m ρ c) ∗ rPtsL c 0 7 (RB m ρ c)) :=
    bigSep_univ_eq_bigSepL [0, 1, 2, 3, 4, 5, 6, 7] (by decide) (by decide) _
  have hR : (bigSep Finset.univ fun k : Fin 8 => rPtsR (F := F) c 0 k (RB m ρ c))
      = iprop(rPtsR c 0 0 (RB m ρ c) ∗ rPtsR c 0 1 (RB m ρ c) ∗ rPtsR c 0 2 (RB m ρ c) ∗ rPtsR c 0 3 (RB m ρ c) ∗ rPtsR c 0 4 (RB m ρ c) ∗ rPtsR c 0 5 (RB m ρ c) ∗ rPtsR c 0 6 (RB m ρ c) ∗ rPtsR c 0 7 (RB m ρ c)) :=
    bigSep_univ_eq_bigSepL [0, 1, 2, 3, 4, 5, 6, 7] (by decide) (by decide) _
  have h1 : (bigSep Finset.univ fun k : Fin 8 => rPts (F := F) c 1 k (RB m ρ c))
      = iprop(rPts c 1 0 (RB m ρ c) ∗ rPts c 1 1 (RB m ρ c) ∗ rPts c 1 2 (RB m ρ c) ∗ rPts c 1 3 (RB m ρ c) ∗ rPts c 1 4 (RB m ρ c) ∗ rPts c 1 5 (RB m ρ c) ∗ rPts c 1 6 (RB m ρ c) ∗ rPts c 1 7 (RB m ρ c)) :=
    bigSep_univ_eq_bigSepL [0, 1, 2, 3, 4, 5, 6, 7] (by decide) (by decide) _
  have h0 : (bigSep Finset.univ fun k : Fin 8 => rPts (F := F) c 0 k (RB m ρ c))
      = iprop((bigSep Finset.univ fun k : Fin 8 => rPtsL (F := F) c 0 k (RB m ρ c))
          ∗ (bigSep Finset.univ fun k : Fin 8 => rPtsR (F := F) c 0 k (RB m ρ c))) :=
    (bigSep_congr fun k _ => rPts_halves_eq c 0 k (RB m ρ c)).trans (bigSep_sep _ _ _)
  have hw := scratch1_split_eq c (RB m ρ c)
  rw [h0, hL, hR, h1] at hw
  have key : iprop(((rPtsL c 0 0 (RB m ρ c) ∗ rPtsL c 0 1 (RB m ρ c) ∗ rPtsL c 0 2 (RB m ρ c) ∗ rPtsL c 0 3 (RB m ρ c) ∗ rPtsL c 0 4 (RB m ρ c) ∗ rPtsL c 0 5 (RB m ρ c) ∗ rPtsL c 0 6 (RB m ρ c) ∗ rPtsL c 0 7 (RB m ρ c))
        ∗ (rPtsR c 0 0 (RB m ρ c) ∗ rPtsR c 0 1 (RB m ρ c) ∗ rPtsR c 0 2 (RB m ρ c) ∗ rPtsR c 0 3 (RB m ρ c) ∗ rPtsR c 0 4 (RB m ρ c) ∗ rPtsR c 0 5 (RB m ρ c) ∗ rPtsR c 0 6 (RB m ρ c) ∗ rPtsR c 0 7 (RB m ρ c)))
        ∗ (rPts c 1 0 (RB m ρ c) ∗ rPts c 1 1 (RB m ρ c) ∗ rPts c 1 2 (RB m ρ c) ∗ rPts c 1 3 (RB m ρ c) ∗ rPts c 1 4 (RB m ρ c) ∗ rPts c 1 5 (RB m ρ c) ∗ rPts c 1 6 (RB m ρ c) ∗ rPts c 1 7 (RB m ρ c)))
      ⊢ iprop(∃ f : Buf (Elt F) ((c : Thread nD τ).loc cc0_scratch1), ((c : Thread nD τ).loc cc0_scratch1) ↦{fullShare} f) := by
    refine (Entails.of_eq hw.symm).trans ?_
    iintro H
    iexists (RB m ρ c)
    iexact H
  refine BIBase.Entails.trans ?_ key
  iintro ⟨HL, HR, HP⟩
  isplitl [HL HR]
  · isplitl [HL]
    · iexact HL
    · iexact HR
  · iexact HP

/-- info: 'Cert.KernelIdeal.Hand.join_send' depends on axioms: [propext, Classical.choice, Quot.sound] -/
#guard_msgs in #print axioms join_send

/-- info: 'Cert.KernelIdeal.Hand.join_recv' depends on axioms: [propext, Classical.choice, Quot.sound] -/
#guard_msgs in #print axioms join_recv

end Cert.KernelIdeal.Hand

end
-- ==== Proof.OutAssembly.lean ====
/- The output staging buffer of one device, store by store.
   The generated payload functions of the eight chunks coincide, by unfolding, with three canonical ones: the
   rounded product sent across y, the product kept, and the sum of an accumulator block with a widened received
   block. The body writes the output buffer twenty-four times: eight stores of the kept products that tile it by
   column chunks, then eight accumulate steps on the half of the rows the device's x coordinate names (adding
   what came across y), then eight on the other half (adding what came across x). Read index by index, the
   buffer ends holding, at row i and column j, the kept product of chunk j / 256 at (i, j % 256) plus the
   received element of slot j / 256 at (i % 128, j % 256), from half 0 of the receive buffer when i / 128 is the
   device's x coordinate and from half 1 otherwise — whatever the buffer held before. Everything is generic in
   the float instance. -/
import proofs.«901048_g7700000000001049_dist_rsdw_v7x_xyz2x2x4_y_m512_d512_f2048_bf16_1_alg».proof.Proof.Contents
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.ValueIdx

variable {F : FTy → Type} [FloatOps F]

/-! ## The generated payloads coincide

Each chunk's payload function is generated under its own name; they differ only in the names of their
intermediate values, so each equals one of three canonical ones by unfolding: the rounded product sent
across y, the product kept, and the sum of the accumulator with a widened received block. -/

theorem pay4_eq (v : FVec F S512x128 .bf16) (d : Vec F S512x256 .f32) : k0_pay4 v d = k0_pay3 v d := rfl
theorem pay10_eq (v : FVec F S512x128 .bf16) (d : Vec F S512x256 .f32) : k0_pay10 (k0_pay9 v d) = k0_pay3 v d := rfl
theorem pay13_eq (v : FVec F S512x128 .bf16) (d : Vec F S512x256 .f32) : k0_pay13 v d = k0_pay3 v d := rfl
theorem pay16_eq (v : FVec F S512x128 .bf16) (d : Vec F S512x256 .f32) : k0_pay16 v d = k0_pay3 v d := rfl
theorem pay19_eq (v : FVec F S512x128 .bf16) (d : Vec F S512x256 .f32) : k0_pay19 v d = k0_pay3 v d := rfl
theorem pay22_eq (v : FVec F S512x128 .bf16) (d : Vec F S512x256 .f32) : k0_pay22 v d = k0_pay3 v d := rfl
theorem pay25_eq (v : FVec F S512x128 .bf16) (d : Vec F S512x256 .f32) : k0_pay25 v d = k0_pay3 v d := rfl

theorem pay6_eq (v : FVec F S512x256 .bf16) (d : Vec F S512x256 .f32) : k0_pay6 v (k0_pay5 d) = k0_pay7 v d := rfl
theorem pay11_eq (v : FVec F S512x256 .bf16) (d : Vec F S512x256 .f32) : k0_pay11 v (k0_pay8 d) = k0_pay7 v d := rfl
theorem pay14_eq (v : FVec F S512x256 .bf16) (d : Vec F S512x256 .f32) : k0_pay14 v (k0_pay12 d) = k0_pay7 v d := rfl
theorem pay17_eq (v : FVec F S512x256 .bf16) (d : Vec F S512x256 .f32) : k0_pay17 v (k0_pay15 d) = k0_pay7 v d := rfl
theorem pay20_eq (v : FVec F S512x256 .bf16) (d : Vec F S512x256 .f32) : k0_pay20 v (k0_pay18 d) = k0_pay7 v d := rfl
theorem pay23_eq (v : FVec F S512x256 .bf16) (d : Vec F S512x256 .f32) : k0_pay23 v d = k0_pay7 v d := rfl
theorem pay26_eq (v : FVec F S512x256 .bf16) (d : Vec F S512x256 .f32) : k0_pay26 v d = k0_pay7 v d := rfl

theorem pay28_eq (o : Vec F S128x256 .f32) (r : Vec F S1x1x128x256 .bf16) : k0_pay28 o r = k0_pay27 o r := rfl
theorem pay29_eq (o : Vec F S128x256 .f32) (r : Vec F S1x1x128x256 .bf16) : k0_pay29 o r = k0_pay27 o r := rfl
theorem pay30_eq (o : Vec F S128x256 .f32) (r : Vec F S1x1x128x256 .bf16) : k0_pay30 o r = k0_pay27 o r := rfl
theorem pay31_eq (o : Vec F S128x256 .f32) (r : Vec F S1x1x128x256 .bf16) : k0_pay31 o r = k0_pay27 o r := rfl
theorem pay32_eq (o : Vec F S128x256 .f32) (r : Vec F S1x1x128x256 .bf16) : k0_pay32 o r = k0_pay27 o r := rfl
theorem pay34_eq (o : Vec F S128x256 .f32) (r : Vec F S1x1x128x256 .bf16) : k0_pay34 (k0_pay33 o) r = k0_pay27 o r := rfl
theorem pay35_eq (o : Vec F S128x256 .f32) (r : Vec F S1x1x128x256 .bf16) : k0_pay35 o r = k0_pay27 o r := rfl
theorem pay37_eq (o : Vec F S128x256 .f32) (r : Vec F S1x1x128x256 .bf16) : k0_pay37 (k0_pay36 o) r = k0_pay27 o r := rfl
theorem pay38_eq (o : Vec F S128x256 .f32) (r : Vec F S1x1x128x256 .bf16) : k0_pay38 o r = k0_pay27 o r := rfl
theorem pay39_eq (o : Vec F S128x256 .f32) (r : Vec F S1x1x128x256 .bf16) : k0_pay39 o r = k0_pay27 o r := rfl
theorem pay40_eq (o : Vec F S128x256 .f32) (r : Vec F S1x1x128x256 .bf16) : k0_pay40 o r = k0_pay27 o r := rfl
theorem pay41_eq (o : Vec F S128x256 .f32) (r : Vec F S1x1x128x256 .bf16) : k0_pay41 o r = k0_pay27 o r := rfl
theorem pay42_eq (o : Vec F S128x256 .f32) (r : Vec F S1x1x128x256 .bf16) : k0_pay42 o r = k0_pay27 o r := rfl
theorem pay43_eq (o : Vec F S128x256 .f32) (r : Vec F S1x1x128x256 .bf16) : k0_pay43 o r = k0_pay27 o r := rfl
theorem pay45_eq (o : Vec F S128x256 .f32) (r : Vec F S1x1x128x256 .bf16) : k0_pay45 (k0_pay44 o) r = k0_pay27 o r := rfl

/-! ## One store, one load, at an index

A store through a unit-stride rectangle of the output buffer puts the payload's element at every index
inside the rectangle and leaves every index outside it alone; a load through such a rectangle of the output
buffer or of the receive buffer reads the contents at the rectangle's offsets plus the local index. Indices
are related by equations between their coordinates. -/

/-- Inside the rectangle: the element at offset plus local index is the payload's at the local index. -/
theorem oM_write_hit (off size : Fin 2 → Nat) (inb : ∀ a, off a + size a ≤ S256x2048.size a)
    (g : (cc0_stg2_0 : Ref sig .tc).ty.Contents (Elt F))
    (w : (Rect.unit (s := S256x2048) off size inb).shape.Idx → Elt F .f32) (i : S256x2048.Idx)
    (x : (Rect.unit (s := S256x2048) off size inb).shape.Idx) (h : ∀ a, (i a).val = off a + (x a).val) :
    ((oM : Memref sig .tc .vmem S256x2048 .f32).access (Rect.unit (s := S256x2048) off size inb)).write (Elt F) g w Finset.univ i = w x := by
  have hi : i = (Rect.unit (s := S256x2048) off size inb).emb x := by
    funext a; apply Fin.ext; rw [Rect.emb_apply, h a]; show _ = off a + 1 * (x a).val; omega
  rw [hi]
  exact View.read_slice_write_emb (v := View.whole (cc0_stg2_0 : Ref sig .tc)) (Val := Elt F)
    (Rect.unit (s := S256x2048) off size inb) g w (Finset.mem_univ x)

/-- Outside it (some coordinate before the offset or past the extent): unchanged. -/
theorem oM_write_miss (off size : Fin 2 → Nat) (inb : ∀ a, off a + size a ≤ S256x2048.size a)
    (g : (cc0_stg2_0 : Ref sig .tc).ty.Contents (Elt F))
    (w : (Rect.unit (s := S256x2048) off size inb).shape.Idx → Elt F .f32) (i : S256x2048.Idx)
    (h : ∃ a, (i a).val < off a ∨ off a + size a ≤ (i a).val) :
    ((oM : Memref sig .tc .vmem S256x2048 .f32).access (Rect.unit (s := S256x2048) off size inb)).write (Elt F) g w Finset.univ i = g i := by
  refine View.read_slice_write_of_not_mem (v := View.whole (cc0_stg2_0 : Ref sig .tc)) (Val := Elt F)
    (Rect.unit (s := S256x2048) off size inb) g w Finset.univ (y := i) ?_
  intro hm
  rw [Rect.map_emb_univ, Rect.mem_set_unit] at hm
  obtain ⟨a, ha⟩ := h
  have := hm a
  omega

/-- A load of a 128 × 256 block of the output buffer reads the contents at the offsets plus the local index. -/
theorem oM_readAt_apply (off : Fin 2 → Nat) (inb : ∀ a, off a + S128x256.size a ≤ S256x2048.size a)
    (g : (cc0_stg2_0 : Ref sig .tc).ty.Contents (Elt F)) (a : Fin 128) (b : Fin 256) (j : S256x2048.Idx)
    (h0 : (j 0).val = off 0 + a.val) (h1 : (j 1).val = off 1 + b.val) :
    (oM : Memref sig .tc .vmem S256x2048 .f32).view.readAt (Elt F) (Rect.unit (s := S256x2048) off S128x256.size inb).toLoadRect g (ix2 a b) = g j := by
  show g ((Rect.unit (s := S256x2048) off S128x256.size inb).emb (ix2 a b)) = g j
  congr 1
  funext d; apply Fin.ext
  match d with
  | ⟨0, _⟩ => show off 0 + 1 * a.val = (j 0).val; omega
  | ⟨1, _⟩ => show off 1 + 1 * b.val = (j 1).val; omega

/-- A load of one slot of the receive buffer reads the contents at the slot's offsets plus the local index. -/
theorem rM_readAt_apply (roff : Fin 4 → Nat) (rinb : ∀ a, roff a + S1x1x128x256.size a ≤ S2x8x128x256.size a)
    (R : (cc0_scratch1 : Ref sig .tc).ty.Contents (Elt F)) (a : Fin 128) (b : Fin 256) (j : S2x8x128x256.Idx)
    (h0 : (j 0).val = roff 0) (h1 : (j 1).val = roff 1) (h2 : (j 2).val = roff 2 + a.val) (h3 : (j 3).val = roff 3 + b.val) :
    (rM : Memref sig .tc .vmem S2x8x128x256 .bf16).view.readAt (Elt F) (Rect.unit (s := S2x8x128x256) roff S1x1x128x256.size rinb).toLoadRect R
      (ix4 (0 : Fin 1) (0 : Fin 1) a b) = R j := by
  show R ((Rect.unit (s := S2x8x128x256) roff S1x1x128x256.size rinb).emb (ix4 (0 : Fin 1) (0 : Fin 1) a b)) = R j
  congr 1
  funext d; apply Fin.ext
  match d with
  | ⟨0, _⟩ => show roff 0 + 1 * 0 = (j 0).val; omega
  | ⟨1, _⟩ => show roff 1 + 1 * 0 = (j 1).val; omega
  | ⟨2, _⟩ => show roff 2 + 1 * a.val = (j 2).val; omega
  | ⟨3, _⟩ => show roff 3 + 1 * b.val = (j 3).val; omega

/-- The accumulate payload at an index: the accumulator's element plus the received block's, widened. -/
theorem pay27_apply (o : Vec F S128x256 .f32) (r : Vec F S1x1x128x256 .bf16) (a : Fin 128) (b : Fin 256) :
    k0_pay27 o r (ix2 a b)
      = FloatOps.addf (o (ix2 a b)) (FloatOps.extf .f32 bitsLt_bf16_f32 (r (ix4 (0 : Fin 1) (0 : Fin 1) a b))) := by
  show FloatOps.addf (shapeCast S128x256 o shapeCasts_S128x256_S128x256 (ix2 a b))
      (FloatOps.extf .f32 bitsLt_bf16_f32 (shapeCast S128x256 r shapeCasts_S1x1x128x256_S128x256 (ix2 a b))) = _
  rw [shapeCast_self, shapeCast_apply r shapeCasts_S1x1x128x256_S128x256 (ix2 a b) (ix4 (0 : Fin 1) (0 : Fin 1) a b)
    (by rw [Shape.rowMajor_val_four, Shape.rowMajor_val_two]; show ((0 * 1 + 0) * 128 + a.val) * 256 + b.val = a.val * 256 + b.val; omega)]

/-! ## One accumulate step

Each of the sixteen accumulate steps loads a 128 × 256 block of the output buffer, loads one slot of the
receive buffer, and stores their sum (the received block widened) back through the same rectangle. At an
index inside the rectangle the step adds the slot's element; elsewhere it changes nothing. -/

/-- The output buffer's contents after one accumulate step at offsets `off`, from the slot at `roff`. -/
def accStep (off : Fin 2 → Nat) (inb : ∀ a, off a + S128x256.size a ≤ S256x2048.size a)
    (roff : Fin 4 → Nat) (rinb : ∀ a, roff a + S1x1x128x256.size a ≤ S2x8x128x256.size a)
    (R : (cc0_scratch1 : Ref sig .tc).ty.Contents (Elt F)) (g : (cc0_stg2_0 : Ref sig .tc).ty.Contents (Elt F)) :
    (cc0_stg2_0 : Ref sig .tc).ty.Contents (Elt F) :=
  ((oM : Memref sig .tc .vmem S256x2048 .f32).access (Rect.unit (s := S256x2048) off S128x256.size inb)).write (Elt F) g
    (k0_pay27
      ((oM : Memref sig .tc .vmem S256x2048 .f32).view.readAt (Elt F) (Rect.unit (s := S256x2048) off S128x256.size inb).toLoadRect g)
      ((rM : Memref sig .tc .vmem S2x8x128x256 .bf16).view.readAt (Elt F) (Rect.unit (s := S2x8x128x256) roff S1x1x128x256.size rinb).toLoadRect R))
    Finset.univ

theorem accStep_hit (off : Fin 2 → Nat) (inb : ∀ a, off a + S128x256.size a ≤ S256x2048.size a)
    (roff : Fin 4 → Nat) (rinb : ∀ a, roff a + S1x1x128x256.size a ≤ S2x8x128x256.size a)
    (R : (cc0_scratch1 : Ref sig .tc).ty.Contents (Elt F)) (g : (cc0_stg2_0 : Ref sig .tc).ty.Contents (Elt F))
    (i : S256x2048.Idx) (a : Fin 128) (b : Fin 256) (h0 : (i 0).val = off 0 + a.val) (h1 : (i 1).val = off 1 + b.val)
    (j : S2x8x128x256.Idx) (hj0 : (j 0).val = roff 0) (hj1 : (j 1).val = roff 1)
    (hj2 : (j 2).val = roff 2 + a.val) (hj3 : (j 3).val = roff 3 + b.val) :
    accStep off inb roff rinb R g i = FloatOps.addf (g i) (FloatOps.extf .f32 bitsLt_bf16_f32 (R j)) := by
  unfold accStep
  rw [oM_write_hit off S128x256.size inb g _ i (ix2 a b) (fun d => match d with | ⟨0, _⟩ => h0 | ⟨1, _⟩ => h1),
    pay27_apply, oM_readAt_apply off inb g a b i h0 h1, rM_readAt_apply roff rinb R a b j hj0 hj1 hj2 hj3]

theorem accStep_miss (off : Fin 2 → Nat) (inb : ∀ a, off a + S128x256.size a ≤ S256x2048.size a)
    (roff : Fin 4 → Nat) (rinb : ∀ a, roff a + S1x1x128x256.size a ≤ S2x8x128x256.size a)
    (R : (cc0_scratch1 : Ref sig .tc).ty.Contents (Elt F)) (g : (cc0_stg2_0 : Ref sig .tc).ty.Contents (Elt F))
    (i : S256x2048.Idx)
    (h : (i 0).val < off 0 ∨ off 0 + 128 ≤ (i 0).val ∨ (i 1).val < off 1 ∨ off 1 + 256 ≤ (i 1).val) :
    accStep off inb roff rinb R g i = g i := by
  unfold accStep
  refine oM_write_miss off S128x256.size inb g _ i ?_
  rcases h with h | h | h | h
  · exact ⟨0, Or.inl h⟩
  · exact ⟨0, Or.inr h⟩
  · exact ⟨1, Or.inl h⟩
  · exact ⟨1, Or.inr h⟩

/-! ## The three sweeps as invariants

The eight stores of the first sweep tile the buffer by column chunks; after the first `k` of them every
index in a chunk below `k` holds the kept product there. A sweep of accumulate steps over the column
chunks of one half of the rows adds, after its first `k` steps, the received element at every index of
that half in a chunk below `k`. Each invariant is carried over one step by arithmetic on the index alone. -/

/-- The kept product at an index of the output block: chunk `column / 256`, at (row, `column % 256`). -/
def keepAt (X : Dev nD → Vec F S512x512 .f32) (DY : Dev nD → Vec F S512x2048 .f32) (c : Dev nD) (i : S256x2048.Idx) : Elt F .f32 :=
  keepChunk X DY c ⟨(i 1).val / 256, by have := idx2_lt1 i; omega⟩ (ix2 (i 0) ⟨(i 1).val % 256, Nat.mod_lt _ (by decide)⟩)

/-- The received element a sweep adds at an index: half `j` of the receive buffer, slot `column / 256`,
    at (`row % 128`, `column % 256`), widened. -/
def addend (R : (cc0_scratch1 : Ref sig .tc).ty.Contents (Elt F)) (j : Fin 2) (i : S256x2048.Idx) : Elt F .f32 :=
  FloatOps.extf .f32 bitsLt_bf16_f32
    (R (ix4 j (⟨(i 1).val / 256, by have := idx2_lt1 i; omega⟩ : Fin 8) (⟨(i 0).val % 128, Nat.mod_lt _ (by decide)⟩ : Fin 128)
      (⟨(i 1).val % 256, Nat.mod_lt _ (by decide)⟩ : Fin 256)))

theorem keep_step (X : Dev nD → Vec F S512x512 .f32) (DY : Dev nD → Vec F S512x2048 .f32) (c : Dev nD) (k : Fin 8)
    (off : Fin 2 → Nat) (inb : ∀ a, off a + S256x256.size a ≤ S256x2048.size a) (ho0 : off 0 = 0) (ho1 : off 1 = 256 * k.val)
    (w : FVec F S256x256 .f32) (hw : w = keepChunk X DY c k)
    (base g : (cc0_stg2_0 : Ref sig .tc).ty.Contents (Elt F))
    (hg : ∀ i : S256x2048.Idx, g i = if (i 1).val / 256 < k.val then keepAt X DY c i else base i) :
    ∀ i : S256x2048.Idx,
      ((oM : Memref sig .tc .vmem S256x2048 .f32).access (Rect.unit (s := S256x2048) off S256x256.size inb)).write (Elt F) g w Finset.univ i
        = if (i 1).val / 256 < k.val + 1 then keepAt X DY c i else base i := by
  intro i
  have hi0 := idx2_lt0 i
  have hi1 := idx2_lt1 i
  by_cases hit : (i 1).val / 256 = k.val
  · rw [oM_write_hit off S256x256.size inb g w i (ix2 (⟨(i 0).val, hi0⟩ : Fin 256) (⟨(i 1).val % 256, Nat.mod_lt _ (by decide)⟩ : Fin 256))
        (fun d => match d with | ⟨0, _⟩ => by show (i 0).val = off 0 + (i 0).val; omega
                               | ⟨1, _⟩ => by show (i 1).val = off 1 + (i 1).val % 256; omega),
      if_pos (by omega), hw]
    have hk : (⟨(i 1).val / 256, by omega⟩ : Fin 8) = k := Fin.ext hit
    unfold keepAt
    rw [hk]
    rfl
  · rw [oM_write_miss off S256x256.size inb g w i ⟨1, by show (i 1).val < off 1 ∨ off 1 + 256 ≤ (i 1).val; omega⟩, hg i]
    exact if_congr (by omega) rfl rfl

theorem sweep_step (R : (cc0_scratch1 : Ref sig .tc).ty.Contents (Elt F)) (j : Fin 2) (rs k : Nat) (hk : k < 8)
    (off : Fin 2 → Nat) (inb : ∀ a, off a + S128x256.size a ≤ S256x2048.size a)
    (roff : Fin 4 → Nat) (rinb : ∀ a, roff a + S1x1x128x256.size a ≤ S2x8x128x256.size a)
    (ho0 : off 0 = 128 * rs) (ho1 : off 1 = 256 * k)
    (hr0 : roff 0 = j.val) (hr1 : roff 1 = k) (hr2 : roff 2 = 0) (hr3 : roff 3 = 0)
    (base g : (cc0_stg2_0 : Ref sig .tc).ty.Contents (Elt F))
    (hg : ∀ i : S256x2048.Idx, g i = if (i 0).val / 128 = rs ∧ (i 1).val / 256 < k then FloatOps.addf (base i) (addend R j i) else base i) :
    ∀ i : S256x2048.Idx, accStep off inb roff rinb R g i
        = if (i 0).val / 128 = rs ∧ (i 1).val / 256 < k + 1 then FloatOps.addf (base i) (addend R j i) else base i := by
  intro i
  have hi0 := idx2_lt0 i
  have hi1 := idx2_lt1 i
  by_cases hit : (i 0).val / 128 = rs ∧ (i 1).val / 256 = k
  · rw [accStep_hit off inb roff rinb R g i (⟨(i 0).val % 128, Nat.mod_lt _ (by decide)⟩ : Fin 128)
        (⟨(i 1).val % 256, Nat.mod_lt _ (by decide)⟩ : Fin 256) (by show (i 0).val = off 0 + (i 0).val % 128; omega)
        (by show (i 1).val = off 1 + (i 1).val % 256; omega)
        (ix4 j (⟨(i 1).val / 256, by omega⟩ : Fin 8) (⟨(i 0).val % 128, Nat.mod_lt _ (by decide)⟩ : Fin 128)
          (⟨(i 1).val % 256, Nat.mod_lt _ (by decide)⟩ : Fin 256))
        (by show j.val = roff 0; omega) (by show (i 1).val / 256 = roff 1; omega)
        (by show (i 0).val % 128 = roff 2 + (i 0).val % 128; omega) (by show (i 1).val % 256 = roff 3 + (i 1).val % 256; omega),
      hg i, if_neg (by omega), if_pos (by omega)]
    rfl
  · rw [accStep_miss off inb roff rinb R g i (by omega), hg i]
    exact if_congr (by omega) rfl rfl

/-! ## The output buffer after each store of the body

The contents are named store by store, in program order, each over the one before: eight stores of the kept
products by column chunk (over arbitrary prior contents `g`), eight accumulate steps from half 0 of the
receive buffer on the rows the device's x coordinate names, eight from half 1 on the other rows. -/

def outB0 (X : Dev nD → Vec F S512x512 .f32) (DY : Dev nD → Vec F S512x2048 .f32) (c : Dev nD)
    (g : (cc0_stg2_0 : Ref sig .tc).ty.Contents (Elt F)) : (cc0_stg2_0 : Ref sig .tc).ty.Contents (Elt F) :=
  ((oM : Memref sig .tc .vmem S256x2048 .f32).access (Rect.unit (s := S256x2048) ![0, 0] S256x256.size inb_S256x2048_S256x256_0_0)).write (Elt F) g
    (k0_pay6 (xkeep X c) (k0_pay5 (dyk DY c 0))) Finset.univ
def outB1 (X : Dev nD → Vec F S512x512 .f32) (DY : Dev nD → Vec F S512x2048 .f32) (c : Dev nD)
    (g : (cc0_stg2_0 : Ref sig .tc).ty.Contents (Elt F)) : (cc0_stg2_0 : Ref sig .tc).ty.Contents (Elt F) :=
  ((oM : Memref sig .tc .vmem S256x2048 .f32).access (Rect.unit (s := S256x2048) ![0, 256] S256x256.size inb_S256x2048_S256x256_0_256)).write (Elt F) (outB0 X DY c g)
    (k0_pay7 (xkeep X c) (dyk DY c 1)) Finset.univ
def outB2 (X : Dev nD → Vec F S512x512 .f32) (DY : Dev nD → Vec F S512x2048 .f32) (c : Dev nD)
    (g : (cc0_stg2_0 : Ref sig .tc).ty.Contents (Elt F)) : (cc0_stg2_0 : Ref sig .tc).ty.Contents (Elt F) :=
  ((oM : Memref sig .tc .vmem S256x2048 .f32).access (Rect.unit (s := S256x2048) ![0, 512] S256x256.size inb_S256x2048_S256x256_0_512)).write (Elt F) (outB1 X DY c g)
    (k0_pay11 (xkeep X c) (k0_pay8 (dyk DY c 2))) Finset.univ
def outB3 (X : Dev nD → Vec F S512x512 .f32) (DY : Dev nD → Vec F S512x2048 .f32) (c : Dev nD)
    (g : (cc0_stg2_0 : Ref sig .tc).ty.Contents (Elt F)) : (cc0_stg2_0 : Ref sig .tc).ty.Contents (Elt F) :=
  ((oM : Memref sig .tc .vmem S256x2048 .f32).access (Rect.unit (s := S256x2048) ![0, 768] S256x256.size inb_S256x2048_S256x256_0_768)).write (Elt F) (outB2 X DY c g)
    (k0_pay14 (xkeep X c) (k0_pay12 (dyk DY c 3))) Finset.univ
def outB4 (X : Dev nD → Vec F S512x512 .f32) (DY : Dev nD → Vec F S512x2048 .f32) (c : Dev nD)
    (g : (cc0_stg2_0 : Ref sig .tc).ty.Contents (Elt F)) : (cc0_stg2_0 : Ref sig .tc).ty.Contents (Elt F) :=
  ((oM : Memref sig .tc .vmem S256x2048 .f32).access (Rect.unit (s := S256x2048) ![0, 1024] S256x256.size inb_S256x2048_S256x256_0_1024)).write (Elt F) (outB3 X DY c g)
    (k0_pay17 (xkeep X c) (k0_pay15 (dyk DY c 4))) Finset.univ
def outB5 (X : Dev nD → Vec F S512x512 .f32) (DY : Dev nD → Vec F S512x2048 .f32) (c : Dev nD)
    (g : (cc0_stg2_0 : Ref sig .tc).ty.Contents (Elt F)) : (cc0_stg2_0 : Ref sig .tc).ty.Contents (Elt F) :=
  ((oM : Memref sig .tc .vmem S256x2048 .f32).access (Rect.unit (s := S256x2048) ![0, 1280] S256x256.size inb_S256x2048_S256x256_0_1280)).write (Elt F) (outB4 X DY c g)
    (k0_pay20 (xkeep X c) (k0_pay18 (dyk DY c 5))) Finset.univ
def outB6 (X : Dev nD → Vec F S512x512 .f32) (DY : Dev nD → Vec F S512x2048 .f32) (c : Dev nD)
    (g : (cc0_stg2_0 : Ref sig .tc).ty.Contents (Elt F)) : (cc0_stg2_0 : Ref sig .tc).ty.Contents (Elt F) :=
  ((oM : Memref sig .tc .vmem S256x2048 .f32).access (Rect.unit (s := S256x2048) ![0, 1536] S256x256.size inb_S256x2048_S256x256_0_1536)).write (Elt F) (outB5 X DY c g)
    (k0_pay23 (xkeep X c) (dyk DY c 6)) Finset.univ
def outB7 (X : Dev nD → Vec F S512x512 .f32) (DY : Dev nD → Vec F S512x2048 .f32) (c : Dev nD)
    (g : (cc0_stg2_0 : Ref sig .tc).ty.Contents (Elt F)) : (cc0_stg2_0 : Ref sig .tc).ty.Contents (Elt F) :=
  ((oM : Memref sig .tc .vmem S256x2048 .f32).access (Rect.unit (s := S256x2048) ![0, 1792] S256x256.size inb_S256x2048_S256x256_0_1792)).write (Elt F) (outB6 X DY c g)
    (k0_pay26 (xkeep X c) (dyk DY c 7)) Finset.univ
/-- The output buffer after the eight stores of the kept products. -/
def outB (X : Dev nD → Vec F S512x512 .f32) (DY : Dev nD → Vec F S512x2048 .f32) (c : Dev nD)
    (g : (cc0_stg2_0 : Ref sig .tc).ty.Contents (Elt F)) : (cc0_stg2_0 : Ref sig .tc).ty.Contents (Elt F) := outB7 X DY c g

def outC0 (X : Dev nD → Vec F S512x512 .f32) (DY : Dev nD → Vec F S512x2048 .f32) (c : Dev nD)
    (g : (cc0_stg2_0 : Ref sig .tc).ty.Contents (Elt F)) : (cc0_stg2_0 : Ref sig .tc).ty.Contents (Elt F) :=
  ((oM : Memref sig .tc .vmem S256x2048 .f32).access (Rect.unit (s := S256x2048) (k0_off3 c) S128x256.size (k0_off3_inb c))).write (Elt F) (outB X DY c g)
    (k0_pay27
      ((oM : Memref sig .tc .vmem S256x2048 .f32).view.readAt (Elt F) (Rect.unit (s := S256x2048) (k0_off3 c) S128x256.size (k0_off3_inb c)).toLoadRect (outB X DY c g))
      ((rM : Memref sig .tc .vmem S2x8x128x256 .bf16).view.readAt (Elt F) (Rect.unit (s := S2x8x128x256) ![0, 0, 0, 0] S1x1x128x256.size inb_S2x8x128x256_S1x1x128x256_0_0_0_0).toLoadRect (recvBuf X DY c)))
    Finset.univ
def outC1 (X : Dev nD → Vec F S512x512 .f32) (DY : Dev nD → Vec F S512x2048 .f32) (c : Dev nD)
    (g : (cc0_stg2_0 : Ref sig .tc).ty.Contents (Elt F)) : (cc0_stg2_0 : Ref sig .tc).ty.Contents (Elt F) :=
  ((oM : Memref sig .tc .vmem S256x2048 .f32).access (Rect.unit (s := S256x2048) (k0_off4 c) S128x256.size (k0_off4_inb c))).write (Elt F) (outC0 X DY c g)
    (k0_pay28
      ((oM : Memref sig .tc .vmem S256x2048 .f32).view.readAt (Elt F) (Rect.unit (s := S256x2048) (k0_off4 c) S128x256.size (k0_off4_inb c)).toLoadRect (outC0 X DY c g))
      ((rM : Memref sig .tc .vmem S2x8x128x256 .bf16).view.readAt (Elt F) (Rect.unit (s := S2x8x128x256) ![0, 1, 0, 0] S1x1x128x256.size inb_S2x8x128x256_S1x1x128x256_0_1_0_0).toLoadRect (recvBuf X DY c)))
    Finset.univ
def outC2 (X : Dev nD → Vec F S512x512 .f32) (DY : Dev nD → Vec F S512x2048 .f32) (c : Dev nD)
    (g : (cc0_stg2_0 : Ref sig .tc).ty.Contents (Elt F)) : (cc0_stg2_0 : Ref sig .tc).ty.Contents (Elt F) :=
  ((oM : Memref sig .tc .vmem S256x2048 .f32).access (Rect.unit (s := S256x2048) (k0_off5 c) S128x256.size (k0_off5_inb c))).write (Elt F) (outC1 X DY c g)
    (k0_pay29
      ((oM : Memref sig .tc .vmem S256x2048 .f32).view.readAt (Elt F) (Rect.unit (s := S256x2048) (k0_off5 c) S128x256.size (k0_off5_inb c)).toLoadRect (outC1 X DY c g))
      ((rM : Memref sig .tc .vmem S2x8x128x256 .bf16).view.readAt (Elt F) (Rect.unit (s := S2x8x128x256) ![0, 2, 0, 0] S1x1x128x256.size inb_S2x8x128x256_S1x1x128x256_0_2_0_0).toLoadRect (recvBuf X DY c)))
    Finset.univ
def outC3 (X : Dev nD → Vec F S512x512 .f32) (DY : Dev nD → Vec F S512x2048 .f32) (c : Dev nD)
    (g : (cc0_stg2_0 : Ref sig .tc).ty.Contents (Elt F)) : (cc0_stg2_0 : Ref sig .tc).ty.Contents (Elt F) :=
  ((oM : Memref sig .tc .vmem S256x2048 .f32).access (Rect.unit (s := S256x2048) (k0_off6 c) S128x256.size (k0_off6_inb c))).write (Elt F) (outC2 X DY c g)
    (k0_pay30
      ((oM : Memref sig .tc .vmem S256x2048 .f32).view.readAt (Elt F) (Rect.unit (s := S256x2048) (k0_off6 c) S128x256.size (k0_off6_inb c)).toLoadRect (outC2 X DY c g))
      ((rM : Memref sig .tc .vmem S2x8x128x256 .bf16).view.readAt (Elt F) (Rect.unit (s := S2x8x128x256) ![0, 3, 0, 0] S1x1x128x256.size inb_S2x8x128x256_S1x1x128x256_0_3_0_0).toLoadRect (recvBuf X DY c)))
    Finset.univ
def outC4 (X : Dev nD → Vec F S512x512 .f32) (DY : Dev nD → Vec F S512x2048 .f32) (c : Dev nD)
    (g : (cc0_stg2_0 : Ref sig .tc).ty.Contents (Elt F)) : (cc0_stg2_0 : Ref sig .tc).ty.Contents (Elt F) :=
  ((oM : Memref sig .tc .vmem S256x2048 .f32).access (Rect.unit (s := S256x2048) (k0_off7 c) S128x256.size (k0_off7_inb c))).write (Elt F) (outC3 X DY c g)
    (k0_pay31
      ((oM : Memref sig .tc .vmem S256x2048 .f32).view.readAt (Elt F) (Rect.unit (s := S256x2048) (k0_off7 c) S128x256.size (k0_off7_inb c)).toLoadRect (outC3 X DY c g))
      ((rM : Memref sig .tc .vmem S2x8x128x256 .bf16).view.readAt (Elt F) (Rect.unit (s := S2x8x128x256) ![0, 4, 0, 0] S1x1x128x256.size inb_S2x8x128x256_S1x1x128x256_0_4_0_0).toLoadRect (recvBuf X DY c)))
    Finset.univ
def outC5 (X : Dev nD → Vec F S512x512 .f32) (DY : Dev nD → Vec F S512x2048 .f32) (c : Dev nD)
    (g : (cc0_stg2_0 : Ref sig .tc).ty.Contents (Elt F)) : (cc0_stg2_0 : Ref sig .tc).ty.Contents (Elt F) :=
  ((oM : Memref sig .tc .vmem S256x2048 .f32).access (Rect.unit (s := S256x2048) (k0_off8 c) S128x256.size (k0_off8_inb c))).write (Elt F) (outC4 X DY c g)
    (k0_pay32
      ((oM : Memref sig .tc .vmem S256x2048 .f32).view.readAt (Elt F) (Rect.unit (s := S256x2048) (k0_off8 c) S128x256.size (k0_off8_inb c)).toLoadRect (outC4 X DY c g))
      ((rM : Memref sig .tc .vmem S2x8x128x256 .bf16).view.readAt (Elt F) (Rect.unit (s := S2x8x128x256) ![0, 5, 0, 0] S1x1x128x256.size inb_S2x8x128x256_S1x1x128x256_0_5_0_0).toLoadRect (recvBuf X DY c)))
    Finset.univ
def outC6 (X : Dev nD → Vec F S512x512 .f32) (DY : Dev nD → Vec F S512x2048 .f32) (c : Dev nD)
    (g : (cc0_stg2_0 : Ref sig .tc).ty.Contents (Elt F)) : (cc0_stg2_0 : Ref sig .tc).ty.Contents (Elt F) :=
  ((oM : Memref sig .tc .vmem S256x2048 .f32).access (Rect.unit (s := S256x2048) (k0_off9 c) S128x256.size (k0_off9_inb c))).write (Elt F) (outC5 X DY c g)
    (k0_pay34
      (k0_pay33 ((oM : Memref sig .tc .vmem S256x2048 .f32).view.readAt (Elt F) (Rect.unit (s := S256x2048) (k0_off9 c) S128x256.size (k0_off9_inb c)).toLoadRect (outC5 X DY c g)))
      ((rM : Memref sig .tc .vmem S2x8x128x256 .bf16).view.readAt (Elt F) (Rect.unit (s := S2x8x128x256) ![0, 6, 0, 0] S1x1x128x256.size inb_S2x8x128x256_S1x1x128x256_0_6_0_0).toLoadRect (recvBuf X DY c)))
    Finset.univ
def outC7 (X : Dev nD → Vec F S512x512 .f32) (DY : Dev nD → Vec F S512x2048 .f32) (c : Dev nD)
    (g : (cc0_stg2_0 : Ref sig .tc).ty.Contents (Elt F)) : (cc0_stg2_0 : Ref sig .tc).ty.Contents (Elt F) :=
  ((oM : Memref sig .tc .vmem S256x2048 .f32).access (Rect.unit (s := S256x2048) (k0_off10 c) S128x256.size (k0_off10_inb c))).write (Elt F) (outC6 X DY c g)
    (k0_pay35
      ((oM : Memref sig .tc .vmem S256x2048 .f32).view.readAt (Elt F) (Rect.unit (s := S256x2048) (k0_off10 c) S128x256.size (k0_off10_inb c)).toLoadRect (outC6 X DY c g))
      ((rM : Memref sig .tc .vmem S2x8x128x256 .bf16).view.readAt (Elt F) (Rect.unit (s := S2x8x128x256) ![0, 7, 0, 0] S1x1x128x256.size inb_S2x8x128x256_S1x1x128x256_0_7_0_0).toLoadRect (recvBuf X DY c)))
    Finset.univ
/-- The output buffer after the eight accumulate steps from what came across y. -/
def outC (X : Dev nD → Vec F S512x512 .f32) (DY : Dev nD → Vec F S512x2048 .f32) (c : Dev nD)
    (g : (cc0_stg2_0 : Ref sig .tc).ty.Contents (Elt F)) : (cc0_stg2_0 : Ref sig .tc).ty.Contents (Elt F) := outC7 X DY c g

def outD0 (X : Dev nD → Vec F S512x512 .f32) (DY : Dev nD → Vec F S512x2048 .f32) (c : Dev nD)
    (g : (cc0_stg2_0 : Ref sig .tc).ty.Contents (Elt F)) : (cc0_stg2_0 : Ref sig .tc).ty.Contents (Elt F) :=
  ((oM : Memref sig .tc .vmem S256x2048 .f32).access (Rect.unit (s := S256x2048) (k0_off11 c) S128x256.size (k0_off11_inb c))).write (Elt F) (outC X DY c g)
    (k0_pay37
      (k0_pay36 ((oM : Memref sig .tc .vmem S256x2048 .f32).view.readAt (Elt F) (Rect.unit (s := S256x2048) (k0_off11 c) S128x256.size (k0_off11_inb c)).toLoadRect (outC X DY c g)))
      ((rM : Memref sig .tc .vmem S2x8x128x256 .bf16).view.readAt (Elt F) (Rect.unit (s := S2x8x128x256) ![1, 0, 0, 0] S1x1x128x256.size inb_S2x8x128x256_S1x1x128x256_1_0_0_0).toLoadRect (recvBuf X DY c)))
    Finset.univ
def outD1 (X : Dev nD → Vec F S512x512 .f32) (DY : Dev nD → Vec F S512x2048 .f32) (c : Dev nD)
    (g : (cc0_stg2_0 : Ref sig .tc).ty.Contents (Elt F)) : (cc0_stg2_0 : Ref sig .tc).ty.Contents (Elt F) :=
  ((oM : Memref sig .tc .vmem S256x2048 .f32).access (Rect.unit (s := S256x2048) (k0_off12 c) S128x256.size (k0_off12_inb c))).write (Elt F) (outD0 X DY c g)
    (k0_pay38
      ((oM : Memref sig .tc .vmem S256x2048 .f32).view.readAt (Elt F) (Rect.unit (s := S256x2048) (k0_off12 c) S128x256.size (k0_off12_inb c)).toLoadRect (outD0 X DY c g))
      ((rM : Memref sig .tc .vmem S2x8x128x256 .bf16).view.readAt (Elt F) (Rect.unit (s := S2x8x128x256) ![1, 1, 0, 0] S1x1x128x256.size inb_S2x8x128x256_S1x1x128x256_1_1_0_0).toLoadRect (recvBuf X DY c)))
    Finset.univ
def outD2 (X : Dev nD → Vec F S512x512 .f32) (DY : Dev nD → Vec F S512x2048 .f32) (c : Dev nD)
    (g : (cc0_stg2_0 : Ref sig .tc).ty.Contents (Elt F)) : (cc0_stg2_0 : Ref sig .tc).ty.Contents (Elt F) :=
  ((oM : Memref sig .tc .vmem S256x2048 .f32).access (Rect.unit (s := S256x2048) (k0_off13 c) S128x256.size (k0_off13_inb c))).write (Elt F) (outD1 X DY c g)
    (k0_pay39
      ((oM : Memref sig .tc .vmem S256x2048 .f32).view.readAt (Elt F) (Rect.unit (s := S256x2048) (k0_off13 c) S128x256.size (k0_off13_inb c)).toLoadRect (outD1 X DY c g))
      ((rM : Memref sig .tc .vmem S2x8x128x256 .bf16).view.readAt (Elt F) (Rect.unit (s := S2x8x128x256) ![1, 2, 0, 0] S1x1x128x256.size inb_S2x8x128x256_S1x1x128x256_1_2_0_0).toLoadRect (recvBuf X DY c)))
    Finset.univ
def outD3 (X : Dev nD → Vec F S512x512 .f32) (DY : Dev nD → Vec F S512x2048 .f32) (c : Dev nD)
    (g : (cc0_stg2_0 : Ref sig .tc).ty.Contents (Elt F)) : (cc0_stg2_0 : Ref sig .tc).ty.Contents (Elt F) :=
  ((oM : Memref sig .tc .vmem S256x2048 .f32).access (Rect.unit (s := S256x2048) (k0_off14 c) S128x256.size (k0_off14_inb c))).write (Elt F) (outD2 X DY c g)
    (k0_pay40
      ((oM : Memref sig .tc .vmem S256x2048 .f32).view.readAt (Elt F) (Rect.unit (s := S256x2048) (k0_off14 c) S128x256.size (k0_off14_inb c)).toLoadRect (outD2 X DY c g))
      ((rM : Memref sig .tc .vmem S2x8x128x256 .bf16).view.readAt (Elt F) (Rect.unit (s := S2x8x128x256) ![1, 3, 0, 0] S1x1x128x256.size inb_S2x8x128x256_S1x1x128x256_1_3_0_0).toLoadRect (recvBuf X DY c)))
    Finset.univ
def outD4 (X : Dev nD → Vec F S512x512 .f32) (DY : Dev nD → Vec F S512x2048 .f32) (c : Dev nD)
    (g : (cc0_stg2_0 : Ref sig .tc).ty.Contents (Elt F)) : (cc0_stg2_0 : Ref sig .tc).ty.Contents (Elt F) :=
  ((oM : Memref sig .tc .vmem S256x2048 .f32).access (Rect.unit (s := S256x2048) (k0_off15 c) S128x256.size (k0_off15_inb c))).write (Elt F) (outD3 X DY c g)
    (k0_pay41
      ((oM : Memref sig .tc .vmem S256x2048 .f32).view.readAt (Elt F) (Rect.unit (s := S256x2048) (k0_off15 c) S128x256.size (k0_off15_inb c)).toLoadRect (outD3 X DY c g))
      ((rM : Memref sig .tc .vmem S2x8x128x256 .bf16).view.readAt (Elt F) (Rect.unit (s := S2x8x128x256) ![1, 4, 0, 0] S1x1x128x256.size inb_S2x8x128x256_S1x1x128x256_1_4_0_0).toLoadRect (recvBuf X DY c)))
    Finset.univ
def outD5 (X : Dev nD → Vec F S512x512 .f32) (DY : Dev nD → Vec F S512x2048 .f32) (c : Dev nD)
    (g : (cc0_stg2_0 : Ref sig .tc).ty.Contents (Elt F)) : (cc0_stg2_0 : Ref sig .tc).ty.Contents (Elt F) :=
  ((oM : Memref sig .tc .vmem S256x2048 .f32).access (Rect.unit (s := S256x2048) (k0_off16 c) S128x256.size (k0_off16_inb c))).write (Elt F) (outD4 X DY c g)
    (k0_pay42
      ((oM : Memref sig .tc .vmem S256x2048 .f32).view.readAt (Elt F) (Rect.unit (s := S256x2048) (k0_off16 c) S128x256.size (k0_off16_inb c)).toLoadRect (outD4 X DY c g))
      ((rM : Memref sig .tc .vmem S2x8x128x256 .bf16).view.readAt (Elt F) (Rect.unit (s := S2x8x128x256) ![1, 5, 0, 0] S1x1x128x256.size inb_S2x8x128x256_S1x1x128x256_1_5_0_0).toLoadRect (recvBuf X DY c)))
    Finset.univ
def outD6 (X : Dev nD → Vec F S512x512 .f32) (DY : Dev nD → Vec F S512x2048 .f32) (c : Dev nD)
    (g : (cc0_stg2_0 : Ref sig .tc).ty.Contents (Elt F)) : (cc0_stg2_0 : Ref sig .tc).ty.Contents (Elt F) :=
  ((oM : Memref sig .tc .vmem S256x2048 .f32).access (Rect.unit (s := S256x2048) (k0_off17 c) S128x256.size (k0_off17_inb c))).write (Elt F) (outD5 X DY c g)
    (k0_pay43
      ((oM : Memref sig .tc .vmem S256x2048 .f32).view.readAt (Elt F) (Rect.unit (s := S256x2048) (k0_off17 c) S128x256.size (k0_off17_inb c)).toLoadRect (outD5 X DY c g))
      ((rM : Memref sig .tc .vmem S2x8x128x256 .bf16).view.readAt (Elt F) (Rect.unit (s := S2x8x128x256) ![1, 6, 0, 0] S1x1x128x256.size inb_S2x8x128x256_S1x1x128x256_1_6_0_0).toLoadRect (recvBuf X DY c)))
    Finset.univ
def outD7 (X : Dev nD → Vec F S512x512 .f32) (DY : Dev nD → Vec F S512x2048 .f32) (c : Dev nD)
    (g : (cc0_stg2_0 : Ref sig .tc).ty.Contents (Elt F)) : (cc0_stg2_0 : Ref sig .tc).ty.Contents (Elt F) :=
  ((oM : Memref sig .tc .vmem S256x2048 .f32).access (Rect.unit (s := S256x2048) (k0_off18 c) S128x256.size (k0_off18_inb c))).write (Elt F) (outD6 X DY c g)
    (k0_pay45
      (k0_pay44 ((oM : Memref sig .tc .vmem S256x2048 .f32).view.readAt (Elt F) (Rect.unit (s := S256x2048) (k0_off18 c) S128x256.size (k0_off18_inb c)).toLoadRect (outD6 X DY c g)))
      ((rM : Memref sig .tc .vmem S2x8x128x256 .bf16).view.readAt (Elt F) (Rect.unit (s := S2x8x128x256) ![1, 7, 0, 0] S1x1x128x256.size inb_S2x8x128x256_S1x1x128x256_1_7_0_0).toLoadRect (recvBuf X DY c)))
    Finset.univ
/-- The output buffer at the end of the body: after the eight accumulate steps from what came across x. -/
def outD (X : Dev nD → Vec F S512x512 .f32) (DY : Dev nD → Vec F S512x2048 .f32) (c : Dev nD)
    (g : (cc0_stg2_0 : Ref sig .tc).ty.Contents (Elt F)) : (cc0_stg2_0 : Ref sig .tc).ty.Contents (Elt F) := outD7 X DY c g

/-! ## The invariants along the body, and the final contents -/

theorem outB0_apply (X : Dev nD → Vec F S512x512 .f32) (DY : Dev nD → Vec F S512x2048 .f32) (c : Dev nD)
    (g : (cc0_stg2_0 : Ref sig .tc).ty.Contents (Elt F)) :
    ∀ i : S256x2048.Idx, outB0 X DY c g i = if (i 1).val / 256 < 1 then keepAt X DY c i else g i :=
  keep_step X DY c ⟨0, by decide⟩ ![0, 0] inb_S256x2048_S256x256_0_0 rfl rfl _ rfl g g
    (fun i => (if_neg (Nat.not_lt_zero _)).symm)
theorem outB1_apply (X : Dev nD → Vec F S512x512 .f32) (DY : Dev nD → Vec F S512x2048 .f32) (c : Dev nD)
    (g : (cc0_stg2_0 : Ref sig .tc).ty.Contents (Elt F)) :
    ∀ i : S256x2048.Idx, outB1 X DY c g i = if (i 1).val / 256 < 2 then keepAt X DY c i else g i :=
  keep_step X DY c ⟨1, by decide⟩ ![0, 256] inb_S256x2048_S256x256_0_256 rfl rfl _ rfl g (outB0 X DY c g) (outB0_apply X DY c g)
theorem outB2_apply (X : Dev nD → Vec F S512x512 .f32) (DY : Dev nD → Vec F S512x2048 .f32) (c : Dev nD)
    (g : (cc0_stg2_0 : Ref sig .tc).ty.Contents (Elt F)) :
    ∀ i : S256x2048.Idx, outB2 X DY c g i = if (i 1).val / 256 < 3 then keepAt X DY c i else g i :=
  keep_step X DY c ⟨2, by decide⟩ ![0, 512] inb_S256x2048_S256x256_0_512 rfl rfl _ rfl g (outB1 X DY c g) (outB1_apply X DY c g)
theorem outB3_apply (X : Dev nD → Vec F S512x512 .f32) (DY : Dev nD → Vec F S512x2048 .f32) (c : Dev nD)
    (g : (cc0_stg2_0 : Ref sig .tc).ty.Contents (Elt F)) :
    ∀ i : S256x2048.Idx, outB3 X DY c g i = if (i 1).val / 256 < 4 then keepAt X DY c i else g i :=
  keep_step X DY c ⟨3, by decide⟩ ![0, 768] inb_S256x2048_S256x256_0_768 rfl rfl _ rfl g (outB2 X DY c g) (outB2_apply X DY c g)
theorem outB4_apply (X : Dev nD → Vec F S512x512 .f32) (DY : Dev nD → Vec F S512x2048 .f32) (c : Dev nD)
    (g : (cc0_stg2_0 : Ref sig .tc).ty.Contents (Elt F)) :
    ∀ i : S256x2048.Idx, outB4 X DY c g i = if (i 1).val / 256 < 5 then keepAt X DY c i else g i :=
  keep_step X DY c ⟨4, by decide⟩ ![0, 1024] inb_S256x2048_S256x256_0_1024 rfl rfl _ rfl g (outB3 X DY c g) (outB3_apply X DY c g)
theorem outB5_apply (X : Dev nD → Vec F S512x512 .f32) (DY : Dev nD → Vec F S512x2048 .f32) (c : Dev nD)
    (g : (cc0_stg2_0 : Ref sig .tc).ty.Contents (Elt F)) :
    ∀ i : S256x2048.Idx, outB5 X DY c g i = if (i 1).val / 256 < 6 then keepAt X DY c i else g i :=
  keep_step X DY c ⟨5, by decide⟩ ![0, 1280] inb_S256x2048_S256x256_0_1280 rfl rfl _ rfl g (outB4 X DY c g) (outB4_apply X DY c g)
theorem outB6_apply (X : Dev nD → Vec F S512x512 .f32) (DY : Dev nD → Vec F S512x2048 .f32) (c : Dev nD)
    (g : (cc0_stg2_0 : Ref sig .tc).ty.Contents (Elt F)) :
    ∀ i : S256x2048.Idx, outB6 X DY c g i = if (i 1).val / 256 < 7 then keepAt X DY c i else g i :=
  keep_step X DY c ⟨6, by decide⟩ ![0, 1536] inb_S256x2048_S256x256_0_1536 rfl rfl _ rfl g (outB5 X DY c g) (outB5_apply X DY c g)
theorem outB7_apply (X : Dev nD → Vec F S512x512 .f32) (DY : Dev nD → Vec F S512x2048 .f32) (c : Dev nD)
    (g : (cc0_stg2_0 : Ref sig .tc).ty.Contents (Elt F)) :
    ∀ i : S256x2048.Idx, outB7 X DY c g i = if (i 1).val / 256 < 8 then keepAt X DY c i else g i :=
  keep_step X DY c ⟨7, by decide⟩ ![0, 1792] inb_S256x2048_S256x256_0_1792 rfl rfl _ rfl g (outB6 X DY c g) (outB6_apply X DY c g)

/-- The eight stores cover the buffer: whatever it held before, it now holds the kept products. -/
theorem outB_apply (X : Dev nD → Vec F S512x512 .f32) (DY : Dev nD → Vec F S512x2048 .f32) (c : Dev nD)
    (g : (cc0_stg2_0 : Ref sig .tc).ty.Contents (Elt F)) (i : S256x2048.Idx) :
    outB X DY c g i = keepAt X DY c i :=
  (outB7_apply X DY c g i).trans (if_pos (by have := idx2_lt1 i; omega))

/-- The second sweep's rows start at 128 − 128 · x, which is 128 · (1 − x) for a coordinate x below 2. -/
theorem offD_row (c : Dev nD) : 128 - 128 * (c.val / 8) = 128 * (1 - xc c) := by
  have h := xc_lt c
  unfold xc at h ⊢
  omega

theorem outC0_apply (X : Dev nD → Vec F S512x512 .f32) (DY : Dev nD → Vec F S512x2048 .f32) (c : Dev nD)
    (g : (cc0_stg2_0 : Ref sig .tc).ty.Contents (Elt F)) :
    ∀ i : S256x2048.Idx, outC0 X DY c g i = if (i 0).val / 128 = xc c ∧ (i 1).val / 256 < 1 then
      FloatOps.addf (outB X DY c g i) (addend (recvBuf X DY c) 0 i) else outB X DY c g i :=
  sweep_step (recvBuf X DY c) 0 (xc c) 0 (by decide) (k0_off3 c) (k0_off3_inb c) ![0, 0, 0, 0] inb_S2x8x128x256_S1x1x128x256_0_0_0_0
    (by rw [k0_off3_eq]; rfl) (by rw [k0_off3_eq]; rfl) rfl rfl rfl rfl (outB X DY c g) (outB X DY c g)
    (fun i => (if_neg (by omega)).symm)
theorem outC1_apply (X : Dev nD → Vec F S512x512 .f32) (DY : Dev nD → Vec F S512x2048 .f32) (c : Dev nD)
    (g : (cc0_stg2_0 : Ref sig .tc).ty.Contents (Elt F)) :
    ∀ i : S256x2048.Idx, outC1 X DY c g i = if (i 0).val / 128 = xc c ∧ (i 1).val / 256 < 2 then
      FloatOps.addf (outB X DY c g i) (addend (recvBuf X DY c) 0 i) else outB X DY c g i :=
  sweep_step (recvBuf X DY c) 0 (xc c) 1 (by decide) (k0_off4 c) (k0_off4_inb c) ![0, 1, 0, 0] inb_S2x8x128x256_S1x1x128x256_0_1_0_0
    (by rw [k0_off4_eq]; rfl) (by rw [k0_off4_eq]; rfl) rfl rfl rfl rfl (outB X DY c g) (outC0 X DY c g) (outC0_apply X DY c g)
theorem outC2_apply (X : Dev nD → Vec F S512x512 .f32) (DY : Dev nD → Vec F S512x2048 .f32) (c : Dev nD)
    (g : (cc0_stg2_0 : Ref sig .tc).ty.Contents (Elt F)) :
    ∀ i : S256x2048.Idx, outC2 X DY c g i = if (i 0).val / 128 = xc c ∧ (i 1).val / 256 < 3 then
      FloatOps.addf (outB X DY c g i) (addend (recvBuf X DY c) 0 i) else outB X DY c g i :=
  sweep_step (recvBuf X DY c) 0 (xc c) 2 (by decide) (k0_off5 c) (k0_off5_inb c) ![0, 2, 0, 0] inb_S2x8x128x256_S1x1x128x256_0_2_0_0
    (by rw [k0_off5_eq]; rfl) (by rw [k0_off5_eq]; rfl) rfl rfl rfl rfl (outB X DY c g) (outC1 X DY c g) (outC1_apply X DY c g)
theorem outC3_apply (X : Dev nD → Vec F S512x512 .f32) (DY : Dev nD → Vec F S512x2048 .f32) (c : Dev nD)
    (g : (cc0_stg2_0 : Ref sig .tc).ty.Contents (Elt F)) :
    ∀ i : S256x2048.Idx, outC3 X DY c g i = if (i 0).val / 128 = xc c ∧ (i 1).val / 256 < 4 then
      FloatOps.addf (outB X DY c g i) (addend (recvBuf X DY c) 0 i) else outB X DY c g i :=
  sweep_step (recvBuf X DY c) 0 (xc c) 3 (by decide) (k0_off6 c) (k0_off6_inb c) ![0, 3, 0, 0] inb_S2x8x128x256_S1x1x128x256_0_3_0_0
    (by rw [k0_off6_eq]; rfl) (by rw [k0_off6_eq]; rfl) rfl rfl rfl rfl (outB X DY c g) (outC2 X DY c g) (outC2_apply X DY c g)
theorem outC4_apply (X : Dev nD → Vec F S512x512 .f32) (DY : Dev nD → Vec F S512x2048 .f32) (c : Dev nD)
    (g : (cc0_stg2_0 : Ref sig .tc).ty.Contents (Elt F)) :
    ∀ i : S256x2048.Idx, outC4 X DY c g i = if (i 0).val / 128 = xc c ∧ (i 1).val / 256 < 5 then
      FloatOps.addf (outB X DY c g i) (addend (recvBuf X DY c) 0 i) else outB X DY c g i :=
  sweep_step (recvBuf X DY c) 0 (xc c) 4 (by decide) (k0_off7 c) (k0_off7_inb c) ![0, 4, 0, 0] inb_S2x8x128x256_S1x1x128x256_0_4_0_0
    (by rw [k0_off7_eq]; rfl) (by rw [k0_off7_eq]; rfl) rfl rfl rfl rfl (outB X DY c g) (outC3 X DY c g) (outC3_apply X DY c g)
theorem outC5_apply (X : Dev nD → Vec F S512x512 .f32) (DY : Dev nD → Vec F S512x2048 .f32) (c : Dev nD)
    (g : (cc0_stg2_0 : Ref sig .tc).ty.Contents (Elt F)) :
    ∀ i : S256x2048.Idx, outC5 X DY c g i = if (i 0).val / 128 = xc c ∧ (i 1).val / 256 < 6 then
      FloatOps.addf (outB X DY c g i) (addend (recvBuf X DY c) 0 i) else outB X DY c g i :=
  sweep_step (recvBuf X DY c) 0 (xc c) 5 (by decide) (k0_off8 c) (k0_off8_inb c) ![0, 5, 0, 0] inb_S2x8x128x256_S1x1x128x256_0_5_0_0
    (by rw [k0_off8_eq]; rfl) (by rw [k0_off8_eq]; rfl) rfl rfl rfl rfl (outB X DY c g) (outC4 X DY c g) (outC4_apply X DY c g)
theorem outC6_apply (X : Dev nD → Vec F S512x512 .f32) (DY : Dev nD → Vec F S512x2048 .f32) (c : Dev nD)
    (g : (cc0_stg2_0 : Ref sig .tc).ty.Contents (Elt F)) :
    ∀ i : S256x2048.Idx, outC6 X DY c g i = if (i 0).val / 128 = xc c ∧ (i 1).val / 256 < 7 then
      FloatOps.addf (outB X DY c g i) (addend (recvBuf X DY c) 0 i) else outB X DY c g i :=
  sweep_step (recvBuf X DY c) 0 (xc c) 6 (by decide) (k0_off9 c) (k0_off9_inb c) ![0, 6, 0, 0] inb_S2x8x128x256_S1x1x128x256_0_6_0_0
    (by rw [k0_off9_eq]; rfl) (by rw [k0_off9_eq]; rfl) rfl rfl rfl rfl (outB X DY c g) (outC5 X DY c g) (outC5_apply X DY c g)
theorem outC7_apply (X : Dev nD → Vec F S512x512 .f32) (DY : Dev nD → Vec F S512x2048 .f32) (c : Dev nD)
    (g : (cc0_stg2_0 : Ref sig .tc).ty.Contents (Elt F)) :
    ∀ i : S256x2048.Idx, outC7 X DY c g i = if (i 0).val / 128 = xc c ∧ (i 1).val / 256 < 8 then
      FloatOps.addf (outB X DY c g i) (addend (recvBuf X DY c) 0 i) else outB X DY c g i :=
  sweep_step (recvBuf X DY c) 0 (xc c) 7 (by decide) (k0_off10 c) (k0_off10_inb c) ![0, 7, 0, 0] inb_S2x8x128x256_S1x1x128x256_0_7_0_0
    (by rw [k0_off10_eq]; rfl) (by rw [k0_off10_eq]; rfl) rfl rfl rfl rfl (outB X DY c g) (outC6 X DY c g) (outC6_apply X DY c g)

/-- After the first accumulate sweep: on the half of the rows the device's x coordinate names, the kept
    product plus what came across y; on the other half, the kept product. -/
theorem outC_apply (X : Dev nD → Vec F S512x512 .f32) (DY : Dev nD → Vec F S512x2048 .f32) (c : Dev nD)
    (g : (cc0_stg2_0 : Ref sig .tc).ty.Contents (Elt F)) (i : S256x2048.Idx) :
    outC X DY c g i = if (i 0).val / 128 = xc c then
      FloatOps.addf (keepAt X DY c i) (addend (recvBuf X DY c) 0 i) else keepAt X DY c i := by
  have hi1 := idx2_lt1 i
  refine (outC7_apply X DY c g i).trans ?_
  rw [outB_apply]
  exact if_congr (by omega) rfl rfl

theorem outD0_apply (X : Dev nD → Vec F S512x512 .f32) (DY : Dev nD → Vec F S512x2048 .f32) (c : Dev nD)
    (g : (cc0_stg2_0 : Ref sig .tc).ty.Contents (Elt F)) :
    ∀ i : S256x2048.Idx, outD0 X DY c g i = if (i 0).val / 128 = 1 - xc c ∧ (i 1).val / 256 < 1 then
      FloatOps.addf (outC X DY c g i) (addend (recvBuf X DY c) 1 i) else outC X DY c g i :=
  sweep_step (recvBuf X DY c) 1 (1 - xc c) 0 (by decide) (k0_off11 c) (k0_off11_inb c) ![1, 0, 0, 0] inb_S2x8x128x256_S1x1x128x256_1_0_0_0
    (by rw [k0_off11_eq]; exact offD_row c) (by rw [k0_off11_eq]; rfl) rfl rfl rfl rfl (outC X DY c g) (outC X DY c g)
    (fun i => (if_neg (by omega)).symm)
theorem outD1_apply (X : Dev nD → Vec F S512x512 .f32) (DY : Dev nD → Vec F S512x2048 .f32) (c : Dev nD)
    (g : (cc0_stg2_0 : Ref sig .tc).ty.Contents (Elt F)) :
    ∀ i : S256x2048.Idx, outD1 X DY c g i = if (i 0).val / 128 = 1 - xc c ∧ (i 1).val / 256 < 2 then
      FloatOps.addf (outC X DY c g i) (addend (recvBuf X DY c) 1 i) else outC X DY c g i :=
  sweep_step (recvBuf X DY c) 1 (1 - xc c) 1 (by decide) (k0_off12 c) (k0_off12_inb c) ![1, 1, 0, 0] inb_S2x8x128x256_S1x1x128x256_1_1_0_0
    (by rw [k0_off12_eq]; exact offD_row c) (by rw [k0_off12_eq]; rfl) rfl rfl rfl rfl (outC X DY c g) (outD0 X DY c g) (outD0_apply X DY c g)
theorem outD2_apply (X : Dev nD → Vec F S512x512 .f32) (DY : Dev nD → Vec F S512x2048 .f32) (c : Dev nD)
    (g : (cc0_stg2_0 : Ref sig .tc).ty.Contents (Elt F)) :
    ∀ i : S256x2048.Idx, outD2 X DY c g i = if (i 0).val / 128 = 1 - xc c ∧ (i 1).val / 256 < 3 then
      FloatOps.addf (outC X DY c g i) (addend (recvBuf X DY c) 1 i) else outC X DY c g i :=
  sweep_step (recvBuf X DY c) 1 (1 - xc c) 2 (by decide) (k0_off13 c) (k0_off13_inb c) ![1, 2, 0, 0] inb_S2x8x128x256_S1x1x128x256_1_2_0_0
    (by rw [k0_off13_eq]; exact offD_row c) (by rw [k0_off13_eq]; rfl) rfl rfl rfl rfl (outC X DY c g) (outD1 X DY c g) (outD1_apply X DY c g)
theorem outD3_apply (X : Dev nD → Vec F S512x512 .f32) (DY : Dev nD → Vec F S512x2048 .f32) (c : Dev nD)
    (g : (cc0_stg2_0 : Ref sig .tc).ty.Contents (Elt F)) :
    ∀ i : S256x2048.Idx, outD3 X DY c g i = if (i 0).val / 128 = 1 - xc c ∧ (i 1).val / 256 < 4 then
      FloatOps.addf (outC X DY c g i) (addend (recvBuf X DY c) 1 i) else outC X DY c g i :=
  sweep_step (recvBuf X DY c) 1 (1 - xc c) 3 (by decide) (k0_off14 c) (k0_off14_inb c) ![1, 3, 0, 0] inb_S2x8x128x256_S1x1x128x256_1_3_0_0
    (by rw [k0_off14_eq]; exact offD_row c) (by rw [k0_off14_eq]; rfl) rfl rfl rfl rfl (outC X DY c g) (outD2 X DY c g) (outD2_apply X DY c g)
theorem outD4_apply (X : Dev nD → Vec F S512x512 .f32) (DY : Dev nD → Vec F S512x2048 .f32) (c : Dev nD)
    (g : (cc0_stg2_0 : Ref sig .tc).ty.Contents (Elt F)) :
    ∀ i : S256x2048.Idx, outD4 X DY c g i = if (i 0).val / 128 = 1 - xc c ∧ (i 1).val / 256 < 5 then
      FloatOps.addf (outC X DY c g i) (addend (recvBuf X DY c) 1 i) else outC X DY c g i :=
  sweep_step (recvBuf X DY c) 1 (1 - xc c) 4 (by decide) (k0_off15 c) (k0_off15_inb c) ![1, 4, 0, 0] inb_S2x8x128x256_S1x1x128x256_1_4_0_0
    (by rw [k0_off15_eq]; exact offD_row c) (by rw [k0_off15_eq]; rfl) rfl rfl rfl rfl (outC X DY c g) (outD3 X DY c g) (outD3_apply X DY c g)
theorem outD5_apply (X : Dev nD → Vec F S512x512 .f32) (DY : Dev nD → Vec F S512x2048 .f32) (c : Dev nD)
    (g : (cc0_stg2_0 : Ref sig .tc).ty.Contents (Elt F)) :
    ∀ i : S256x2048.Idx, outD5 X DY c g i = if (i 0).val / 128 = 1 - xc c ∧ (i 1).val / 256 < 6 then
      FloatOps.addf (outC X DY c g i) (addend (recvBuf X DY c) 1 i) else outC X DY c g i :=
  sweep_step (recvBuf X DY c) 1 (1 - xc c) 5 (by decide) (k0_off16 c) (k0_off16_inb c) ![1, 5, 0, 0] inb_S2x8x128x256_S1x1x128x256_1_5_0_0
    (by rw [k0_off16_eq]; exact offD_row c) (by rw [k0_off16_eq]; rfl) rfl rfl rfl rfl (outC X DY c g) (outD4 X DY c g) (outD4_apply X DY c g)
theorem outD6_apply (X : Dev nD → Vec F S512x512 .f32) (DY : Dev nD → Vec F S512x2048 .f32) (c : Dev nD)
    (g : (cc0_stg2_0 : Ref sig .tc).ty.Contents (Elt F)) :
    ∀ i : S256x2048.Idx, outD6 X DY c g i = if (i 0).val / 128 = 1 - xc c ∧ (i 1).val / 256 < 7 then
      FloatOps.addf (outC X DY c g i) (addend (recvBuf X DY c) 1 i) else outC X DY c g i :=
  sweep_step (recvBuf X DY c) 1 (1 - xc c) 6 (by decide) (k0_off17 c) (k0_off17_inb c) ![1, 6, 0, 0] inb_S2x8x128x256_S1x1x128x256_1_6_0_0
    (by rw [k0_off17_eq]; exact offD_row c) (by rw [k0_off17_eq]; rfl) rfl rfl rfl rfl (outC X DY c g) (outD5 X DY c g) (outD5_apply X DY c g)
theorem outD7_apply (X : Dev nD → Vec F S512x512 .f32) (DY : Dev nD → Vec F S512x2048 .f32) (c : Dev nD)
    (g : (cc0_stg2_0 : Ref sig .tc).ty.Contents (Elt F)) :
    ∀ i : S256x2048.Idx, outD7 X DY c g i = if (i 0).val / 128 = 1 - xc c ∧ (i 1).val / 256 < 8 then
      FloatOps.addf (outC X DY c g i) (addend (recvBuf X DY c) 1 i) else outC X DY c g i :=
  sweep_step (recvBuf X DY c) 1 (1 - xc c) 7 (by decide) (k0_off18 c) (k0_off18_inb c) ![1, 7, 0, 0] inb_S2x8x128x256_S1x1x128x256_1_7_0_0
    (by rw [k0_off18_eq]; exact offD_row c) (by rw [k0_off18_eq]; rfl) rfl rfl rfl rfl (outC X DY c g) (outD6 X DY c g) (outD6_apply X DY c g)

/-- After the second accumulate sweep: on the other half of the rows, what came across x is added on top. -/
theorem outD_apply (X : Dev nD → Vec F S512x512 .f32) (DY : Dev nD → Vec F S512x2048 .f32) (c : Dev nD)
    (g : (cc0_stg2_0 : Ref sig .tc).ty.Contents (Elt F)) (i : S256x2048.Idx) :
    outD X DY c g i = if (i 0).val / 128 = 1 - xc c then
      FloatOps.addf (outC X DY c g i) (addend (recvBuf X DY c) 1 i) else outC X DY c g i := by
  have hi1 := idx2_lt1 i
  refine (outD7_apply X DY c g i).trans ?_
  exact if_congr (by omega) rfl rfl

/-- The output block spelt with the two index functions above: the kept product plus the received element of
    the half the row lies in. -/
theorem outVal_apply (X : Dev nD → Vec F S512x512 .f32) (DY : Dev nD → Vec F S512x2048 .f32) (c : Dev nD) (i : S256x2048.Idx) :
    outVal X DY c i
      = FloatOps.addf (keepAt X DY c i) (addend (recvBuf X DY c) (if (i 0).val / 128 = xc c then 0 else 1) i) := rfl

/-- What the body leaves in the output buffer, whatever it held before, is the output block: every row lies in
    exactly one of the two halves, so every element gets the kept product plus exactly one received element. -/
theorem out_final (X : Dev nD → Vec F S512x512 .f32) (DY : Dev nD → Vec F S512x2048 .f32) (c : Dev nD)
    (g : (cc0_stg2_0 : Ref sig .tc).ty.Contents (Elt F)) :
    outD X DY c g = outVal X DY c := by
  refine funext fun (i : S256x2048.Idx) => ?_
  have hi0 := idx2_lt0 i
  have hx := xc_lt c
  have eD := outD_apply X DY c g i
  have eC := outC_apply X DY c g i
  have eV := outVal_apply X DY c i
  by_cases h : (i 0).val / 128 = xc c
  · rw [if_neg (by omega)] at eD
    rw [if_pos h] at eC eV
    exact eD.trans (eC.trans eV.symm)
  · rw [if_pos (by omega)] at eD
    rw [if_neg h] at eC eV
    rw [eD, eC, eV]

/-- info: 'Cert.KernelIdeal.Hand.out_final' depends on axioms: [propext, Classical.choice, Quot.sound] -/
#guard_msgs in #print axioms out_final

end Cert.KernelIdeal.Hand

end
-- ==== Proof.BodyClose.lean ====
/- The end of a device's body: its thirty-three scoped cells (every cell but the barrier's, which is the runtime's) are
   closed, each from its invariant and the device standing at round 1 of it with nothing taken, and their counters, at
   zero, gathered into one conjunction over the cells' numbers. -/
import proofs.«901048_g7700000000001049_dist_rsdw_v7x_xyz2x2x4_y_m512_d512_f2048_bf16_1_alg».proof.Proof.StepsSync
import proofs.«901048_g7700000000001049_dist_rsdw_v7x_xyz2x2x4_y_m512_d512_f2048_bf16_1_alg».proof.Proof.BodyPre

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxRecDepth 8000 in
/-- A conjunction over every cell number but the barrier's, written out: the ready cell, then the eight send and the
    eight receive cells of the copies across y, then those across x. -/
theorem sep33 (Φ : Fin 34 → sProp 𝕄) :
    bigSep (Finset.univ.erase iBar) Φ
      = iprop(Φ iRdy ∗ Φ (iYs (0 : Fin 8)) ∗ Φ (iYs (1 : Fin 8)) ∗ Φ (iYs (2 : Fin 8)) ∗ Φ (iYs (3 : Fin 8)) ∗ Φ (iYs (4 : Fin 8)) ∗ Φ (iYs (5 : Fin 8)) ∗ Φ (iYs (6 : Fin 8)) ∗ Φ (iYs (7 : Fin 8)) ∗ Φ (iYr (0 : Fin 8)) ∗ Φ (iYr (1 : Fin 8)) ∗ Φ (iYr (2 : Fin 8)) ∗ Φ (iYr (3 : Fin 8)) ∗ Φ (iYr (4 : Fin 8)) ∗ Φ (iYr (5 : Fin 8)) ∗ Φ (iYr (6 : Fin 8)) ∗ Φ (iYr (7 : Fin 8)) ∗ Φ (iXs (0 : Fin 8)) ∗ Φ (iXs (1 : Fin 8)) ∗ Φ (iXs (2 : Fin 8)) ∗ Φ (iXs (3 : Fin 8)) ∗ Φ (iXs (4 : Fin 8)) ∗ Φ (iXs (5 : Fin 8)) ∗ Φ (iXs (6 : Fin 8)) ∗ Φ (iXs (7 : Fin 8)) ∗ Φ (iXr (0 : Fin 8)) ∗ Φ (iXr (1 : Fin 8)) ∗ Φ (iXr (2 : Fin 8)) ∗ Φ (iXr (3 : Fin 8)) ∗ Φ (iXr (4 : Fin 8)) ∗ Φ (iXr (5 : Fin 8)) ∗ Φ (iXr (6 : Fin 8)) ∗ Φ (iXr (7 : Fin 8))) :=
  bigSep_eq_bigSepL_of_eq [iRdy, iYs (0 : Fin 8), iYs (1 : Fin 8), iYs (2 : Fin 8), iYs (3 : Fin 8), iYs (4 : Fin 8), iYs (5 : Fin 8), iYs (6 : Fin 8), iYs (7 : Fin 8), iYr (0 : Fin 8), iYr (1 : Fin 8), iYr (2 : Fin 8), iYr (3 : Fin 8), iYr (4 : Fin 8), iYr (5 : Fin 8), iYr (6 : Fin 8), iYr (7 : Fin 8), iXs (0 : Fin 8), iXs (1 : Fin 8), iXs (2 : Fin 8), iXs (3 : Fin 8), iXs (4 : Fin 8), iXs (5 : Fin 8), iXs (6 : Fin 8), iXs (7 : Fin 8), iXr (0 : Fin 8), iXr (1 : Fin 8), iXr (2 : Fin 8), iXr (3 : Fin 8), iXr (4 : Fin 8), iXr (5 : Fin 8), iXr (6 : Fin 8), iXr (7 : Fin 8)] (by decide) (by decide) Φ

/-- Every scoped cell of a device closed at once: per cell the owner leaves its position inside the invariant and keeps
    the counter at zero, and the thirty-three updates combine into one. -/
theorem close_scoped (K : Dev nD × Fin 34 → ℕ) (c : Dev nD) :
    (bigSep (Finset.univ.erase iBar) fun i : Fin 34 =>
        iprop(cellInv ER (protoRd m ρ) (K (c, i)) (kcell (c, i)) ∗ atPos ER (kcell (c, i)) 1 ∅ 0))
      ⊢ (iprop(|={Set.univ}=> bigSep (Finset.univ.erase iBar) fun i : Fin 34 => semVal (kcell (c, i)) 0) : sProp 𝕄) :=
  (bigSep_mono fun i _ => close_cell m ρ (kcell (c, i)) (K (c, i))).trans
    (bigSep_fupd (Finset.univ.erase iBar) fun i : Fin 34 => (semVal (kcell (c, i)) 0 : sProp 𝕄))

/-- The same from the flat conjuncts a run of the body leaves: the thirty-three invariants, then the thirty-three
    positions, each family in the order of the cells' numbers. -/
theorem close_all (K : Dev nD × Fin 34 → ℕ) (c : Dev nD) :
    iprop((cellInv ER (protoRd m ρ) (K (c, iRdy)) (rdyCell c)
        ∗ cellInv ER (protoRd m ρ) (K (c, iYs (0 : Fin 8))) (ysCell c (0 : Fin 8))
        ∗ cellInv ER (protoRd m ρ) (K (c, iYs (1 : Fin 8))) (ysCell c (1 : Fin 8))
        ∗ cellInv ER (protoRd m ρ) (K (c, iYs (2 : Fin 8))) (ysCell c (2 : Fin 8))
        ∗ cellInv ER (protoRd m ρ) (K (c, iYs (3 : Fin 8))) (ysCell c (3 : Fin 8))
        ∗ cellInv ER (protoRd m ρ) (K (c, iYs (4 : Fin 8))) (ysCell c (4 : Fin 8))
        ∗ cellInv ER (protoRd m ρ) (K (c, iYs (5 : Fin 8))) (ysCell c (5 : Fin 8))
        ∗ cellInv ER (protoRd m ρ) (K (c, iYs (6 : Fin 8))) (ysCell c (6 : Fin 8))
        ∗ cellInv ER (protoRd m ρ) (K (c, iYs (7 : Fin 8))) (ysCell c (7 : Fin 8))
        ∗ cellInv ER (protoRd m ρ) (K (c, iYr (0 : Fin 8))) (yrCell c (0 : Fin 8))
        ∗ cellInv ER (protoRd m ρ) (K (c, iYr (1 : Fin 8))) (yrCell c (1 : Fin 8))
        ∗ cellInv ER (protoRd m ρ) (K (c, iYr (2 : Fin 8))) (yrCell c (2 : Fin 8))
        ∗ cellInv ER (protoRd m ρ) (K (c, iYr (3 : Fin 8))) (yrCell c (3 : Fin 8))
        ∗ cellInv ER (protoRd m ρ) (K (c, iYr (4 : Fin 8))) (yrCell c (4 : Fin 8))
        ∗ cellInv ER (protoRd m ρ) (K (c, iYr (5 : Fin 8))) (yrCell c (5 : Fin 8))
        ∗ cellInv ER (protoRd m ρ) (K (c, iYr (6 : Fin 8))) (yrCell c (6 : Fin 8))
        ∗ cellInv ER (protoRd m ρ) (K (c, iYr (7 : Fin 8))) (yrCell c (7 : Fin 8))
        ∗ cellInv ER (protoRd m ρ) (K (c, iXs (0 : Fin 8))) (xsCell c (0 : Fin 8))
        ∗ cellInv ER (protoRd m ρ) (K (c, iXs (1 : Fin 8))) (xsCell c (1 : Fin 8))
        ∗ cellInv ER (protoRd m ρ) (K (c, iXs (2 : Fin 8))) (xsCell c (2 : Fin 8))
        ∗ cellInv ER (protoRd m ρ) (K (c, iXs (3 : Fin 8))) (xsCell c (3 : Fin 8))
        ∗ cellInv ER (protoRd m ρ) (K (c, iXs (4 : Fin 8))) (xsCell c (4 : Fin 8))
        ∗ cellInv ER (protoRd m ρ) (K (c, iXs (5 : Fin 8))) (xsCell c (5 : Fin 8))
        ∗ cellInv ER (protoRd m ρ) (K (c, iXs (6 : Fin 8))) (xsCell c (6 : Fin 8))
        ∗ cellInv ER (protoRd m ρ) (K (c, iXs (7 : Fin 8))) (xsCell c (7 : Fin 8))
        ∗ cellInv ER (protoRd m ρ) (K (c, iXr (0 : Fin 8))) (xrCell c (0 : Fin 8))
        ∗ cellInv ER (protoRd m ρ) (K (c, iXr (1 : Fin 8))) (xrCell c (1 : Fin 8))
        ∗ cellInv ER (protoRd m ρ) (K (c, iXr (2 : Fin 8))) (xrCell c (2 : Fin 8))
        ∗ cellInv ER (protoRd m ρ) (K (c, iXr (3 : Fin 8))) (xrCell c (3 : Fin 8))
        ∗ cellInv ER (protoRd m ρ) (K (c, iXr (4 : Fin 8))) (xrCell c (4 : Fin 8))
        ∗ cellInv ER (protoRd m ρ) (K (c, iXr (5 : Fin 8))) (xrCell c (5 : Fin 8))
        ∗ cellInv ER (protoRd m ρ) (K (c, iXr (6 : Fin 8))) (xrCell c (6 : Fin 8))
        ∗ cellInv ER (protoRd m ρ) (K (c, iXr (7 : Fin 8))) (xrCell c (7 : Fin 8)))
        ∗ atPos ER (rdyCell c) 1 ∅ 0
        ∗ atPos ER (ysCell c (0 : Fin 8)) 1 ∅ 0
        ∗ atPos ER (ysCell c (1 : Fin 8)) 1 ∅ 0
        ∗ atPos ER (ysCell c (2 : Fin 8)) 1 ∅ 0
        ∗ atPos ER (ysCell c (3 : Fin 8)) 1 ∅ 0
        ∗ atPos ER (ysCell c (4 : Fin 8)) 1 ∅ 0
        ∗ atPos ER (ysCell c (5 : Fin 8)) 1 ∅ 0
        ∗ atPos ER (ysCell c (6 : Fin 8)) 1 ∅ 0
        ∗ atPos ER (ysCell c (7 : Fin 8)) 1 ∅ 0
        ∗ atPos ER (yrCell c (0 : Fin 8)) 1 ∅ 0
        ∗ atPos ER (yrCell c (1 : Fin 8)) 1 ∅ 0
        ∗ atPos ER (yrCell c (2 : Fin 8)) 1 ∅ 0
        ∗ atPos ER (yrCell c (3 : Fin 8)) 1 ∅ 0
        ∗ atPos ER (yrCell c (4 : Fin 8)) 1 ∅ 0
        ∗ atPos ER (yrCell c (5 : Fin 8)) 1 ∅ 0
        ∗ atPos ER (yrCell c (6 : Fin 8)) 1 ∅ 0
        ∗ atPos ER (yrCell c (7 : Fin 8)) 1 ∅ 0
        ∗ atPos ER (xsCell c (0 : Fin 8)) 1 ∅ 0
        ∗ atPos ER (xsCell c (1 : Fin 8)) 1 ∅ 0
        ∗ atPos ER (xsCell c (2 : Fin 8)) 1 ∅ 0
        ∗ atPos ER (xsCell c (3 : Fin 8)) 1 ∅ 0
        ∗ atPos ER (xsCell c (4 : Fin 8)) 1 ∅ 0
        ∗ atPos ER (xsCell c (5 : Fin 8)) 1 ∅ 0
        ∗ atPos ER (xsCell c (6 : Fin 8)) 1 ∅ 0
        ∗ atPos ER (xsCell c (7 : Fin 8)) 1 ∅ 0
        ∗ atPos ER (xrCell c (0 : Fin 8)) 1 ∅ 0
        ∗ atPos ER (xrCell c (1 : Fin 8)) 1 ∅ 0
        ∗ atPos ER (xrCell c (2 : Fin 8)) 1 ∅ 0
        ∗ atPos ER (xrCell c (3 : Fin 8)) 1 ∅ 0
        ∗ atPos ER (xrCell c (4 : Fin 8)) 1 ∅ 0
        ∗ atPos ER (xrCell c (5 : Fin 8)) 1 ∅ 0
        ∗ atPos ER (xrCell c (6 : Fin 8)) 1 ∅ 0
        ∗ atPos ER (xrCell c (7 : Fin 8)) 1 ∅ 0)
      ⊢ (iprop(|={Set.univ}=> bigSep (Finset.univ.erase iBar) fun i : Fin 34 => semVal (kcell (c, i)) 0) : sProp 𝕄) := by
  refine BIBase.Entails.trans ?_ (close_scoped m ρ K c)
  rw [sep33]
  simp only [kcell, csem_rdy, csem_ys, csem_yr, csem_xs, csem_xr]
  iintro ⟨⟨I1, I2, I3, I4, I5, I6, I7, I8, I9, I10, I11, I12, I13, I14, I15, I16, I17, I18, I19, I20, I21, I22, I23, I24, I25, I26, I27, I28, I29, I30, I31, I32, I33⟩, P1, P2, P3, P4, P5, P6, P7, P8, P9, P10, P11, P12, P13, P14, P15, P16, P17, P18, P19, P20, P21, P22, P23, P24, P25, P26, P27, P28, P29, P30, P31, P32, P33⟩
  isplitl [I1 P1]
  · isplitl [I1]; · iexact I1
    iexact P1
  isplitl [I2 P2]
  · isplitl [I2]; · iexact I2
    iexact P2
  isplitl [I3 P3]
  · isplitl [I3]; · iexact I3
    iexact P3
  isplitl [I4 P4]
  · isplitl [I4]; · iexact I4
    iexact P4
  isplitl [I5 P5]
  · isplitl [I5]; · iexact I5
    iexact P5
  isplitl [I6 P6]
  · isplitl [I6]; · iexact I6
    iexact P6
  isplitl [I7 P7]
  · isplitl [I7]; · iexact I7
    iexact P7
  isplitl [I8 P8]
  · isplitl [I8]; · iexact I8
    iexact P8
  isplitl [I9 P9]
  · isplitl [I9]; · iexact I9
    iexact P9
  isplitl [I10 P10]
  · isplitl [I10]; · iexact I10
    iexact P10
  isplitl [I11 P11]
  · isplitl [I11]; · iexact I11
    iexact P11
  isplitl [I12 P12]
  · isplitl [I12]; · iexact I12
    iexact P12
  isplitl [I13 P13]
  · isplitl [I13]; · iexact I13
    iexact P13
  isplitl [I14 P14]
  · isplitl [I14]; · iexact I14
    iexact P14
  isplitl [I15 P15]
  · isplitl [I15]; · iexact I15
    iexact P15
  isplitl [I16 P16]
  · isplitl [I16]; · iexact I16
    iexact P16
  isplitl [I17 P17]
  · isplitl [I17]; · iexact I17
    iexact P17
  isplitl [I18 P18]
  · isplitl [I18]; · iexact I18
    iexact P18
  isplitl [I19 P19]
  · isplitl [I19]; · iexact I19
    iexact P19
  isplitl [I20 P20]
  · isplitl [I20]; · iexact I20
    iexact P20
  isplitl [I21 P21]
  · isplitl [I21]; · iexact I21
    iexact P21
  isplitl [I22 P22]
  · isplitl [I22]; · iexact I22
    iexact P22
  isplitl [I23 P23]
  · isplitl [I23]; · iexact I23
    iexact P23
  isplitl [I24 P24]
  · isplitl [I24]; · iexact I24
    iexact P24
  isplitl [I25 P25]
  · isplitl [I25]; · iexact I25
    iexact P25
  isplitl [I26 P26]
  · isplitl [I26]; · iexact I26
    iexact P26
  isplitl [I27 P27]
  · isplitl [I27]; · iexact I27
    iexact P27
  isplitl [I28 P28]
  · isplitl [I28]; · iexact I28
    iexact P28
  isplitl [I29 P29]
  · isplitl [I29]; · iexact I29
    iexact P29
  isplitl [I30 P30]
  · isplitl [I30]; · iexact I30
    iexact P30
  isplitl [I31 P31]
  · isplitl [I31]; · iexact I31
    iexact P31
  isplitl [I32 P32]
  · isplitl [I32]; · iexact I32
    iexact P32
  isplitl [I33]; · iexact I33
  iexact P33

/-- info: 'Cert.KernelIdeal.Hand.close_all' depends on axioms: [propext, Classical.choice, Quot.sound] -/
#guard_msgs in #print axioms close_all

end Cert.KernelIdeal.Hand

end
-- ==== Proof.BodyOpen.lean ====
/- The body's starting context, opened.
   What the body obligation hands a device's body is a nest: the ghost state under some names, the credit, the
   level facts, the two scratch buffers whole, what the device owes, and the three staging buffers each at what it
   holds before the one point. Here it is laid out flat: the invariant of every cell the body touches and every
   round it knows reached are read off what every device knows (they are persistent, so each is read as often as
   needed); the products over a device's thirty-four cells and over the eight chunks are listed factor by factor;
   the two input buffers hold the staged blocks because both windows are fetched at the one point; a buffer held
   whole is held through its whole-buffer view; the send buffer held whole is its eight chunks, and the receive
   buffer held whole is the eight slots of each half. -/
import proofs.«901048_g7700000000001049_dist_rsdw_v7x_xyz2x2x4_y_m512_d512_f2048_bf16_1_alg».proof.Proof.BodyPre
import proofs.«901048_g7700000000001049_dist_rsdw_v7x_xyz2x2x4_y_m512_d512_f2048_bf16_1_alg».proof.Proof.StepsCopy
import proofs.«901048_g7700000000001049_dist_rsdw_v7x_xyz2x2x4_y_m512_d512_f2048_bf16_1_alg».proof.Proof.Gen.KernelIdeal.Points

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Listing the index families -/

omit [FloatOps F] in
/-- A product over the eight chunks is the chain of its eight factors. -/
theorem bigSep_fin8 (Φ : Fin 8 → sProp 𝕄) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

omit [FloatOps F] in
/-- A device's cells by number are its barrier cell, its ready cell, and its four times eight copy cells. -/
theorem kcell_bar (d : Dev nD) : kcell (d, iBar) = barCell d := by show ((d : Thread nD τ), csem iBar) = _; rw [csem_bar]
omit [FloatOps F] in
theorem kcell_rdy (d : Dev nD) : kcell (d, iRdy) = rdyCell d := by show ((d : Thread nD τ), csem iRdy) = _; rw [csem_rdy]
omit [FloatOps F] in
theorem kcell_ys (d : Dev nD) (k : Fin 8) : kcell (d, iYs k) = ysCell d k := by show ((d : Thread nD τ), csem (iYs k)) = _; rw [csem_ys]
omit [FloatOps F] in
theorem kcell_yr (d : Dev nD) (k : Fin 8) : kcell (d, iYr k) = yrCell d k := by show ((d : Thread nD τ), csem (iYr k)) = _; rw [csem_yr]
omit [FloatOps F] in
theorem kcell_xs (d : Dev nD) (k : Fin 8) : kcell (d, iXs k) = xsCell d k := by show ((d : Thread nD τ), csem (iXs k)) = _; rw [csem_xs]
omit [FloatOps F] in
theorem kcell_xr (d : Dev nD) (k : Fin 8) : kcell (d, iXr k) = xrCell d k := by show ((d : Thread nD τ), csem (iXr k)) = _; rw [csem_xr]

omit [FloatOps F] in
/-- A product over a device's thirty-four cells, listed: barrier, ready, then the four families chunk by chunk. -/
theorem bigSep_fin34 (Φ : Fin 34 → sProp 𝕄) :
    bigSep Finset.univ Φ = iprop(Φ iBar ∗ Φ iRdy
      ∗ Φ (iYs 0) ∗ Φ (iYs 1) ∗ Φ (iYs 2) ∗ Φ (iYs 3) ∗ Φ (iYs 4) ∗ Φ (iYs 5) ∗ Φ (iYs 6) ∗ Φ (iYs 7)
      ∗ Φ (iYr 0) ∗ Φ (iYr 1) ∗ Φ (iYr 2) ∗ Φ (iYr 3) ∗ Φ (iYr 4) ∗ Φ (iYr 5) ∗ Φ (iYr 6) ∗ Φ (iYr 7)
      ∗ Φ (iXs 0) ∗ Φ (iXs 1) ∗ Φ (iXs 2) ∗ Φ (iXs 3) ∗ Φ (iXs 4) ∗ Φ (iXs 5) ∗ Φ (iXs 6) ∗ Φ (iXs 7)
      ∗ Φ (iXr 0) ∗ Φ (iXr 1) ∗ Φ (iXr 2) ∗ Φ (iXr 3) ∗ Φ (iXr 4) ∗ Φ (iXr 5) ∗ Φ (iXr 6) ∗ Φ (iXr 7)) :=
  bigSep_univ_eq_bigSepL
    [iBar, iRdy, iYs 0, iYs 1, iYs 2, iYs 3, iYs 4, iYs 5, iYs 6, iYs 7, iYr 0, iYr 1, iYr 2, iYr 3, iYr 4, iYr 5, iYr 6, iYr 7,
      iXs 0, iXs 1, iXs 2, iXs 3, iXs 4, iXs 5, iXs 6, iXs 7, iXr 0, iXr 1, iXr 2, iXr 3, iXr 4, iXr 5, iXr 6, iXr 7]
    (by decide) (by decide) Φ

omit [FloatOps F] in
/-- A device's positions at the start of its thirty-four cells, cell by cell. -/
theorem pos_flat (c : Dev nD) :
    (bigSep Finset.univ fun i : Fin 34 => atPos ER (kcell (c, i)) 0 ∅ 0 : sProp 𝕄)
      = iprop(atPos ER (barCell c) 0 ∅ 0 ∗ atPos ER (rdyCell c) 0 ∅ 0
        ∗ atPos ER (ysCell c (0 : Fin 8)) 0 ∅ 0 ∗ atPos ER (ysCell c (1 : Fin 8)) 0 ∅ 0 ∗ atPos ER (ysCell c (2 : Fin 8)) 0 ∅ 0 ∗ atPos ER (ysCell c (3 : Fin 8)) 0 ∅ 0
        ∗ atPos ER (ysCell c (4 : Fin 8)) 0 ∅ 0 ∗ atPos ER (ysCell c (5 : Fin 8)) 0 ∅ 0 ∗ atPos ER (ysCell c (6 : Fin 8)) 0 ∅ 0 ∗ atPos ER (ysCell c (7 : Fin 8)) 0 ∅ 0
        ∗ atPos ER (yrCell c (0 : Fin 8)) 0 ∅ 0 ∗ atPos ER (yrCell c (1 : Fin 8)) 0 ∅ 0 ∗ atPos ER (yrCell c (2 : Fin 8)) 0 ∅ 0 ∗ atPos ER (yrCell c (3 : Fin 8)) 0 ∅ 0
        ∗ atPos ER (yrCell c (4 : Fin 8)) 0 ∅ 0 ∗ atPos ER (yrCell c (5 : Fin 8)) 0 ∅ 0 ∗ atPos ER (yrCell c (6 : Fin 8)) 0 ∅ 0 ∗ atPos ER (yrCell c (7 : Fin 8)) 0 ∅ 0
        ∗ atPos ER (xsCell c (0 : Fin 8)) 0 ∅ 0 ∗ atPos ER (xsCell c (1 : Fin 8)) 0 ∅ 0 ∗ atPos ER (xsCell c (2 : Fin 8)) 0 ∅ 0 ∗ atPos ER (xsCell c (3 : Fin 8)) 0 ∅ 0
        ∗ atPos ER (xsCell c (4 : Fin 8)) 0 ∅ 0 ∗ atPos ER (xsCell c (5 : Fin 8)) 0 ∅ 0 ∗ atPos ER (xsCell c (6 : Fin 8)) 0 ∅ 0 ∗ atPos ER (xsCell c (7 : Fin 8)) 0 ∅ 0
        ∗ atPos ER (xrCell c (0 : Fin 8)) 0 ∅ 0 ∗ atPos ER (xrCell c (1 : Fin 8)) 0 ∅ 0 ∗ atPos ER (xrCell c (2 : Fin 8)) 0 ∅ 0 ∗ atPos ER (xrCell c (3 : Fin 8)) 0 ∅ 0
        ∗ atPos ER (xrCell c (4 : Fin 8)) 0 ∅ 0 ∗ atPos ER (xrCell c (5 : Fin 8)) 0 ∅ 0 ∗ atPos ER (xrCell c (6 : Fin 8)) 0 ∅ 0 ∗ atPos ER (xrCell c (7 : Fin 8)) 0 ∅ 0) := by
  rw [bigSep_fin34]
  simp only [kcell_bar, kcell_rdy, kcell_ys, kcell_yr, kcell_xs, kcell_xr]

/-! ## What every device knows, cell by cell -/

theorem rec_inv (K : Dev nD × Fin 34 → ℕ) (d : Dev nD) (i : Fin 34) :
    records m ρ K ⊢ cellInv ER (protoRd m ρ) (K (d, i)) (kcell (d, i)) := by
  unfold records
  exact (BI.sep_and.trans BI.and_elimL).trans (bigSep_elim (Finset.mem_univ (d, i)))
theorem rec_reached (K : Dev nD × Fin 34 → ℕ) (d : Dev nD) (i : Fin 34) :
    records m ρ K ⊢ reached ER (kcell (d, i)) 0 := by
  unfold records
  exact (BI.sep_and.trans BI.and_elimR).trans (bigSep_elim (Finset.mem_univ (d, i)))

theorem rec_inv_bar (K : Dev nD × Fin 34 → ℕ) (d : Dev nD) : records m ρ K ⊢ cellInv ER (protoRd m ρ) (K (d, iBar)) (barCell d) := by
  rw [← kcell_bar d]; exact rec_inv m ρ K d iBar
theorem rec_inv_rdy (K : Dev nD × Fin 34 → ℕ) (d : Dev nD) : records m ρ K ⊢ cellInv ER (protoRd m ρ) (K (d, iRdy)) (rdyCell d) := by
  rw [← kcell_rdy d]; exact rec_inv m ρ K d iRdy
theorem rec_inv_ys (K : Dev nD × Fin 34 → ℕ) (d : Dev nD) (k : Fin 8) : records m ρ K ⊢ cellInv ER (protoRd m ρ) (K (d, iYs k)) (ysCell d k) := by
  rw [← kcell_ys d k]; exact rec_inv m ρ K d (iYs k)
theorem rec_inv_yr (K : Dev nD × Fin 34 → ℕ) (d : Dev nD) (k : Fin 8) : records m ρ K ⊢ cellInv ER (protoRd m ρ) (K (d, iYr k)) (yrCell d k) := by
  rw [← kcell_yr d k]; exact rec_inv m ρ K d (iYr k)
theorem rec_inv_xs (K : Dev nD × Fin 34 → ℕ) (d : Dev nD) (k : Fin 8) : records m ρ K ⊢ cellInv ER (protoRd m ρ) (K (d, iXs k)) (xsCell d k) := by
  rw [← kcell_xs d k]; exact rec_inv m ρ K d (iXs k)
theorem rec_inv_xr (K : Dev nD × Fin 34 → ℕ) (d : Dev nD) (k : Fin 8) : records m ρ K ⊢ cellInv ER (protoRd m ρ) (K (d, iXr k)) (xrCell d k) := by
  rw [← kcell_xr d k]; exact rec_inv m ρ K d (iXr k)

theorem rec_reached_bar (K : Dev nD × Fin 34 → ℕ) (d : Dev nD) : records m ρ K ⊢ reached ER (barCell d) 0 := by
  rw [← kcell_bar d]; exact rec_reached m ρ K d iBar
theorem rec_reached_rdy (K : Dev nD × Fin 34 → ℕ) (d : Dev nD) : records m ρ K ⊢ reached ER (rdyCell d) 0 := by
  rw [← kcell_rdy d]; exact rec_reached m ρ K d iRdy
theorem rec_reached_ys (K : Dev nD × Fin 34 → ℕ) (d : Dev nD) (k : Fin 8) : records m ρ K ⊢ reached ER (ysCell d k) 0 := by
  rw [← kcell_ys d k]; exact rec_reached m ρ K d (iYs k)
theorem rec_reached_yr (K : Dev nD × Fin 34 → ℕ) (d : Dev nD) (k : Fin 8) : records m ρ K ⊢ reached ER (yrCell d k) 0 := by
  rw [← kcell_yr d k]; exact rec_reached m ρ K d (iYr k)
theorem rec_reached_xs (K : Dev nD × Fin 34 → ℕ) (d : Dev nD) (k : Fin 8) : records m ρ K ⊢ reached ER (xsCell d k) 0 := by
  rw [← kcell_xs d k]; exact rec_reached m ρ K d (iXs k)
theorem rec_reached_xr (K : Dev nD × Fin 34 → ℕ) (d : Dev nD) (k : Fin 8) : records m ρ K ⊢ reached ER (xrCell d k) 0 := by
  rw [← kcell_xr d k]; exact rec_reached m ρ K d (iXr k)

/-- Round 0 of all eight of a device's receive cells across y is reached. -/
theorem rec_reached_yr_all (K : Dev nD × Fin 34 → ℕ) (c : Dev nD) :
    records m ρ K ⊢ bigSep Finset.univ fun k : Fin 8 => reached ER (yrCell c k) 0 := by
  rw [bigSep_fin8]
  iintro #H
  isplitl []; · iapply (rec_reached_yr m ρ K c (0 : Fin 8)); iexact H
  isplitl []; · iapply (rec_reached_yr m ρ K c (1 : Fin 8)); iexact H
  isplitl []; · iapply (rec_reached_yr m ρ K c (2 : Fin 8)); iexact H
  isplitl []; · iapply (rec_reached_yr m ρ K c (3 : Fin 8)); iexact H
  isplitl []; · iapply (rec_reached_yr m ρ K c (4 : Fin 8)); iexact H
  isplitl []; · iapply (rec_reached_yr m ρ K c (5 : Fin 8)); iexact H
  isplitl []; · iapply (rec_reached_yr m ρ K c (6 : Fin 8)); iexact H
  iapply (rec_reached_yr m ρ K c (7 : Fin 8)); iexact H
/-- Likewise across x. -/
theorem rec_reached_xr_all (K : Dev nD × Fin 34 → ℕ) (c : Dev nD) :
    records m ρ K ⊢ bigSep Finset.univ fun k : Fin 8 => reached ER (xrCell c k) 0 := by
  rw [bigSep_fin8]
  iintro #H
  isplitl []; · iapply (rec_reached_xr m ρ K c (0 : Fin 8)); iexact H
  isplitl []; · iapply (rec_reached_xr m ρ K c (1 : Fin 8)); iexact H
  isplitl []; · iapply (rec_reached_xr m ρ K c (2 : Fin 8)); iexact H
  isplitl []; · iapply (rec_reached_xr m ρ K c (3 : Fin 8)); iexact H
  isplitl []; · iapply (rec_reached_xr m ρ K c (4 : Fin 8)); iexact H
  isplitl []; · iapply (rec_reached_xr m ρ K c (5 : Fin 8)); iexact H
  isplitl []; · iapply (rec_reached_xr m ρ K c (6 : Fin 8)); iexact H
  iapply (rec_reached_xr m ρ K c (7 : Fin 8)); iexact H

/-! ## The buffers through their views -/

omit [FloatOps F] in
/-- A staging buffer held whole is held through its whole-buffer view. -/
theorem stgX_eq (c : Dev nD) (f : Buf (Elt F) ((c : Thread nD τ).loc cc0_stg0_0)) :
    ((xM : Memref sig .tc .vmem S512x512 .f32).view.loc (c : Thread nD τ) ↦[(xM : Memref sig .tc .vmem S512x512 .f32).view.set]{fullShare} f : sProp 𝕄)
      = (((c : Thread nD τ).loc cc0_stg0_0) ↦{fullShare} f) := by rw [View.set_whole]
omit [FloatOps F] in
theorem stgDY_eq (c : Dev nD) (f : Buf (Elt F) ((c : Thread nD τ).loc cc0_stg1_0)) :
    ((dyM : Memref sig .tc .vmem S512x2048 .f32).view.loc (c : Thread nD τ) ↦[(dyM : Memref sig .tc .vmem S512x2048 .f32).view.set]{fullShare} f : sProp 𝕄)
      = (((c : Thread nD τ).loc cc0_stg1_0) ↦{fullShare} f) := by rw [View.set_whole]
omit [FloatOps F] in
theorem stgO_eq (c : Dev nD) (f : Buf (Elt F) ((c : Thread nD τ).loc cc0_stg2_0)) :
    ((oM : Memref sig .tc .vmem S256x2048 .f32).view.loc (c : Thread nD τ) ↦[(oM : Memref sig .tc .vmem S256x2048 .f32).view.set]{fullShare} f : sProp 𝕄)
      = (((c : Thread nD τ).loc cc0_stg2_0) ↦{fullShare} f) := by rw [View.set_whole]

omit [FloatOps F] in
/-- The eight slots of one half of the receive buffer, all at the contents of one whole buffer, are that half. -/
theorem rHalf_of (c : Dev nD) (j : Fin 2) (f : Buf (Elt F) ((c : Thread nD τ).loc cc0_scratch1)) :
    (bigSep Finset.univ fun k : Fin 8 => rPts (F := F) c j k f) ⊢ rHalf (F := F) c j := by
  unfold rHalf
  rw [bigSep_fin8, bigSep_fin8]
  iintro ⟨H0, H1, H2, H3, H4, H5, H6, H7⟩
  isplitl [H0]; · iexists f; iexact H0
  isplitl [H1]; · iexists f; iexact H1
  isplitl [H2]; · iexists f; iexact H2
  isplitl [H3]; · iexists f; iexact H3
  isplitl [H4]; · iexists f; iexact H4
  isplitl [H5]; · iexists f; iexact H5
  isplitl [H6]; · iexists f; iexact H6
  iexists f; iexact H7

/-! ## The body's starting context, laid out flat -/

set_option maxRecDepth 8000 in
/-- From what the body obligation hands the body to the flat context, given that a scratch buffer held whole is
    its slots held one by one. -/
theorem open_pre_of
    (hS : ∀ (c : Dev nD) (f : Buf (Elt F) ((c : Thread nD τ).loc cc0_scratch0)),
      ((((c : Thread nD τ).loc cc0_scratch0) ↦{fullShare} f) : sProp 𝕄) = bigSep Finset.univ fun k : Fin 8 => sPts c k f)
    (hR : ∀ (c : Dev nD) (f : Buf (Elt F) ((c : Thread nD τ).loc cc0_scratch1)),
      ((((c : Thread nD τ).loc cc0_scratch1) ↦{fullShare} f) : sProp 𝕄)
        = iprop((bigSep Finset.univ fun k : Fin 8 => rPts c 0 k f) ∗ (bigSep Finset.univ fun k : Fin 8 => rPts c 1 k f)))
    (c : Dev nD) : bodyPre' m ρ c ⊢ iprop(∃ K W g fs, bodyFlat m ρ K c W g fs) := by
  unfold bodyPre' Φ₀ start ghost linear payToks creds
  iintro ⟨⟨⟨⟨%K, #Hrec, Hpos, HtB, HtR, HtYs, HtYr, HtXs, HtXr⟩, ⟨HcB, HcR, HcY, HcX⟩, #Hlev⟩, ⟨%fs, Hs⟩, ⟨%fr, Hr⟩⟩, Ho, ⟨%d0, %g0, %hg0, Hx⟩, ⟨%d1, %g1, %hg1, Hdy⟩, ⟨%d2, %g2, %hg2, Hout⟩⟩
  -- both input windows are fetched at the one point: the two input buffers hold the staged blocks
  have hx : g0 = Xs m ρ c := by rw [hg0]; unfold Dat.before; rw [if_pos (fetch0_0 t₀)]; rfl
  have hdy : g1 = DYs m ρ c := by rw [hg1]; unfold Dat.before; rw [if_pos (fetch0_1 t₀)]; rfl
  subst hx hdy
  unfold Dat.owesAt Pipeline.owesWithin
  icases Ho with ⟨%W, %hW, HO⟩
  rw [show (dats m ρ 0 c).owed t₀.castSucc = O₀ c from rfl]
  -- the invariants of the device's own thirty-four cells
  ihave #IB := (rec_inv_bar m ρ K c) $$ Hrec
  ihave #IR := (rec_inv_rdy m ρ K c) $$ Hrec
  ihave #IYs0 := (rec_inv_ys m ρ K c (0 : Fin 8)) $$ Hrec
  ihave #IYs1 := (rec_inv_ys m ρ K c (1 : Fin 8)) $$ Hrec
  ihave #IYs2 := (rec_inv_ys m ρ K c (2 : Fin 8)) $$ Hrec
  ihave #IYs3 := (rec_inv_ys m ρ K c (3 : Fin 8)) $$ Hrec
  ihave #IYs4 := (rec_inv_ys m ρ K c (4 : Fin 8)) $$ Hrec
  ihave #IYs5 := (rec_inv_ys m ρ K c (5 : Fin 8)) $$ Hrec
  ihave #IYs6 := (rec_inv_ys m ρ K c (6 : Fin 8)) $$ Hrec
  ihave #IYs7 := (rec_inv_ys m ρ K c (7 : Fin 8)) $$ Hrec
  ihave #IYr0 := (rec_inv_yr m ρ K c (0 : Fin 8)) $$ Hrec
  ihave #IYr1 := (rec_inv_yr m ρ K c (1 : Fin 8)) $$ Hrec
  ihave #IYr2 := (rec_inv_yr m ρ K c (2 : Fin 8)) $$ Hrec
  ihave #IYr3 := (rec_inv_yr m ρ K c (3 : Fin 8)) $$ Hrec
  ihave #IYr4 := (rec_inv_yr m ρ K c (4 : Fin 8)) $$ Hrec
  ihave #IYr5 := (rec_inv_yr m ρ K c (5 : Fin 8)) $$ Hrec
  ihave #IYr6 := (rec_inv_yr m ρ K c (6 : Fin 8)) $$ Hrec
  ihave #IYr7 := (rec_inv_yr m ρ K c (7 : Fin 8)) $$ Hrec
  ihave #IXs0 := (rec_inv_xs m ρ K c (0 : Fin 8)) $$ Hrec
  ihave #IXs1 := (rec_inv_xs m ρ K c (1 : Fin 8)) $$ Hrec
  ihave #IXs2 := (rec_inv_xs m ρ K c (2 : Fin 8)) $$ Hrec
  ihave #IXs3 := (rec_inv_xs m ρ K c (3 : Fin 8)) $$ Hrec
  ihave #IXs4 := (rec_inv_xs m ρ K c (4 : Fin 8)) $$ Hrec
  ihave #IXs5 := (rec_inv_xs m ρ K c (5 : Fin 8)) $$ Hrec
  ihave #IXs6 := (rec_inv_xs m ρ K c (6 : Fin 8)) $$ Hrec
  ihave #IXs7 := (rec_inv_xs m ρ K c (7 : Fin 8)) $$ Hrec
  ihave #IXr0 := (rec_inv_xr m ρ K c (0 : Fin 8)) $$ Hrec
  ihave #IXr1 := (rec_inv_xr m ρ K c (1 : Fin 8)) $$ Hrec
  ihave #IXr2 := (rec_inv_xr m ρ K c (2 : Fin 8)) $$ Hrec
  ihave #IXr3 := (rec_inv_xr m ρ K c (3 : Fin 8)) $$ Hrec
  ihave #IXr4 := (rec_inv_xr m ρ K c (4 : Fin 8)) $$ Hrec
  ihave #IXr5 := (rec_inv_xr m ρ K c (5 : Fin 8)) $$ Hrec
  ihave #IXr6 := (rec_inv_xr m ρ K c (6 : Fin 8)) $$ Hrec
  ihave #IXr7 := (rec_inv_xr m ρ K c (7 : Fin 8)) $$ Hrec
  -- the invariants of the eighteen neighbour cells it pays
  ihave #IBn := (rec_inv_bar m ρ K (ynb c)) $$ Hrec
  ihave #IRn := (rec_inv_rdy m ρ K (xnb c)) $$ Hrec
  ihave #IYn0 := (rec_inv_yr m ρ K (ynb c) (0 : Fin 8)) $$ Hrec
  ihave #IYn1 := (rec_inv_yr m ρ K (ynb c) (1 : Fin 8)) $$ Hrec
  ihave #IYn2 := (rec_inv_yr m ρ K (ynb c) (2 : Fin 8)) $$ Hrec
  ihave #IYn3 := (rec_inv_yr m ρ K (ynb c) (3 : Fin 8)) $$ Hrec
  ihave #IYn4 := (rec_inv_yr m ρ K (ynb c) (4 : Fin 8)) $$ Hrec
  ihave #IYn5 := (rec_inv_yr m ρ K (ynb c) (5 : Fin 8)) $$ Hrec
  ihave #IYn6 := (rec_inv_yr m ρ K (ynb c) (6 : Fin 8)) $$ Hrec
  ihave #IYn7 := (rec_inv_yr m ρ K (ynb c) (7 : Fin 8)) $$ Hrec
  ihave #IXn0 := (rec_inv_xr m ρ K (xnb c) (0 : Fin 8)) $$ Hrec
  ihave #IXn1 := (rec_inv_xr m ρ K (xnb c) (1 : Fin 8)) $$ Hrec
  ihave #IXn2 := (rec_inv_xr m ρ K (xnb c) (2 : Fin 8)) $$ Hrec
  ihave #IXn3 := (rec_inv_xr m ρ K (xnb c) (3 : Fin 8)) $$ Hrec
  ihave #IXn4 := (rec_inv_xr m ρ K (xnb c) (4 : Fin 8)) $$ Hrec
  ihave #IXn5 := (rec_inv_xr m ρ K (xnb c) (5 : Fin 8)) $$ Hrec
  ihave #IXn6 := (rec_inv_xr m ρ K (xnb c) (6 : Fin 8)) $$ Hrec
  ihave #IXn7 := (rec_inv_xr m ρ K (xnb c) (7 : Fin 8)) $$ Hrec
  -- the rounds it knows reached
  ihave #RBn := (rec_reached_bar m ρ K (ynb c)) $$ Hrec
  ihave #RRn := (rec_reached_rdy m ρ K (xnb c)) $$ Hrec
  ihave #RYs0 := (rec_reached_ys m ρ K c (0 : Fin 8)) $$ Hrec
  ihave #RYs1 := (rec_reached_ys m ρ K c (1 : Fin 8)) $$ Hrec
  ihave #RYs2 := (rec_reached_ys m ρ K c (2 : Fin 8)) $$ Hrec
  ihave #RYs3 := (rec_reached_ys m ρ K c (3 : Fin 8)) $$ Hrec
  ihave #RYs4 := (rec_reached_ys m ρ K c (4 : Fin 8)) $$ Hrec
  ihave #RYs5 := (rec_reached_ys m ρ K c (5 : Fin 8)) $$ Hrec
  ihave #RYs6 := (rec_reached_ys m ρ K c (6 : Fin 8)) $$ Hrec
  ihave #RYs7 := (rec_reached_ys m ρ K c (7 : Fin 8)) $$ Hrec
  ihave #RXs0 := (rec_reached_xs m ρ K c (0 : Fin 8)) $$ Hrec
  ihave #RXs1 := (rec_reached_xs m ρ K c (1 : Fin 8)) $$ Hrec
  ihave #RXs2 := (rec_reached_xs m ρ K c (2 : Fin 8)) $$ Hrec
  ihave #RXs3 := (rec_reached_xs m ρ K c (3 : Fin 8)) $$ Hrec
  ihave #RXs4 := (rec_reached_xs m ρ K c (4 : Fin 8)) $$ Hrec
  ihave #RXs5 := (rec_reached_xs m ρ K c (5 : Fin 8)) $$ Hrec
  ihave #RXs6 := (rec_reached_xs m ρ K c (6 : Fin 8)) $$ Hrec
  ihave #RXs7 := (rec_reached_xs m ρ K c (7 : Fin 8)) $$ Hrec
  ihave #RYr := (rec_reached_yr_all m ρ K c) $$ Hrec
  ihave #RXr := (rec_reached_xr_all m ρ K c) $$ Hrec
  -- the positions, the tokens, the credit, factor by factor
  ihave Hpos := (Entails.of_eq (pos_flat c)) $$ Hpos
  icases Hpos with ⟨PB, PR, PYs0, PYs1, PYs2, PYs3, PYs4, PYs5, PYs6, PYs7, PYr0, PYr1, PYr2, PYr3, PYr4, PYr5, PYr6, PYr7, PXs0, PXs1, PXs2, PXs3, PXs4, PXs5, PXs6, PXs7, PXr0, PXr1, PXr2, PXr3, PXr4, PXr5, PXr6, PXr7⟩
  ihave HtYs := (Entails.of_eq (bigSep_fin8 _)) $$ HtYs
  icases HtYs with ⟨TYs0, TYs1, TYs2, TYs3, TYs4, TYs5, TYs6, TYs7⟩
  ihave HtYr := (Entails.of_eq (bigSep_fin8 _)) $$ HtYr
  icases HtYr with ⟨TYr0, TYr1, TYr2, TYr3, TYr4, TYr5, TYr6, TYr7⟩
  ihave HtXs := (Entails.of_eq (bigSep_fin8 _)) $$ HtXs
  icases HtXs with ⟨TXs0, TXs1, TXs2, TXs3, TXs4, TXs5, TXs6, TXs7⟩
  ihave HtXr := (Entails.of_eq (bigSep_fin8 _)) $$ HtXr
  icases HtXr with ⟨TXr0, TXr1, TXr2, TXr3, TXr4, TXr5, TXr6, TXr7⟩
  ihave HcY := (Entails.of_eq (bigSep_fin8 _)) $$ HcY
  icases HcY with ⟨CY0, CY1, CY2, CY3, CY4, CY5, CY6, CY7⟩
  ihave HcX := (Entails.of_eq (bigSep_fin8 _)) $$ HcX
  icases HcX with ⟨CX0, CX1, CX2, CX3, CX4, CX5, CX6, CX7⟩
  -- the buffers through their views; the send buffer by chunks, the receive buffer by halves
  ihave Hx := (Entails.of_eq (stgX_eq c _).symm) $$ Hx
  ihave Hdy := (Entails.of_eq (stgDY_eq c _).symm) $$ Hdy
  ihave Hout := (Entails.of_eq (stgO_eq c _).symm) $$ Hout
  ihave Hs := (Entails.of_eq ((hS c fs).trans (bigSep_fin8 _))) $$ Hs
  icases Hs with ⟨S0, S1, S2, S3, S4, S5, S6, S7⟩
  ihave Hr := (Entails.of_eq (hR c fr)) $$ Hr
  icases Hr with ⟨Hr0, Hr1⟩
  ihave Hr0 := (rHalf_of c 0 fr) $$ Hr0
  ihave Hr1 := (rHalf_of c 1 fr) $$ Hr1
  iexists K, W, g2, fs
  unfold bodyFlat
  -- every conjunct of the flat context is now a hypothesis, in the same order
  isplitl []; · iexact IB
  isplitl []; · iexact IR
  isplitl []; · iexact IYs0
  isplitl []; · iexact IYs1
  isplitl []; · iexact IYs2
  isplitl []; · iexact IYs3
  isplitl []; · iexact IYs4
  isplitl []; · iexact IYs5
  isplitl []; · iexact IYs6
  isplitl []; · iexact IYs7
  isplitl []; · iexact IYr0
  isplitl []; · iexact IYr1
  isplitl []; · iexact IYr2
  isplitl []; · iexact IYr3
  isplitl []; · iexact IYr4
  isplitl []; · iexact IYr5
  isplitl []; · iexact IYr6
  isplitl []; · iexact IYr7
  isplitl []; · iexact IXs0
  isplitl []; · iexact IXs1
  isplitl []; · iexact IXs2
  isplitl []; · iexact IXs3
  isplitl []; · iexact IXs4
  isplitl []; · iexact IXs5
  isplitl []; · iexact IXs6
  isplitl []; · iexact IXs7
  isplitl []; · iexact IXr0
  isplitl []; · iexact IXr1
  isplitl []; · iexact IXr2
  isplitl []; · iexact IXr3
  isplitl []; · iexact IXr4
  isplitl []; · iexact IXr5
  isplitl []; · iexact IXr6
  isplitl []; · iexact IXr7
  isplitl []; · iexact IBn
  isplitl []; · iexact IRn
  isplitl []; · iexact IYn0
  isplitl []; · iexact IYn1
  isplitl []; · iexact IYn2
  isplitl []; · iexact IYn3
  isplitl []; · iexact IYn4
  isplitl []; · iexact IYn5
  isplitl []; · iexact IYn6
  isplitl []; · iexact IYn7
  isplitl []; · iexact IXn0
  isplitl []; · iexact IXn1
  isplitl []; · iexact IXn2
  isplitl []; · iexact IXn3
  isplitl []; · iexact IXn4
  isplitl []; · iexact IXn5
  isplitl []; · iexact IXn6
  isplitl []; · iexact IXn7
  isplitl []; · iexact RBn
  isplitl []; · iexact RRn
  isplitl []; · iexact RYs0
  isplitl []; · iexact RYs1
  isplitl []; · iexact RYs2
  isplitl []; · iexact RYs3
  isplitl []; · iexact RYs4
  isplitl []; · iexact RYs5
  isplitl []; · iexact RYs6
  isplitl []; · iexact RYs7
  isplitl []; · iexact RXs0
  isplitl []; · iexact RXs1
  isplitl []; · iexact RXs2
  isplitl []; · iexact RXs3
  isplitl []; · iexact RXs4
  isplitl []; · iexact RXs5
  isplitl []; · iexact RXs6
  isplitl []; · iexact RXs7
  isplitl []; · iexact RYr
  isplitl []; · iexact RXr
  isplitl []; · iexact Hlev
  isplitl [PB]; · iexact PB
  isplitl [PR]; · iexact PR
  isplitl [PYs0]; · iexact PYs0
  isplitl [PYs1]; · iexact PYs1
  isplitl [PYs2]; · iexact PYs2
  isplitl [PYs3]; · iexact PYs3
  isplitl [PYs4]; · iexact PYs4
  isplitl [PYs5]; · iexact PYs5
  isplitl [PYs6]; · iexact PYs6
  isplitl [PYs7]; · iexact PYs7
  isplitl [PYr0]; · iexact PYr0
  isplitl [PYr1]; · iexact PYr1
  isplitl [PYr2]; · iexact PYr2
  isplitl [PYr3]; · iexact PYr3
  isplitl [PYr4]; · iexact PYr4
  isplitl [PYr5]; · iexact PYr5
  isplitl [PYr6]; · iexact PYr6
  isplitl [PYr7]; · iexact PYr7
  isplitl [PXs0]; · iexact PXs0
  isplitl [PXs1]; · iexact PXs1
  isplitl [PXs2]; · iexact PXs2
  isplitl [PXs3]; · iexact PXs3
  isplitl [PXs4]; · iexact PXs4
  isplitl [PXs5]; · iexact PXs5
  isplitl [PXs6]; · iexact PXs6
  isplitl [PXs7]; · iexact PXs7
  isplitl [PXr0]; · iexact PXr0
  isplitl [PXr1]; · iexact PXr1
  isplitl [PXr2]; · iexact PXr2
  isplitl [PXr3]; · iexact PXr3
  isplitl [PXr4]; · iexact PXr4
  isplitl [PXr5]; · iexact PXr5
  isplitl [PXr6]; · iexact PXr6
  isplitl [PXr7]; · iexact PXr7
  isplitl [HtB]; · iexact HtB
  isplitl [HtR]; · iexact HtR
  isplitl [TYs0]; · iexact TYs0
  isplitl [TYs1]; · iexact TYs1
  isplitl [TYs2]; · iexact TYs2
  isplitl [TYs3]; · iexact TYs3
  isplitl [TYs4]; · iexact TYs4
  isplitl [TYs5]; · iexact TYs5
  isplitl [TYs6]; · iexact TYs6
  isplitl [TYs7]; · iexact TYs7
  isplitl [TYr0]; · iexact TYr0
  isplitl [TYr1]; · iexact TYr1
  isplitl [TYr2]; · iexact TYr2
  isplitl [TYr3]; · iexact TYr3
  isplitl [TYr4]; · iexact TYr4
  isplitl [TYr5]; · iexact TYr5
  isplitl [TYr6]; · iexact TYr6
  isplitl [TYr7]; · iexact TYr7
  isplitl [TXs0]; · iexact TXs0
  isplitl [TXs1]; · iexact TXs1
  isplitl [TXs2]; · iexact TXs2
  isplitl [TXs3]; · iexact TXs3
  isplitl [TXs4]; · iexact TXs4
  isplitl [TXs5]; · iexact TXs5
  isplitl [TXs6]; · iexact TXs6
  isplitl [TXs7]; · iexact TXs7
  isplitl [TXr0]; · iexact TXr0
  isplitl [TXr1]; · iexact TXr1
  isplitl [TXr2]; · iexact TXr2
  isplitl [TXr3]; · iexact TXr3
  isplitl [TXr4]; · iexact TXr4
  isplitl [TXr5]; · iexact TXr5
  isplitl [TXr6]; · iexact TXr6
  isplitl [TXr7]; · iexact TXr7
  isplitl [HcB]; · iexact HcB
  isplitl [HcR]; · iexact HcR
  isplitl [CY0]; · iexact CY0
  isplitl [CY1]; · iexact CY1
  isplitl [CY2]; · iexact CY2
  isplitl [CY3]; · iexact CY3
  isplitl [CY4]; · iexact CY4
  isplitl [CY5]; · iexact CY5
  isplitl [CY6]; · iexact CY6
  isplitl [CY7]; · iexact CY7
  isplitl [CX0]; · iexact CX0
  isplitl [CX1]; · iexact CX1
  isplitl [CX2]; · iexact CX2
  isplitl [CX3]; · iexact CX3
  isplitl [CX4]; · iexact CX4
  isplitl [CX5]; · iexact CX5
  isplitl [CX6]; · iexact CX6
  isplitl [CX7]; · iexact CX7
  isplitl [HO]; · iexact HO
  isplitl [Hx]; · iexact Hx
  isplitl [Hdy]; · iexact Hdy
  isplitl [Hout]; · iexact Hout
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [Hr0]; · iexact Hr0
  iexact Hr1

/-- What the body obligation hands a device's body, opened into the flat context. -/
theorem open_pre (c : Dev nD) : bodyPre' m ρ c ⊢ iprop(∃ K W g fs, bodyFlat m ρ K c W g fs) :=
  open_pre_of m ρ (fun c f => scratch0_split_eq c f) (fun c f => scratch1_split_eq c f) c

/-- info: 'Cert.KernelIdeal.Hand.open_pre' depends on axioms: [propext, Classical.choice, Quot.sound] -/
#guard_msgs in #print axioms open_pre

end Cert.KernelIdeal.Hand

end
-- ==== Proof.Body.lean ====
/- One device's body, stepped symbolically from the flat starting context to what the pipeline wants back.
   The run takes the two entry signals, every load, store and wait by itself; the sixteen remote copies are applied
   by hand, because what lands in a receive slot agrees with the scheduled contents on that slot only. -/
import proofs.«901048_g7700000000001049_dist_rsdw_v7x_xyz2x2x4_y_m512_d512_f2048_bf16_1_alg».proof.Proof.BodyPre
import proofs.«901048_g7700000000001049_dist_rsdw_v7x_xyz2x2x4_y_m512_d512_f2048_bf16_1_alg».proof.Proof.StepsCopy
import proofs.«901048_g7700000000001049_dist_rsdw_v7x_xyz2x2x4_y_m512_d512_f2048_bf16_1_alg».proof.Proof.StepsSync
import proofs.«901048_g7700000000001049_dist_rsdw_v7x_xyz2x2x4_y_m512_d512_f2048_bf16_1_alg».proof.Proof.BodyJoin
import proofs.«901048_g7700000000001049_dist_rsdw_v7x_xyz2x2x4_y_m512_d512_f2048_bf16_1_alg».proof.Proof.OutAssembly
import proofs.«901048_g7700000000001049_dist_rsdw_v7x_xyz2x2x4_y_m512_d512_f2048_bf16_1_alg».proof.Proof.BodyClose
import proofs.«901048_g7700000000001049_dist_rsdw_v7x_xyz2x2x4_y_m512_d512_f2048_bf16_1_alg».proof.Proof.BodyOpen
import proofs.«901048_g7700000000001049_dist_rsdw_v7x_xyz2x2x4_y_m512_d512_f2048_bf16_1_alg».proof.Proof.Gen.KernelIdeal.Skeleton
import proofs.«901048_g7700000000001049_dist_rsdw_v7x_xyz2x2x4_y_m512_d512_f2048_bf16_1_alg».proof.Proof.Gen.KernelIdeal.Launch

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
/-- Eight conjuncts over the chunk index, written out. -/
theorem sep8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- What the barrier wait hands over, slot by slot; and the ready wait. -/
theorem barPay_open (c : Dev nD) : barPay (F := F) c = iprop(((∃ f, rPts (F := F) (ynb c) 0 0 f) ∗ (∃ f, rPts (F := F) (ynb c) 0 1 f) ∗ (∃ f, rPts (F := F) (ynb c) 0 2 f) ∗ (∃ f, rPts (F := F) (ynb c) 0 3 f) ∗ (∃ f, rPts (F := F) (ynb c) 0 4 f) ∗ (∃ f, rPts (F := F) (ynb c) 0 5 f) ∗ (∃ f, rPts (F := F) (ynb c) 0 6 f) ∗ (∃ f, rPts (F := F) (ynb c) 0 7 f)) ∗ (reached ER (yrCell (ynb c) 0) 0 ∗ reached ER (yrCell (ynb c) 1) 0 ∗ reached ER (yrCell (ynb c) 2) 0 ∗ reached ER (yrCell (ynb c) 3) 0 ∗ reached ER (yrCell (ynb c) 4) 0 ∗ reached ER (yrCell (ynb c) 5) 0 ∗ reached ER (yrCell (ynb c) 6) 0 ∗ reached ER (yrCell (ynb c) 7) 0)) := by
  unfold barPay rHalf; rw [sep8, sep8]
theorem rdyPay_open (c : Dev nD) : rdyPay (F := F) c = iprop(((∃ f, rPts (F := F) (xnb c) 1 0 f) ∗ (∃ f, rPts (F := F) (xnb c) 1 1 f) ∗ (∃ f, rPts (F := F) (xnb c) 1 2 f) ∗ (∃ f, rPts (F := F) (xnb c) 1 3 f) ∗ (∃ f, rPts (F := F) (xnb c) 1 4 f) ∗ (∃ f, rPts (F := F) (xnb c) 1 5 f) ∗ (∃ f, rPts (F := F) (xnb c) 1 6 f) ∗ (∃ f, rPts (F := F) (xnb c) 1 7 f)) ∗ (reached ER (xrCell (xnb c) 0) 0 ∗ reached ER (xrCell (xnb c) 1) 0 ∗ reached ER (xrCell (xnb c) 2) 0 ∗ reached ER (xrCell (xnb c) 3) 0 ∗ reached ER (xrCell (xnb c) 4) 0 ∗ reached ER (xrCell (xnb c) 5) 0 ∗ reached ER (xrCell (xnb c) 6) 0 ∗ reached ER (xrCell (xnb c) 7) 0)) := by
  unfold rdyPay rHalf; rw [sep8, sep8]

/-- What a device's own two entry signals hand its neighbours: its own receive halves (each neighbour's neighbour is the device). -/
theorem barPay_ynb (c : Dev nD) : barPay (F := F) (ynb c) = iprop(rHalf (F := F) c 0 ∗ bigSep Finset.univ fun k : Fin 8 => reached ER (yrCell c k) 0) := by
  unfold barPay; rw [ynb_ynb]
theorem rdyPay_xnb (c : Dev nD) : rdyPay (F := F) (xnb c) = iprop(rHalf (F := F) c 1 ∗ bigSep Finset.univ fun k : Fin 8 => reached ER (xrCell c k) 0) := by
  unfold rdyPay; rw [xnb_xnb]

omit [FloatOps F] in
theorem rPts_view (c : Dev nD) (j : Fin 2) (k : Fin 8) (f : Buf (Elt F) ((c : Thread nD τ).loc cc0_scratch1)) :
    rPts (F := F) c j k f = ((rSlot j k : Memref sig .tc .vmem S128x256 .bf16).view.loc (c : Thread nD τ) ↦[(rSlot j k : Memref sig .tc .vmem S128x256 .bf16).view.set]{fullShare} f) := rfl
omit [FloatOps F] in
theorem rPtsL_view (c : Dev nD) (j : Fin 2) (k : Fin 8) (f : Buf (Elt F) ((c : Thread nD τ).loc cc0_scratch1)) :
    rPtsL (F := F) c j k f = ((rSlot j k : Memref sig .tc .vmem S128x256 .bf16).view.loc (c : Thread nD τ) ↦[(rSlot j k : Memref sig .tc .vmem S128x256 .bf16).view.set]{fullShare.left} f) := rfl
omit [FloatOps F] in
theorem sPts_view (c : Dev nD) (k : Fin 8) (f : Buf (Elt F) ((c : Thread nD τ).loc cc0_scratch0)) :
    sPts (F := F) c k f = ((sSlot k : Memref sig .tc .vmem S128x256 .bf16).view.loc (c : Thread nD τ) ↦[(sSlot k : Memref sig .tc .vmem S128x256 .bf16).view.set]{fullShare} f) := rfl

omit [FloatOps F] in
/-- A whole buffer held through its view is the buffer held. -/
theorem whole_view_eq (c : Dev nD) (b : Ref sig .tc) (f : Buf (Elt F) ((c : Thread nD τ).loc b)) :
    ((Memref.whole b : Memref sig .tc _ _ _).view.loc (c : Thread nD τ) ↦[(Memref.whole b : Memref sig .tc _ _ _).view.set]{fullShare} f : sProp 𝕄)
      = (((c : Thread nD τ).loc b) ↦{fullShare} f : sProp 𝕄) := by
  show ((View.whole b).loc (c : Thread nD τ) ↦[(View.whole b).set]{fullShare} f : sProp 𝕄) = _
  rw [View.set_whole]

attribute [local sl_rounds] duties_bar duties_rdy duties_ys duties_yr duties_xs duties_xr amount_bar amount_rdy amount_ys amount_yr amount_xs amount_xr
  payload_bar payload_rdy payload_ys payload_yr payload_xs payload_xr expect_bar expect_rdy expect_ys expect_yr expect_xs expect_xr barPay_ynb rdyPay_xnb
  rPts_view rPtsL_view sPts_view

set_option maxHeartbeats 16000000 in
/-- The body from the flat context: every effect in program order, then the cells closed and the buffers whole again. -/
theorem sound_body (K : Dev nD × Fin 34 → ℕ) (c : Dev nD) (W : Waits sig Unit) (g : Buf (Elt F) ((c : Thread nD τ).loc cc0_stg2_0)) (fs : Buf (Elt F) ((c : Thread nD τ).loc cc0_scratch0)) :
    bodyFlat m ρ K c W g fs
    ⊢ wp frame (wpE (defs₀ (F := F)) 𝒱₀ (c : Thread nD τ) none) Set.univ
        (cc0_body (Memref.whole cc0_stg0_0) (Memref.isWhole_whole _) (Memref.whole cc0_stg1_0) (Memref.isWhole_whole _) (Memref.whole cc0_stg2_0) (Memref.isWhole_whole _)
          (Memref.whole cc0_scratch0) (Memref.isWhole_whole _) (Memref.whole cc0_scratch1) (Memref.isWhole_whole _) cc0_scratch2 cc0_scratch3 cc0_scratch4 cc0_scratch5 cc0_scratch6)
        (fun _ => bodyPost m ρ c) := by
  unfold bodyFlat
  iintro ⟨#IBar, #IRdy, #IYs0, #IYs1, #IYs2, #IYs3, #IYs4, #IYs5, #IYs6, #IYs7, #IYr0, #IYr1, #IYr2, #IYr3, #IYr4, #IYr5, #IYr6, #IYr7, #IXs0, #IXs1, #IXs2, #IXs3, #IXs4, #IXs5, #IXs6, #IXs7, #IXr0, #IXr1, #IXr2, #IXr3, #IXr4, #IXr5, #IXr6, #IXr7, #IBarN, #IRdyN, #IYrN0, #IYrN1, #IYrN2, #IYrN3, #IYrN4, #IYrN5, #IYrN6, #IYrN7, #IXrN0, #IXrN1, #IXrN2, #IXrN3, #IXrN4, #IXrN5, #IXrN6, #IXrN7, #RBarN, #RRdyN, #RYs0, #RYs1, #RYs2, #RYs3, #RYs4, #RYs5, #RYs6, #RYs7, #RXs0, #RXs1, #RXs2, #RXs3, #RXs4, #RXs5, #RXs6, #RXs7, #RYrAll, #RXrAll, #Hlev, ABar, ARdy, AYs0, AYs1, AYs2, AYs3, AYs4, AYs5, AYs6, AYs7, AYr0, AYr1, AYr2, AYr3, AYr4, AYr5, AYr6, AYr7, AXs0, AXs1, AXs2, AXs3, AXs4, AXs5, AXs6, AXs7, AXr0, AXr1, AXr2, AXr3, AXr4, AXr5, AXr6, AXr7, TBarN, TRdyN, TYs0, TYs1, TYs2, TYs3, TYs4, TYs5, TYs6, TYs7, TYrN0, TYrN1, TYrN2, TYrN3, TYrN4, TYrN5, TYrN6, TYrN7, TXs0, TXs1, TXs2, TXs3, TXs4, TXs5, TXs6, TXs7, TXrN0, TXrN1, TXrN2, TXrN3, TXrN4, TXrN5, TXrN6, TXrN7, CBar, CRdy, CYr0, CYr1, CYr2, CYr3, CYr4, CYr5, CYr6, CYr7, CXr0, CXr1, CXr2, CXr3, CXr4, CXr5, CXr6, CXr7, HO, Hx, Hdy, Ho, Hs0, Hs1, Hs2, Hs3, Hs4, Hs5, Hs6, Hs7, Hh0, Hh1⟩
  -- a wait while the device still owes is allowed because everything it owes then sits at a higher level
  have hmw_bar := mw_bar (F := F) c
  have hmw_rdy := mw_rdy (F := F) c
  have hmw_yr0 := mw_yr0 (F := F) c
  have hmw_yr1 := mw_yr1 (F := F) c
  have hmw_yr2 := mw_yr2 (F := F) c
  have hmw_yr3 := mw_yr3 (F := F) c
  have hmw_yr4 := mw_yr4 (F := F) c
  have hmw_yr5 := mw_yr5 (F := F) c
  have hmw_yr6 := mw_yr6 (F := F) c
  have hmw_yr7 := mw_yr7 (F := F) c
  unfold O₀ O₁ OYe OXe sPts
  sl_exec_parts
  -- the barrier wait handed over the y neighbour's eight landing slots and that it is at round 0 of their cells
  ihave Hb := (Entails.of_eq (barPay_open (F := F) c)) $$ ABar_pay1
  icases Hb with ⟨⟨⟨%fd0, Hd0⟩, ⟨%fd1, Hd1⟩, ⟨%fd2, Hd2⟩, ⟨%fd3, Hd3⟩, ⟨%fd4, Hd4⟩, ⟨%fd5, Hd5⟩, ⟨%fd6, Hd6⟩, ⟨%fd7, Hd7⟩⟩, #RYrN0, #RYrN1, #RYrN2, #RYrN3, #RYrN4, #RYrN5, #RYrN6, #RYrN7⟩
  -- copy 0 across y: chunk 0 of the send buffer now holds what it will hold for good
  ihave Hs0 := (store_is_chunk m ρ c 0 fs) $$ [Hs0]
  · unfold sPts; iexact Hs0
  iapply (wp_ysend m ρ K c _ (dev3_eq c) 0 fd0 _ _) $$ [Hs0 Hd0 HO TYs0 TYrN0]
  · isplitr; · iexact IYs0
    isplitr; · iexact IYrN0
    isplitl [Hs0]; · iexact Hs0
    isplitl [Hd0]; · iexact Hd0
    isplitl [HO]; · iexact HO
    isplitl [TYs0]; · iexact TYs0
    isplitr; · iexact RYs0
    isplitl [TYrN0]; · iexact TYrN0
    iexact RYrN0
  iintro ⟨CYs0, HO⟩
  sl_exec_parts
  -- copy 1 across y: chunk 1 of the send buffer now holds what it will hold for good
  ihave Hs1 := (store_is_chunk m ρ c 1 fs) $$ [Hs1]
  · unfold sPts; iexact Hs1
  iapply (wp_ysend m ρ K c _ (dev4_eq c) 1 fd1 _ _) $$ [Hs1 Hd1 HO TYs1 TYrN1]
  · isplitr; · iexact IYs1
    isplitr; · iexact IYrN1
    isplitl [Hs1]; · iexact Hs1
    isplitl [Hd1]; · iexact Hd1
    isplitl [HO]; · iexact HO
    isplitl [TYs1]; · iexact TYs1
    isplitr; · iexact RYs1
    isplitl [TYrN1]; · iexact TYrN1
    iexact RYrN1
  iintro ⟨CYs1, HO⟩
  sl_exec_parts
  -- copy 2 across y: chunk 2 of the send buffer now holds what it will hold for good
  ihave Hs2 := (store_is_chunk m ρ c 2 fs) $$ [Hs2]
  · unfold sPts; iexact Hs2
  iapply (wp_ysend m ρ K c _ (dev5_eq c) 2 fd2 _ _) $$ [Hs2 Hd2 HO TYs2 TYrN2]
  · isplitr; · iexact IYs2
    isplitr; · iexact IYrN2
    isplitl [Hs2]; · iexact Hs2
    isplitl [Hd2]; · iexact Hd2
    isplitl [HO]; · iexact HO
    isplitl [TYs2]; · iexact TYs2
    isplitr; · iexact RYs2
    isplitl [TYrN2]; · iexact TYrN2
    iexact RYrN2
  iintro ⟨CYs2, HO⟩
  sl_exec_parts
  -- copy 3 across y: chunk 3 of the send buffer now holds what it will hold for good
  ihave Hs3 := (store_is_chunk m ρ c 3 fs) $$ [Hs3]
  · unfold sPts; iexact Hs3
  iapply (wp_ysend m ρ K c _ (dev6_eq c) 3 fd3 _ _) $$ [Hs3 Hd3 HO TYs3 TYrN3]
  · isplitr; · iexact IYs3
    isplitr; · iexact IYrN3
    isplitl [Hs3]; · iexact Hs3
    isplitl [Hd3]; · iexact Hd3
    isplitl [HO]; · iexact HO
    isplitl [TYs3]; · iexact TYs3
    isplitr; · iexact RYs3
    isplitl [TYrN3]; · iexact TYrN3
    iexact RYrN3
  iintro ⟨CYs3, HO⟩
  sl_exec_parts
  -- copy 4 across y: chunk 4 of the send buffer now holds what it will hold for good
  ihave Hs4 := (store_is_chunk m ρ c 4 fs) $$ [Hs4]
  · unfold sPts; iexact Hs4
  iapply (wp_ysend m ρ K c _ (dev7_eq c) 4 fd4 _ _) $$ [Hs4 Hd4 HO TYs4 TYrN4]
  · isplitr; · iexact IYs4
    isplitr; · iexact IYrN4
    isplitl [Hs4]; · iexact Hs4
    isplitl [Hd4]; · iexact Hd4
    isplitl [HO]; · iexact HO
    isplitl [TYs4]; · iexact TYs4
    isplitr; · iexact RYs4
    isplitl [TYrN4]; · iexact TYrN4
    iexact RYrN4
  iintro ⟨CYs4, HO⟩
  sl_exec_parts
  -- copy 5 across y: chunk 5 of the send buffer now holds what it will hold for good
  ihave Hs5 := (store_is_chunk m ρ c 5 fs) $$ [Hs5]
  · unfold sPts; iexact Hs5
  iapply (wp_ysend m ρ K c _ (dev8_eq c) 5 fd5 _ _) $$ [Hs5 Hd5 HO TYs5 TYrN5]
  · isplitr; · iexact IYs5
    isplitr; · iexact IYrN5
    isplitl [Hs5]; · iexact Hs5
    isplitl [Hd5]; · iexact Hd5
    isplitl [HO]; · iexact HO
    isplitl [TYs5]; · iexact TYs5
    isplitr; · iexact RYs5
    isplitl [TYrN5]; · iexact TYrN5
    iexact RYrN5
  iintro ⟨CYs5, HO⟩
  sl_exec_parts
  -- copy 6 across y: chunk 6 of the send buffer now holds what it will hold for good
  ihave Hs6 := (store_is_chunk m ρ c 6 fs) $$ [Hs6]
  · unfold sPts; iexact Hs6
  iapply (wp_ysend m ρ K c _ (dev9_eq c) 6 fd6 _ _) $$ [Hs6 Hd6 HO TYs6 TYrN6]
  · isplitr; · iexact IYs6
    isplitr; · iexact IYrN6
    isplitl [Hs6]; · iexact Hs6
    isplitl [Hd6]; · iexact Hd6
    isplitl [HO]; · iexact HO
    isplitl [TYs6]; · iexact TYs6
    isplitr; · iexact RYs6
    isplitl [TYrN6]; · iexact TYrN6
    iexact RYrN6
  iintro ⟨CYs6, HO⟩
  sl_exec_parts
  -- copy 7 across y: chunk 7 of the send buffer now holds what it will hold for good
  ihave Hs7 := (store_is_chunk m ρ c 7 fs) $$ [Hs7]
  · unfold sPts; iexact Hs7
  iapply (wp_ysend m ρ K c _ (dev10_eq c) 7 fd7 _ _) $$ [Hs7 Hd7 HO TYs7 TYrN7]
  · isplitr; · iexact IYs7
    isplitr; · iexact IYrN7
    isplitl [Hs7]; · iexact Hs7
    isplitl [Hd7]; · iexact Hd7
    isplitl [HO]; · iexact HO
    isplitl [TYs7]; · iexact TYs7
    isplitr; · iexact RYs7
    isplitl [TYrN7]; · iexact TYrN7
    iexact RYrN7
  iintro ⟨CYs7, HO⟩
  sl_exec_parts
  -- the ready wait handed over the x neighbour's eight landing slots and that it is at round 0 of their cells
  ihave Hr := (Entails.of_eq (rdyPay_open (F := F) c)) $$ ARdy_pay1
  icases Hr with ⟨⟨⟨%fe0, He0⟩, ⟨%fe1, He1⟩, ⟨%fe2, He2⟩, ⟨%fe3, He3⟩, ⟨%fe4, He4⟩, ⟨%fe5, He5⟩, ⟨%fe6, He6⟩, ⟨%fe7, He7⟩⟩, #RXrN0, #RXrN1, #RXrN2, #RXrN3, #RXrN4, #RXrN5, #RXrN6, #RXrN7⟩
  -- copy 0 across x: half a share of receive slot (0, 0) is lent, the other half stays for the load that follows
  ihave Hh := (rPts_halves (F := F) c 0 0 (RB m ρ c)).1 $$ [AYr0_pay1]
  · unfold rPts; iexact AYr0_pay1
  icases Hh with ⟨HL0, HR0⟩
  iapply (wp_xsend m ρ K c _ (dev11_eq c) 0 fe0 _ _) $$ [HL0 He0 HO TXs0 TXrN0]
  · isplitr; · iexact IXs0
    isplitr; · iexact IXrN0
    isplitl [HL0]; · iexact HL0
    isplitl [He0]; · iexact He0
    isplitl [HO]; · iexact HO
    isplitl [TXs0]; · iexact TXs0
    isplitr; · iexact RXs0
    isplitl [TXrN0]; · iexact TXrN0
    iexact RXrN0
  iintro ⟨CXs0, HO⟩
  unfold rPtsR
  sl_exec_parts
  -- copy 1 across x: half a share of receive slot (0, 1) is lent, the other half stays for the load that follows
  ihave Hh := (rPts_halves (F := F) c 0 1 (RB m ρ c)).1 $$ [AYr1_pay1]
  · unfold rPts; iexact AYr1_pay1
  icases Hh with ⟨HL1, HR1⟩
  iapply (wp_xsend m ρ K c _ (dev12_eq c) 1 fe1 _ _) $$ [HL1 He1 HO TXs1 TXrN1]
  · isplitr; · iexact IXs1
    isplitr; · iexact IXrN1
    isplitl [HL1]; · iexact HL1
    isplitl [He1]; · iexact He1
    isplitl [HO]; · iexact HO
    isplitl [TXs1]; · iexact TXs1
    isplitr; · iexact RXs1
    isplitl [TXrN1]; · iexact TXrN1
    iexact RXrN1
  iintro ⟨CXs1, HO⟩
  unfold rPtsR
  sl_exec_parts
  -- copy 2 across x: half a share of receive slot (0, 2) is lent, the other half stays for the load that follows
  ihave Hh := (rPts_halves (F := F) c 0 2 (RB m ρ c)).1 $$ [AYr2_pay1]
  · unfold rPts; iexact AYr2_pay1
  icases Hh with ⟨HL2, HR2⟩
  iapply (wp_xsend m ρ K c _ (dev13_eq c) 2 fe2 _ _) $$ [HL2 He2 HO TXs2 TXrN2]
  · isplitr; · iexact IXs2
    isplitr; · iexact IXrN2
    isplitl [HL2]; · iexact HL2
    isplitl [He2]; · iexact He2
    isplitl [HO]; · iexact HO
    isplitl [TXs2]; · iexact TXs2
    isplitr; · iexact RXs2
    isplitl [TXrN2]; · iexact TXrN2
    iexact RXrN2
  iintro ⟨CXs2, HO⟩
  unfold rPtsR
  sl_exec_parts
  -- copy 3 across x: half a share of receive slot (0, 3) is lent, the other half stays for the load that follows
  ihave Hh := (rPts_halves (F := F) c 0 3 (RB m ρ c)).1 $$ [AYr3_pay1]
  · unfold rPts; iexact AYr3_pay1
  icases Hh with ⟨HL3, HR3⟩
  iapply (wp_xsend m ρ K c _ (dev14_eq c) 3 fe3 _ _) $$ [HL3 He3 HO TXs3 TXrN3]
  · isplitr; · iexact IXs3
    isplitr; · iexact IXrN3
    isplitl [HL3]; · iexact HL3
    isplitl [He3]; · iexact He3
    isplitl [HO]; · iexact HO
    isplitl [TXs3]; · iexact TXs3
    isplitr; · iexact RXs3
    isplitl [TXrN3]; · iexact TXrN3
    iexact RXrN3
  iintro ⟨CXs3, HO⟩
  unfold rPtsR
  sl_exec_parts
  -- copy 4 across x: half a share of receive slot (0, 4) is lent, the other half stays for the load that follows
  ihave Hh := (rPts_halves (F := F) c 0 4 (RB m ρ c)).1 $$ [AYr4_pay1]
  · unfold rPts; iexact AYr4_pay1
  icases Hh with ⟨HL4, HR4⟩
  iapply (wp_xsend m ρ K c _ (dev15_eq c) 4 fe4 _ _) $$ [HL4 He4 HO TXs4 TXrN4]
  · isplitr; · iexact IXs4
    isplitr; · iexact IXrN4
    isplitl [HL4]; · iexact HL4
    isplitl [He4]; · iexact He4
    isplitl [HO]; · iexact HO
    isplitl [TXs4]; · iexact TXs4
    isplitr; · iexact RXs4
    isplitl [TXrN4]; · iexact TXrN4
    iexact RXrN4
  iintro ⟨CXs4, HO⟩
  unfold rPtsR
  sl_exec_parts
  -- copy 5 across x: half a share of receive slot (0, 5) is lent, the other half stays for the load that follows
  ihave Hh := (rPts_halves (F := F) c 0 5 (RB m ρ c)).1 $$ [AYr5_pay1]
  · unfold rPts; iexact AYr5_pay1
  icases Hh with ⟨HL5, HR5⟩
  iapply (wp_xsend m ρ K c _ (dev16_eq c) 5 fe5 _ _) $$ [HL5 He5 HO TXs5 TXrN5]
  · isplitr; · iexact IXs5
    isplitr; · iexact IXrN5
    isplitl [HL5]; · iexact HL5
    isplitl [He5]; · iexact He5
    isplitl [HO]; · iexact HO
    isplitl [TXs5]; · iexact TXs5
    isplitr; · iexact RXs5
    isplitl [TXrN5]; · iexact TXrN5
    iexact RXrN5
  iintro ⟨CXs5, HO⟩
  unfold rPtsR
  sl_exec_parts
  -- copy 6 across x: half a share of receive slot (0, 6) is lent, the other half stays for the load that follows
  ihave Hh := (rPts_halves (F := F) c 0 6 (RB m ρ c)).1 $$ [AYr6_pay1]
  · unfold rPts; iexact AYr6_pay1
  icases Hh with ⟨HL6, HR6⟩
  iapply (wp_xsend m ρ K c _ (dev17_eq c) 6 fe6 _ _) $$ [HL6 He6 HO TXs6 TXrN6]
  · isplitr; · iexact IXs6
    isplitr; · iexact IXrN6
    isplitl [HL6]; · iexact HL6
    isplitl [He6]; · iexact He6
    isplitl [HO]; · iexact HO
    isplitl [TXs6]; · iexact TXs6
    isplitr; · iexact RXs6
    isplitl [TXrN6]; · iexact TXrN6
    iexact RXrN6
  iintro ⟨CXs6, HO⟩
  unfold rPtsR
  sl_exec_parts
  -- copy 7 across x: half a share of receive slot (0, 7) is lent, the other half stays for the load that follows
  ihave Hh := (rPts_halves (F := F) c 0 7 (RB m ρ c)).1 $$ [AYr7_pay1]
  · unfold rPts; iexact AYr7_pay1
  icases Hh with ⟨HL7, HR7⟩
  iapply (wp_xsend m ρ K c _ (dev18_eq c) 7 fe7 _ _) $$ [HL7 He7 HO TXs7 TXrN7]
  · isplitr; · iexact IXs7
    isplitr; · iexact IXrN7
    isplitl [HL7]; · iexact HL7
    isplitl [He7]; · iexact He7
    isplitl [HO]; · iexact HO
    isplitl [TXs7]; · iexact TXs7
    isplitr; · iexact RXs7
    isplitl [TXrN7]; · iexact TXrN7
    iexact RXrN7
  iintro ⟨CXs7, HO⟩
  unfold rPtsR
  sl_exec_parts
  -- the body has run; close the thirty-three scoped cells
  imod (close_all m ρ K c) $$ [ARdy AYs0 AYs1 AYs2 AYs3 AYs4 AYs5 AYs6 AYs7 AYr0 AYr1 AYr2 AYr3 AYr4 AYr5 AYr6 AYr7 AXs0 AXs1 AXs2 AXs3 AXs4 AXs5 AXs6 AXs7 AXr0 AXr1 AXr2 AXr3 AXr4 AXr5 AXr6 AXr7] with Hsv
  · isplitr
    ·
      isplitr; · iexact IRdy
      isplitr; · iexact IYs0
      isplitr; · iexact IYs1
      isplitr; · iexact IYs2
      isplitr; · iexact IYs3
      isplitr; · iexact IYs4
      isplitr; · iexact IYs5
      isplitr; · iexact IYs6
      isplitr; · iexact IYs7
      isplitr; · iexact IYr0
      isplitr; · iexact IYr1
      isplitr; · iexact IYr2
      isplitr; · iexact IYr3
      isplitr; · iexact IYr4
      isplitr; · iexact IYr5
      isplitr; · iexact IYr6
      isplitr; · iexact IYr7
      isplitr; · iexact IXs0
      isplitr; · iexact IXs1
      isplitr; · iexact IXs2
      isplitr; · iexact IXs3
      isplitr; · iexact IXs4
      isplitr; · iexact IXs5
      isplitr; · iexact IXs6
      isplitr; · iexact IXs7
      isplitr; · iexact IXr0
      isplitr; · iexact IXr1
      isplitr; · iexact IXr2
      isplitr; · iexact IXr3
      isplitr; · iexact IXr4
      isplitr; · iexact IXr5
      isplitr; · iexact IXr6
      iexact IXr7
    ·
      isplitl [ARdy]; · iexact ARdy
      isplitl [AYs0]; · iexact AYs0
      isplitl [AYs1]; · iexact AYs1
      isplitl [AYs2]; · iexact AYs2
      isplitl [AYs3]; · iexact AYs3
      isplitl [AYs4]; · iexact AYs4
      isplitl [AYs5]; · iexact AYs5
      isplitl [AYs6]; · iexact AYs6
      isplitl [AYs7]; · iexact AYs7
      isplitl [AYr0]; · iexact AYr0
      isplitl [AYr1]; · iexact AYr1
      isplitl [AYr2]; · iexact AYr2
      isplitl [AYr3]; · iexact AYr3
      isplitl [AYr4]; · iexact AYr4
      isplitl [AYr5]; · iexact AYr5
      isplitl [AYr6]; · iexact AYr6
      isplitl [AYr7]; · iexact AYr7
      isplitl [AXs0]; · iexact AXs0
      isplitl [AXs1]; · iexact AXs1
      isplitl [AXs2]; · iexact AXs2
      isplitl [AXs3]; · iexact AXs3
      isplitl [AXs4]; · iexact AXs4
      isplitl [AXs5]; · iexact AXs5
      isplitl [AXs6]; · iexact AXs6
      isplitl [AXs7]; · iexact AXs7
      isplitl [AXr0]; · iexact AXr0
      isplitl [AXr1]; · iexact AXr1
      isplitl [AXr2]; · iexact AXr2
      isplitl [AXr3]; · iexact AXr3
      isplitl [AXr4]; · iexact AXr4
      isplitl [AXr5]; · iexact AXr5
      isplitl [AXr6]; · iexact AXr6
      iexact AXr7
  -- the send buffer whole again, from the eight chunks the send waits handed back
  ihave Hsw := (join_send m ρ c) $$ [AYs0_pay1 AYs1_pay1 AYs2_pay1 AYs3_pay1 AYs4_pay1 AYs5_pay1 AYs6_pay1 AYs7_pay1]
  ·
      isplitl [AYs0_pay1]; · (unfold sPts; iexact AYs0_pay1)
      isplitl [AYs1_pay1]; · (unfold sPts; iexact AYs1_pay1)
      isplitl [AYs2_pay1]; · (unfold sPts; iexact AYs2_pay1)
      isplitl [AYs3_pay1]; · (unfold sPts; iexact AYs3_pay1)
      isplitl [AYs4_pay1]; · (unfold sPts; iexact AYs4_pay1)
      isplitl [AYs5_pay1]; · (unfold sPts; iexact AYs5_pay1)
      isplitl [AYs6_pay1]; · (unfold sPts; iexact AYs6_pay1)
      unfold sPts; iexact AYs7_pay1
  -- the receive buffer whole again: the halves of slots (0, k) rejoined, slots (1, k) as they landed
  ihave Hrw := (join_recv m ρ c) $$ [AXs0_pay1 AXs1_pay1 AXs2_pay1 AXs3_pay1 AXs4_pay1 AXs5_pay1 AXs6_pay1 AXs7_pay1 HR0 HR1 HR2 HR3 HR4 HR5 HR6 HR7 AXr0_pay1 AXr1_pay1 AXr2_pay1 AXr3_pay1 AXr4_pay1 AXr5_pay1 AXr6_pay1 AXr7_pay1]
  · isplitl [AXs0_pay1 AXs1_pay1 AXs2_pay1 AXs3_pay1 AXs4_pay1 AXs5_pay1 AXs6_pay1 AXs7_pay1]
    ·
      isplitl [AXs0_pay1]; · (unfold rPtsL; iexact AXs0_pay1)
      isplitl [AXs1_pay1]; · (unfold rPtsL; iexact AXs1_pay1)
      isplitl [AXs2_pay1]; · (unfold rPtsL; iexact AXs2_pay1)
      isplitl [AXs3_pay1]; · (unfold rPtsL; iexact AXs3_pay1)
      isplitl [AXs4_pay1]; · (unfold rPtsL; iexact AXs4_pay1)
      isplitl [AXs5_pay1]; · (unfold rPtsL; iexact AXs5_pay1)
      isplitl [AXs6_pay1]; · (unfold rPtsL; iexact AXs6_pay1)
      unfold rPtsL; iexact AXs7_pay1
    isplitl [HR0 HR1 HR2 HR3 HR4 HR5 HR6 HR7]
    ·
      isplitl [HR0]; · (unfold rPtsR; iexact HR0)
      isplitl [HR1]; · (unfold rPtsR; iexact HR1)
      isplitl [HR2]; · (unfold rPtsR; iexact HR2)
      isplitl [HR3]; · (unfold rPtsR; iexact HR3)
      isplitl [HR4]; · (unfold rPtsR; iexact HR4)
      isplitl [HR5]; · (unfold rPtsR; iexact HR5)
      isplitl [HR6]; · (unfold rPtsR; iexact HR6)
      unfold rPtsR; iexact HR7
    ·
      isplitl [AXr0_pay1]; · (unfold rPts; iexact AXr0_pay1)
      isplitl [AXr1_pay1]; · (unfold rPts; iexact AXr1_pay1)
      isplitl [AXr2_pay1]; · (unfold rPts; iexact AXr2_pay1)
      isplitl [AXr3_pay1]; · (unfold rPts; iexact AXr3_pay1)
      isplitl [AXr4_pay1]; · (unfold rPts; iexact AXr4_pay1)
      isplitl [AXr5_pay1]; · (unfold rPts; iexact AXr5_pay1)
      isplitl [AXr6_pay1]; · (unfold rPts; iexact AXr6_pay1)
      unfold rPts; iexact AXr7_pay1
  rw [wp_ret]; imodintro
  unfold bodyPost Φ₁ Dat.owesAt Pipeline.owesWithin
  rw [show (dats m ρ 0 c).owed t₀.succ = 0 from rfl]
  isplitl [Hsw Hrw Hsv]
  · isplitl [Hsw]; · iexact Hsw
    isplitl [Hrw]; · iexact Hrw
    iexact Hsv
  isplitl [HO]
  · iexists _
    isplitr
    swap
    · iexact HO
    · ipureintro; exact fun _ _ => Or.inl trivial
  isplitl [Hx]
  · iexists _; isplitr; · (ipureintro; rfl)
    ihave Hx := (Entails.of_eq (whole_view_eq (F := F) c cc0_stg0_0 _)) $$ Hx; iexact Hx
  isplitl [Hdy]
  · iexists _; isplitr; · (ipureintro; rfl)
    ihave Hdy := (Entails.of_eq (whole_view_eq (F := F) c cc0_stg1_0 _)) $$ Hdy; iexact Hdy
  -- the output block: the twenty-four stores of the run, read as one function of the devices' input blocks
  ihave Ho := (Entails.of_eq (whole_view_eq (F := F) c cc0_stg2_0 _)) $$ Ho
  iexists (outD (Xs m ρ) (DYs m ρ) c ((oM : Memref sig .tc .vmem S256x2048 .f32).view.junk (Val := Elt F)))
  isplitr
  · ipureintro; exact out_final (Xs m ρ) (DYs m ρ) c _
  iexact Ho

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 65536 in
/-- The library's body obligation on device `c`. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _) (Memref.whole cc0_stg2_0) (Memref.isWhole_whole _)
          (Memref.whole cc0_scratch0) (Memref.isWhole_whole _) (Memref.whole cc0_scratch1) (Memref.isWhole_whole _) cc0_scratch2 cc0_scratch3 cc0_scratch4 cc0_scratch5 cc0_scratch6) (fun _ => bodyPost m ρ c)
  iintro H
  ihave H2 := (open_pre m ρ c) $$ H
  icases H2 with ⟨%K, %W, %g, %fs, H⟩
  iapply (sound_body m ρ K c W g fs) $$ H

/-- info: 'Cert.KernelIdeal.Hand.body_obligation' depends on axioms: [propext, Classical.choice, Quot.sound] -/
#guard_msgs in #print axioms body_obligation

end Cert.KernelIdeal.Hand

end
-- ==== Proof.Launch.lean ====
/- From the body of one device to the run of the program on all sixteen.
   Every device starts with its thirty-four cells at zero. The protocol's ghost state is created for all the devices'
   cells at once; each cell's invariant is allocated; the invariants' names and the marks "round 0 is reached" are
   persistent and every device gets them all. The duty tokens go to the devices that pay: the token of a cell that is
   signalled or written across y to its owner's y neighbour, of one across x to the x neighbour (both neighbour maps are
   involutions, so dealing is reindexing), and a send cell's token stays with its owner. What the neighbours owe a
   device's cells comes back as that device's credit, one summand of the dues at a time. The three staging cells sit at
   level 0, and everything a device owes at launch sits at level 1 or above. -/
import proofs.«901048_g7700000000001049_dist_rsdw_v7x_xyz2x2x4_y_m512_d512_f2048_bf16_1_alg».proof.Proof.Data
import proofs.«901048_g7700000000001049_dist_rsdw_v7x_xyz2x2x4_y_m512_d512_f2048_bf16_1_alg».proof.Proof.Gen.KernelIdeal.Frame

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores -/

/-- The kernel's own (scoped) semaphores: every cell of a device but the barrier's. -/
abbrev osem : Fin 33 → SemLoc sig := fun i => csem i.succ

set_option maxRecDepth 8000 in
theorem ownSemFacts : Pipeline.OwnSemFacts cfg0.spec osem :=
  ⟨by decide, fun a b h => Fin.succ_injective _ (csem_injective h), by decide⟩

theorem share_eq (c : Dev nD) (w : Fin cfg0.W) : (dats m ρ 0 c).share w = fullShare := by unfold Dat.share; split <;> rfl

theorem kcell_injective : Function.Injective (kcell : Dev nD × Fin 34 → GSem nD τ sig) := by
  rintro ⟨c, i⟩ ⟨c', i'⟩ h
  have h1 : c = c' := by have := congrArg (fun g : GSem nD τ sig => g.1.1) h; exact this
  subst h1
  have h2 : csem i = csem i' := congrArg Prod.snd h
  rw [csem_injective h2]

/-! ## A device's thirty-four cells, family by family -/

def eYs : Fin 8 ↪ Fin 34 := ⟨iYs, by decide⟩
def eYr : Fin 8 ↪ Fin 34 := ⟨iYr, by decide⟩
def eXs : Fin 8 ↪ Fin 34 := ⟨iXs, by decide⟩
def eXr : Fin 8 ↪ Fin 34 := ⟨iXr, by decide⟩

set_option maxRecDepth 8000 in
theorem univ34 : (Finset.univ : Finset (Fin 34))
    = {iBar} ∪ ({iRdy} ∪ (Finset.univ.map eYs ∪ (Finset.univ.map eYr ∪ (Finset.univ.map eXs ∪ Finset.univ.map eXr)))) :=
  (Finset.eq_univ_iff_forall.mpr (by decide)).symm

set_option maxRecDepth 8000 in
/-- All thirty-four: the barrier's, the ready one, and the four families of eight. -/
theorem launch_sep34 (Φ : Fin 34 → sProp 𝕄) :
    bigSep Finset.univ Φ = iprop(Φ iBar ∗ Φ iRdy ∗ (bigSep Finset.univ fun k : Fin 8 => Φ (iYs k)) ∗ (bigSep Finset.univ fun k : Fin 8 => Φ (iYr k))
      ∗ (bigSep Finset.univ fun k : Fin 8 => Φ (iXs k)) ∗ bigSep Finset.univ fun k : Fin 8 => Φ (iXr k)) := by
  rw [univ34, bigSep_union (by decide), bigSep_union (by decide), bigSep_union (by decide), bigSep_union (by decide), bigSep_union (by decide),
    bigSep_singleton, bigSep_singleton, bigSep_map, bigSep_map, bigSep_map, bigSep_map]
  rfl

theorem launch_sep8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-! ## The launch element and its funding -/

def protoCells : Finset (GSem nD τ sig) := Finset.univ.map ⟨kcell, kcell_injective⟩
/-- One token a cell: its one duty of round 0. -/
def protoToks : Finset (GSem nD τ sig × ℕ × Unit) :=
  Finset.univ.map ⟨fun ck : Dev nD × Fin 34 => (kcell ck, 0, ()), fun _ _ h => kcell_injective (congrArg Prod.fst h)⟩

def u₀ : UU := (initOf (Pipeline.cells cfgs cellOf_inj) (Pipeline.launchToks cfgs cellOf_inj), initOf protoCells protoToks)

/-- The duty tokens of a device's own cells. -/
def toks (c : Dev nD) : sProp 𝕄 := bigSep Finset.univ fun i : Fin 34 => dutyTok ER (kcell (c, i)) 0 ()

/-- What the launch element deals a device: its cells' round states, its positions, the round-0 marks, its cells' tokens. -/
def G (c : Dev nD) : sProp 𝕄 :=
  iprop((bigSep Finset.univ fun i : Fin 34 => roundState ER (protoRd m ρ) (kcell (c, i)) 0)
    ∗ (bigSep Finset.univ fun i : Fin 34 => iprop(atPos ER (kcell (c, i)) 0 ∅ 0 ∗ reached ER (kcell (c, i)) 0)) ∗ toks (F := F) c)

/-- What the global step makes of it. -/
def G' (c : Dev nD) : sProp 𝕄 := iprop(∃ K, ghost m ρ K c)

theorem fund_proto : BI.own (ER (initOf protoCells protoToks)) ⊢ (|==> bigSep Finset.univ (G m ρ) : sProp 𝕄) := by
  have hX (Φ : GSem nD τ sig → sProp 𝕄) : bigSep protoCells Φ = bigSep Finset.univ fun c : Dev nD => bigSep Finset.univ fun i : Fin 34 => Φ (kcell (c, i)) := by
    unfold protoCells; rw [bigSep_map, bigSep_univ_prod]; rfl
  have hT : bigSep protoToks (fun x => (dutyTok ER x.1 x.2.1 x.2.2 : sProp 𝕄)) = bigSep Finset.univ fun c : Dev nD => toks c := by
    unfold protoToks toks; rw [bigSep_map, bigSep_univ_prod]; rfl
  iintro HX
  imod (Rounds.fund ER (protoRd m ρ) protoCells protoToks) $$ HX with ⟨Hst, Hr, Hat, Htok⟩
  imodintro
  ihave Hst' := (Entails.of_eq (hX fun g => roundState ER (protoRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step -/

/-- The scoped cells are all but the barrier's; -/
theorem ownSems0_eq (c : Dev nD) : (Pipeline.ownSems0 (Ix := Unit) (Name := ℕ) (U := UU) (Lvl := ℕ) (Val := Elt F) (τ := τ) osem c : sProp 𝕄)
    = bigSep (Finset.univ.erase iBar) fun i : Fin 34 => semVal (kcell (c, i)) 0 := by
  have hs : (Finset.univ.erase iBar : Finset (Fin 34)) = Finset.univ.map ⟨Fin.succ, Fin.succ_injective 33⟩ := by
    ext i; constructor
    · intro h
      obtain ⟨j, rfl⟩ := Fin.exists_succ_eq.mpr (Finset.mem_erase.mp h).1
      exact Finset.mem_map.mpr ⟨j, Finset.mem_univ _, rfl⟩
    · intro h
      obtain ⟨j, _, rfl⟩ := Finset.mem_map.mp h
      exact Finset.mem_erase.mpr ⟨Fin.succ_ne_zero j, Finset.mem_univ _⟩
  rw [hs, bigSep_map]; rfl
/-- the barrier semaphore is the one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun i : Fin 34 => semVal (kcell (c, i)) 0 : sProp 𝕄) := by
  rw [ownSems0_eq, unscopedSems0_eq, bigSep_univ_at (fun i : Fin 34 => (semVal (kcell (c, i)) 0 : sProp 𝕄)) iBar]
  iintro ⟨HS, HB⟩
  isplitl [HB]
  · rw [show kcell (c, iBar) = barCell c from by rw [kcell, csem_bar]]; iexact HB
  · iexact HS

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun i : Fin 34 => iprop(∃ κ : ℕ, cellInv ER (protoRd m ρ) κ (kcell (c, i))))
          ∗ (bigSep Finset.univ fun i : Fin 34 => iprop(atPos ER (kcell (c, i)) 0 ∅ 0 ∗ reached ER (kcell (c, i)) 0)) ∗ toks (F := F) c) := by
  unfold G
  iintro ⟨Hos, Hus, Hst, Hat, Htok⟩
  ihave Hv := (sems0_eq (F := F) c) $$ [Hos Hus]
  · isplitl [Hos] <;> iassumption
  imod (show iprop((bigSep Finset.univ fun i : Fin 34 => semVal (kcell (c, i)) 0) ∗ bigSep Finset.univ fun i : Fin 34 => roundState ER (protoRd m ρ) (kcell (c, i)) 0)
      ⊢ (|={Set.univ}=> bigSep Finset.univ fun i : Fin 34 => iprop(∃ κ : ℕ, cellInv ER (protoRd m ρ) κ (kcell (c, i))) : sProp 𝕄) from by
        rw [← bigSep_sep']
        exact (bigSep_mono fun i _ => (Rounds.body_intro ER (protoRd m ρ) (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

theorem ghost_intro (K : Dev nD × Fin 34 → ℕ) (c : Dev nD) : iprop(records m ρ K ∗ linear (F := F) c) ⊢ G' m ρ c := by
  unfold G' ghost
  iintro H; iexists K; iexact H

/-- A device's own tokens, family by family. -/
theorem toks_eq (c : Dev nD) : (toks c : sProp 𝕄)
    = iprop(dutyTok ER (barCell c) 0 () ∗ dutyTok ER (rdyCell c) 0 ()
      ∗ (bigSep Finset.univ fun k : Fin 8 => dutyTok ER (ysCell c k) 0 ())
      ∗ (bigSep Finset.univ fun k : Fin 8 => dutyTok ER (yrCell c k) 0 ())
      ∗ (bigSep Finset.univ fun k : Fin 8 => dutyTok ER (xsCell c k) 0 ())
      ∗ (bigSep Finset.univ fun k : Fin 8 => dutyTok ER (xrCell c k) 0 ())) := by
  unfold toks; rw [launch_sep34]
  simp only [kcell, csem_bar, csem_rdy, csem_ys, csem_yr, csem_xs, csem_xr]

/-- The tokens dealt: the barrier's and the receive tokens across y to the y neighbour, the ready token and the receive
    tokens across x to the x neighbour; the send tokens stay. -/
theorem toks_around : (bigSep Finset.univ fun c : Dev nD => (toks c : sProp 𝕄)) ⊢ bigSep Finset.univ fun c : Dev nD => payToks c := by
  rw [bigSep_congr (s := Finset.univ) fun (c : Dev nD) _ => toks_eq (F := F) c]
  unfold payToks
  rw [bigSep_sep', bigSep_sep', bigSep_sep', bigSep_sep', bigSep_sep', bigSep_sep', bigSep_sep', bigSep_sep', bigSep_sep', bigSep_sep',
    bigSep_univ_equiv yswap (fun c : Dev nD => (dutyTok ER (barCell c) 0 () : sProp 𝕄)),
    bigSep_univ_equiv xswap (fun c : Dev nD => (dutyTok ER (rdyCell c) 0 () : sProp 𝕄)),
    bigSep_univ_equiv yswap (fun c : Dev nD => (bigSep Finset.univ fun k : Fin 8 => dutyTok ER (yrCell c k) 0 () : sProp 𝕄)),
    bigSep_univ_equiv xswap (fun c : Dev nD => (bigSep Finset.univ fun k : Fin 8 => dutyTok ER (xrCell c k) 0 () : sProp 𝕄))]
  iintro ⟨H1, H2, H3, H4, H5, H6⟩
  isplitl [H1]; · iexact H1
  isplitl [H2]; · iexact H2
  isplitl [H3]; · iexact H3
  isplitl [H4]; · iexact H4
  isplitl [H5]; · iexact H5
  iexact H6

theorem regroup :
    (bigSep Finset.univ fun c : Dev nD => iprop((bigSep Finset.univ fun i : Fin 34 => iprop(∃ κ : ℕ, cellInv ER (protoRd m ρ) κ (kcell (c, i))))
          ∗ (bigSep Finset.univ fun i : Fin 34 => iprop(atPos ER (kcell (c, i)) 0 ∅ 0 ∗ reached ER (kcell (c, i)) 0)) ∗ toks (F := F) c) : sProp 𝕄)
      ⊢ bigSep Finset.univ (G' m ρ) := by
  rw [bigSep_sep', bigSep_sep', ← bigSep_univ_prod (fun ck : Dev nD × Fin 34 => iprop(∃ κ : ℕ, cellInv ER (protoRd m ρ) κ (kcell ck))),
    bigSep_congr (s := Finset.univ) (fun (c : Dev nD) _ => bigSep_sep' Finset.univ (fun i : Fin 34 => (atPos ER (kcell (c, i)) 0 ∅ 0 : sProp 𝕄)) (fun i => reached ER (kcell (c, i)) 0)),
    bigSep_sep', ← bigSep_univ_prod (fun ck : Dev nD × Fin 34 => (reached ER (kcell ck) 0 : sProp 𝕄))]
  iintro ⟨HI, ⟨Hat, #HR⟩, Htok⟩
  ihave HK := (BI.bigSep_exists_pi Finset.univ (fun (ck : Dev nD × Fin 34) (κ : ℕ) => (cellInv ER (protoRd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun i : Fin 34 => (atPos ER (kcell (c, i)) 0 ∅ 0 : sProp 𝕄)) payToks).symm).trans
      (bigSep_mono fun c _ => show _ ⊢ linear c from Entails.of_eq (by unfold linear; rfl)))
    isplitl [Hat]; · iexact Hat
    iexact Htk

/-- The global step: the scoped AND the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

theorem credY (c : Dev nD) (k : Fin 8) :
    (Pipeline.launchCred (fun d : Dev nD => tallyAt (yrCell (ynb d) k) () N) c : sProp 𝕄) ⊢ cred (tallyAt (yrCell c k) () N) :=
  Pipeline.launchCred_tallyAt (.dma (yrS k)) ynb ynb ynb_ynb ynb_ynb () N c
theorem credX (c : Dev nD) (k : Fin 8) :
    (Pipeline.launchCred (fun d : Dev nD => tallyAt (xrCell (xnb d) k) () N) c : sProp 𝕄) ⊢ cred (tallyAt (xrCell c k) () N) :=
  Pipeline.launchCred_tallyAt (.dma (xrS k)) xnb xnb xnb_xnb xnb_xnb () N c
theorem credB (c : Dev nD) :
    (Pipeline.launchCred (fun d : Dev nD => tallyAt (barCell (ynb d)) () 1) c : sProp 𝕄) ⊢ cred (tallyAt (barCell c) () 1) :=
  Pipeline.launchCred_tallyAt (.reg barS) ynb ynb ynb_ynb ynb_ynb () 1 c
theorem credR (c : Dev nD) :
    (Pipeline.launchCred (fun d : Dev nD => tallyAt (rdyCell (xnb d)) () 1) c : sProp 𝕄) ⊢ cred (tallyAt (rdyCell c) () 1) :=
  Pipeline.launchCred_tallyAt (.reg rdyS) xnb xnb xnb_xnb xnb_xnb () 1 c

/-- What the sixteen devices owe a device's cells is that device's credit: each summand of the dues names one cell of a
    neighbour, and the neighbour maps are bijections. -/
theorem creds_intro (c : Dev nD) : (Pipeline.launchCred O₀ c : sProp 𝕄) ⊢ creds c := by
  delta O₀
  simp only [O₁, OYe, OXe, Pipeline.launchCred_add]
  unfold creds
  rw [launch_sep8, launch_sep8]
  iintro ⟨⟨⟨⟨⟨⟨⟨⟨⟨⟨⟨⟨⟨⟨⟨⟨⟨⟨-, X7⟩, X6⟩, X5⟩, X4⟩, X3⟩, X2⟩, X1⟩, X0⟩, Y7⟩, Y6⟩, Y5⟩, Y4⟩, Y3⟩, Y2⟩, Y1⟩, Y0⟩, HR⟩, HB⟩
  isplitl [HB]; · iapply (credB (F := F) c); iexact HB
  isplitl [HR]; · iapply (credR (F := F) c); iexact HR
  isplitl [Y0 Y1 Y2 Y3 Y4 Y5 Y6 Y7]
  · isplitl [Y0]; · iapply (credY (F := F) c 0); iexact Y0
    isplitl [Y1]; · iapply (credY (F := F) c 1); iexact Y1
    isplitl [Y2]; · iapply (credY (F := F) c 2); iexact Y2
    isplitl [Y3]; · iapply (credY (F := F) c 3); iexact Y3
    isplitl [Y4]; · iapply (credY (F := F) c 4); iexact Y4
    isplitl [Y5]; · iapply (credY (F := F) c 5); iexact Y5
    isplitl [Y6]; · iapply (credY (F := F) c 6); iexact Y6
    iapply (credY (F := F) c 7); iexact Y7
  · isplitl [X0]; · iapply (credX (F := F) c 0); iexact X0
    isplitl [X1]; · iapply (credX (F := F) c 1); iexact X1
    isplitl [X2]; · iapply (credX (F := F) c 2); iexact X2
    isplitl [X3]; · iapply (credX (F := F) c 3); iexact X3
    isplitl [X4]; · iapply (credX (F := F) c 4); iexact X4
    isplitl [X5]; · iapply (credX (F := F) c 5); iexact X5
    isplitl [X6]; · iapply (credX (F := F) c 6); iexact X6
    iapply (credX (F := F) c 7); iexact X7

/-! ## The levels of what a device owes at launch -/

theorem launch_lv_xr (d : Dev nD) (k : Fin 8) (u : Unit) : lv (xrCell d k) u = 4 := by unfold lv; rw [kind_xr]
theorem launch_lv_yr (d : Dev nD) (k : Fin 8) (u : Unit) : lv (yrCell d k) u = 3 := by unfold lv; rw [kind_yr]
theorem launch_lv_rdy (d : Dev nD) (u : Unit) : lv (rdyCell d) u = 2 := by unfold lv; rw [kind_rdy]
theorem launch_lv_bar (d : Dev nD) (u : Unit) : lv (barCell d) u = 1 := by unfold lv; rw [kind_bar]

/-- Everything a device owes at launch is owed to a cell of a TensorCore, at level 1 or above. -/
theorem O₀_pos (c : Dev nD) (g : GSem nD τ sig) (u : Unit) (h : 0 < O₀ c g u) : u ∈ L g ∧ 0 < lv g u := by
  have hX (k : Fin 8) (h : 0 < (tallyAt (xrCell (xnb c) k) () N : CellTallies nD τ sig Unit) g u) : u ∈ L g ∧ 0 < lv g u := by
    obtain ⟨rfl, rfl⟩ := Pipeline.tallyAt_pos h
    exact ⟨by rw [L_tc]; exact Finset.mem_singleton_self _, by rw [launch_lv_xr]; decide⟩
  have hY (k : Fin 8) (h : 0 < (tallyAt (yrCell (ynb c) k) () N : CellTallies nD τ sig Unit) g u) : u ∈ L g ∧ 0 < lv g u := by
    obtain ⟨rfl, rfl⟩ := Pipeline.tallyAt_pos h
    exact ⟨by rw [L_tc]; exact Finset.mem_singleton_self _, by rw [launch_lv_yr]; decide⟩
  have hR (h : 0 < (tallyAt (rdyCell (xnb c)) () 1 : CellTallies nD τ sig Unit) g u) : u ∈ L g ∧ 0 < lv g u := by
    obtain ⟨rfl, rfl⟩ := Pipeline.tallyAt_pos h
    exact ⟨by rw [L_tc]; exact Finset.mem_singleton_self _, by rw [launch_lv_rdy]; decide⟩
  have hB (h : 0 < (tallyAt (barCell (ynb c)) () 1 : CellTallies nD τ sig Unit) g u) : u ∈ L g ∧ 0 < lv g u := by
    obtain ⟨rfl, rfl⟩ := Pipeline.tallyAt_pos h
    exact ⟨by rw [L_tc]; exact Finset.mem_singleton_self _, by rw [launch_lv_bar]; decide⟩
  unfold O₀ O₁ OYe OXe at h
  iterate 18 (rcases Pipeline.add_pos_cases h with h | h; swap; first | exact hX _ h | exact hY _ h | exact hR h | exact hB h)
  rw [Pi.zero_apply, Finsupp.zero_apply] at h
  exact absurd h (Nat.lt_irrefl 0)

/-- A staging cell sits below everything a device owes, at launch and (owing nothing) at the end. -/
theorem mayWait_stage (c : Dev nD) (q : DmaSem sig) (hq : kindOf (.dma q : SemLoc sig) = .other) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => (O₀_pos c g u hg).1)
      (fun p hp => by rw [Finset.mem_singleton.mp hp]; show lv ((c : Thread nD τ), .dma q) () ≤ 0; unfold lv; rw [hq])
      (fun g u hg => (O₀_pos c g u hg).2)
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ (F := F) c from rfl, scopedRest0_eq, ownSems0_eq]
  unfold Φ₁
  iintro ⟨H0, H1, HS⟩
  isplitr; · iempintro
  isplitl [HS]; · iexact HS
  isplitl [H0] <;> iassumption

/-! ## The run -/

/-- Every windowed array of every device ends at the contents the proof data names. -/
def QC : PUnit × MemSt nD τ sig (Elt F) → Prop := fun r =>
  ∀ c : Dev nD, ∀ w : Fin cfg0.W, r.2.mem ((cfg0.win w).arr.view.loc (c : Thread nD τ)) = (dats m ρ 0 c).arrAt w cfg0.N

set_option maxRecDepth 8000 in
/-- At the compiled mesh of sixteen devices, for any float values, from any memory with zero counters: if every device's
    body meets its obligation, every weakly fair execution of the program terminates, and every final state has each
    device's three windowed arrays at the named contents. -/
theorem run_main (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_proto m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-! ## The arrays' final contents -/

/-- The two input arrays hold at the end what they held at launch. -/
theorem finalA_x (c : Dev nD) : (dats (F := F) m ρ 0 c).arrAt (0 : Fin 3) cfg0.N = m ((c : Thread nD τ).loc main_arg0) :=
  (dats (F := F) m ρ 0 c).arrAt_in (0 : Fin 3) rfl _
theorem finalA_dy (c : Dev nD) : (dats (F := F) m ρ 0 c).arrAt (1 : Fin 3) cfg0.N = m ((c : Thread nD τ).loc main_arg1) :=
  (dats (F := F) m ρ 0 c).arrAt_in (1 : Fin 3) rfl _

/-- The output array after the one write-back, read through its one block, is what the write-back wrote. -/
theorem final_out (c : Dev nD) :
    ((cfg0.win (2 : Fin 3)).blk t₀).view.read (Elt F) ((dats (F := F) m ρ 0 c).arrAt (2 : Fin 3) cfg0.N)
      = (dats (F := F) m ρ 0 c).flushed (2 : Fin 3) t₀ := by
  rw [show cfg0.N = (t₀ : Fin cfg0.N).val + 1 from rfl, (dats (F := F) m ρ 0 c).arrAt_succ (2 : Fin 3) t₀, flush0_2 t₀, if_pos rfl]
  exact View.read_write_univ _ _

/-- The output array's one block is the whole array, and the write-back moves all of the staging buffer: the output
    array ends holding the block the body left. -/
theorem finalA_out (c : Dev nD) : (dats (F := F) m ρ 0 c).arrAt (2 : Fin 3) cfg0.N = outAt m ρ c := by
  have ho := final_out m ρ c
  have hz : (fun a => (win0_2.index t₀) a * main_v1.ty.shape.size a) = fun _ => 0 := funext fun a => by fin_cases a <;> decide
  rw [Memref.read_access_unit_zero (Elt F) main_v1 hz (fun a => by fin_cases a <;> decide)] at ho
  rw [ho]
  rfl

/-- info: 'Cert.KernelIdeal.Hand.run_main' depends on axioms: [propext, Classical.choice, Quot.sound] -/
#guard_msgs in #print axioms run_main

end Cert.KernelIdeal.Hand

end
-- ==== Proof.RunStmt.lean ====
/- The statement of the kernel's run that the claim's conjuncts are read off: from any memory with every semaphore at
   zero, every fair execution of all devices terminates, nothing faults, each device's result buffer ends holding the
   result block computed from the staged input blocks, and the two argument buffers end unchanged. -/
import proofs.«901048_g7700000000001049_dist_rsdw_v7x_xyz2x2x4_y_m512_d512_f2048_bf16_1_alg».proof.Proof.Data

noncomputable section

namespace Cert.KernelIdeal.Hand

open Cert.KernelIdeal Cert.KernelIdeal.Gen
open Idealize.ShloMosaic Idealize.SL.Sem

/-- The kernel runs, leaves in every device's result buffer the block `outAt` names, and keeps the arguments. -/
def KernelRun (F : FTy → Type) [FloatOps F] : Prop :=
  ∀ (m : (ℓ : Loc nD τ sig) → Buf (Elt F) ℓ) (ρ : Dev nD → PrngReg),
    θ_run (defs (F := F)) (onTc (τ := τ) (main (F := F))) ⟨m, fun _ => 0, ρ⟩ (fun r => ∀ c : Dev nD,
      r.2.mem ((c.tc : Thread nD τ).loc main_v1) = outAt m ρ c
      ∧ r.2.mem ((c.tc : Thread nD τ).loc main_arg0) = m ((c.tc : Thread nD τ).loc main_arg0)
      ∧ r.2.mem ((c.tc : Thread nD τ).loc main_arg1) = m ((c.tc : Thread nD τ).loc main_arg1))

end Cert.KernelIdeal.Hand

end
-- ==== Proof.KernelRunOf.lean ====
/- The kernel's run from the devices' body obligations: the launch's run, with each of a device's three windowed
   arrays read at its final contents — the result array at the block the body leaves, the two argument arrays at what
   they held at launch. -/
import proofs.«901048_g7700000000001049_dist_rsdw_v7x_xyz2x2x4_y_m512_d512_f2048_bf16_1_alg».proof.Proof.Launch
import proofs.«901048_g7700000000001049_dist_rsdw_v7x_xyz2x2x4_y_m512_d512_f2048_bf16_1_alg».proof.Proof.RunStmt

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- If every device's body meets its obligation, from any memory and any generator registers, the kernel runs. -/
theorem kernelRun_of
    (hbody : ∀ (m : (ℓ : Loc nD τ sig) → Buf (Elt F) ℓ) (ρ : Dev nD → PrngReg) (c : Dev nD),
      BodyObligation (dats (F := F) m ρ 0 c) (defs₀ (F := F)) 𝒱₀ () Set.univ) : KernelRun F := fun m ρ =>
  (θ_run defs _ _).mono (fun _ h c =>
      ⟨(h c (2 : Fin 3)).trans (finalA_out m ρ c), (h c (0 : Fin 3)).trans (finalA_x m ρ c), (h c (1 : Fin 3)).trans (finalA_dy m ρ c)⟩)
    (run_main m ρ (hbody m ρ))

/-- info: 'Cert.KernelIdeal.Hand.kernelRun_of' depends on axioms: [propext, Classical.choice, Quot.sound] -/
#guard_msgs in #print axioms kernelRun_of

end Cert.KernelIdeal.Hand

end
-- ==== Proof.ValueIdeal.lean ====
/- The value each device ends with, at the exact instance (floats read as extended reals): its block of rows of the
   transposed x times dy.

   Entry (I, J) of the transposed x times dy is the sum over the 1024 rows k of x(k, I) * dy(k, J). The rows are cut
   in two halves of 512, one per y coordinate: a device with y coordinate y holds rows [512 y, 512 y + 512) of both
   arguments and owes rows [256 y, 256 y + 256) of the result. Its own product gives, at each entry it owes, the sum
   over its own half of the rows. What it adds to that entry, after one hop across y on the rows its x coordinate names
   and after two hops (across y, then across x) on the other rows, is the sum over the other half of the rows for the
   same entry, computed by a device with the other y coordinate. Rounding and widening are the identity at this instance,
   a product into a zero accumulator is the plain sum, and addition of extended reals is commutative, so the two halves
   add up to the whole sum. No finiteness is used. -/
import proofs.«901048_g7700000000001049_dist_rsdw_v7x_xyz2x2x4_y_m512_d512_f2048_bf16_1_alg».proof.Proof.Contents
import proofs.«901048_g7700000000001049_dist_rsdw_v7x_xyz2x2x4_y_m512_d512_f2048_bf16_1_alg».proof.Proof.Mesh
import proofs.«901048_g7700000000001049_dist_rsdw_v7x_xyz2x2x4_y_m512_d512_f2048_bf16_1_alg».proof.Proof.Gen.ReferenceIdeal.Read
import Idealize.ShloMosaic.Lib.Layout
import Idealize.ShloMosaic.Lib.ValueIdx
import Idealize.ShloMosaic.Lib.Pipeline.Value
import Idealize.ShloMosaic.PureOps.Ideal.Laws

noncomputable section

open scoped BigOperators

namespace Cert.KernelIdeal.Hand

open Cert.KernelIdeal Cert.KernelIdeal.Gen
open Idealize.ShloMosaic Idealize.ShloMosaic.ValueIdx

/-! ## A product that contracts the rows of both operands, read at an entry

Both products contract axis 0 of the left operand with axis 0 of the right one: the left operand's axis 1 is the
result's axis 0, the right operand's axis 1 the result's axis 1. -/

theorem lhsQ_0 (i : S128x256.Idx) (q : dot_S512x128_S512x256_S128x256_0_0_1_1_n_n.contr.Idx) :
    (dot_S512x128_S512x256_S128x256_0_0_1_1_n_n.lhsIdx i q 0).val = (q ⟨0, by decide⟩).val :=
  dot_S512x128_S512x256_S128x256_0_0_1_1_n_n.lhsIdx_val_of_single rfl i q
theorem lhsQ_1 (i : S128x256.Idx) (q : dot_S512x128_S512x256_S128x256_0_0_1_1_n_n.contr.Idx) :
    (dot_S512x128_S512x256_S128x256_0_0_1_1_n_n.lhsIdx i q 1).val = (i 0).val := by
  unfold DotDims.lhsIdx
  rw [dif_neg (show ¬(1 : Fin S512x128.rank) ∈ dot_S512x128_S512x256_S128x256_0_0_1_1_n_n.lhsBatch by decide), dif_pos (show (1 : Fin S512x128.rank) ∈ dot_S512x128_S512x256_S128x256_0_0_1_1_n_n.lhsNonContracting by decide)]
  rfl
theorem rhsQ_0 (i : S128x256.Idx) (q : dot_S512x128_S512x256_S128x256_0_0_1_1_n_n.contr.Idx) :
    (dot_S512x128_S512x256_S128x256_0_0_1_1_n_n.rhsIdx i q 0).val = (q ⟨0, by decide⟩).val :=
  dot_S512x128_S512x256_S128x256_0_0_1_1_n_n.rhsIdx_val_of_single rfl i q
theorem rhsQ_1 (i : S128x256.Idx) (q : dot_S512x128_S512x256_S128x256_0_0_1_1_n_n.contr.Idx) :
    (dot_S512x128_S512x256_S128x256_0_0_1_1_n_n.rhsIdx i q 1).val = (i 1).val := by
  unfold DotDims.rhsIdx
  rw [dif_neg (show ¬(1 : Fin S512x256.rank) ∈ dot_S512x128_S512x256_S128x256_0_0_1_1_n_n.rhsBatch by decide), dif_pos (show (1 : Fin S512x256.rank) ∈ dot_S512x128_S512x256_S128x256_0_0_1_1_n_n.rhsNonContracting by decide)]
  rfl

theorem lhsK_0 (i : S256x256.Idx) (q : dot_S512x256_S512x256_S256x256_0_0_1_1_n_n.contr.Idx) :
    (dot_S512x256_S512x256_S256x256_0_0_1_1_n_n.lhsIdx i q 0).val = (q ⟨0, by decide⟩).val :=
  dot_S512x256_S512x256_S256x256_0_0_1_1_n_n.lhsIdx_val_of_single rfl i q
theorem lhsK_1 (i : S256x256.Idx) (q : dot_S512x256_S512x256_S256x256_0_0_1_1_n_n.contr.Idx) :
    (dot_S512x256_S512x256_S256x256_0_0_1_1_n_n.lhsIdx i q 1).val = (i 0).val := by
  unfold DotDims.lhsIdx
  rw [dif_neg (show ¬(1 : Fin S512x256.rank) ∈ dot_S512x256_S512x256_S256x256_0_0_1_1_n_n.lhsBatch by decide), dif_pos (show (1 : Fin S512x256.rank) ∈ dot_S512x256_S512x256_S256x256_0_0_1_1_n_n.lhsNonContracting by decide)]
  rfl
theorem rhsK_0 (i : S256x256.Idx) (q : dot_S512x256_S512x256_S256x256_0_0_1_1_n_n.contr.Idx) :
    (dot_S512x256_S512x256_S256x256_0_0_1_1_n_n.rhsIdx i q 0).val = (q ⟨0, by decide⟩).val :=
  dot_S512x256_S512x256_S256x256_0_0_1_1_n_n.rhsIdx_val_of_single rfl i q
theorem rhsK_1 (i : S256x256.Idx) (q : dot_S512x256_S512x256_S256x256_0_0_1_1_n_n.contr.Idx) :
    (dot_S512x256_S512x256_S256x256_0_0_1_1_n_n.rhsIdx i q 1).val = (i 1).val := by
  unfold DotDims.rhsIdx
  rw [dif_neg (show ¬(1 : Fin S512x256.rank) ∈ dot_S512x256_S512x256_S256x256_0_0_1_1_n_n.rhsBatch by decide), dif_pos (show (1 : Fin S512x256.rank) ∈ dot_S512x256_S512x256_S256x256_0_0_1_1_n_n.rhsNonContracting by decide)]
  rfl

/-- Into the zero accumulator the product at entry (r, j) is the sum over the 512 rows t of A(t, r) * B(t, j). -/
theorem mmQ_apply (A : FVec Ideal S512x128 .bf16) (B : FVec Ideal S512x256 .bf16) (r : Fin 128) (j : Fin 256) :
    FloatOps.matmul dot_S512x128_S512x256_S128x256_0_0_1_1_n_n none A B (constant S128x256 .f32 0x00000000#32) (ix2 r j)
      = ∑ t : Fin 512, A (ix2 t r) * B (ix2 t j) := by
  rw [Ideal.matmul_constant_zero_apply, ← Equiv.sum_comp (contrEquiv1 dot_S512x128_S512x256_S128x256_0_0_1_1_n_n 512 rfl rfl).symm]
  refine Finset.sum_congr rfl fun k _ => ?_
  have hk := contrEquiv1_symm_val dot_S512x128_S512x256_S128x256_0_0_1_1_n_n 512 rfl rfl k
  have el : dot_S512x128_S512x256_S128x256_0_0_1_1_n_n.lhsIdx (ix2 r j) ((contrEquiv1 dot_S512x128_S512x256_S128x256_0_0_1_1_n_n 512 rfl rfl).symm k) = ix2 k r := funext fun a => Fin.ext (by
    match a with
    | ⟨0, _⟩ => exact (lhsQ_0 _ _).trans hk
    | ⟨1, _⟩ => exact lhsQ_1 _ _)
  have er : dot_S512x128_S512x256_S128x256_0_0_1_1_n_n.rhsIdx (ix2 r j) ((contrEquiv1 dot_S512x128_S512x256_S128x256_0_0_1_1_n_n 512 rfl rfl).symm k) = ix2 k j := funext fun a => Fin.ext (by
    match a with
    | ⟨0, _⟩ => exact (rhsQ_0 _ _).trans hk
    | ⟨1, _⟩ => exact rhsQ_1 _ _)
  rw [el, er]

/-- Into the zero accumulator the product at entry (r, j) is the sum over the 512 rows t of A(t, r) * B(t, j). -/
theorem mmK_apply (A : FVec Ideal S512x256 .bf16) (B : FVec Ideal S512x256 .bf16) (r : Fin 256) (j : Fin 256) :
    FloatOps.matmul dot_S512x256_S512x256_S256x256_0_0_1_1_n_n none A B (constant S256x256 .f32 0x00000000#32) (ix2 r j)
      = ∑ t : Fin 512, A (ix2 t r) * B (ix2 t j) := by
  rw [Ideal.matmul_constant_zero_apply, ← Equiv.sum_comp (contrEquiv1 dot_S512x256_S512x256_S256x256_0_0_1_1_n_n 512 rfl rfl).symm]
  refine Finset.sum_congr rfl fun k _ => ?_
  have hk := contrEquiv1_symm_val dot_S512x256_S512x256_S256x256_0_0_1_1_n_n 512 rfl rfl k
  have el : dot_S512x256_S512x256_S256x256_0_0_1_1_n_n.lhsIdx (ix2 r j) ((contrEquiv1 dot_S512x256_S512x256_S256x256_0_0_1_1_n_n 512 rfl rfl).symm k) = ix2 k r := funext fun a => Fin.ext (by
    match a with
    | ⟨0, _⟩ => exact (lhsK_0 _ _).trans hk
    | ⟨1, _⟩ => exact lhsK_1 _ _)
  have er : dot_S512x256_S512x256_S256x256_0_0_1_1_n_n.rhsIdx (ix2 r j) ((contrEquiv1 dot_S512x256_S512x256_S256x256_0_0_1_1_n_n 512 rfl rfl).symm k) = ix2 k j := funext fun a => Fin.ext (by
    match a with
    | ⟨0, _⟩ => exact (rhsK_0 _ _).trans hk
    | ⟨1, _⟩ => exact rhsK_1 _ _)
  rw [el, er]

/-! ## What a device loads, at an entry

A load through a whole buffer at a unit-stride rectangle reads the contents at the offsets plus the index. -/

theorem xsq_apply (X : Dev nD → Vec Ideal S512x512 .f32) (c : Dev nD) (t : Fin 512) (r : Fin 128) (p : S512x512.Idx)
    (h0 : (p 0).val = t.val) (h1 : (p 1).val = 128 * xc c + 256 - 256 * yc c + r.val) :
    xsq (F := Ideal) X c (ix2 t r) = X c p := by
  unfold xsq k0_pay1
  simp only [truncf_apply, shapeCast_self]
  show X c _ = X c p
  refine congrArg (X c) (funext fun a => Fin.ext ?_)
  have e0 : k0_off1 c 0 = 0 := by rw [k0_off1_eq c]; rfl
  have e1 : k0_off1 c 1 = 128 * xc c + 256 - 256 * yc c := by rw [k0_off1_eq c]; rfl
  match a with
  | ⟨0, _⟩ => show k0_off1 c 0 + 1 * t.val = (p 0).val; omega
  | ⟨1, _⟩ => show k0_off1 c 1 + 1 * r.val = (p 1).val; omega

theorem xkeep_apply (X : Dev nD → Vec Ideal S512x512 .f32) (c : Dev nD) (t : Fin 512) (i : Fin 256) (p : S512x512.Idx)
    (h0 : (p 0).val = t.val) (h1 : (p 1).val = 256 * yc c + i.val) :
    xkeep (F := Ideal) X c (ix2 t i) = X c p := by
  unfold xkeep k0_pay2
  simp only [truncf_apply, shapeCast_self]
  show X c _ = X c p
  refine congrArg (X c) (funext fun a => Fin.ext ?_)
  have e0 : k0_off2 c 0 = 0 := by rw [k0_off2_eq c]; rfl
  have e1 : k0_off2 c 1 = 256 * yc c := by rw [k0_off2_eq c]; rfl
  match a with
  | ⟨0, _⟩ => show k0_off2 c 0 + 1 * t.val = (p 0).val; omega
  | ⟨1, _⟩ => show k0_off2 c 1 + 1 * i.val = (p 1).val; omega

theorem dyk_apply (DY : Dev nD → Vec Ideal S512x2048 .f32) (c : Dev nD) (k : Fin 8) (t : Fin 512) (j : Fin 256) (p : S512x2048.Idx)
    (h0 : (p 0).val = t.val) (h1 : (p 1).val = 256 * k.val + j.val) :
    dyk (F := Ideal) DY c k (ix2 t j) = DY c p := by
  unfold dyk
  show DY c _ = DY c p
  refine congrArg (DY c) (funext fun a => Fin.ext ?_)
  match a with
  | ⟨0, _⟩ => show 0 + 1 * t.val = (p 0).val; omega
  | ⟨1, _⟩ => show 256 * k.val + 1 * j.val = (p 1).val; omega

/-! ## The two products of a device, at an entry -/

theorem sendChunk_apply (X : Dev nD → Vec Ideal S512x512 .f32) (DY : Dev nD → Vec Ideal S512x2048 .f32) (d : Dev nD) (k : Fin 8)
    (r : Fin 128) (j : Fin 256) :
    sendChunk (F := Ideal) X DY d k (ix3 (0 : Fin 1) r j) = ∑ t : Fin 512, xsq (F := Ideal) X d (ix2 t r) * dyk (F := Ideal) DY d k (ix2 t j) := by
  unfold sendChunk k0_pay3
  simp only [matmul]
  refine (shapeCast_apply _ shapeCasts_S128x256_S1x128x256 (ix3 (0 : Fin 1) r j) (ix2 r j) ?_).trans ?_
  · rw [Shape.rowMajor_val_two, Shape.rowMajor_val_three]
    show r.val * 256 + j.val = (0 * 128 + r.val) * 256 + j.val
    omega
  · rw [truncf_apply, mmQ_apply]
    simp only [truncf_apply, shapeCast_self]

theorem keepChunk_apply (X : Dev nD → Vec Ideal S512x512 .f32) (DY : Dev nD → Vec Ideal S512x2048 .f32) (c : Dev nD) (k : Fin 8)
    (i : Fin 256) (j : Fin 256) :
    keepChunk (F := Ideal) X DY c k (ix2 i j) = ∑ t : Fin 512, xkeep (F := Ideal) X c (ix2 t i) * dyk (F := Ideal) DY c k (ix2 t j) := by
  unfold keepChunk k0_pay7
  simp only [matmul]
  rw [mmK_apply]
  simp only [truncf_apply, shapeCast_self]

/-! ## The blocks of the whole arguments

A device's y coordinate is its block coordinate on the rows; the columns are not cut. -/

theorem meshLin_y (d : Dev nD) : Layout.meshLin [2, 2, 4] d.val [1] = yc d := by revert d; decide

section Whole

variable (Xw : (⟨Cert.ReferenceIdeal.S1024x512, .f32⟩ : BufTy).Contents (Elt Ideal)) (DYw : (⟨Cert.ReferenceIdeal.S1024x2048, .f32⟩ : BufTy).Contents (Elt Ideal))

/-- Each device's block of rows of x, and of dy. -/
abbrev Xb (d : Dev nD) : Vec Ideal S512x512 .f32 :=
  Layout.blockN ⟨2, ![512, 512]⟩ ⟨2, ![1024, 512]⟩ (Layout.meshBlock [2, 2, 4] ![[1], []] d) Xw
abbrev DYb (d : Dev nD) : Vec Ideal S512x2048 .f32 :=
  Layout.blockN ⟨2, ![512, 2048]⟩ ⟨2, ![1024, 2048]⟩ (Layout.meshBlock [2, 2, 4] ![[1], []] d) DYw

theorem Xb_apply (d : Dev nD) (p : S512x512.Idx) (q : Cert.ReferenceIdeal.S1024x512.Idx)
    (h0 : (q 0).val = 512 * yc d + (p 0).val) (h1 : (q 1).val = (p 1).val) : Xb Xw d p = Xw q := by
  show Xw _ = Xw q
  refine congrArg Xw (funext fun a => Fin.ext ?_)
  match a with
  | ⟨0, _⟩ =>
    show Layout.meshLin [2, 2, 4] d.val [1] * 512 + (p 0).val = (q 0).val
    rw [meshLin_y]; omega
  | ⟨1, _⟩ =>
    show 0 * 512 + (p 1).val = (q 1).val
    omega

theorem DYb_apply (d : Dev nD) (p : S512x2048.Idx) (q : Cert.ReferenceIdeal.S1024x2048.Idx)
    (h0 : (q 0).val = 512 * yc d + (p 0).val) (h1 : (q 1).val = (p 1).val) : DYb DYw d p = DYw q := by
  show DYw _ = DYw q
  refine congrArg DYw (funext fun a => Fin.ext ?_)
  match a with
  | ⟨0, _⟩ =>
    show Layout.meshLin [2, 2, 4] d.val [1] * 512 + (p 0).val = (q 0).val
    rw [meshLin_y]; omega
  | ⟨1, _⟩ =>
    show 0 * 2048 + (p 1).val = (q 1).val
    omega

/-! ## Half of the contraction -/

/-- What rows [512 y, 512 y + 512) contribute to entry (I, J) of the transposed x times dy. -/
def halfSum (y : Fin 2) (I : Fin 512) (J : Fin 2048) : EReal :=
  ∑ t : Fin 512, (Xw (ix2 (⟨512 * y.val + t.val, by have := y.isLt; have := t.isLt; omega⟩ : Fin 1024) I)
    * DYw (ix2 (⟨512 * y.val + t.val, by have := y.isLt; have := t.isLt; omega⟩ : Fin 1024) J) : EReal)

theorem halfSum_congr {y y' : Fin 2} (h : y.val = y'.val) (I : Fin 512) (J : Fin 2048) :
    halfSum Xw DYw y I J = halfSum Xw DYw y' I J := by rw [Fin.ext h]

/-- The whole entry is the two halves. -/
theorem ref_apply (I : Fin 512) (J : Fin 2048) (p : Cert.ReferenceIdeal.S512x2048.Idx) (h0 : (p 0).val = I.val) (h1 : (p 1).val = J.val) :
    Cert.ReferenceIdeal.Read.val_main_v1 (F := Ideal) Xw DYw p = halfSum Xw DYw 0 I J + halfSum Xw DYw 1 I J := by
  rw [Cert.ReferenceIdeal.Read.val_main_v1_apply]
  simp only [Cert.ReferenceIdeal.Read.val_main_v0_apply]
  refine (Fin.sum_univ_add (a := 512) (b := 512) _).trans ?_
  unfold halfSum
  refine congrArg₂ (· + ·) (Finset.sum_congr rfl fun t _ => ?_) (Finset.sum_congr rfl fun t _ => ?_)
  · refine congrArg₂ (· * ·) (congrArg Xw (funext fun a => Fin.ext ?_)) (congrArg DYw (funext fun a => Fin.ext ?_))
    · match a with
      | ⟨0, _⟩ => show t.val = 512 * 0 + t.val; omega
      | ⟨1, _⟩ => exact h0
    · match a with
      | ⟨0, _⟩ => show t.val = 512 * 0 + t.val; omega
      | ⟨1, _⟩ => exact h1
  · refine congrArg₂ (· * ·) (congrArg Xw (funext fun a => Fin.ext ?_)) (congrArg DYw (funext fun a => Fin.ext ?_))
    · match a with
      | ⟨0, _⟩ => show 512 + t.val = 512 * 1 + t.val; omega
      | ⟨1, _⟩ => exact h0
    · match a with
      | ⟨0, _⟩ => show 512 + t.val = 512 * 1 + t.val; omega
      | ⟨1, _⟩ => exact h1

/-! ## A device's two products over the blocks are halves of the contraction -/

theorem keepChunk_half (c : Dev nD) (k : Fin 8) (i j : Fin 256) (I : Fin 512) (J : Fin 2048)
    (hI : I.val = 256 * yc c + i.val) (hJ : J.val = 256 * k.val + j.val) :
    keepChunk (F := Ideal) (Xb Xw) (DYb DYw) c k (ix2 i j) = halfSum Xw DYw ⟨yc c, yc_lt c⟩ I J := by
  rw [keepChunk_apply]
  unfold halfSum
  refine Finset.sum_congr rfl fun t _ => ?_
  refine congrArg₂ (· * ·) ?_ ?_
  · refine (xkeep_apply (Xb Xw) c t i (ix2 t ⟨256 * yc c + i.val, by have := yc_lt c; have := i.isLt; omega⟩) rfl rfl).trans ?_
    exact Xb_apply Xw c _ _ rfl hI
  · refine (dyk_apply (DYb DYw) c k t j (ix2 t ⟨256 * k.val + j.val, by have := k.isLt; have := j.isLt; omega⟩) rfl rfl).trans ?_
    exact DYb_apply DYw c _ _ rfl hJ

theorem sendChunk_half (d : Dev nD) (k : Fin 8) (r : Fin 128) (j : Fin 256) (I : Fin 512) (J : Fin 2048)
    (hI : I.val = 128 * xc d + 256 - 256 * yc d + r.val) (hJ : J.val = 256 * k.val + j.val) :
    sendChunk (F := Ideal) (Xb Xw) (DYb DYw) d k (ix3 (0 : Fin 1) r j) = halfSum Xw DYw ⟨yc d, yc_lt d⟩ I J := by
  rw [sendChunk_apply]
  unfold halfSum
  refine Finset.sum_congr rfl fun t _ => ?_
  refine congrArg₂ (· * ·) ?_ ?_
  · refine (xsq_apply (Xb Xw) d t r (ix2 t ⟨128 * xc d + 256 - 256 * yc d + r.val, by have := yc_lt d; have := xc_lt d; have := r.isLt; omega⟩) rfl rfl).trans ?_
    exact Xb_apply Xw d _ _ rfl hI
  · refine (dyk_apply (DYb DYw) d k t j (ix2 t ⟨256 * k.val + j.val, by have := k.isLt; have := j.isLt; omega⟩) rfl rfl).trans ?_
    exact DYb_apply DYw d _ _ rfl hJ

end Whole

/-! ## What has landed in the receive buffer -/

variable {F : FTy → Type} [FloatOps F]

theorem recvBuf_zero (X : Dev nD → Vec F S512x512 .f32) (DY : Dev nD → Vec F S512x2048 .f32) (c : Dev nD) (k : Fin 8) (r : Fin 128) (j : Fin 256) :
    recvBuf X DY c (ix4 (0 : Fin 2) k r j) = sendChunk X DY (ynb c) k (ix3 (0 : Fin 1) r j) := rfl
theorem recvBuf_one (X : Dev nD → Vec F S512x512 .f32) (DY : Dev nD → Vec F S512x2048 .f32) (c : Dev nD) (k : Fin 8) (r : Fin 128) (j : Fin 256) :
    recvBuf X DY c (ix4 (1 : Fin 2) k r j) = sendChunk X DY (ynb (xnb c)) k (ix3 (0 : Fin 1) r j) := rfl

/-! ## The join -/

/-- Each device ends with its block of rows of the transposed x times dy. -/
theorem outVal_eq_block (Xw : (⟨Cert.ReferenceIdeal.S1024x512, .f32⟩ : BufTy).Contents (Elt Ideal)) (DYw : (⟨Cert.ReferenceIdeal.S1024x2048, .f32⟩ : BufTy).Contents (Elt Ideal)) (c : Dev nD) :
    outVal (F := Ideal) (fun d => Layout.blockN ⟨2, ![512, 512]⟩ ⟨2, ![1024, 512]⟩ (Layout.meshBlock [2, 2, 4] ![[1], []] d) Xw)
        (fun d => Layout.blockN ⟨2, ![512, 2048]⟩ ⟨2, ![1024, 2048]⟩ (Layout.meshBlock [2, 2, 4] ![[1], []] d) DYw) c
      = Layout.blockN ⟨2, ![256, 2048]⟩ ⟨2, ![512, 2048]⟩ (Layout.meshBlock [2, 2, 4] ![[1], []] c) (Cert.ReferenceIdeal.Read.val_main_v1 (F := Ideal) Xw DYw) := by
  funext i
  have hx := xc_lt c
  have hy := yc_lt c
  have hi0 : (i 0).val < 256 := (i 0).isLt
  have hi1 : (i 1).val < 2048 := (i 1).isLt
  -- the entry's coordinates in the whole result, and the chunk, row and column the device reads for it
  let I : Fin 512 := ⟨256 * yc c + (i 0).val, by omega⟩
  let J : Fin 2048 := ⟨(i 1).val, hi1⟩
  let k : Fin 8 := ⟨(i 1).val / 256, by omega⟩
  let col : Fin 256 := ⟨(i 1).val % 256, Nat.mod_lt _ (by decide)⟩
  let row : Fin 128 := ⟨(i 0).val % 128, Nat.mod_lt _ (by decide)⟩
  have hJ : J.val = 256 * k.val + col.val := by
    show (i 1).val = 256 * ((i 1).val / 256) + (i 1).val % 256
    omega
  -- the whole result's entry is the two halves
  have hR : (Layout.blockN ⟨2, ![256, 2048]⟩ ⟨2, ![512, 2048]⟩ (Layout.meshBlock [2, 2, 4] ![[1], []] c)
      (Cert.ReferenceIdeal.Read.val_main_v1 (F := Ideal) Xw DYw)) i = halfSum Xw DYw 0 I J + halfSum Xw DYw 1 I J := by
    rw [Layout.blockN_apply]
    refine ref_apply Xw DYw I J _ ?_ ?_
    · show Layout.meshLin [2, 2, 4] c.val [1] * 256 + (i 0).val = 256 * yc c + (i 0).val
      rw [meshLin_y]; omega
    · show 0 * 2048 + (i 1).val = (i 1).val
      omega
  -- the device's own product is the half of its own y coordinate
  have hK : keepChunk (F := Ideal) (Xb Xw) (DYb DYw) c k (ix2 (i 0) col) = halfSum Xw DYw ⟨yc c, hy⟩ I J :=
    keepChunk_half Xw DYw c k (i 0) col I J rfl hJ
  -- what it received, by either road, is the other half
  have hV : recvBuf (F := Ideal) (Xb Xw) (DYb DYw) c (ix4 (if (i 0).val / 128 = xc c then (0 : Fin 2) else 1) k row col)
      = halfSum Xw DYw ⟨1 - yc c, by omega⟩ I J := by
    by_cases hh : (i 0).val / 128 = xc c
    · rw [if_pos hh, recvBuf_zero]
      refine (sendChunk_half Xw DYw (ynb c) k row col I J ?_ hJ).trans (halfSum_congr Xw DYw (yc_ynb c) I J)
      rw [xc_ynb, yc_ynb]
      show 256 * yc c + (i 0).val = 128 * xc c + 256 - 256 * (1 - yc c) + (i 0).val % 128
      omega
    · rw [if_neg hh, recvBuf_one]
      refine (sendChunk_half Xw DYw (ynb (xnb c)) k row col I J ?_ hJ).trans
        (halfSum_congr Xw DYw ((yc_ynb (xnb c)).trans (by rw [yc_xnb])) I J)
      rw [xc_ynb, yc_ynb, xc_xnb, yc_xnb]
      show 256 * yc c + (i 0).val = 128 * (1 - xc c) + 256 - 256 * (1 - yc c) + (i 0).val % 128
      omega
  rw [hR]
  show (keepChunk (F := Ideal) (Xb Xw) (DYb DYw) c k (ix2 (i 0) col) : EReal)
      + recvBuf (F := Ideal) (Xb Xw) (DYb DYw) c (ix4 (if (i 0).val / 128 = xc c then (0 : Fin 2) else 1) k row col) = _
  rw [hK, hV]
  rcases (by omega : yc c = 0 ∨ yc c = 1) with h | h
  · rw [halfSum_congr Xw DYw (y := ⟨yc c, hy⟩) (y' := 0) h I J,
      halfSum_congr Xw DYw (y := ⟨1 - yc c, by omega⟩) (y' := 1) (by show 1 - yc c = 1; omega) I J]
  · rw [halfSum_congr Xw DYw (y := ⟨yc c, hy⟩) (y' := 1) h I J,
      halfSum_congr Xw DYw (y := ⟨1 - yc c, by omega⟩) (y' := 0) (by show 1 - yc c = 0; omega) I J]
    exact add_comm (G := EReal) _ _

/-- info: 'Cert.KernelIdeal.Hand.outVal_eq_block' depends on axioms: [propext, Classical.choice, Quot.sound] -/
#guard_msgs in #print axioms outVal_eq_block

end Cert.KernelIdeal.Hand

end
-- ==== Proof.RefRun.lean ====
/- The reference's run and its stages read at an index, gathered for the value modules. -/
import proofs.«901048_g7700000000001049_dist_rsdw_v7x_xyz2x2x4_y_m512_d512_f2048_bf16_1_alg».proof.Proof.Gen.ReferenceIdeal.Run
import proofs.«901048_g7700000000001049_dist_rsdw_v7x_xyz2x2x4_y_m512_d512_f2048_bf16_1_alg».proof.Proof.Gen.ReferenceIdeal.Read
-- ==== Proof.Assemble.lean ====
/- From the kernel's run to the claim's conjuncts.
   The one grid point's block of each input window is the whole argument array, so what is staged into a device's two
   input buffers is its two argument buffers as launched. Each device's argument buffers hold its block of rows of the
   reference's whole arrays, so the result block a device ends with is its block of rows of the reference's result. A
   frame is a run with the result dropped. The finiteness precondition is not used. -/
import proofs.«901048_g7700000000001049_dist_rsdw_v7x_xyz2x2x4_y_m512_d512_f2048_bf16_1_alg».proof.Proof.ValueIdeal
import proofs.«901048_g7700000000001049_dist_rsdw_v7x_xyz2x2x4_y_m512_d512_f2048_bf16_1_alg».proof.Proof.Data
import proofs.«901048_g7700000000001049_dist_rsdw_v7x_xyz2x2x4_y_m512_d512_f2048_bf16_1_alg».proof.Proof.RunStmt
import proofs.«901048_g7700000000001049_dist_rsdw_v7x_xyz2x2x4_y_m512_d512_f2048_bf16_1_alg».proof.Proof.RefRun
import proofs.«901048_g7700000000001049_dist_rsdw_v7x_xyz2x2x4_y_m512_d512_f2048_bf16_1_alg».proof.Proof.Gen.Pre_finite_inputs_Kernel
import proofs.«901048_g7700000000001049_dist_rsdw_v7x_xyz2x2x4_y_m512_d512_f2048_bf16_1_alg».proof.Proof.Gen.Pre_finite_inputs_ReferenceIdeal
import proofs.«901048_g7700000000001049_dist_rsdw_v7x_xyz2x2x4_y_m512_d512_f2048_bf16_1_alg».proof.Defs

noncomputable section

namespace Cert.KernelIdeal.Hand

open Cert.KernelIdeal Cert.KernelIdeal.Gen
open Idealize.ShloMosaic Idealize.ShloMosaic.TcCoe Idealize.SL.Sem

/-! ## What is staged is what was launched -/

section Staged

variable {F : FTy → Type} [FloatOps F]

/-- A window that is the whole array has one block, at block index zero and of the array's own sizes: read through it,
    the array's contents are themselves. -/
theorem Xs_eq (m : (ℓ : Loc nD τ sig) → Buf (Elt F) ℓ) (ρ : Dev nD → PrngReg) (c : Dev nD) :
    Xs m ρ c = m ((c : Thread nD τ).loc main_arg0) :=
  Memref.read_access_unit_zero (Elt F) main_arg0 (funext fun a => Nat.zero_mul _) _ _

theorem DYs_eq (m : (ℓ : Loc nD τ sig) → Buf (Elt F) ℓ) (ρ : Dev nD → PrngReg) (c : Dev nD) :
    DYs m ρ c = m ((c : Thread nD τ).loc main_arg1) :=
  Memref.read_access_unit_zero (Elt F) main_arg1 (funext fun a => Nat.zero_mul _) _ _

end Staged

/-! ## The frames -/

/-- The kernel's frame is its run with the result dropped. -/
theorem frame_KernelIdeal_of (h : KernelRun Ideal) :
    Cert.frame_KernelIdeal (hKernelIdeal := Cert.KernelIdeal.Gen.facts) (hPre_finite_inputs_Kernel := Cert.Pre_finite_inputs_Kernel.Gen.facts) :=
  fun m g _ => (θ_run (defs (F := Ideal)) _ _).mono (fun _ hr c => (hr c).2) (h m g)

/-- The reference's frame is its run with the result dropped. -/
theorem frame_ReferenceIdeal' :
    Cert.frame_ReferenceIdeal (hReferenceIdeal := Cert.ReferenceIdeal.Gen.facts) (hPre_finite_inputs_ReferenceIdeal := Cert.Pre_finite_inputs_ReferenceIdeal.Gen.facts) :=
  fun m g _ => (θ_run (Cert.ReferenceIdeal.defs (F := Ideal)) _ _).mono (fun _ hr c => (hr c).2)
    (Cert.ReferenceIdeal.Value.run (F := Ideal) m g)

/-! ## The two programs end with equal results -/

/-- From memories where each device's argument buffers hold its block of rows of the reference's arguments, the
    reference ends with the transposed x times dy and each device with its block of rows of it. -/
theorem algebraic_of (h : KernelRun Ideal) :
    Cert.algebraic_KernelIdeal_ReferenceIdeal (hKernelIdeal := Cert.KernelIdeal.Gen.facts) (hReferenceIdeal := Cert.ReferenceIdeal.Gen.facts) (hPre_finite_inputs_Kernel := Cert.Pre_finite_inputs_Kernel.Gen.facts) := by
  intro m g m' g' _ hblk
  refine ⟨Cert.ReferenceIdeal.Read.val_main_v1 (F := Ideal)
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)), ?_, ?_⟩
  · refine (θ_run (defs (F := Ideal)) _ _).mono (fun r hr c => ⟨?_, (hr c).2⟩) (h m g)
    have hX : Xs m g = fun d => Layout.blockN ⟨2, ![512, 512]⟩ ⟨2, ![1024, 512]⟩ (Layout.meshBlock [2, 2, 4] ![[1], []] d)
        (m' (((0 : Dev Cert.ReferenceIdeal.nD).tc : Thread Cert.ReferenceIdeal.nD Cert.ReferenceIdeal.τ).loc Cert.ReferenceIdeal.main_arg0)) :=
      funext fun d => (Xs_eq m g d).trans (hblk d).1
    have hDY : DYs m g = fun d => Layout.blockN ⟨2, ![512, 2048]⟩ ⟨2, ![1024, 2048]⟩ (Layout.meshBlock [2, 2, 4] ![[1], []] d)
        (m' (((0 : Dev Cert.ReferenceIdeal.nD).tc : Thread Cert.ReferenceIdeal.nD Cert.ReferenceIdeal.τ).loc Cert.ReferenceIdeal.main_arg1)) :=
      funext fun d => (DYs_eq m g d).trans (hblk d).2
    refine (hr c).1.trans ?_
    show outVal (F := Ideal) (Xs m g) (DYs m g) c = _
    rw [hX, hDY]
    exact outVal_eq_block _ _ c
  · refine (θ_run (Cert.ReferenceIdeal.defs (F := Ideal)) _ _).mono (fun r hr => ⟨(hr 0).1.trans ?_, (hr 0).2⟩)
      (Cert.ReferenceIdeal.Value.run (F := Ideal) m' g')
    exact Cert.ReferenceIdeal.Read.val_main_v1_eq _ _

/-- info: 'Cert.KernelIdeal.Hand.algebraic_of' depends on axioms: [propext, Classical.choice, Quot.sound] -/
#guard_msgs in #print axioms algebraic_of

end Cert.KernelIdeal.Hand

end
-- ==== Proof.AssembleBits.lean ====
/- The word-level kernel's frame: its run with the result dropped. -/
import proofs.«901048_g7700000000001049_dist_rsdw_v7x_xyz2x2x4_y_m512_d512_f2048_bf16_1_alg».proof.Proof.Bits.RunStmt
import proofs.«901048_g7700000000001049_dist_rsdw_v7x_xyz2x2x4_y_m512_d512_f2048_bf16_1_alg».proof.Proof.Gen.Pre_finite_inputs_Kernel
import proofs.«901048_g7700000000001049_dist_rsdw_v7x_xyz2x2x4_y_m512_d512_f2048_bf16_1_alg».proof.Defs

noncomputable section

namespace Cert.Kernel.Hand

open Cert.Kernel Cert.Kernel.Gen
open Idealize.ShloMosaic Idealize.SL.Sem

/-- From any memory satisfying the precondition the kernel terminates, nothing faults and the two argument arrays end
    unchanged: what its run says, without the result. -/
theorem frame_Kernel_of (h : KernelRun Bits) :
    Cert.frame_Kernel (hKernel := Cert.Kernel.Gen.facts) (hPre_finite_inputs_Kernel := Cert.Pre_finite_inputs_Kernel.Gen.facts) :=
  fun m g _ => (θ_run (defs (F := Bits)) _ _).mono (fun _ hr c => (hr c).2) (h m g)

/-- info: 'Cert.Kernel.Hand.frame_Kernel_of' depends on axioms: [propext, Classical.choice, Quot.sound] -/
#guard_msgs in #print axioms frame_Kernel_of

end Cert.Kernel.Hand

end
-- ==== Proof.lean ====
/- The claim: on a mesh of sixteen devices (x = 2, y = 2, z = 4) whose x and dy arrays are cut into two row blocks
   along y, the kernel leaves on each device its row block of the product of the transposed x with dy.

   The mathematics. Write a device as (x, y, z). Its block of x holds rows [512 y, 512 y + 512) of the whole x, and the
   same rows of dy; its result is rows [256 y, 256 y + 256) of the 512 × 2048 product. The contracted axis has 1024
   entries, of which a device holds 512; the other 512 are on its neighbour across y. So a device computes, for its own
   256 result rows, the partial sum over its own 512 entries, and for its neighbour's result rows the partial sum its
   neighbour lacks. It sends the latter across y — but only the 128 rows its x coordinate names: the two devices of an
   x pair hold the same blocks, so each computes half of what the pair across y needs and they exchange the halves
   across x. A device's result is then its own partial sum plus, on one half of its rows, what came across y, and on the
   other half what came across x (forwarded by its x neighbour from what THAT device received across y). Over the
   extended reals the roundings to and from the narrower float format are the identity and addition is commutative and
   associative, so the two partial sums add up to the whole sum over the 1024 entries: no finiteness is needed.

   The protocol. A device signals its y neighbour's barrier semaphore and its x neighbour's ready semaphore at entry;
   the signal hands the neighbour the device's eight landing slots for that direction. It waits for its own barrier
   before its first copy across y and for its own ready semaphore before its first copy across x, so no copy lands
   before its destination has entered. Each of the sixteen copies has a send and a receive semaphore of its own; a
   device waits for a landing before it reads it and for every send before it leaves. Every wait is for a cell at a
   level below everything the waiter still owes (barrier 1, ready 2, receive across y 3, receive across x 4), which is
   why no execution waits for ever.

   The modules: Mesh (the two neighbour maps), Contents (what each buffer holds, as functions of the devices' input
   blocks), Sched and Data (the schedule of the thirty-four cells of a device and the pipeline's proof data), BodyPre /
   BodyOpen / Body / BodyClose / BodyJoin (one device's body), StepsSync and StepsCopy (the rules for its signals, waits
   and copies), Launch and KernelRunOf (all devices together), OutAssembly (the stores into the output block add up to
   one function), ValueIdeal (that function is the block of the product), Assemble (the claim's conjuncts from the run).
   The word-level program's frame is the same text read at the word level (the modules under Bits/). -/
import proofs.«901048_g7700000000001049_dist_rsdw_v7x_xyz2x2x4_y_m512_d512_f2048_bf16_1_alg».proof.Defs
import proofs.«901048_g7700000000001049_dist_rsdw_v7x_xyz2x2x4_y_m512_d512_f2048_bf16_1_alg».proof.Proof.Gen.Kernel
import proofs.«901048_g7700000000001049_dist_rsdw_v7x_xyz2x2x4_y_m512_d512_f2048_bf16_1_alg».proof.Proof.Gen.KernelIdeal
import proofs.«901048_g7700000000001049_dist_rsdw_v7x_xyz2x2x4_y_m512_d512_f2048_bf16_1_alg».proof.Proof.Gen.ReferenceIdeal
import proofs.«901048_g7700000000001049_dist_rsdw_v7x_xyz2x2x4_y_m512_d512_f2048_bf16_1_alg».proof.Proof.Gen.Pre_finite_inputs_Kernel
import proofs.«901048_g7700000000001049_dist_rsdw_v7x_xyz2x2x4_y_m512_d512_f2048_bf16_1_alg».proof.Proof.Gen.Pre_finite_inputs_ReferenceIdeal
import proofs.«901048_g7700000000001049_dist_rsdw_v7x_xyz2x2x4_y_m512_d512_f2048_bf16_1_alg».proof.Proof.Body
import proofs.«901048_g7700000000001049_dist_rsdw_v7x_xyz2x2x4_y_m512_d512_f2048_bf16_1_alg».proof.Proof.KernelRunOf
import proofs.«901048_g7700000000001049_dist_rsdw_v7x_xyz2x2x4_y_m512_d512_f2048_bf16_1_alg».proof.Proof.Assemble
import proofs.«901048_g7700000000001049_dist_rsdw_v7x_xyz2x2x4_y_m512_d512_f2048_bf16_1_alg».proof.Proof.Bits.Body
import proofs.«901048_g7700000000001049_dist_rsdw_v7x_xyz2x2x4_y_m512_d512_f2048_bf16_1_alg».proof.Proof.Bits.KernelRunOf
import proofs.«901048_g7700000000001049_dist_rsdw_v7x_xyz2x2x4_y_m512_d512_f2048_bf16_1_alg».proof.Proof.AssembleBits

noncomputable section

namespace Cert.Proof

open Idealize.ShloMosaic Idealize.SL.Sem

/-- The idealized kernel's run on all devices, each result block named. -/
theorem runIdeal : Cert.KernelIdeal.Hand.KernelRun Ideal :=
  Cert.KernelIdeal.Hand.kernelRun_of (F := Ideal) fun m ρ c => Cert.KernelIdeal.Hand.body_obligation m ρ c

/-- The word-level kernel's run. -/
theorem runBits : Cert.Kernel.Hand.KernelRun Bits :=
  Cert.Kernel.Hand.kernelRun_of (F := Bits) fun m ρ c => Cert.Kernel.Hand.body_obligation m ρ c

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  Cert.Kernel.Hand.frame_Kernel_of runBits,
  Cert.KernelIdeal.Hand.frame_KernelIdeal_of runIdeal,
  Cert.KernelIdeal.Hand.frame_ReferenceIdeal',
  trivial,
  Cert.KernelIdeal.Hand.algebraic_of runIdeal⟩

end Cert.Proof

end
